-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S256x512 : Shape := ⟨2, ![256, 512]⟩
abbrev S8 : Shape := ⟨1, ![8]⟩
abbrev S12 : Shape := ⟨1, ![12]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32 v24
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_15 : BitVec 32 := 2#32
  let v26 : BitVec 32 := Scalar.muli v9 c2_i32_15
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v28 : BitVec 32 := Scalar.muli v8 c1_i32_16
  let v29 : BitVec 32 := Scalar.addi v27 v28
  v29.toNat
def k0_dev2 (d0 : Dev nD) : Nat :=
  let c0_i32_19 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_18 : BitVec 32 := 4#32
  let v30 : BitVec 32 := Scalar.muli v10 c4_i32_18
  let v31 : BitVec 32 := Scalar.addi c0_i32_19 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v32 : BitVec 32 := Scalar.muli v5 c2_i32_20
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v34 : BitVec 32 := Scalar.muli v8 c1_i32_21
  let v35 : BitVec 32 := Scalar.addi v33 v34
  v35.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v36 : BitVec 32 := Scalar.muli v2 c4_i32_23
  let v37 : BitVec 32 := Scalar.addi c0_i32_24 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v38 : BitVec 32 := Scalar.muli v5 c2_i32_25
  let v39 : BitVec 32 := Scalar.addi v37 v38
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_26 : BitVec 32 := 1#32
  let v40 : BitVec 32 := Scalar.muli v11 c1_i32_26
  let v41 : BitVec 32 := Scalar.addi v39 v40
  v41.toNat
def k0_off1 (d0 : Dev nD) (c0_i32_27 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c256_i32 : BitVec 32 := 256#32
  let v14 : BitVec 32 := Scalar.muli v13 c256_i32
  let v42 : BitVec 32 := Scalar.addi v14 c0_i32_27
  let c0_i32_36 : BitVec 32 := 0#32
  ![v42.toNat, 0]
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v43 : BitVec 32 := Scalar.muli v2 c4_i32_30
  let v44 : BitVec 32 := Scalar.addi c0_i32_31 v43
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_32 : BitVec 32 := 2#32
  let v45 : BitVec 32 := Scalar.muli v9 c2_i32_32
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v47 : BitVec 32 := Scalar.muli v8 c1_i32_33
  let v48 : BitVec 32 := Scalar.addi v46 v47
  v48.toNat
def k0_dev5 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v56 : BitVec 32 := Scalar.muli v2 c4_i32_39
  let v57 : BitVec 32 := Scalar.addi c0_i32_40 v56
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_41 : BitVec 32 := 2#32
  let v58 : BitVec 32 := Scalar.muli v9 c2_i32_41
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v60 : BitVec 32 := Scalar.muli v8 c1_i32_42
  let v61 : BitVec 32 := Scalar.addi v59 v60
  v61.toNat
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v69 : BitVec 32 := Scalar.muli v2 c4_i32_48
  let v70 : BitVec 32 := Scalar.addi c0_i32_49 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_50 : BitVec 32 := 2#32
  let v71 : BitVec 32 := Scalar.muli v9 c2_i32_50
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v73 : BitVec 32 := Scalar.muli v8 c1_i32_51
  let v74 : BitVec 32 := Scalar.addi v72 v73
  v74.toNat
def k0_dev7 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v82 : BitVec 32 := Scalar.muli v2 c4_i32_56
  let v83 : BitVec 32 := Scalar.addi c0_i32_57 v82
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_58 : BitVec 32 := 2#32
  let v84 : BitVec 32 := Scalar.muli v9 c2_i32_58
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v86 : BitVec 32 := Scalar.muli v8 c1_i32_59
  let v87 : BitVec 32 := Scalar.addi v85 v86
  v87.toNat
def k0_dev8 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v95 : BitVec 32 := Scalar.muli v2 c4_i32_65
  let v96 : BitVec 32 := Scalar.addi c0_i32_66 v95
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v97 : BitVec 32 := Scalar.muli v9 c2_i32_67
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v99 : BitVec 32 := Scalar.muli v8 c1_i32_68
  let v100 : BitVec 32 := Scalar.addi v98 v99
  v100.toNat
def k0_dev9 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v108 : BitVec 32 := Scalar.muli v2 c4_i32_73
  let v109 : BitVec 32 := Scalar.addi c0_i32_74 v108
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v110 : BitVec 32 := Scalar.muli v9 c2_i32_75
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v112 : BitVec 32 := Scalar.muli v8 c1_i32_76
  let v113 : BitVec 32 := Scalar.addi v111 v112
  v113.toNat
def k0_dev10 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v121 : BitVec 32 := Scalar.muli v2 c4_i32_82
  let v122 : BitVec 32 := Scalar.addi c0_i32_83 v121
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v123 : BitVec 32 := Scalar.muli v9 c2_i32_84
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v125 : BitVec 32 := Scalar.muli v8 c1_i32_85
  let v126 : BitVec 32 := Scalar.addi v124 v125
  v126.toNat
def k0_dev11 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v134 : BitVec 32 := Scalar.muli v2 c4_i32_90
  let v135 : BitVec 32 := Scalar.addi c0_i32_91 v134
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v136 : BitVec 32 := Scalar.muli v9 c2_i32_92
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v138 : BitVec 32 := Scalar.muli v8 c1_i32_93
  let v139 : BitVec 32 := Scalar.addi v137 v138
  v139.toNat
def k0_off2 (d0 : Dev nD) (c0_i32_112 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c256_i32 : BitVec 32 := 256#32
  let v14 : BitVec 32 := Scalar.muli v13 c256_i32
  let v160 : BitVec 32 := Scalar.addi v14 c0_i32_112
  let v161 : Index := Scalar.indexCast v160
  let c0 : Index := 0#32
  ![v161.toNat, 0]
def k0_dev12 (d0 : Dev nD) : Nat :=
  let c0_i32_119 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_118 : BitVec 32 := 4#32
  let v168 : BitVec 32 := Scalar.muli v10 c4_i32_118
  let v169 : BitVec 32 := Scalar.addi c0_i32_119 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v170 : BitVec 32 := Scalar.muli v5 c2_i32_120
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v172 : BitVec 32 := Scalar.muli v8 c1_i32_121
  let v173 : BitVec 32 := Scalar.addi v171 v172
  v173.toNat
def k0_dev13 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v180 : BitVec 32 := Scalar.muli v2 c4_i32_126
  let v181 : BitVec 32 := Scalar.addi c0_i32_127 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v182 : BitVec 32 := Scalar.muli v5 c2_i32_128
  let v183 : BitVec 32 := Scalar.addi v181 v182
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_129 : BitVec 32 := 1#32
  let v184 : BitVec 32 := Scalar.muli v11 c1_i32_129
  let v185 : BitVec 32 := Scalar.addi v183 v184
  v185.toNat
def k0_dev14 (d0 : Dev nD) : Nat :=
  let c0_i32_154 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_153 : BitVec 32 := 4#32
  let v214 : BitVec 32 := Scalar.muli v10 c4_i32_153
  let v215 : BitVec 32 := Scalar.addi c0_i32_154 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v216 : BitVec 32 := Scalar.muli v5 c2_i32_155
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v218 : BitVec 32 := Scalar.muli v8 c1_i32_156
  let v219 : BitVec 32 := Scalar.addi v217 v218
  v219.toNat
def k0_dev15 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v226 : BitVec 32 := Scalar.muli v2 c4_i32_161
  let v227 : BitVec 32 := Scalar.addi c0_i32_162 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v228 : BitVec 32 := Scalar.muli v5 c2_i32_163
  let v229 : BitVec 32 := Scalar.addi v227 v228
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_164 : BitVec 32 := 1#32
  let v230 : BitVec 32 := Scalar.muli v11 c1_i32_164
  let v231 : BitVec 32 := Scalar.addi v229 v230
  v231.toNat
def k0_dev16 (d0 : Dev nD) : Nat :=
  let c0_i32_189 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_188 : BitVec 32 := 4#32
  let v260 : BitVec 32 := Scalar.muli v10 c4_i32_188
  let v261 : BitVec 32 := Scalar.addi c0_i32_189 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v262 : BitVec 32 := Scalar.muli v5 c2_i32_190
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v264 : BitVec 32 := Scalar.muli v8 c1_i32_191
  let v265 : BitVec 32 := Scalar.addi v263 v264
  v265.toNat
def k0_dev17 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v272 : BitVec 32 := Scalar.muli v2 c4_i32_196
  let v273 : BitVec 32 := Scalar.addi c0_i32_197 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v274 : BitVec 32 := Scalar.muli v5 c2_i32_198
  let v275 : BitVec 32 := Scalar.addi v273 v274
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_199 : BitVec 32 := 1#32
  let v276 : BitVec 32 := Scalar.muli v11 c1_i32_199
  let v277 : BitVec 32 := Scalar.addi v275 v276
  v277.toNat
def k0_dev18 (d0 : Dev nD) : Nat :=
  let c0_i32_224 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_223 : BitVec 32 := 4#32
  let v306 : BitVec 32 := Scalar.muli v10 c4_i32_223
  let v307 : BitVec 32 := Scalar.addi c0_i32_224 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v308 : BitVec 32 := Scalar.muli v5 c2_i32_225
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v310 : BitVec 32 := Scalar.muli v8 c1_i32_226
  let v311 : BitVec 32 := Scalar.addi v309 v310
  v311.toNat
def k0_dev19 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v318 : BitVec 32 := Scalar.muli v2 c4_i32_231
  let v319 : BitVec 32 := Scalar.addi c0_i32_232 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v320 : BitVec 32 := Scalar.muli v5 c2_i32_233
  let v321 : BitVec 32 := Scalar.addi v319 v320
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_234 : BitVec 32 := 1#32
  let v322 : BitVec 32 := Scalar.muli v11 c1_i32_234
  let v323 : BitVec 32 := Scalar.addi v321 v322
  v323.toNat
def k0_dev20 (d0 : Dev nD) : Nat :=
  let c0_i32_259 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_258 : BitVec 32 := 4#32
  let v352 : BitVec 32 := Scalar.muli v10 c4_i32_258
  let v353 : BitVec 32 := Scalar.addi c0_i32_259 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_260 : BitVec 32 := 2#32
  let v354 : BitVec 32 := Scalar.muli v5 c2_i32_260
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v356 : BitVec 32 := Scalar.muli v8 c1_i32_261
  let v357 : BitVec 32 := Scalar.addi v355 v356
  v357.toNat
def k0_dev21 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v364 : BitVec 32 := Scalar.muli v2 c4_i32_266
  let v365 : BitVec 32 := Scalar.addi c0_i32_267 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_268 : BitVec 32 := 2#32
  let v366 : BitVec 32 := Scalar.muli v5 c2_i32_268
  let v367 : BitVec 32 := Scalar.addi v365 v366
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_269 : BitVec 32 := 1#32
  let v368 : BitVec 32 := Scalar.muli v11 c1_i32_269
  let v369 : BitVec 32 := Scalar.addi v367 v368
  v369.toNat
def k0_dev22 (d0 : Dev nD) : Nat :=
  let c0_i32_294 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_293 : BitVec 32 := 4#32
  let v398 : BitVec 32 := Scalar.muli v10 c4_i32_293
  let v399 : BitVec 32 := Scalar.addi c0_i32_294 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v400 : BitVec 32 := Scalar.muli v5 c2_i32_295
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v402 : BitVec 32 := Scalar.muli v8 c1_i32_296
  let v403 : BitVec 32 := Scalar.addi v401 v402
  v403.toNat
def k0_dev23 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v410 : BitVec 32 := Scalar.muli v2 c4_i32_301
  let v411 : BitVec 32 := Scalar.addi c0_i32_302 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v412 : BitVec 32 := Scalar.muli v5 c2_i32_303
  let v413 : BitVec 32 := Scalar.addi v411 v412
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_304 : BitVec 32 := 1#32
  let v414 : BitVec 32 := Scalar.muli v11 c1_i32_304
  let v415 : BitVec 32 := Scalar.addi v413 v414
  v415.toNat
def k0_dev24 (d0 : Dev nD) : Nat :=
  let c0_i32_329 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_328 : BitVec 32 := 4#32
  let v444 : BitVec 32 := Scalar.muli v10 c4_i32_328
  let v445 : BitVec 32 := Scalar.addi c0_i32_329 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v446 : BitVec 32 := Scalar.muli v5 c2_i32_330
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v448 : BitVec 32 := Scalar.muli v8 c1_i32_331
  let v449 : BitVec 32 := Scalar.addi v447 v448
  v449.toNat
def k0_dev25 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v456 : BitVec 32 := Scalar.muli v2 c4_i32_336
  let v457 : BitVec 32 := Scalar.addi c0_i32_337 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v458 : BitVec 32 := Scalar.muli v5 c2_i32_338
  let v459 : BitVec 32 := Scalar.addi v457 v458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_339 : BitVec 32 := 1#32
  let v460 : BitVec 32 := Scalar.muli v11 c1_i32_339
  let v461 : BitVec 32 := Scalar.addi v459 v460
  v461.toNat
def k0_dev26 (d0 : Dev nD) : Nat :=
  let c0_i32_364 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_363 : BitVec 32 := 4#32
  let v490 : BitVec 32 := Scalar.muli v10 c4_i32_363
  let v491 : BitVec 32 := Scalar.addi c0_i32_364 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v492 : BitVec 32 := Scalar.muli v5 c2_i32_365
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_366 : BitVec 32 := 1#32
  let v494 : BitVec 32 := Scalar.muli v8 c1_i32_366
  let v495 : BitVec 32 := Scalar.addi v493 v494
  v495.toNat
def k0_dev27 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v502 : BitVec 32 := Scalar.muli v2 c4_i32_371
  let v503 : BitVec 32 := Scalar.addi c0_i32_372 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v504 : BitVec 32 := Scalar.muli v5 c2_i32_373
  let v505 : BitVec 32 := Scalar.addi v503 v504
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_374 : BitVec 32 := 1#32
  let v506 : BitVec 32 := Scalar.muli v11 c1_i32_374
  let v507 : BitVec 32 := Scalar.addi v505 v506
  v507.toNat
def k0_off3 (d0 : Dev nD) (c0_i32_390 : BitVec 32) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c256_i32_9 : BitVec 32 := 256#32
  let v18 : BitVec 32 := Scalar.muli v17 c256_i32_9
  let v528 : BitVec 32 := Scalar.addi v18 c0_i32_390
  let c0_i32_396 : BitVec 32 := 0#32
  ![v528.toNat, 0]
def k0_dev28 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v529 : BitVec 32 := Scalar.muli v2 c4_i32_392
  let v530 : BitVec 32 := Scalar.addi c0_i32_393 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v531 : BitVec 32 := Scalar.muli v5 c2_i32_394
  let v532 : BitVec 32 := Scalar.addi v530 v531
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_395 : BitVec 32 := 1#32
  let v533 : BitVec 32 := Scalar.muli v11 c1_i32_395
  let v534 : BitVec 32 := Scalar.addi v532 v533
  v534.toNat
def k0_off4 (d0 : Dev nD) (c128_i32_411 : BitVec 32) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c256_i32_12 : BitVec 32 := 256#32
  let v22 : BitVec 32 := Scalar.muli v21 c256_i32_12
  let v555 : BitVec 32 := Scalar.addi v22 c128_i32_411
  let c0_i32_418 : BitVec 32 := 0#32
  ![v555.toNat, 0]
def k0_dev29 (d0 : Dev nD) : Nat :=
  let c0_i32_415 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_414 : BitVec 32 := 4#32
  let v556 : BitVec 32 := Scalar.muli v10 c4_i32_414
  let v557 : BitVec 32 := Scalar.addi c0_i32_415 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v558 : BitVec 32 := Scalar.muli v5 c2_i32_416
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v560 : BitVec 32 := Scalar.muli v8 c1_i32_417
  let v561 : BitVec 32 := Scalar.addi v559 v560
  v561.toNat
def k0_dev30 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v583 : BitVec 32 := Scalar.muli v2 c4_i32_435
  let v584 : BitVec 32 := Scalar.addi c0_i32_436 v583
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v585 : BitVec 32 := Scalar.muli v5 c2_i32_437
  let v586 : BitVec 32 := Scalar.addi v584 v585
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_438 : BitVec 32 := 1#32
  let v587 : BitVec 32 := Scalar.muli v11 c1_i32_438
  let v588 : BitVec 32 := Scalar.addi v586 v587
  v588.toNat
def k0_dev31 (d0 : Dev nD) : Nat :=
  let c0_i32_458 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_457 : BitVec 32 := 4#32
  let v610 : BitVec 32 := Scalar.muli v10 c4_i32_457
  let v611 : BitVec 32 := Scalar.addi c0_i32_458 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v612 : BitVec 32 := Scalar.muli v5 c2_i32_459
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_460 : BitVec 32 := 1#32
  let v614 : BitVec 32 := Scalar.muli v8 c1_i32_460
  let v615 : BitVec 32 := Scalar.addi v613 v614
  v615.toNat
def k0_dev32 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v637 : BitVec 32 := Scalar.muli v2 c4_i32_478
  let v638 : BitVec 32 := Scalar.addi c0_i32_479 v637
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v639 : BitVec 32 := Scalar.muli v5 c2_i32_480
  let v640 : BitVec 32 := Scalar.addi v638 v639
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_481 : BitVec 32 := 1#32
  let v641 : BitVec 32 := Scalar.muli v11 c1_i32_481
  let v642 : BitVec 32 := Scalar.addi v640 v641
  v642.toNat
def k0_dev33 (d0 : Dev nD) : Nat :=
  let c0_i32_501 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_500 : BitVec 32 := 4#32
  let v664 : BitVec 32 := Scalar.muli v10 c4_i32_500
  let v665 : BitVec 32 := Scalar.addi c0_i32_501 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_502 : BitVec 32 := 2#32
  let v666 : BitVec 32 := Scalar.muli v5 c2_i32_502
  let v667 : BitVec 32 := Scalar.addi v665 v666
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_503 : BitVec 32 := 1#32
  let v668 : BitVec 32 := Scalar.muli v8 c1_i32_503
  let v669 : BitVec 32 := Scalar.addi v667 v668
  v669.toNat
def k0_dev34 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_521 : BitVec 32 := 4#32
  let v691 : BitVec 32 := Scalar.muli v2 c4_i32_521
  let v692 : BitVec 32 := Scalar.addi c0_i32_522 v691
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_523 : BitVec 32 := 2#32
  let v693 : BitVec 32 := Scalar.muli v5 c2_i32_523
  let v694 : BitVec 32 := Scalar.addi v692 v693
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_524 : BitVec 32 := 1#32
  let v695 : BitVec 32 := Scalar.muli v11 c1_i32_524
  let v696 : BitVec 32 := Scalar.addi v694 v695
  v696.toNat
def k0_dev35 (d0 : Dev nD) : Nat :=
  let c0_i32_544 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_543 : BitVec 32 := 4#32
  let v718 : BitVec 32 := Scalar.muli v10 c4_i32_543
  let v719 : BitVec 32 := Scalar.addi c0_i32_544 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_545 : BitVec 32 := 2#32
  let v720 : BitVec 32 := Scalar.muli v5 c2_i32_545
  let v721 : BitVec 32 := Scalar.addi v719 v720
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_546 : BitVec 32 := 1#32
  let v722 : BitVec 32 := Scalar.muli v8 c1_i32_546
  let v723 : BitVec 32 := Scalar.addi v721 v722
  v723.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S8_S1_0 : ∀ a, (![0] : Fin 1 → Nat) a + S1.size a ≤ S8.size a
  squeezes_S1_S_ : S1.Squeezes S_
  inb_S256x512_S32x512_0_0 : ∀ a, (![0, 0] : Fin 2 → Nat) a + S32x512.size a ≤ S256x512.size a
  inb_S8_S1_4 : ∀ a, (![4] : Fin 1 → Nat) a + S1.size a ≤ S8.size a
  inb_S256x512_S32x512_128_0 : ∀ a, (![128, 0] : Fin 2 → Nat) a + S32x512.size a ≤ S256x512.size a
  inb_S8_S1_1 : ∀ a, (![1] : Fin 1 → Nat) a + S1.size a ≤ S8.size a
  inb_S256x512_S32x512_32_0 : ∀ a, (![32, 0] : Fin 2 → Nat) a + S32x512.size a ≤ S256x512.size a
  inb_S8_S1_5 : ∀ a, (![5] : Fin 1 → Nat) a + S1.size a ≤ S8.size a
  inb_S256x512_S32x512_160_0 : ∀ a, (![160, 0] : Fin 2 → Nat) a + S32x512.size a ≤ S256x512.size a
  inb_S8_S1_2 : ∀ a, (![2] : Fin 1 → Nat) a + S1.size a ≤ S8.size a
  inb_S256x512_S32x512_64_0 : ∀ a, (![64, 0] : Fin 2 → Nat) a + S32x512.size a ≤ S256x512.size a
  inb_S8_S1_6 : ∀ a, (![6] : Fin 1 → Nat) a + S1.size a ≤ S8.size a
  inb_S256x512_S32x512_192_0 : ∀ a, (![192, 0] : Fin 2 → Nat) a + S32x512.size a ≤ S256x512.size a
  inb_S8_S1_3 : ∀ a, (![3] : Fin 1 → Nat) a + S1.size a ≤ S8.size a
  inb_S256x512_S32x512_96_0 : ∀ a, (![96, 0] : Fin 2 → Nat) a + S32x512.size a ≤ S256x512.size a
  inb_S8_S1_7 : ∀ a, (![7] : Fin 1 → Nat) a + S1.size a ≤ S8.size a
  inb_S256x512_S32x512_224_0 : ∀ a, (![224, 0] : Fin 2 → Nat) a + S32x512.size a ≤ S256x512.size a
  h_S32x512 : 0 < S32x512.numel
  shapeCasts_S32x512_S32x512 : S32x512.ShapeCasts S32x512
  inb_S12_S1_0 : ∀ a, (![0] : Fin 1 → Nat) a + S1.size a ≤ S12.size a
  inb_S12_S1_4 : ∀ a, (![4] : Fin 1 → Nat) a + S1.size a ≤ S12.size a
  inb_S12_S1_1 : ∀ a, (![1] : Fin 1 → Nat) a + S1.size a ≤ S12.size a
  inb_S12_S1_5 : ∀ a, (![5] : Fin 1 → Nat) a + S1.size a ≤ S12.size a
  inb_S12_S1_2 : ∀ a, (![2] : Fin 1 → Nat) a + S1.size a ≤ S12.size a
  inb_S12_S1_6 : ∀ a, (![6] : Fin 1 → Nat) a + S1.size a ≤ S12.size a
  inb_S12_S1_3 : ∀ a, (![3] : Fin 1 → Nat) a + S1.size a ≤ S12.size a
  inb_S12_S1_7 : ∀ a, (![7] : Fin 1 → Nat) a + S1.size a ≤ S12.size a
  inb_S12_S1_8 : ∀ a, (![8] : Fin 1 → Nat) a + S1.size a ≤ S12.size a
  inb_S12_S1_9 : ∀ a, (![9] : Fin 1 → Nat) a + S1.size a ≤ S12.size a
  inb_S12_S1_10 : ∀ a, (![10] : Fin 1 → Nat) a + S1.size a ≤ S12.size a
  inb_S12_S1_11 : ∀ a, (![11] : Fin 1 → Nat) a + S1.size a ≤ S12.size a
  hcc0_scratch1 : 2 + S8.numel ≤ 66
  hcc0_scratch2 : 10 + S8.numel ≤ 66
  hcc0_scratch3 : 18 + S12.numel ≤ 66
  hcc0_scratch4 : 30 + S12.numel ≤ 66
  hcc0_scratch5 : 42 + S12.numel ≤ 66
  hcc0_scratch6 : 54 + S12.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (32 * r.val))) a + S32x512.size a ≤ S1024x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 8), ∀ a, (k0_off2 d0 (BitVec.ofNat 32 (32 * r.val))) a + S32x512.size a ≤ S1024x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off3_inb : ∀ d0 : Dev nD, ∀ (r : Fin 4), ∀ a, (k0_off3 d0 (BitVec.ofNat 32 (32 * r.val))) a + S32x512.size a ≤ S1024x512.size a
  k0_dev28_lt : ∀ d0 : Dev nD, (k0_dev28 d0) < nD
  k0_off4_inb : ∀ d0 : Dev nD, ∀ (r : Fin 4), ∀ a, (k0_off4 d0 (BitVec.ofNat 32 (128 + 32 * r.val))) a + S32x512.size a ≤ S1024x512.size a
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2
abbrev cc0_scratch3 : DmaSems sig S12 := SemArray.consecutive 18 S12 hcc0_scratch3
abbrev cc0_scratch4 : DmaSems sig S12 := SemArray.consecutive 30 S12 hcc0_scratch4
abbrev cc0_scratch5 : DmaSems sig S12 := SemArray.consecutive 42 S12 hcc0_scratch5
abbrev cc0_scratch6 : DmaSems sig S12 := SemArray.consecutive 54 S12 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel

variable [Facts₀]

class Facts : Prop extends Facts₀ where

variable [Facts]
-- ==== Proof.ArKernelIdeal.Proto.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-! ## The resource algebra: the pipeline library's copy and the protocol's (three duty names, for the entry
    handshake's three signals) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The three neighbours of a device on the 2 × 2 × 2 mesh

Device `c` sits at `(x, y, z) = (c / 4, c / 2 % 2, c % 2)`. Its neighbour along an axis flips that coordinate. -/

def yp (c : Dev nD) : Dev nD := ⟨(4 * (c.val / 4) + (c.val % 2) + 2) - 2 * ((c.val / 2) % 2), by have : c.val < 8 := c.isLt; show _ < 8; omega⟩
def xp (c : Dev nD) : Dev nD := ⟨(2 * ((c.val / 2) % 2) + (c.val % 2) + 4) - 4 * (c.val / 4), by have : c.val < 8 := c.isLt; show _ < 8; omega⟩
def zp (c : Dev nD) : Dev nD := ⟨(4 * (c.val / 4) + 2 * ((c.val / 2) % 2) + 1) - (c.val % 2), by have : c.val < 8 := c.isLt; show _ < 8; omega⟩

theorem yp_yp (c : Dev nD) : yp (yp c) = c := by revert c; decide
theorem xp_xp (c : Dev nD) : xp (xp c) = c := by revert c; decide
theorem zp_zp (c : Dev nD) : zp (zp c) = c := by revert c; decide
theorem xp_zp (c : Dev nD) : xp (zp c) = zp (xp c) := by revert c; decide
theorem yp_xp (c : Dev nD) : yp (xp c) = xp (yp c) := by revert c; decide
theorem yp_zp (c : Dev nD) : yp (zp c) = zp (yp c) := by revert c; decide

def ySwap : Dev nD ≃ Dev nD := ⟨yp, yp, yp_yp, yp_yp⟩
def xSwap : Dev nD ≃ Dev nD := ⟨xp, xp, xp_xp, xp_xp⟩
def zSwap : Dev nD ≃ Dev nD := ⟨zp, zp, zp_zp, zp_zp⟩

/-- The kernel's `device_id` chains name these neighbours. -/
theorem dev1_eq (c : Dev nD) : (⟨k0_dev1 c, k0_dev1_lt c⟩ : Dev nD) = yp c := Fin.ext (k0_dev1_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev2_eq (c : Dev nD) : (⟨k0_dev2 c, k0_dev2_lt c⟩ : Dev nD) = xp c := Fin.ext (k0_dev2_eq c)
theorem dev12_eq (c : Dev nD) : (⟨k0_dev12 c, k0_dev12_lt c⟩ : Dev nD) = xp c := Fin.ext (k0_dev12_eq c)
theorem dev14_eq (c : Dev nD) : (⟨k0_dev14 c, k0_dev14_lt c⟩ : Dev nD) = xp c := Fin.ext (k0_dev14_eq c)
theorem dev16_eq (c : Dev nD) : (⟨k0_dev16 c, k0_dev16_lt c⟩ : Dev nD) = xp c := Fin.ext (k0_dev16_eq c)
theorem dev18_eq (c : Dev nD) : (⟨k0_dev18 c, k0_dev18_lt c⟩ : Dev nD) = xp c := Fin.ext (k0_dev18_eq c)
theorem dev20_eq (c : Dev nD) : (⟨k0_dev20 c, k0_dev20_lt c⟩ : Dev nD) = xp c := Fin.ext (k0_dev20_eq c)
theorem dev22_eq (c : Dev nD) : (⟨k0_dev22 c, k0_dev22_lt c⟩ : Dev nD) = xp c := Fin.ext (k0_dev22_eq c)
theorem dev24_eq (c : Dev nD) : (⟨k0_dev24 c, k0_dev24_lt c⟩ : Dev nD) = xp c := Fin.ext (k0_dev24_eq c)
theorem dev26_eq (c : Dev nD) : (⟨k0_dev26 c, k0_dev26_lt c⟩ : Dev nD) = xp c := Fin.ext (k0_dev26_eq c)
theorem dev29_eq (c : Dev nD) : (⟨k0_dev29 c, k0_dev29_lt c⟩ : Dev nD) = xp c := Fin.ext (k0_dev29_eq c)
theorem dev31_eq (c : Dev nD) : (⟨k0_dev31 c, k0_dev31_lt c⟩ : Dev nD) = xp c := Fin.ext (k0_dev31_eq c)
theorem dev33_eq (c : Dev nD) : (⟨k0_dev33 c, k0_dev33_lt c⟩ : Dev nD) = xp c := Fin.ext (k0_dev33_eq c)
theorem dev35_eq (c : Dev nD) : (⟨k0_dev35 c, k0_dev35_lt c⟩ : Dev nD) = xp c := Fin.ext (k0_dev35_eq c)
theorem dev3_eq (c : Dev nD) : (⟨k0_dev3 c, k0_dev3_lt c⟩ : Dev nD) = zp c := Fin.ext (k0_dev3_eq c)
theorem dev13_eq (c : Dev nD) : (⟨k0_dev13 c, k0_dev13_lt c⟩ : Dev nD) = zp c := Fin.ext (k0_dev13_eq c)
theorem dev15_eq (c : Dev nD) : (⟨k0_dev15 c, k0_dev15_lt c⟩ : Dev nD) = zp c := Fin.ext (k0_dev15_eq c)
theorem dev17_eq (c : Dev nD) : (⟨k0_dev17 c, k0_dev17_lt c⟩ : Dev nD) = zp c := Fin.ext (k0_dev17_eq c)
theorem dev19_eq (c : Dev nD) : (⟨k0_dev19 c, k0_dev19_lt c⟩ : Dev nD) = zp c := Fin.ext (k0_dev19_eq c)
theorem dev21_eq (c : Dev nD) : (⟨k0_dev21 c, k0_dev21_lt c⟩ : Dev nD) = zp c := Fin.ext (k0_dev21_eq c)
theorem dev23_eq (c : Dev nD) : (⟨k0_dev23 c, k0_dev23_lt c⟩ : Dev nD) = zp c := Fin.ext (k0_dev23_eq c)
theorem dev25_eq (c : Dev nD) : (⟨k0_dev25 c, k0_dev25_lt c⟩ : Dev nD) = zp c := Fin.ext (k0_dev25_eq c)
theorem dev27_eq (c : Dev nD) : (⟨k0_dev27 c, k0_dev27_lt c⟩ : Dev nD) = zp c := Fin.ext (k0_dev27_eq c)
theorem dev28_eq (c : Dev nD) : (⟨k0_dev28 c, k0_dev28_lt c⟩ : Dev nD) = zp c := Fin.ext (k0_dev28_eq c)
theorem dev30_eq (c : Dev nD) : (⟨k0_dev30 c, k0_dev30_lt c⟩ : Dev nD) = zp c := Fin.ext (k0_dev30_eq c)
theorem dev32_eq (c : Dev nD) : (⟨k0_dev32 c, k0_dev32_lt c⟩ : Dev nD) = zp c := Fin.ext (k0_dev32_eq c)
theorem dev34_eq (c : Dev nD) : (⟨k0_dev34 c, k0_dev34_lt c⟩ : Dev nD) = zp c := Fin.ext (k0_dev34_eq c)

/-! ## The memrefs, the row blocks, the semaphores -/

abbrev xM : Memref sig .tc .vmem S1024x512 .f32 := Memref.whole cc0_stg0_0
abbrev oM : Memref sig .tc .vmem S1024x512 .f32 := Memref.whole cc0_stg1_0
abbrev yM : Memref sig .tc .vmem S256x512 .f32 := Memref.whole cc0_scratch0

/-- Rows `[off 0, off 0 + 32)` of the input's staging buffer, of the result's, of the landing buffer. -/
abbrev xSl (off : Fin 2 → Nat) (h : ∀ a, off a + S32x512.size a ≤ S1024x512.size a) : Memref sig .tc .vmem S32x512 .f32 :=
  xM.slice (Rect.unit (s := S1024x512) off S32x512.size h) (fun _ => rfl)
abbrev oSl (off : Fin 2 → Nat) (h : ∀ a, off a + S32x512.size a ≤ S1024x512.size a) : Memref sig .tc .vmem S32x512 .f32 :=
  oM.slice (Rect.unit (s := S1024x512) off S32x512.size h) (fun _ => rfl)
abbrev ySl (off : Fin 2 → Nat) (h : ∀ a, off a + S32x512.size a ≤ S256x512.size a) : Memref sig .tc .vmem S32x512 .f32 :=
  yM.slice (Rect.unit (s := S256x512) off S32x512.size h) (fun _ => rfl)

/-- The runtime's barrier semaphore of collective id 0 (unscoped). -/
abbrev barS : Sem sig := (SemArray.scalar (sig.barrier 0 rfl) : Sems sig S_).sem

/-- The six semaphore arrays, by position in the signature's DMA pool. -/
def ysS (k : Fin 8) : DmaSem sig := ⟨2 + k.val, by have := k.isLt; show _ < 66; omega⟩
def yrS (k : Fin 8) : DmaSem sig := ⟨10 + k.val, by have := k.isLt; show _ < 66; omega⟩
def xsS (k : Fin 12) : DmaSem sig := ⟨18 + k.val, by have := k.isLt; show _ < 66; omega⟩
def xrS (k : Fin 12) : DmaSem sig := ⟨30 + k.val, by have := k.isLt; show _ < 66; omega⟩
def zsS (k : Fin 12) : DmaSem sig := ⟨42 + k.val, by have := k.isLt; show _ < 66; omega⟩
def zrS (k : Fin 12) : DmaSem sig := ⟨54 + k.val, by have := k.isLt; show _ < 66; omega⟩

abbrev barCell (c : Dev nD) : GSem nD τ sig := ((c : Thread nD τ), .reg barS)
abbrev dCell (c : Dev nD) (q : DmaSem sig) : GSem nD τ sig := ((c : Thread nD τ), .dma q)

/-! ## The 32-row blocks the protocol moves

Seen from device `d`: `o1 d k` is block `k` of the quarter `d` reduces itself (rows `512 z + 256 x + 32 k`), `o3 d i`
block `i` of the quarter its x-neighbour reduces, `o4 d i` block `4 + i` of the quarter its z-neighbour reduces; the
same rectangles of the input's staging buffer are `x1 d k`; `yk k` is block `k` of the landing buffer. -/

abbrev o1 (d : Dev nD) (k : Fin 8) : Memref sig .tc .vmem S32x512 .f32 := oSl (k0_off1 d (BitVec.ofNat 32 (32 * k.val))) (k0_off1_inb d k)
abbrev o3 (d : Dev nD) (i : Fin 4) : Memref sig .tc .vmem S32x512 .f32 := oSl (k0_off3 d (BitVec.ofNat 32 (32 * i.val))) (k0_off3_inb d i)
abbrev o4 (d : Dev nD) (i : Fin 4) : Memref sig .tc .vmem S32x512 .f32 := oSl (k0_off4 d (BitVec.ofNat 32 (128 + 32 * i.val))) (k0_off4_inb d i)
abbrev x1 (d : Dev nD) (k : Fin 8) : Memref sig .tc .vmem S32x512 .f32 := xSl (k0_off1 d (BitVec.ofNat 32 (32 * k.val))) (k0_off1_inb d k)
theorem yk_inb (k : Fin 8) : ∀ a, (![32 * k.val, 0] : Fin 2 → Nat) a + S32x512.size a ≤ S256x512.size a := by revert k; decide
abbrev yk (k : Fin 8) : Memref sig .tc .vmem S32x512 .f32 := ySl ![32 * k.val, 0] (yk_inb k)

/-- The same blocks by position: block `t` of a 1024-row buffer is rows `[32 t, 32 t + 32)`. Device `d` reduces quarter
    `qo d = 2 z + x`, whose block `k` is block `tO d k = 8 (qo d) + k`. -/
theorem blk_inb (t : Fin 32) : ∀ a, (![32 * t.val, 0] : Fin 2 → Nat) a + S32x512.size a ≤ S1024x512.size a := by revert t; decide
abbrev ob (t : Fin 32) : Memref sig .tc .vmem S32x512 .f32 := oSl ![32 * t.val, 0] (blk_inb t)
abbrev xb (t : Fin 32) : Memref sig .tc .vmem S32x512 .f32 := xSl ![32 * t.val, 0] (blk_inb t)
/-- A 32-row block's credit on a DMA semaphore: into the landing buffer, into the result's staging buffer. -/
abbrev Ny : ℕ := (yk 0).view.dmaCredit
abbrev No : ℕ := (ob 0).view.dmaCredit
def qo (d : Dev nD) : Nat := 2 * (d.val % 2) + d.val / 4
theorem qo_lt (d : Dev nD) : qo d < 4 := by have : d.val < 8 := d.isLt; unfold qo; omega
def tO (d : Dev nD) (k : Fin 8) : Fin 32 := ⟨8 * qo d + k.val, by have := qo_lt d; have := k.isLt; omega⟩
/-- The lower and the upper half of a quarter's blocks. -/
def lo (i : Fin 4) : Fin 8 := ⟨i.val, by have := i.isLt; omega⟩
def hi (i : Fin 4) : Fin 8 := ⟨4 + i.val, by have := i.isLt; omega⟩

/-! ## Contents -/

/-- Device `c`'s block of `x`, as the pipeline stages it. -/
def xs (c : Dev nD) : (cc0_stg0_0 : Ref sig .tc).ty.Contents (Elt F) :=
  (win0_0.blk (0 : Fin 1)).view.read (Elt F) ((s₀ m ρ).mem ((c : Thread nD τ).loc main_arg0))

/-- The device with `c`'s `y` that reduces quarter `j` (`j = 2 z + x`). -/
def own (c : Dev nD) (j : Nat) : Dev nD := ⟨4 * (j % 2) + 2 * ((c.val / 2) % 2) + (j / 2) % 2, by show _ < 8; omega⟩

/-- What the landing buffer of `c` ends holding: the rows of its y-neighbour's block of `x` in the quarter `c` reduces. -/
def Yb (c : Dev nD) : (cc0_scratch0 : Ref sig .tc).ty.Contents (Elt F) := fun i =>
  xs m ρ (yp c) (ix2 (n0 := 1024) (n1 := 512) ⟨(k0_off1 c 0#32 0 + (i 0).val) % 1024, Nat.mod_lt _ (by decide)⟩ ⟨(i 1).val % 512, Nat.mod_lt _ (by decide)⟩)

/-- What the result's staging buffer of `c` ends holding: row by row, the sum of the two blocks of `x` held by the
    device that reduces the row's quarter and by its y-neighbour. -/
def Out (c : Dev nD) : (cc0_stg1_0 : Ref sig .tc).ty.Contents (Elt F) := fun i =>
  FloatOps.addf (F := F) (xs m ρ (own c ((i 0).val / 256)) i) (xs m ρ (yp (own c ((i 0).val / 256))) i)

/-! ## The schedule

One round. A device's barrier cell has three duties of one unit, one per neighbour (`0`: the y-neighbour's signal, `1`:
the x-neighbour's, `2`: the z-neighbour's); each hands over the blocks of the SIGNALLER's buffers the owner will write:
the y-neighbour's landing buffer, and of the x- / z-neighbour's result buffer the quarter the owner reduces and half of
the quarter diagonal to the neighbour. A DMA cell has one duty of a block's credit: a send cell's hands the source block
back, a receive cell's the destination block holding what it must end holding. -/

/-- A 32-row block of a buffer of device `d`, at share `q`, the buffer holding `f` there. -/
abbrev blkPts (d : Dev nD) (M : Memref sig .tc .vmem S32x512 .f32) (q : PosShare TreeShare) (f : Buf (Elt F) (M.view.loc (d : Thread nD τ))) : sProp 𝕄 :=
  (M.view.loc (d : Thread nD τ)) ↦[M.view.set]{q} f
/-- The block outright, at some contents. -/
def free (d : Dev nD) (M : Memref sig .tc .vmem S32x512 .f32) : sProp 𝕄 := iprop(∃ f, blkPts (F := F) d M fullShare f)

def ysPay (c : Dev nD) (k : Fin 8) : sProp 𝕄 := blkPts c (xb (tO c k)) fullShare (xs m ρ c)
def yrPay (c : Dev nD) (k : Fin 8) : sProp 𝕄 := blkPts c (yk k) fullShare (Yb m ρ c)
def k8 (k : Fin 12) (h : k.val < 8) : Fin 8 := ⟨k.val, h⟩
def k4 (k : Fin 12) (h : ¬ k.val < 8) : Fin 4 := ⟨k.val - 8, by have := k.isLt; omega⟩
def xsPay (c : Dev nD) (k : Fin 12) : sProp 𝕄 :=
  if h : k.val < 8 then blkPts c (ob (tO c (k8 k h))) fullShare.left (Out m ρ c) else blkPts c (ob (tO (zp c) (hi (k4 k h)))) fullShare (Out m ρ c)
def zsPay (c : Dev nD) (k : Fin 12) : sProp 𝕄 :=
  if h : k.val < 8 then blkPts c (ob (tO c (k8 k h))) fullShare.right (Out m ρ c) else blkPts c (ob (tO (xp c) (lo (k4 k h)))) fullShare (Out m ρ c)
def xrPay (c : Dev nD) (k : Fin 12) : sProp 𝕄 :=
  if h : k.val < 8 then blkPts c (ob (tO (xp c) (k8 k h))) fullShare (Out m ρ c) else blkPts c (ob (tO (xp (zp c)) (hi (k4 k h)))) fullShare (Out m ρ c)
def zrPay (c : Dev nD) (k : Fin 12) : sProp 𝕄 :=
  if h : k.val < 8 then blkPts c (ob (tO (zp c) (k8 k h))) fullShare (Out m ρ c) else blkPts c (ob (tO (xp (zp c)) (lo (k4 k h)))) fullShare (Out m ρ c)

def barPay (c : Dev nD) (j : Fin 3) : sProp 𝕄 :=
  match j with
  | 0 => bigSep Finset.univ fun k : Fin 8 => free (F := F) (yp c) (yk k)
  | 1 => iprop((bigSep Finset.univ fun k : Fin 8 => free (F := F) (xp c) (ob (tO c k))) ∗ bigSep Finset.univ fun i : Fin 4 => free (F := F) (xp c) (ob (tO (zp c) (hi i))))
  | 2 => iprop((bigSep Finset.univ fun k : Fin 8 => free (F := F) (zp c) (ob (tO c k))) ∗ bigSep Finset.univ fun i : Fin 4 => free (F := F) (zp c) (ob (tO (xp c) (lo i))))

theorem dmaSem_lt (q : DmaSem sig) : q.val < 66 := q.isLt

def dmaPay (c : Dev nD) (q : DmaSem sig) : sProp 𝕄 :=
  if h0 : q.val < 2 then iprop(emp)
  else if h1 : q.val < 10 then ysPay m ρ c ⟨q.val - 2, by omega⟩
  else if h2 : q.val < 18 then yrPay m ρ c ⟨q.val - 10, by omega⟩
  else if h3 : q.val < 30 then xsPay m ρ c ⟨q.val - 18, by omega⟩
  else if h4 : q.val < 42 then xrPay m ρ c ⟨q.val - 30, by omega⟩
  else if h5 : q.val < 54 then zsPay m ρ c ⟨q.val - 42, by omega⟩
  else zrPay m ρ c ⟨q.val - 54, by have := dmaSem_lt q; omega⟩

theorem Ny_pos : 0 < Ny := View.dmaCredit_pos _ (by decide)
theorem No_pos : 0 < No := View.dmaCredit_pos _ (by decide)

def Rd : Rounds.Schedule (GSem nD τ sig) (Fin 3) 𝕄 where
  duties g r := if r = 0 ∧ g.1.2 = .tc then
      (match g.2 with | .reg s => if s = barS then Finset.univ else ∅ | .dma q => if 2 ≤ q.val then {0} else ∅) else ∅
  unitless _ := False
  amount g _ _ := match g.2 with | .reg _ => 1 | .dma q => if q.val < 18 then Ny else No
  payload g _ d := match g.2 with | .reg _ => barPay g.1.1 d | .dma q => dmaPay m ρ g.1.1 q
  amount_pos g _ _ _ := by
    rcases g with ⟨t, sm⟩; cases sm with
    | reg s => exact Nat.one_pos
    | dma q => dsimp only; split; exact Ny_pos; exact No_pos

end Cert.KernelIdeal.AR
end
-- ==== Proof.Final.lean ====
/-
  The value bridge and the assembly of the certificate's conjuncts at the ideal instance.
  Each device holds, of the 2048-row array, the 1024-row block its y coordinate names; the kernel's result on every
  device is, row by row, the sum of the entries the row's reducing device and that device's y-neighbour hold, that is
  the sum of the two row blocks' entries in one order or the other; the reference reshapes the array into its two row
  blocks and sums them onto zero. On the extended reals the two are one function (addition commutes, zero is neutral).
  The conjuncts then follow from a run of the kernel that ends with every device's result at that sum and the
  arguments unchanged, and from the reference's generated run.
-/
import proofs.«900700_g7700000000000701_dist_ar_v7x_xyz2x2x2_y_m1024_n512_f32_1_alg».proof.Defs
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.ReferenceIdeal
import proofs.«900700_g7700000000000701_dist_ar_v7x_xyz2x2x2_y_m1024_n512_f32_1_alg».proof.Proof.Gen.Pre_finite_inputs_Kernel
import proofs.«900700_g7700000000000701_dist_ar_v7x_xyz2x2x2_y_m1024_n512_f32_1_alg».proof.Proof.Gen.Pre_finite_inputs_ReferenceIdeal
import proofs.«900700_g7700000000000701_dist_ar_v7x_xyz2x2x2_y_m1024_n512_f32_1_alg».proof.Proof.Gen.ReferenceIdeal.Run
import proofs.«900700_g7700000000000701_dist_ar_v7x_xyz2x2x2_y_m1024_n512_f32_1_alg».proof.Proof.Gen.ReferenceIdeal.Read
import proofs.«900700_g7700000000000701_dist_ar_v7x_xyz2x2x2_y_m1024_n512_f32_1_alg».proof.Proof.ArKernelIdeal.Proto
import Idealize.ShloMosaic.Lib.Layout
import Idealize.ShloMosaic.Lib.ValueIdx
import Idealize.ShloMosaic.Lib.Pipeline.Value
import Idealize.ShloMosaic.PureOps.Ideal.Laws

noncomputable section

namespace Cert.Final

open Idealize.ShloMosaic Idealize.ShloMosaic.TcCoe Idealize.SL.Sem

/-- The staged block of `x` on a device is that device's argument array: the window is the whole array. -/
theorem xs_eq (m : (ℓ : Loc Cert.KernelIdeal.nD Cert.KernelIdeal.τ Cert.KernelIdeal.sig) → Buf (Elt Ideal) ℓ)
    (ρ : Dev Cert.KernelIdeal.nD → PrngReg) (d : Dev Cert.KernelIdeal.nD) :
    Cert.KernelIdeal.AR.xs (F := Ideal) m ρ d = m ((d.tc : Thread Cert.KernelIdeal.nD Cert.KernelIdeal.τ).loc Cert.KernelIdeal.main_arg0) := by
  unfold Cert.KernelIdeal.AR.xs Cert.KernelIdeal.AR.s₀
  exact Memref.read_access_unit_zero (Elt Ideal) Cert.KernelIdeal.main_arg0 (funext fun a => by fin_cases a <;> rfl) _ _

/-- Row `1024 (k mod 2) + i 0`, column `i 1` of the 2048-row array: where index `i` of row block `k mod 2` lies. -/
def row (k : Nat) (i : (⟨2, ![1024, 512]⟩ : Shape).Idx) : (⟨2, ![2048, 512]⟩ : Shape).Idx :=
  ValueIdx.ix2 ⟨(k % 2) * 1024 + (i 0).val, by have := ValueIdx.idx2_lt0 i; omega⟩ (i 1)

theorem row_congr {k k' : Nat} (h : k % 2 = k' % 2) (i : (⟨2, ![1024, 512]⟩ : Shape).Idx) : row k i = row k' i := by
  funext a
  match a with
  | ⟨0, _⟩ => exact Fin.ext (show k % 2 * 1024 + (i 0).val = k' % 2 * 1024 + (i 0).val by rw [h])
  | ⟨1, _⟩ => rfl

/-- On the 2 × 2 × 2 mesh a dimension cut along axis 1 gives device `d` the block its `y` coordinate names. -/
theorem meshLin_y : ∀ d : Fin 8, Layout.meshLin [2, 2, 2] d.val [1] = d.val / 2 % 2 := by decide

/-- A device's block of the whole array, read at an index: row block `y` of the whole array. -/
theorem block_apply {α : Type} (X : (⟨2, ![2048, 512]⟩ : Shape).Idx → α) (d : Fin 8) (i : (⟨2, ![1024, 512]⟩ : Shape).Idx) :
    (Layout.blockN ⟨2, ![1024, 512]⟩ ⟨2, ![2048, 512]⟩ (Layout.meshBlock [2, 2, 2] ![[1], []] d) X) i = X (row (d.val / 2) i) := by
  rw [Layout.blockN_apply]
  refine congrArg X (funext fun a => Fin.ext ?_)
  rw [Layout.TilesN.idx_val]
  match a with
  | ⟨0, _⟩ =>
    show Layout.meshLin [2, 2, 2] d.val [1] * 1024 + (i 0).val = (d.val / 2 % 2) * 1024 + (i 0).val
    rw [meshLin_y]
  | ⟨1, _⟩ =>
    show 0 * 512 + (i 1).val = (i 1).val
    omega

/-- The reference's reshape followed by its choice of summand `k` reads row block `k`. -/
theorem idx_row (i : Cert.ReferenceIdeal.S1024x512.Idx) (k : Fin 2) :
    Cert.ReferenceIdeal.Read.idx_main_v0 (Cert.ReferenceIdeal.Read.idx_main_v1 i k) = row k.val i := by
  have h0 := ValueIdx.idx2_lt0 i
  have h1 := ValueIdx.idx2_lt1 i
  have hk := k.isLt
  funext a
  match a with
  | ⟨0, _⟩ =>
    exact Fin.ext (show ((k.val * 1024 + (i 0).val) * 512 + (i 1).val) / 512 = k.val % 2 * 1024 + (i 0).val by omega)
  | ⟨1, _⟩ =>
    exact Fin.ext (show ((k.val * 1024 + (i 0).val) * 512 + (i 1).val) % 512 = (i 1).val by omega)

/-- The reference's result at an index: the sum of the two row blocks' entries. -/
theorem ref_apply (X : (⟨Cert.ReferenceIdeal.S2048x512, .f32⟩ : BufTy).Contents (Elt Ideal)) (i : Cert.ReferenceIdeal.S1024x512.Idx) :
    Cert.ReferenceIdeal.Read.val_main_v1 (F := Ideal) X i = (show EReal from X (row 0 i)) + (show EReal from X (row 1 i)) := by
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply]
  rw [idx_row, idx_row]
  show Ideal.ofBits .f32 0x00000000#32 + _ = _
  rw [Ideal.ofBits_zero_f32, zero_add]
  rfl

/-- The device that reduces a quarter keeps the `y` coordinate; its y-neighbour has the other one. -/
theorem own_y (c : Dev Cert.KernelIdeal.nD) (j : Nat) : (Cert.KernelIdeal.AR.own c j).val / 2 % 2 = c.val / 2 % 2 := by
  show (4 * (j % 2) + 2 * ((c.val / 2) % 2) + (j / 2) % 2) / 2 % 2 = c.val / 2 % 2
  have hp : j % 2 < 2 := Nat.mod_lt _ (by decide)
  have hq : j / 2 % 2 < 2 := Nat.mod_lt _ (by decide)
  have hy : c.val / 2 % 2 < 2 := Nat.mod_lt _ (by decide)
  generalize j % 2 = p at hp ⊢
  generalize j / 2 % 2 = q at hq ⊢
  generalize c.val / 2 % 2 = y at hy ⊢
  have h2 : (4 * p + 2 * y + q) / 2 = 2 * p + y := by omega
  rw [h2]
  omega
theorem yp_y (d : Dev Cert.KernelIdeal.nD) : (Cert.KernelIdeal.AR.yp d).val / 2 % 2 = (d.val / 2 + 1) % 2 := by
  revert d; decide

/-- Every device's result is the reference's: at a row, the two y-blocks' entries, summed in one order or the other. -/
theorem out_eq_ref (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hm : ∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.AR.Out (F := Ideal) m ρ c
      = Cert.ReferenceIdeal.Read.val_main_v1 (F := Ideal) (m' (((0 : Dev Cert.ReferenceIdeal.nD).tc : Thread Cert.ReferenceIdeal.nD Cert.ReferenceIdeal.τ).loc Cert.ReferenceIdeal.main_arg0)) := by
  funext i
  unfold Cert.KernelIdeal.AR.Out
  rw [xs_eq, xs_eq, hm, hm, block_apply, block_apply]
  rw [row_congr (own_y c _) i, row_congr (yp_y _) i, row_congr (k := _ + 1) (k' := c.val / 2 + 1) (by rw [Nat.add_mod, own_y, ← Nat.add_mod]) i,
    ref_apply, Ideal.addf_def]
  rcases Nat.mod_two_eq_zero_or_one (c.val / 2) with h | h
  · rw [row_congr (k := c.val / 2) (k' := 0) h i, row_congr (k := c.val / 2 + 1) (k' := 1) (by omega) i]
  · rw [row_congr (k := c.val / 2) (k' := 1) h i, row_congr (k := c.val / 2 + 1) (k' := 0) (by omega) i]
    exact add_comm (G := EReal) _ _

/-! ## The certificate's conjuncts from the kernel's run -/

/-- The value claim: the kernel's run ends with every device's result at `Out`, which is the reference's result
    (`out_eq_ref`); the reference's run ends at its composed term, which is that result by definition. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.AR.Out m ρ c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (out_eq_ref m g m' hagree c), (h c).2⟩) (hrun m g)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

/-- The idealized kernel's frame: its run with the value dropped. -/
theorem frame_KI_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.AR.Out m ρ c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.frame_KernelIdeal := fun m g _ =>
  (θ_run (Cert.KernelIdeal.defs (F := Ideal)) _ _).mono (fun _ h c => (h c).2) (hrun m g)

/-- The kernel's frame at the word level, from any run of it that ends with the arguments unchanged, whatever else
    (`V`) the run says of the final state. -/
theorem frame_K_of
    (V : ((ℓ : Loc Cert.Kernel.nD Cert.Kernel.τ Cert.Kernel.sig) → Buf (Elt Bits) ℓ) → (Dev Cert.Kernel.nD → PrngReg) →
      PUnit × MemSt Cert.Kernel.nD Cert.Kernel.τ Cert.Kernel.sig (Elt Bits) → Dev Cert.Kernel.nD → Prop)
    (hrunK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD,
          V m ρ r c
          ∧ r.2.mem ((c.tc : Thread Cert.Kernel.nD Cert.Kernel.τ).loc Cert.Kernel.main_arg0) = m ((c.tc : Thread Cert.Kernel.nD Cert.Kernel.τ).loc Cert.Kernel.main_arg0))) :
    Cert.frame_Kernel := fun m g _ =>
  (θ_run (Cert.Kernel.defs (F := Bits)) _ _).mono (fun _ h c => (h c).2) (hrunK m g)

/-- The reference's frame: its run with the value dropped. -/
theorem frame_ref : Cert.frame_ReferenceIdeal := fun m g _ =>
  (θ_run Cert.ReferenceIdeal.defs _ _).mono (fun _ h c => (h c).2) (Cert.ReferenceIdeal.Value.run (F := Ideal) m g)

/-- info: 'Cert.Final.out_eq_ref' depends on axioms: [propext, Classical.choice, Quot.sound] -/
#guard_msgs in #print axioms out_eq_ref
/-- info: 'Cert.Final.algebraic_of' depends on axioms: [propext, Classical.choice, Quot.sound] -/
#guard_msgs in #print axioms algebraic_of

end Cert.Final

end
-- ==== Proof.ArKernelIdeal.Ghost.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What a device pays, in program order

The three entry signals; the eight transfers to the y-neighbour's landing buffer (blocks in the order 0 4 1 5 2 6 3 7);
per block in that order the transfer of the reduced block to the x-neighbour and to the z-neighbour; then four times
a forward to the z-neighbour and a forward to the x-neighbour. Each pays one duty of the destination's cell, of one unit
for a signal and of the block's credit for a transfer. -/

def job (c : Dev nD) : ℕ → GSem nD τ sig × ℕ
  | 0 => (barCell (yp c), 1)
  | 1 => (barCell (xp c), 1)
  | 2 => (barCell (zp c), 1)
  | 3 => (dCell (yp c) (yrS 0), Ny)
  | 4 => (dCell (yp c) (yrS 4), Ny)
  | 5 => (dCell (yp c) (yrS 1), Ny)
  | 6 => (dCell (yp c) (yrS 5), Ny)
  | 7 => (dCell (yp c) (yrS 2), Ny)
  | 8 => (dCell (yp c) (yrS 6), Ny)
  | 9 => (dCell (yp c) (yrS 3), Ny)
  | 10 => (dCell (yp c) (yrS 7), Ny)
  | 11 => (dCell (xp c) (xrS 0), No)
  | 12 => (dCell (zp c) (zrS 0), No)
  | 13 => (dCell (xp c) (xrS 4), No)
  | 14 => (dCell (zp c) (zrS 4), No)
  | 15 => (dCell (xp c) (xrS 1), No)
  | 16 => (dCell (zp c) (zrS 1), No)
  | 17 => (dCell (xp c) (xrS 5), No)
  | 18 => (dCell (zp c) (zrS 5), No)
  | 19 => (dCell (xp c) (xrS 2), No)
  | 20 => (dCell (zp c) (zrS 2), No)
  | 21 => (dCell (xp c) (xrS 6), No)
  | 22 => (dCell (zp c) (zrS 6), No)
  | 23 => (dCell (xp c) (xrS 3), No)
  | 24 => (dCell (zp c) (zrS 3), No)
  | 25 => (dCell (xp c) (xrS 7), No)
  | 26 => (dCell (zp c) (zrS 7), No)
  | 27 => (dCell (zp c) (zrS 8), No)
  | 28 => (dCell (xp c) (xrS 8), No)
  | 29 => (dCell (zp c) (zrS 9), No)
  | 30 => (dCell (xp c) (xrS 9), No)
  | 31 => (dCell (zp c) (zrS 10), No)
  | 32 => (dCell (xp c) (xrS 10), No)
  | 33 => (dCell (zp c) (zrS 11), No)
  | 34 => (dCell (xp c) (xrS 11), No)
  | _ => (barCell c, 0)

/-- What device `c` still owes before its `n`-th payment. -/
def owed (c : Dev nD) (n : ℕ) : CellTallies nD τ sig Unit := ∑ j ∈ Finset.Ico n 35, tallyAt (job c j).1 () (job c j).2

/-- The levels: a wait is allowed on a cell below everything the waiter still owes. Staging and send cells 0, the barrier
    cell 1, the landing buffer's receive cells 2, the receive cells of the first exchange 3, of the forwards 4. -/
def L (g : GSem nD τ sig) : Finset Unit := if g.1.2 = .tc then {()} else ∅
def lv (g : GSem nD τ sig) (_ : Unit) : ℕ :=
  match g.2 with
  | .reg _ => 1
  | .dma q => if q.val < 10 then 0 else if q.val < 18 then 2 else if q.val < 30 then 0 else if q.val < 38 then 3
      else if q.val < 42 then 4 else if q.val < 54 then 0 else if q.val < 62 then 3 else 4

/-! ## The cells, the tokens -/

/-- A device's 65 cells: the barrier cell, then the 64 DMA cells of the six scratch arrays. -/
def csem (i : Fin 65) : SemLoc sig := if h : i.val = 0 then .reg barS else .dma ⟨i.val + 1, by have := i.isLt; show _ < 66; omega⟩
/-- The kernel's own (scoped) semaphores: the 64 DMA semaphores of the scratch arrays. -/
def osem (i : Fin 64) : SemLoc sig := .dma ⟨i.val + 2, by have := i.isLt; show _ < 66; omega⟩
abbrev kcell (ck : Dev nD × Fin 65) : GSem nD τ sig := ((ck.1 : Thread nD τ), csem ck.2)

/-- The cells' invariants under the names the launch allocated them at, and round 0 of every cell reached. -/
def records (K : Dev nD × Fin 65 → ℕ) : sProp 𝕄 :=
  iprop((bigSep Finset.univ fun ck : Dev nD × Fin 65 => cellInv ER (Rd m ρ) (K ck) (kcell ck))
    ∗ bigSep Finset.univ fun ck : Dev nD × Fin 65 => reached ER (kcell ck) 0)

/-- The tokens of the duties device `c` pays: its neighbours' barrier duties, its own send cells', its neighbours' receive cells'. -/
def payToks (c : Dev nD) : sProp 𝕄 :=
  iprop(dutyTok ER (barCell (yp c)) 0 (0 : Fin 3) ∗ dutyTok ER (barCell (xp c)) 0 (1 : Fin 3) ∗ dutyTok ER (barCell (zp c)) 0 (2 : Fin 3)
    ∗ (bigSep Finset.univ fun k : Fin 8 => dutyTok ER (dCell c (ysS k)) 0 (0 : Fin 3))
    ∗ (bigSep Finset.univ fun k : Fin 8 => dutyTok ER (dCell (yp c) (yrS k)) 0 (0 : Fin 3))
    ∗ (bigSep Finset.univ fun k : Fin 12 => dutyTok ER (dCell c (xsS k)) 0 (0 : Fin 3))
    ∗ (bigSep Finset.univ fun k : Fin 12 => dutyTok ER (dCell (xp c) (xrS k)) 0 (0 : Fin 3))
    ∗ (bigSep Finset.univ fun k : Fin 12 => dutyTok ER (dCell c (zsS k)) 0 (0 : Fin 3))
    ∗ (bigSep Finset.univ fun k : Fin 12 => dutyTok ER (dCell (zp c) (zrS k)) 0 (0 : Fin 3)))

/-- A property of each of a device's 64 scratch DMA cells, array by array. -/
def each (c : Dev nD) (Φ : GSem nD τ sig → sProp 𝕄) : sProp 𝕄 :=
  iprop((bigSep Finset.univ fun k : Fin 8 => Φ (dCell c (ysS k))) ∗ (bigSep Finset.univ fun k : Fin 8 => Φ (dCell c (yrS k)))
    ∗ (bigSep Finset.univ fun k : Fin 12 => Φ (dCell c (xsS k))) ∗ (bigSep Finset.univ fun k : Fin 12 => Φ (dCell c (xrS k)))
    ∗ (bigSep Finset.univ fun k : Fin 12 => Φ (dCell c (zsS k))) ∗ (bigSep Finset.univ fun k : Fin 12 => Φ (dCell c (zrS k))))

/-- The device's positions: at the start of round 0 of its barrier cell and of each of its scratch DMA cells. -/
def positions (c : Dev nD) : sProp 𝕄 :=
  iprop(atPos ER (barCell c) 0 (∅ : Finset (Fin 3)) 0 ∗ each c fun g => atPos ER g 0 (∅ : Finset (Fin 3)) 0)

/-- The ghost state device `c` starts from. -/
def ghost (K : Dev nD × Fin 65 → ℕ) (c : Dev nD) : sProp 𝕄 :=
  iprop(records m ρ K ∗ positions c ∗ payToks c)

/-- The credit dealt at launch: three units on the barrier cell, a block's credit on each receive cell. -/
def creds (c : Dev nD) : sProp 𝕄 :=
  iprop(cred (tallyAt (barCell c) () 3)
    ∗ (bigSep Finset.univ fun k : Fin 8 => cred (tallyAt (dCell c (yrS k)) () Ny))
    ∗ (bigSep Finset.univ fun k : Fin 12 => cred (tallyAt (dCell c (xrS k)) () No))
    ∗ (bigSep Finset.univ fun k : Fin 12 => cred (tallyAt (dCell c (zrS k)) () No)))

def start (c : Dev nD) : sProp 𝕄 := iprop((∃ K, ghost m ρ K c) ∗ creds c ∗ levAts L lv)

def Φ₀ (c : Dev nD) : sProp 𝕄 := iprop(start m ρ c ∗ ∃ f, (((c : Thread nD τ).loc cc0_scratch0) ↦{fullShare} f))
/-- After the point: the landing buffer holding the y-neighbour's rows, the kernel's own cells at zero, closed. -/
def Φ₁ (c : Dev nD) : sProp 𝕄 :=
  iprop((((c : Thread nD τ).loc cc0_scratch0) ↦{fullShare} Yb m ρ c) ∗ each c fun g => semVal g 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => Out m ρ c
  Φ t := match t with
    | ⟨0, _⟩ => Φ₀ m ρ c
    | ⟨_ + 1, _⟩ => Φ₁ m ρ c
  q _ := fullShare
  owed t := match t with
    | ⟨0, _⟩ => owed c 0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one point starts from and ends at. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xs m ρ c) ∗ stg c cc0_stg1_0 (Out m ρ c))

end Cert.KernelIdeal.AR
end
-- ==== Proof.ArKernelIdeal.Geom.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Ring

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The blocks tile the buffers -/

omit [FloatOps F] in
/-- The result's staging buffer is its 32 blocks of 32 rows. -/
theorem out_split (c : Dev nD) (q : PosShare TreeShare) (f : Buf (Elt F) ((c : Thread nD τ).loc cc0_stg1_0)) :
    ((((c : Thread nD τ).loc cc0_stg1_0) ↦{q} f : sProp 𝕄)) ⊣⊢ bigSep Finset.univ fun t : Fin 32 => blkPts (F := F) c (ob t) q f := by
  have hd := Ring.lead_disjoint (s := S1024x512) (NB := 32) (0 : Fin 2) 32 (fun t : Fin 32 => (![32 * t.val, 0] : Fin 2 → Nat)) S32x512.size
    (fun t => blk_inb t) (fun _ => rfl) rfl
  have hc := Ring.lead_cover (s := S1024x512) (NB := 32) (0 : Fin 2) 32 (fun t : Fin 32 => (![32 * t.val, 0] : Fin 2 → Nat)) S32x512.size
    (fun t => blk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_stg1_0)
    (fun t : Fin 32 => (Rect.unit (s := S1024x512) (![32 * t.val, 0] : Fin 2 → Nat) S32x512.size (blk_inb t)).set) hd hc (q := q) f
  rw [h]
  refine BiEntails.of_eq (congrArg _ (funext fun t => ?_))
  show _ = (((c : Thread nD τ).loc cc0_stg1_0) ↦[((View.whole cc0_stg1_0).slice (Rect.unit (s := S1024x512) (![32 * t.val, 0] : Fin 2 → Nat) S32x512.size (blk_inb t))).set]{q} f)
  rw [View.set_slice_whole]

omit [FloatOps F] in
/-- The input's staging buffer likewise. -/
theorem x_split (c : Dev nD) (q : PosShare TreeShare) (f : Buf (Elt F) ((c : Thread nD τ).loc cc0_stg0_0)) :
    ((((c : Thread nD τ).loc cc0_stg0_0) ↦{q} f : sProp 𝕄)) ⊣⊢ bigSep Finset.univ fun t : Fin 32 => blkPts (F := F) c (xb t) q f := by
  have hd := Ring.lead_disjoint (s := S1024x512) (NB := 32) (0 : Fin 2) 32 (fun t : Fin 32 => (![32 * t.val, 0] : Fin 2 → Nat)) S32x512.size
    (fun t => blk_inb t) (fun _ => rfl) rfl
  have hc := Ring.lead_cover (s := S1024x512) (NB := 32) (0 : Fin 2) 32 (fun t : Fin 32 => (![32 * t.val, 0] : Fin 2 → Nat)) S32x512.size
    (fun t => blk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_stg0_0)
    (fun t : Fin 32 => (Rect.unit (s := S1024x512) (![32 * t.val, 0] : Fin 2 → Nat) S32x512.size (blk_inb t)).set) hd hc (q := q) f
  rw [h]
  refine BiEntails.of_eq (congrArg _ (funext fun t => ?_))
  show _ = (((c : Thread nD τ).loc cc0_stg0_0) ↦[((View.whole cc0_stg0_0).slice (Rect.unit (s := S1024x512) (![32 * t.val, 0] : Fin 2 → Nat) S32x512.size (blk_inb t))).set]{q} f)
  rw [View.set_slice_whole]

omit [FloatOps F] in
/-- The landing buffer is its 8 blocks. -/
theorem y_split (c : Dev nD) (q : PosShare TreeShare) (f : Buf (Elt F) ((c : Thread nD τ).loc cc0_scratch0)) :
    ((((c : Thread nD τ).loc cc0_scratch0) ↦{q} f : sProp 𝕄)) ⊣⊢ bigSep Finset.univ fun k : Fin 8 => blkPts (F := F) c (yk k) q f := by
  have hd := Ring.lead_disjoint (s := S256x512) (NB := 8) (0 : Fin 2) 32 (fun t : Fin 8 => (![32 * t.val, 0] : Fin 2 → Nat)) S32x512.size
    (fun t => yk_inb t) (fun _ => rfl) rfl
  have hc := Ring.lead_cover (s := S256x512) (NB := 8) (0 : Fin 2) 32 (fun t : Fin 8 => (![32 * t.val, 0] : Fin 2 → Nat)) S32x512.size
    (fun t => yk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_scratch0)
    (fun t : Fin 8 => (Rect.unit (s := S256x512) (![32 * t.val, 0] : Fin 2 → Nat) S32x512.size (yk_inb t)).set) hd hc (q := q) f
  rw [h]
  refine BiEntails.of_eq (congrArg _ (funext fun t => ?_))
  show _ = (((c : Thread nD τ).loc cc0_scratch0) ↦[((View.whole cc0_scratch0).slice (Rect.unit (s := S256x512) (![32 * t.val, 0] : Fin 2 → Nat) S32x512.size (yk_inb t))).set]{q} f)
  rw [View.set_slice_whole]

omit [FloatOps F] in
/-- A separating conjunction over four indices, in any order of the four. -/
theorem bigSep_fin4 (G : Fin 4 → sProp 𝕄) (a b c d : Fin 4) (hab : a ≠ b) (hac : a ≠ c) (had : a ≠ d) (hbc : b ≠ c) (hbd : b ≠ d)
    (hcd : c ≠ d) : bigSep Finset.univ G = iprop(G a ∗ G b ∗ G c ∗ G d) := by
  have hu : (Finset.univ : Finset (Fin 4)) = insert a (insert b (insert c {d})) := by
    revert a b c d; decide
  rw [hu, bigSep_insert (by simp [hab, hac, had]), bigSep_insert (by simp [hbc, hbd]), bigSep_insert (by simp [hcd]), bigSep_singleton]
  rfl

omit [FloatOps F] in
/-- Eight indices are the lower four and the upper four. -/
theorem bigSep_lo_hi (Ψ : Fin 8 → sProp 𝕄) :
    bigSep Finset.univ Ψ = iprop((bigSep Finset.univ fun i : Fin 4 => Ψ (lo i)) ∗ bigSep Finset.univ fun i : Fin 4 => Ψ (hi i)) := by
  rw [bigSep_univ_equiv (finSumFinEquiv (m := 4) (n := 4)) Ψ, bigSep_univ_sum]
  rfl

omit [FloatOps F] in
/-- Seen from device `c`, the 32 blocks are: the quarter it reduces, its x-neighbour's, its z-neighbour's, and the lower and
    upper half of the diagonal device's. -/
theorem blocks_regroup (c : Dev nD) (Φ : Fin 32 → sProp 𝕄) :
    bigSep Finset.univ Φ ⊣⊢ iprop((bigSep Finset.univ fun k : Fin 8 => Φ (tO c k)) ∗ (bigSep Finset.univ fun k : Fin 8 => Φ (tO (xp c) k))
      ∗ (bigSep Finset.univ fun k : Fin 8 => Φ (tO (zp c) k)) ∗ (bigSep Finset.univ fun i : Fin 4 => Φ (tO (xp (zp c)) (lo i)))
      ∗ (bigSep Finset.univ fun i : Fin 4 => Φ (tO (xp (zp c)) (hi i)))) := by
  refine BiEntails.of_eq ?_
  have e1 : bigSep Finset.univ Φ
      = bigSep Finset.univ (fun j : Fin 4 => bigSep Finset.univ fun k : Fin 8 => Φ (finProdFinEquiv (m := 4) (n := 8) (j, k))) := by
    rw [bigSep_univ_equiv (finProdFinEquiv (m := 4) (n := 8)) Φ, bigSep_univ_prod]
  have hq : ∀ d : Dev nD, (bigSep Finset.univ fun k : Fin 8 => Φ (finProdFinEquiv (m := 4) (n := 8) ((⟨qo d, qo_lt d⟩ : Fin 4), k)))
      = bigSep Finset.univ fun k : Fin 8 => Φ (tO d k) := by
    intro d
    refine bigSep_congr fun k _ => congrArg Φ (Fin.ext ?_)
    show k.val + 8 * qo d = 8 * qo d + k.val
    omega
  have e2 := bigSep_fin4 (F := F) (fun j : Fin 4 => bigSep Finset.univ fun k : Fin 8 => Φ (finProdFinEquiv (m := 4) (n := 8) (j, k)))
    ⟨qo c, qo_lt c⟩ ⟨qo (xp c), qo_lt _⟩ ⟨qo (zp c), qo_lt _⟩ ⟨qo (xp (zp c)), qo_lt _⟩
    (by revert c; decide) (by revert c; decide) (by revert c; decide) (by revert c; decide) (by revert c; decide) (by revert c; decide)
  rw [e1, e2, hq c, hq (xp c), hq (zp c), hq (xp (zp c)), bigSep_lo_hi (F := F) fun k : Fin 8 => Φ (tO (xp (zp c)) k)]

/-! ## The printed slices are these blocks -/

theorem oSl_congr {off off' : Fin 2 → Nat} (e : off = off') (h : ∀ a, off a + S32x512.size a ≤ S1024x512.size a)
    (h' : ∀ a, off' a + S32x512.size a ≤ S1024x512.size a) : oSl off h = oSl off' h' := by subst e; rfl
theorem xSl_congr {off off' : Fin 2 → Nat} (e : off = off') (h : ∀ a, off a + S32x512.size a ≤ S1024x512.size a)
    (h' : ∀ a, off' a + S32x512.size a ≤ S1024x512.size a) : xSl off h = xSl off' h' := by subst e; rfl

/-- The printed row offsets are the positional ones. -/
theorem off1_blk (d : Dev nD) (k : Fin 8) : k0_off1 d (BitVec.ofNat 32 (32 * k.val)) = ![32 * (tO d k).val, 0] := by
  rw [k0_off1_eq]
  have e : 512 * (d.val % 2) + 256 * (d.val / 4) + 32 * k.val = 32 * (tO d k).val := by
    show _ = 32 * (8 * (2 * (d.val % 2) + d.val / 4) + k.val); omega
  rw [e]
theorem off2_blk (d : Dev nD) (k : Fin 8) : k0_off2 d (BitVec.ofNat 32 (32 * k.val)) = ![32 * (tO d k).val, 0] := by
  rw [k0_off2_eq]
  have e : 512 * (d.val % 2) + 256 * (d.val / 4) + 32 * k.val = 32 * (tO d k).val := by
    show _ = 32 * (8 * (2 * (d.val % 2) + d.val / 4) + k.val); omega
  rw [e]
theorem off3_blk (d : Dev nD) (i : Fin 4) : k0_off3 d (BitVec.ofNat 32 (32 * i.val)) = ![32 * (tO (xp d) (lo i)).val, 0] := by
  rw [k0_off3_eq]
  have e : (512 * (d.val % 2) + 32 * i.val + 256) - 256 * (d.val / 4) = 32 * (tO (xp d) (lo i)).val := by
    have hd : d.val < 8 := d.isLt
    show _ = 32 * (8 * (2 * (((2 * ((d.val / 2) % 2) + (d.val % 2) + 4) - 4 * (d.val / 4)) % 2)
      + ((2 * ((d.val / 2) % 2) + (d.val % 2) + 4) - 4 * (d.val / 4)) / 4) + i.val)
    omega
  rw [e]
theorem off4_blk (d : Dev nD) (i : Fin 4) : k0_off4 d (BitVec.ofNat 32 (128 + 32 * i.val)) = ![32 * (tO (zp d) (hi i)).val, 0] := by
  rw [k0_off4_eq]
  have e : (256 * (d.val / 4) + 32 * i.val + 640) - 512 * (d.val % 2) = 32 * (tO (zp d) (hi i)).val := by
    have hd : d.val < 8 := d.isLt
    show _ = 32 * (8 * (2 * (((4 * (d.val / 4) + 2 * ((d.val / 2) % 2) + 1) - (d.val % 2)) % 2)
      + ((4 * (d.val / 4) + 2 * ((d.val / 2) % 2) + 1) - (d.val % 2)) / 4) + (4 + i.val))
    omega
  rw [e]

theorem o1_eq (d : Dev nD) (k : Fin 8) : o1 d k = ob (tO d k) := oSl_congr (off1_blk d k) _ _
theorem o3_eq (d : Dev nD) (i : Fin 4) : o3 d i = ob (tO (xp d) (lo i)) := oSl_congr (off3_blk d i) _ _
theorem o4_eq (d : Dev nD) (i : Fin 4) : o4 d i = ob (tO (zp d) (hi i)) := oSl_congr (off4_blk d i) _ _
theorem x1_eq (d : Dev nD) (k : Fin 8) : x1 d k = xb (tO d k) := xSl_congr (off1_blk d k) _ _

/-! ## The printed loads and stores stay inside their block -/

theorem xload_sub (c : Dev nD) (k : Fin 8) :
    (xM : Memref sig .tc .vmem S1024x512 .f32).view.setOn (Rect.unit (s := S1024x512) (k0_off2 c (BitVec.ofNat 32 (32 * k.val))) S32x512.size (k0_off2_inb c k)).toLoadRect.set
      ⊆ (xb (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      (xM : Memref sig .tc .vmem S1024x512 .f32).view.setOn (Rect.unit (s := S1024x512) off S32x512.size h).toLoadRect.set
        ⊆ ((xM : Memref sig .tc .vmem S1024x512 .f32).view.slice (Rect.unit (s := S1024x512) ![32 * (tO c k).val, 0] S32x512.size h')).set := by
    intro off h h' e; subst e; rw [View.set_slice]; exact Finset.Subset.refl _
  exact key _ _ _ e
theorem oload_sub (c : Dev nD) (k : Fin 8) :
    (oM : Memref sig .tc .vmem S1024x512 .f32).view.setOn (Rect.unit (s := S1024x512) (k0_off2 c (BitVec.ofNat 32 (32 * k.val))) S32x512.size (k0_off2_inb c k)).toLoadRect.set
      ⊆ (ob (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      (oM : Memref sig .tc .vmem S1024x512 .f32).view.setOn (Rect.unit (s := S1024x512) off S32x512.size h).toLoadRect.set
        ⊆ ((oM : Memref sig .tc .vmem S1024x512 .f32).view.slice (Rect.unit (s := S1024x512) ![32 * (tO c k).val, 0] S32x512.size h')).set := by
    intro off h h' e; subst e; rw [View.set_slice]; exact Finset.Subset.refl _
  exact key _ _ _ e
theorem ostore_sub (c : Dev nD) (k : Fin 8) :
    ((oM : Memref sig .tc .vmem S1024x512 .f32).access (Rect.unit (s := S1024x512) (k0_off2 c (BitVec.ofNat 32 (32 * k.val))) S32x512.size (k0_off2_inb c k))).setOn Finset.univ
      ⊆ (ob (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      ((oM : Memref sig .tc .vmem S1024x512 .f32).access (Rect.unit (s := S1024x512) off S32x512.size h)).setOn Finset.univ
        ⊆ ((oM : Memref sig .tc .vmem S1024x512 .f32).view.slice (Rect.unit (s := S1024x512) ![32 * (tO c k).val, 0] S32x512.size h')).set := by
    intro off h h' e; subst e; exact Finset.Subset.refl _
  exact key _ _ _ e
theorem yload_sub (k : Fin 8) :
    (yM : Memref sig .tc .vmem S256x512 .f32).view.setOn (Rect.unit (s := S256x512) ![32 * k.val, 0] S32x512.size (yk_inb k)).toLoadRect.set
      ⊆ (yk k).view.set := by
  show _ ⊆ ((yM : Memref sig .tc .vmem S256x512 .f32).view.slice (Rect.unit (s := S256x512) ![32 * k.val, 0] S32x512.size (yk_inb k))).set
  rw [View.set_slice]; exact Finset.Subset.refl _

/-- info: 'Cert.KernelIdeal.AR.out_split' depends on axioms: [propext, Classical.choice, Quot.sound] -/
#guard_msgs in #print axioms out_split
/-- info: 'Cert.KernelIdeal.AR.blocks_regroup' depends on axioms: [propext, Classical.choice, Quot.sound] -/
#guard_msgs in #print axioms blocks_regroup

end Cert.KernelIdeal.AR
end
-- ==== Proof.ArKernelIdeal.Tables.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Tables
variable (c : Dev nD)

theorem duties_bar : (Rd (F := F) m ρ).duties (barCell c) 0 = Finset.univ := by
  dsimp only [Rd]
  rw [if_pos ⟨rfl, rfl⟩]
  exact if_pos rfl
theorem duties_dma (q : DmaSem sig) (h : 2 ≤ q.val) : (Rd (F := F) m ρ).duties (dCell c q) 0 = {0} := by
  dsimp only [Rd]
  rw [if_pos ⟨rfl, rfl⟩]
  exact if_pos h
theorem duties_later (g : GSem nD τ sig) : ∀ r, 1 ≤ r → (Rd (F := F) m ρ).duties g r = ∅ := by
  intro r hr
  dsimp only [Rd]
  rw [if_neg fun h => by omega]
theorem amount_bar (j : Fin 3) : (Rd (F := F) m ρ).amount (barCell c) 0 j = 1 := by
  rfl
theorem amount_y (q : DmaSem sig) (h : q.val < 18) (d : Fin 3) : (Rd (F := F) m ρ).amount (dCell c q) 0 d = Ny := by
  dsimp only [Rd]
  exact if_pos h
theorem amount_o (q : DmaSem sig) (h : 18 ≤ q.val) (d : Fin 3) : (Rd (F := F) m ρ).amount (dCell c q) 0 d = No := by
  dsimp only [Rd]
  exact if_neg (by omega)
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_y (q : DmaSem sig) (h2 : 2 ≤ q.val) (h : q.val < 18) : (Rd (F := F) m ρ).expect (dCell c q) 0 = Ny := by
  unfold Schedule.expect Schedule.amountOf
  rw [duties_dma m ρ c q h2, Finset.sum_singleton, amount_y m ρ c q h]
theorem expect_o (q : DmaSem sig) (h : 18 ≤ q.val) : (Rd (F := F) m ρ).expect (dCell c q) 0 = No := by
  unfold Schedule.expect Schedule.amountOf
  rw [duties_dma m ρ c q (by omega), Finset.sum_singleton, amount_o m ρ c q h]
theorem payload_bar (j : Fin 3) : (Rd (F := F) m ρ).payload (barCell c) 0 j = barPay c j := by
  rfl
theorem payload_dma (q : DmaSem sig) (d : Fin 3) : (Rd (F := F) m ρ).payload (dCell c q) 0 d = dmaPay m ρ c q := by
  rfl
theorem dmaPay_ys (c : Dev nD) (k : Fin 8) : dmaPay m ρ c (ysS k) = ysPay m ρ c k := by
  have hk := k.isLt
  have hv : (ysS k).val = 2 + k.val := rfl
  unfold dmaPay
  rw [dif_neg (by omega), dif_pos (by omega)]
  exact congrArg (ysPay m ρ c) (Fin.ext (by show (ysS k).val - 2 = k.val; omega))
theorem dmaPay_yr (c : Dev nD) (k : Fin 8) : dmaPay m ρ c (yrS k) = yrPay m ρ c k := by
  have hk := k.isLt
  have hv : (yrS k).val = 10 + k.val := rfl
  unfold dmaPay
  rw [dif_neg (by omega), dif_neg (by omega), dif_pos (by omega)]
  exact congrArg (yrPay m ρ c) (Fin.ext (by show (yrS k).val - 10 = k.val; omega))
theorem dmaPay_xs (c : Dev nD) (k : Fin 12) : dmaPay m ρ c (xsS k) = xsPay m ρ c k := by
  have hk := k.isLt
  have hv : (xsS k).val = 18 + k.val := rfl
  unfold dmaPay
  rw [dif_neg (by omega), dif_neg (by omega), dif_neg (by omega), dif_pos (by omega)]
  exact congrArg (xsPay m ρ c) (Fin.ext (by show (xsS k).val - 18 = k.val; omega))
theorem dmaPay_xr (c : Dev nD) (k : Fin 12) : dmaPay m ρ c (xrS k) = xrPay m ρ c k := by
  have hk := k.isLt
  have hv : (xrS k).val = 30 + k.val := rfl
  unfold dmaPay
  rw [dif_neg (by omega), dif_neg (by omega), dif_neg (by omega), dif_neg (by omega), dif_pos (by omega)]
  exact congrArg (xrPay m ρ c) (Fin.ext (by show (xrS k).val - 30 = k.val; omega))
theorem dmaPay_zs (c : Dev nD) (k : Fin 12) : dmaPay m ρ c (zsS k) = zsPay m ρ c k := by
  have hk := k.isLt
  have hv : (zsS k).val = 42 + k.val := rfl
  unfold dmaPay
  rw [dif_neg (by omega), dif_neg (by omega), dif_neg (by omega), dif_neg (by omega), dif_neg (by omega), dif_pos (by omega)]
  exact congrArg (zsPay m ρ c) (Fin.ext (by show (zsS k).val - 42 = k.val; omega))
theorem dmaPay_zr (c : Dev nD) (k : Fin 12) : dmaPay m ρ c (zrS k) = zrPay m ρ c k := by
  have hk := k.isLt
  have hv : (zrS k).val = 54 + k.val := rfl
  unfold dmaPay
  rw [dif_neg (by omega), dif_neg (by omega), dif_neg (by omega), dif_neg (by omega), dif_neg (by omega), dif_neg (by omega)]
  exact congrArg (zrPay m ρ c) (Fin.ext (by show (zrS k).val - 54 = k.val; omega))

/-- The rest of the barrier cell's round, no duty taken: the three neighbours' payloads. -/
theorem rest_bar : bigSep ((Rd (F := F) m ρ).duties (barCell c) 0 \ ∅) (fun d => (Rd (F := F) m ρ).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma (q : DmaSem sig) (h : 2 ≤ q.val) :
    bigSep ((Rd (F := F) m ρ).duties (dCell c q) 0 \ ∅) (fun d => (Rd (F := F) m ρ).payload (dCell c q) 0 d) = dmaPay m ρ c q := by
  rw [Finset.sdiff_empty, duties_dma m ρ c q h, bigSep_singleton, payload_dma]

/-- What device `c` hands over with its three entry signals: the duty it pays on each neighbour's barrier cell, resolved
    (the neighbour of the neighbour is `c`). -/
theorem barPay_yp : barPay (F := F) (yp c) 0 = bigSep Finset.univ fun k : Fin 8 => free (F := F) c (yk k) := by
  show (bigSep Finset.univ fun k : Fin 8 => free (F := F) (yp (yp c)) (yk k)) = _
  rw [yp_yp]
theorem barPay_xp : barPay (F := F) (xp c) 1
    = iprop((bigSep Finset.univ fun k : Fin 8 => free (F := F) c (ob (tO (xp c) k))) ∗ bigSep Finset.univ fun i : Fin 4 => free (F := F) c (ob (tO (xp (zp c)) (hi i)))) := by
  show iprop((bigSep Finset.univ fun k : Fin 8 => free (F := F) (xp (xp c)) (ob (tO (xp c) k))) ∗ bigSep Finset.univ fun i : Fin 4 => free (F := F) (xp (xp c)) (ob (tO (zp (xp c)) (hi i)))) = _
  rw [xp_xp, xp_zp]
theorem barPay_zp : barPay (F := F) (zp c) 2
    = iprop((bigSep Finset.univ fun k : Fin 8 => free (F := F) c (ob (tO (zp c) k))) ∗ bigSep Finset.univ fun i : Fin 4 => free (F := F) c (ob (tO (xp (zp c)) (lo i)))) := by
  show iprop((bigSep Finset.univ fun k : Fin 8 => free (F := F) (zp (zp c)) (ob (tO (zp c) k))) ∗ bigSep Finset.univ fun i : Fin 4 => free (F := F) (zp (zp c)) (ob (tO (xp (zp c)) (lo i)))) = _
  rw [zp_zp]

end Tables

instance payload_storable (g : GSem nD τ sig) (r : ℕ) (d : Fin 3) :
    BI.Storable (upEmb : UEmb _ 𝕄) ((Rd (F := F) m ρ).payload g r d) := by
  rcases g with ⟨⟨c, u⟩, sm⟩
  cases sm with
  | reg s =>
    show BI.Storable upEmb (barPay (F := F) c d)
    unfold barPay free
    split <;> infer_instance
  | dma q =>
    show BI.Storable upEmb (dmaPay m ρ c q)
    unfold dmaPay ysPay yrPay xsPay xrPay zsPay zrPay
    (repeat' split) <;> infer_instance

/-! ## The cells by index, and one cell's invariant out of the records -/

/-- The index of a scratch DMA semaphore among a device's 65 cells. -/
def ix (q : DmaSem sig) (h : 2 ≤ q.val) : Fin 65 := ⟨q.val - 1, by have := dmaSem_lt q; omega⟩
theorem kcell_bar (c : Dev nD) : kcell (c, (0 : Fin 65)) = barCell c := by
  rfl
theorem kcell_dma (c : Dev nD) (q : DmaSem sig) (h : 2 ≤ q.val) : kcell (c, ix q h) = dCell c q := by
  have hq := dmaSem_lt q
  show ((c : Thread nD τ), csem (ix q h)) = ((c : Thread nD τ), SemLoc.dma q)
  unfold csem
  rw [dif_neg (by show ¬ (q.val - 1 = 0); omega)]
  exact congrArg (fun x : DmaSem sig => ((c : Thread nD τ), SemLoc.dma x)) (Fin.ext (by show q.val - 1 + 1 = q.val; omega))

instance records_persistent (K : Dev nD × Fin 65 → ℕ) : BI.Persistent (records m ρ K) := by
  unfold records
  infer_instance

theorem inv_bar (K : Dev nD × Fin 65 → ℕ) (c : Dev nD) : records m ρ K ⊢ cellInv ER (Rd m ρ) (K (c, 0)) (barCell c) := by
  unfold records
  refine (Idealize.SL.BI.sep_and.trans Idealize.SL.BI.and_elimL).trans ?_
  refine (bigSep_elim (Finset.mem_univ ((c, (0 : Fin 65)) : Dev nD × Fin 65))).trans ?_
  rw [kcell_bar]
  exact Idealize.SL.BI.Entails.refl _
theorem inv_dma (K : Dev nD × Fin 65 → ℕ) (c : Dev nD) (q : DmaSem sig) (h : 2 ≤ q.val) :
    records m ρ K ⊢ cellInv ER (Rd m ρ) (K (c, ix q h)) (dCell c q) := by
  unfold records
  refine (Idealize.SL.BI.sep_and.trans Idealize.SL.BI.and_elimL).trans ?_
  refine (bigSep_elim (Finset.mem_univ ((c, ix q h) : Dev nD × Fin 65))).trans ?_
  rw [kcell_dma]
  exact Idealize.SL.BI.Entails.refl _
theorem reached_bar (K : Dev nD × Fin 65 → ℕ) (c : Dev nD) : records m ρ K ⊢ (reached ER (barCell c) 0 : sProp 𝕄) := by
  unfold records
  refine (Idealize.SL.BI.sep_and.trans Idealize.SL.BI.and_elimR).trans ?_
  refine (bigSep_elim (Finset.mem_univ ((c, (0 : Fin 65)) : Dev nD × Fin 65))).trans ?_
  rw [kcell_bar]
  exact Idealize.SL.BI.Entails.refl _
theorem reached_dma (K : Dev nD × Fin 65 → ℕ) (c : Dev nD) (q : DmaSem sig) (h : 2 ≤ q.val) :
    records m ρ K ⊢ (reached ER (dCell c q) 0 : sProp 𝕄) := by
  unfold records
  refine (Idealize.SL.BI.sep_and.trans Idealize.SL.BI.and_elimR).trans ?_
  refine (bigSep_elim (Finset.mem_univ ((c, ix q h) : Dev nD × Fin 65))).trans ?_
  rw [kcell_dma]
  exact Idealize.SL.BI.Entails.refl _

/-! ## The axioms the main statements rest on -/

/-- info: 'Cert.KernelIdeal.AR.payload_storable' depends on axioms: [propext, Classical.choice, Quot.sound] -/
#guard_msgs in #print axioms payload_storable

/-- info: 'Cert.KernelIdeal.AR.inv_dma' depends on axioms: [propext, Classical.choice, Quot.sound] -/
#guard_msgs in #print axioms inv_dma

end Cert.KernelIdeal.AR
end
-- ==== Proof.ArKernelIdeal.Owes.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What is owed: one payment peeled at a time -/

theorem owed_peel (c : Dev nD) (n : ℕ) (h : n < 35) : owed c n = owed c (n + 1) + tallyAt (job c n).1 () (job c n).2 := by
  unfold owed
  rw [Finset.sum_eq_sum_Ico_succ_bot h, add_comm]
theorem owed_done (c : Dev nD) : owed c 35 = 0 := by
  unfold owed
  rw [Finset.Ico_self, Finset.sum_empty]

/-- The level of the `j`-th payment's cell: 1 for the entry signals, 2 for the landing buffer's receive cells, 3 for the first
    exchange's, 4 for the forwards'. -/
def lvJob (j : ℕ) : ℕ := if j < 3 then 1 else if j < 11 then 2 else if j < 27 then 3 else 4
theorem lv_job (c : Dev nD) (j : ℕ) (h : j < 35) : lv (job c j).1 () = lvJob j := by
  interval_cases j <;> rfl
theorem job_tc (c : Dev nD) (j : ℕ) : (job c j).1.1.2 = .tc := by
  unfold job
  split <;> rfl

/-- A cell a device still owes before its `n`-th payment is the cell of a payment from the `n`-th on. -/
theorem owed_pos {c : Dev nD} {n : ℕ} {g : GSem nD τ sig} {u : Unit} (h : 0 < owed c n g u) :
    ∃ j, n ≤ j ∧ j < 35 ∧ g = (job c j).1 := by
  unfold owed at h
  obtain ⟨j, hj, hpos⟩ := Pipeline.sum_pos_exists h
  rw [Finset.mem_Ico] at hj
  exact ⟨j, hj.1, hj.2, (Pipeline.tallyAt_pos hpos).1⟩

theorem lvJob_pos (j : ℕ) : 0 < lvJob j := by
  unfold lvJob
  split_ifs <;> decide

theorem L_of_ne (g : GSem nD τ sig) (h : g.1.2 ≠ .tc) : L g = ∅ := if_neg h
theorem L_tc (c : Dev nD) (sm : SemLoc sig) : L ((c : Thread nD τ), sm) = {()} := if_pos rfl

/-- A wait on a cell of `c` below every payment still outstanding is allowed. -/
theorem mayWait_gen (c : Dev nD) (sm : SemLoc sig) (n : ℕ) (h : ∀ j, n ≤ j → j < 35 → lv ((c : Thread nD τ), sm) () < lvJob j) :
    (levAts L lv : sProp 𝕄) ⊢ MayWait (c : Thread nD τ) sm () (owed c n) := by
  refine Pipeline.mayWait_of_levAts (L := L) (lev := lv) (by rw [L_tc]; exact Finset.mem_singleton_self _) fun g i hg => ?_
  obtain ⟨j, hnj, hj, rfl⟩ := owed_pos hg
  refine ⟨?_, ?_⟩
  · unfold L
    rw [if_pos (job_tc c j)]
    exact Finset.mem_singleton_self _
  · rw [lv_job c j hj]
    exact h j hnj hj

/-- The pipeline's own waits on its staging cells (level 0), before the body (owing everything) and after it (owing nothing). -/
theorem mayWait_stage (c : Dev nD) (q : DmaSem sig) (hq : q.val < 2) (O : CellTallies nD τ sig Unit) (hO : O = owed c 0 ∨ O = 0) :
    (levAts L lv : sProp 𝕄) ⊢ MayWait (c : Thread nD τ) (.dma q) () O := by
  rcases hO with rfl | rfl
  · refine mayWait_gen c (.dma q) 0 fun j _ _ => ?_
    have h0 : lv ((c : Thread nD τ), SemLoc.dma q) () = 0 := by
      show (if q.val < 10 then 0 else _) = 0
      rw [if_pos (by omega)]
    rw [h0]
    exact lvJob_pos j
  · rw [MayWait_zero]
    iintro -
    iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The launch credit: what every device owes a cell, summed over the devices -/

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- One payment's launch credit: when every device `d` makes its `j`-th payment to the same cell of its neighbour `f d`, `f` an
    involution, the launch deals device `c` that payment's amount on its own such cell. -/
theorem launch_one (f : Dev nD → Dev nD) (hf : ∀ c, f (f c) = c) (c : Dev nD) (j : ℕ)
    (h : ∀ d : Dev nD, job d j = ((((f d : Dev nD) : Thread nD τ), (job c j).1.2), (job c j).2)) :
    (Pipeline.launchCred (fun d : Dev nD => tallyAt (job d j).1 () (job d j).2) c : sProp 𝕄)
      ⊢ cred (tallyAt ((c : Thread nD τ), (job c j).1.2) () (job c j).2) := by
  rw [show (fun d : Dev nD => (tallyAt (job d j).1 () (job d j).2 : CellTallies nD τ sig Unit))
      = fun d => tallyAt (((f d : Dev nD) : Thread nD τ), (job c j).1.2) () (job c j).2 from funext fun d => by rw [h d]]
  exact Pipeline.launchCred_tallyAt _ f f hf hf () _ c

/-- Each of the 35 payments goes to a neighbour along one axis. -/
theorem launch_each (c : Dev nD) (j : ℕ) (hj : j < 35) :
    (Pipeline.launchCred (fun d : Dev nD => tallyAt (job d j).1 () (job d j).2) c : sProp 𝕄)
      ⊢ cred (tallyAt ((c : Thread nD τ), (job c j).1.2) () (job c j).2) := by
  interval_cases j <;>
    first
    | exact launch_one yp yp_yp c _ (fun d => rfl)
    | exact launch_one xp xp_xp c _ (fun d => rfl)
    | exact launch_one zp zp_zp c _ (fun d => rfl)

/-- A separating conjunction over the 35 payments, over eight blocks, over twelve, written out. -/
theorem bigSep_Ico35 (Φ : ℕ → sProp 𝕄) : bigSep (Finset.Ico 0 35) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34) :=
  bigSep_eq_bigSepL_of_eq [0, 1, 2, 3, 4, 5, 6, 7, 8, 9, 10, 11, 12, 13, 14, 15, 16, 17, 18, 19, 20, 21, 22, 23, 24, 25, 26, 27, 28, 29, 30, 31, 32, 33, 34] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- Dealt from what the eight devices owe at launch, a device holds three units on its barrier cell and a block's credit on
    each of its receive cells. -/
theorem launch_creds (c : Dev nD) : (Pipeline.launchCred (fun d : Dev nD => owed d 0) c : sProp 𝕄) ⊢ creds (F := F) c := by
  have h1 : (Pipeline.launchCred (fun d : Dev nD => owed d 0) c : sProp 𝕄)
      ⊢ bigSep (Finset.Ico 0 35) fun j => cred (tallyAt ((c : Thread nD τ), (job c j).1.2) () (job c j).2) := by
    unfold owed
    rw [Pipeline.launchCred_sum (Finset.Ico 0 35) (fun j (d : Dev nD) => tallyAt (job d j).1 () (job d j).2) c]
    exact bigSep_mono fun j hj => launch_each c j (Finset.mem_Ico.mp hj).2
  refine h1.trans ?_
  rw [bigSep_Ico35]
  unfold creds
  rw [bigSep_fin8, bigSep_fin12, bigSep_fin12]
  simp only [job]
  iintro ⟨H0, H1, H2, H3, H4, H5, H6, H7, H8, H9, H10, H11, H12, H13, H14, H15, H16, H17, H18, H19, H20, H21, H22, H23, H24, H25, H26, H27, H28, H29, H30, H31, H32, H33, H34⟩
  isplitl [H0 H1 H2]
  · iapply (cred_three (barCell c))
    isplitl [H0]; · iexact H0
    isplitl [H1]; · iexact H1
    iexact H2
  iframe

/-- info: 'Cert.KernelIdeal.AR.mayWait_gen' depends on axioms: [propext, Classical.choice, Quot.sound] -/
#guard_msgs in #print axioms mayWait_gen

/-- info: 'Cert.KernelIdeal.AR.waits' depends on axioms: [propext, Classical.choice, Quot.sound] -/
#guard_msgs in #print axioms waits

/-- info: 'Cert.KernelIdeal.AR.launch_creds' depends on axioms: [propext, Classical.choice, Quot.sound] -/
#guard_msgs in #print axioms launch_creds

end Cert.KernelIdeal.AR
end
-- ==== Proof.ArKernelIdeal.Values.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The stores' payloads are one function: the entrywise sum of the two loaded blocks -/

def addv (a b : Vec F S32x512 .f32) : FVec F S32x512 .f32 := fun i => FloatOps.addf (F := F) (a i) (b i)

theorem pay1_eq (a b : Vec F S32x512 .f32) : k0_pay1 (F := F) a b = addv a b := by
  unfold k0_pay1 addv; simp only [shapeCast_self]; rfl
theorem pay2_eq (a b : Vec F S32x512 .f32) : k0_pay2 (F := F) a b = addv a b := by
  unfold k0_pay2 addv; simp only [shapeCast_self]; rfl
theorem pay3_eq (a b : Vec F S32x512 .f32) : k0_pay3 (F := F) a b = addv a b := by
  unfold k0_pay3 addv; simp only [shapeCast_self]; rfl
theorem pay4_eq (a b : Vec F S32x512 .f32) : k0_pay4 (F := F) a b = addv a b := by
  unfold k0_pay4 addv; simp only [shapeCast_self]; rfl
theorem pay56_eq (a b : Vec F S32x512 .f32) : k0_pay6 (F := F) (k0_pay5 (F := F) a) b = addv a b := by
  unfold k0_pay6 k0_pay5 addv; simp only [shapeCast_self]; rfl
theorem pay7_eq (a b : Vec F S32x512 .f32) : k0_pay7 (F := F) a b = addv a b := by
  unfold k0_pay7 addv; simp only [shapeCast_self]; rfl
theorem pay8_eq (a b : Vec F S32x512 .f32) : k0_pay8 (F := F) a b = addv a b := by
  unfold k0_pay8 addv; simp only [shapeCast_self]; rfl
theorem pay9_eq (a b : Vec F S32x512 .f32) : k0_pay9 (F := F) a b = addv a b := by
  unfold k0_pay9 addv; simp only [shapeCast_self]; rfl

/-! ## What the result buffers end holding depends on the device's `y` only -/

theorem own_xp (c : Dev nD) (j : Nat) : own (xp c) j = own c j := by
  have hc : c.val < 8 := c.isLt
  apply Fin.ext; simp only [own, xp]; omega
theorem own_zp (c : Dev nD) (j : Nat) : own (zp c) j = own c j := by
  have hc : c.val < 8 := c.isLt
  apply Fin.ext; simp only [own, zp]; omega

theorem Out_xp (c : Dev nD) : Out m ρ (xp c) = Out m ρ c := by
  funext i; simp only [Out, own_xp]
theorem Out_zp (c : Dev nD) : Out m ρ (zp c) = Out m ρ c := by
  funext i; simp only [Out, own_zp]

/-! ## Block arithmetic: where the quarter a device reduces starts -/

theorem qo_yp (c : Dev nD) : qo (yp c) = qo c := by
  have hc : c.val < 8 := c.isLt
  simp only [qo, yp]; omega

/-- The rows of the quarter `d` reduces start at row `256 (qo d)`. -/
theorem off1_zero (d : Dev nD) : k0_off1 d 0#32 = ![256 * qo d, 0] := by
  have h := k0_off1_eq d ⟨0, by decide⟩
  have e : 512 * (d.val % 2) + 256 * (d.val / 4) + 32 * ((⟨0, by decide⟩ : Fin 8) : Fin 8).val = 256 * qo d := by
    simp only [qo]; omega
  rw [e] at h; exact h

/-- Block `k` of the quarter `c` reduces is block `tO c k` of the buffer. -/
theorem off2_blk (c : Dev nD) (k : Fin 8) : k0_off2 c (BitVec.ofNat 32 (32 * k.val)) = ![32 * (tO c k).val, 0] := by
  have h := k0_off2_eq c k
  have e : 512 * (c.val % 2) + 256 * (c.val / 4) + 32 * k.val = 32 * (tO c k).val := by
    simp only [tO, qo]; omega
  rw [e] at h; exact h

theorem own_qo (c : Dev nD) : own c (qo c) = c := by revert c; decide

/-- On the rows of the quarter `c` reduces, its result buffer ends holding the sum of its own block of `x` and its
    y-neighbour's. -/
theorem Out_at (c : Dev nD) (i : (cc0_stg1_0 : Ref sig .tc).ty.shape.Idx) (h : (i 0).val / 256 = qo c) :
    Out m ρ c i = FloatOps.addf (F := F) (xs m ρ c i) (xs m ρ (yp c) i) := by
  show FloatOps.addf (F := F) (xs m ρ (own c ((i 0).val / 256)) i) (xs m ρ (yp (own c ((i 0).val / 256))) i) = _
  rw [h, own_qo]

/-! ## Landings -/

/-- A block of a result buffer holding `Out` there, copied onto the same block of a device whose result buffer must end
    holding the same, leaves that block as it must end. -/
theorem land_o (c p : Dev nD) (hp : Out m ρ p = Out m ρ c) (t : Fin 32) (fd : Buf (Elt F) ((ob t).view.loc ((p : Dev nD) : Thread nD τ))) :
    blkPts (F := F) p (ob t) fullShare ((ob t).view.write (Elt F) fd ((ob t).view.read (Elt F) (Out m ρ c)) Finset.univ)
      ⊢ blkPts (F := F) p (ob t) fullShare (Out m ρ p) := by
  refine Entails.of_eq (pointsTo_congr fun i hi => ?_)
  rw [View.write_read_eq_piecewise, View.setOn_univ, Finset.piecewise_eq_of_mem _ _ _ hi, hp]

/-- Block `k` of the quarter `c` reduces, read off `c`'s block of `x` and copied onto block `k` of the y-neighbour's landing
    buffer, is what that buffer must end holding there. -/
theorem land_y (c : Dev nD) (k : Fin 8) (fd : Buf (Elt F) ((yk k).view.loc ((yp c : Dev nD) : Thread nD τ))) :
    blkPts (F := F) (yp c) (yk k) fullShare ((yk k).view.write (Elt F) fd ((xb (tO c k)).view.read (Elt F) (xs m ρ c)) Finset.univ)
      ⊢ yrPay m ρ (yp c) k := by
  unfold yrPay
  refine Entails.of_eq (pointsTo_congr fun i hi => ?_)
  obtain ⟨x, -, rfl⟩ := Finset.mem_map.mp hi
  rw [View.write_emb_of_mem _ _ (Finset.mem_univ x), View.read_apply]
  unfold Yb
  rw [yp_yp]
  show xs m ρ c _ = xs m ρ c _
  refine congrArg (xs m ρ c) ?_
  have hx0 : (x 0).val < 32 := idx2_lt0 x
  have hx1 : (x 1).val < 512 := idx2_lt1 x
  have hq := qo_lt c
  have hk := k.isLt
  funext a
  apply Fin.ext
  match a with
  | ⟨0, _⟩ =>
    show 32 * (tO c k).val + 1 * (x 0).val = (k0_off1 (yp c) 0#32 0 + (32 * k.val + 1 * (x 0).val)) % 1024
    rw [off1_zero, qo_yp]; simp only [tO, Matrix.cons_val_zero]; omega
  | ⟨1, _⟩ =>
    show 0 + 1 * (x 1).val = (0 + 1 * (x 1).val) % 512
    omega

/-- The sum of block `k` of `c`'s own rows of `x` and block `k` of its landing buffer, stored over block `k` of the quarter `c`
    reduces, is what the result buffer must end holding there. -/
theorem store_o (c : Dev nD) (k : Fin 8) (fo : Buf (Elt F) ((c : Thread nD τ).loc cc0_stg1_0)) :
    ((View.loc (c : Thread nD τ) ((oM : Memref sig .tc .vmem S1024x512 .f32).access (Rect.unit (s := S1024x512) (k0_off2 c (BitVec.ofNat 32 (32 * k.val))) S32x512.size (k0_off2_inb c k))))
        ↦[(ob (tO c k)).view.set]{fullShare}
          View.write (Elt F) ((oM : Memref sig .tc .vmem S1024x512 .f32).access (Rect.unit (s := S1024x512) (k0_off2 c (BitVec.ofNat 32 (32 * k.val))) S32x512.size (k0_off2_inb c k))) fo
            (addv ((xM : Memref sig .tc .vmem S1024x512 .f32).view.readAt (Elt F) (Rect.unit (s := S1024x512) (k0_off2 c (BitVec.ofNat 32 (32 * k.val))) S32x512.size (k0_off2_inb c k)).toLoadRect (xs m ρ c))
                  ((yM : Memref sig .tc .vmem S256x512 .f32).view.readAt (Elt F) (Rect.unit (s := S256x512) ![32 * k.val, 0] S32x512.size (yk_inb k)).toLoadRect (Yb m ρ c)))
            Finset.univ : sProp 𝕄)
      ⊢ blkPts (F := F) c (ob (tO c k)) fullShare (Out m ρ c) := by
  refine Entails.of_eq (pointsTo_congr fun i hi => ?_)
  obtain ⟨x, -, rfl⟩ := Finset.mem_map.mp hi
  have hx0 : (x 0).val < 32 := idx2_lt0 x
  have hx1 : (x 1).val < 512 := idx2_lt1 x
  have hq := qo_lt c
  have hk := k.isLt
  have he : ((oM : Memref sig .tc .vmem S1024x512 .f32).access (Rect.unit (s := S1024x512) (k0_off2 c (BitVec.ofNat 32 (32 * k.val))) S32x512.size (k0_off2_inb c k))).emb x
      = (ob (tO c k)).view.emb x := by
    funext a; apply Fin.ext
    show (k0_off2 c (BitVec.ofNat 32 (32 * k.val))) a + 1 * (x a).val = (![32 * (tO c k).val, 0] : Fin 2 → Nat) a + 1 * (x a).val
    rw [off2_blk]
  conv_lhs => rw [← he, View.write_emb_of_mem _ _ (Finset.mem_univ x)]
  rw [Out_at m ρ c _ (by show (32 * (tO c k).val + 1 * (x 0).val) / 256 = qo c; simp only [tO]; omega)]
  show FloatOps.addf (F := F) (xs m ρ c _) (Yb m ρ c _) = FloatOps.addf (F := F) (xs m ρ c _) (xs m ρ (yp c) _)
  refine congrArg₂ (FloatOps.addf (F := F)) (congrArg (xs m ρ c) ?_) ?_
  · funext a; apply Fin.ext
    show (k0_off2 c (BitVec.ofNat 32 (32 * k.val))) a + 1 * (x a).val = (![32 * (tO c k).val, 0] : Fin 2 → Nat) a + 1 * (x a).val
    rw [off2_blk]
  · show xs m ρ (yp c) _ = xs m ρ (yp c) _
    refine congrArg (xs m ρ (yp c)) ?_
    funext a; apply Fin.ext
    match a with
    | ⟨0, _⟩ =>
      show (k0_off1 c 0#32 0 + (32 * k.val + 1 * (x 0).val)) % 1024 = 32 * (tO c k).val + 1 * (x 0).val
      rw [off1_zero]; simp only [tO, Matrix.cons_val_zero]; omega
    | ⟨1, _⟩ =>
      show (0 + 1 * (x 1).val) % 512 = 0 + 1 * (x 1).val
      omega

/-- info: 'Cert.KernelIdeal.AR.land_o' depends on axioms: [propext, Classical.choice, Quot.sound] -/
#guard_msgs in #print axioms land_o
/-- info: 'Cert.KernelIdeal.AR.land_y' depends on axioms: [propext, Classical.choice, Quot.sound] -/
#guard_msgs in #print axioms land_y
/-- info: 'Cert.KernelIdeal.AR.store_o' depends on axioms: [propext, Classical.choice, Quot.sound] -/
#guard_msgs in #print axioms store_o
end Cert.KernelIdeal.AR
end
-- ==== Proof.ArKernelIdeal.Steps.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Tables
import proofs.«900700_g7700000000000701_dist_ar_v7x_xyz2x2x2_y_m1024_n512_f32_1_alg».proof.Proof.ArKernelIdeal.Owes
import proofs.«900700_g7700000000000701_dist_ar_v7x_xyz2x2x2_y_m1024_n512_f32_1_alg».proof.Proof.ArKernelIdeal.Values
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## One rule per kind of statement of the body

Each is the rounds library's rule at our schedule, the cell's invariant and reached fact taken out of the records, the debt
peeled in program order. -/

/-- An addressed transfer: payment number `n` of `c`, to device `p`, of the block `src` onto the block `dst`. -/
theorem step_send (K : Dev nD × Fin 65 → ℕ) (c p p' : Dev nD) (hp : p' = p)
    (src dst : Memref sig .tc .vmem S32x512 .f32) (sS sR : DmaSem sig) (hsS : 2 ≤ sS.val) (hsR : 2 ≤ sR.val)
    (n N : ℕ) (hn : n < 35) (hjob : job c n = (dCell p sR, N)) (hN : dst.view.dmaCredit = N)
    (haS : (Rd (F := F) m ρ).amount (dCell c sS) 0 0 = N) (haR : (Rd (F := F) m ρ).amount (dCell p sR) 0 0 = N)
    (q : PosShare TreeShare) (fs : Buf (Elt F) (src.view.loc (c : Thread nD τ)))
    (hpS : ((src.view.loc (c : Thread nD τ)) ↦[src.view.set]{q} fs : sProp 𝕄) ⊢ dmaPay m ρ c sS)
    (hpR : ∀ fd : Buf (Elt F) (dst.view.loc ((p : Dev nD) : Thread nD τ)),
      ((dst.view.loc ((p : Dev nD) : Thread nD τ)) ↦[dst.view.set]{fullShare} (dst.view.write (Elt F) fd (src.view.read (Elt F) fs) Finset.univ) : sProp 𝕄) ⊢ dmaPay m ρ p sR)
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k : PUnit → Prog (TpuEff nD τ sig (Elt F) Λ₀ .tc) α} (W : Waits sig Unit) :
    iprop(records m ρ K ∗ ((src.view.loc (c : Thread nD τ)) ↦[src.view.set]{q} fs)
        ∗ (∃ fd : Buf (Elt F) (dst.view.loc ((p : Dev nD) : Thread nD τ)), (dst.view.loc ((p : Dev nD) : Thread nD τ)) ↦[dst.view.set]{fullShare} fd)
        ∗ owes (c : Thread nD τ) (owed c n) W
        ∗ dutyTok ER (dCell c sS) 0 (0 : Fin 3) ∗ dutyTok ER (dCell p sR) 0 (0 : Fin 3))
      ⊢ iprop(((cred (tallyAt (dCell c sS) () N) ∗ owes (c : Thread nD τ) (owed c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p' : Thread nD τ) dst (.dma sS) hsc) (.dma sR) hsrc hdst hsem) k) Q) := by
  subst hp
  iintro ⟨#HR, Hsrc, ⟨%fd, Hdst⟩, HO, HtS, HtR⟩
  iapply (Rounds.wp_send_pointsTo 𝒱₀ ER (Rd m ρ) (c : Thread nD τ) none (c' := (p' : Thread nD τ)) (src := src) (dst := dst)
      (sS := SemLoc.dma sS) (sem := SemLoc.dma sR) (q := q) (fs := fs) (fd := fd)
      (κ₁ := K (c, ix sS hsS)) (κ₂ := K (p', ix sR hsR)) (r₁ := 0) (r₂ := 0) (d₁ := (0 : Fin 3)) (d₂ := (0 : Fin 3))
      (by rw [duties_dma m ρ c sS hsS]; exact Finset.mem_singleton_self _)
      (by rw [duties_dma m ρ p' sR hsR]; exact Finset.mem_singleton_self _)
      () () N hN haS haR (O₀ := owed c n) (owed c (n + 1)) (by rw [owed_peel c n hn, hjob]) (W := W)
      (by rw [payload_dma]; exact hpS) (by rw [payload_dma]; exact hpR fd)) $$ [Hsrc Hdst HO HtS HtR]
  isplitr; · iapply (inv_dma m ρ K c sS hsS); iexact HR
  isplitr; · iapply (inv_dma m ρ K p' sR hsR); iexact HR
  isplitl [Hsrc]; · iexact Hsrc
  isplitl [Hdst]; · iexact Hdst
  isplitl [HO]; · iexact HO
  isplitl [HtS]; · iexact HtS
  isplitr; · iapply (reached_dma m ρ K c sS hsS); iexact HR
  isplitl [HtR]; · iexact HtR
  iapply (reached_dma m ρ K p' sR hsR); iexact HR

/-- A wait on one of `c`'s DMA cells for the whole of its one round, before payment `n`: the cell's payload comes back. -/
theorem step_wait (K : Dev nD × Fin 65 → ℕ) (c : Dev nD) (sm : DmaSem sig) (hs : 2 ≤ sm.val) (N : ℕ)
    (hE : (Rd (F := F) m ρ).expect (dCell c sm) 0 = N) (n : ℕ)
    (hlev : ∀ j, n ≤ j → j < 35 → lv ((c : Thread nD τ), SemLoc.dma sm) () < lvJob j)
    (src dst : Memref sig .tc .vmem S32x512 .f32) (hdN : dst.view.dmaCredit = N)
    {hsrc : src.view.WordExact} {hdst : dst.view.WordExact}
    {α : Type} {Q : α → sProp 𝕄} {k : PUnit → Prog (TpuEff nD τ sig (Elt F) Λ₀ .tc) α} (W : Waits sig Unit) :
    iprop(records m ρ K ∗ levAts L lv ∗ cred (tallyAt (dCell c sm) () N) ∗ owes (c : Thread nD τ) (owed c n) W
        ∗ atPos ER (dCell c sm) 0 (∅ : Finset (Fin 3)) 0)
      ⊢ iprop(((owes (c : Thread nD τ) (owed c n) (insert (SemLoc.dma sm, ()) W) ∗ atPos ER (dCell c sm) 1 (∅ : Finset (Fin 3)) 0 ∗ dmaPay m ρ c sm)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hdN
  iintro ⟨#HR, #Hlev, Hc, HO, Hat⟩ Hk
  iapply (Rounds.wp_wait_rest_token 𝒱₀ ER (Rd m ρ) (c : Thread nD τ) none (κ := K (c, ix sm hs))
      (wpE_waitDma2_eq 𝒱₀ (c : Thread nD τ) none Set.univ) (Set.mem_univ _) () (O := owed c n) (W := W) (R := 0) (m := 0) (T := ∅)
      (by rw [Nat.zero_add, hE])) $$ [Hc HO Hat]
  · isplitr; · iapply (inv_dma m ρ K c sm hs); iexact HR
    isplitl [Hc]; · iexact Hc
    isplitl [HO]; · iexact HO
    isplitr; · iapply (mayWait_gen c (SemLoc.dma sm) n hlev); iexact Hlev
    iexact Hat
  iintro ⟨HO, Hat, -, Hpay⟩
  ihave Hp := (Entails.of_eq (rest_dma m ρ c sm hs)) $$ Hpay
  iapply Hk
  isplitl [HO]; · iexact HO
  isplitl [Hat]; · iexact Hat
  iexact Hp

/-- An entry signal: payment number `n` of `c`, duty `j` of the barrier cell of the neighbour `p`. -/
theorem step_signal (K : Dev nD × Fin 65 → ℕ) (c p p' : Dev nD) (hp : p' = p) (j : Fin 3) (n : ℕ) (hn : n < 35) (hjob : job c n = (barCell p, 1))
    {α : Type} {Q : α → sProp 𝕄} {k : PUnit → Prog (TpuEff nD τ sig (Elt F) Λ₀ .tc) α} (W : Waits sig Unit) :
    iprop(records m ρ K ∗ owes (c : Thread nD τ) (owed c n) W ∗ dutyTok ER (barCell p) 0 j ∗ barPay (F := F) p j)
      ⊢ iprop((owes (c : Thread nD τ) (owed c (n + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((p' : Dev nD) : Thread nD τ) barS 1) k) Q) := by
  subst hp
  iintro ⟨#HR, HO, Htok, Hpay⟩
  iapply (Rounds.wp_signal 𝒱₀ ER (Rd m ρ) (c : Thread nD τ) none (dst := (p' : Thread nD τ)) (sem := barS) (κ := K (p', 0)) (r := 0)
      (d := j) (by rw [duties_bar]; exact Finset.mem_univ _) (amount_bar m ρ p' j) () (O₀ := owed c n) (owed c (n + 1))
      (by rw [owed_peel c n hn, hjob])) $$ [HO Htok Hpay]
  isplitr; · iapply (inv_bar m ρ K p'); iexact HR
  isplitl [HO]; · iexact HO
  isplitl [Htok]; · iexact Htok
  isplitl [Hpay]; · rw [payload_bar]; iexact Hpay
  iapply (reached_bar m ρ K p'); iexact HR

/-- The wait for the three entry signals, still owing every transfer: the three neighbours' payloads come with it. -/
theorem step_barwait (K : Dev nD × Fin 65 → ℕ) (c : Dev nD)
    {α : Type} {Q : α → sProp 𝕄} {k : PUnit → Prog (TpuEff nD τ sig (Elt F) Λ₀ .tc) α} (W : Waits sig Unit) :
    iprop(records m ρ K ∗ levAts L lv ∗ cred (tallyAt (barCell c) () 3) ∗ owes (c : Thread nD τ) (owed c 3) W
        ∗ atPos ER (barCell c) 0 (∅ : Finset (Fin 3)) 0)
      ⊢ iprop(((owes (c : Thread nD τ) (owed c 3) (insert (SemLoc.reg barS, ()) W) ∗ atPos ER (barCell c) 1 (∅ : Finset (Fin 3)) 0
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, #Hlev, Hc, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owed c 3) (W := W) (R := 0) (m := 0) (T := ∅)
      (by rw [expect_bar])) $$ [Hc HO Hat]
  · isplitr; · iapply (inv_bar m ρ K c); iexact HR
    isplitl [Hc]; · iexact Hc
    isplitl [HO]; · iexact HO
    isplitr
    · iapply (mayWait_gen c (SemLoc.reg barS) 3 fun j h3 _ => by
        show 1 < lvJob j
        unfold lvJob
        split_ifs <;> omega)
      iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- A DMA cell of the kernel's own, its one round consumed, closes: its counter, at zero, is the device's again. -/
theorem step_close (K : Dev nD × Fin 65 → ℕ) (c : Dev nD) (q : DmaSem sig) (h : 2 ≤ q.val) :
    iprop(records m ρ K ∗ atPos ER (dCell c q) 1 (∅ : Finset (Fin 3)) 0) ⊢ (|={Set.univ}=> semVal (dCell c q) 0 : sProp 𝕄) := by
  iintro ⟨#HR, Hat⟩
  iapply (Rounds.cell_close ER (Rd m ρ) (Set.mem_univ (K (c, ix q h))) (fun hu => hu) (R := 1) (duties_later m ρ (dCell c q)))
  isplitr; · iapply (inv_dma m ρ K c q h); iexact HR
  iexact Hat

/-- info: 'Cert.KernelIdeal.AR.step_send' depends on axioms: [propext, Classical.choice, Quot.sound] -/
#guard_msgs in #print axioms step_send

/-- info: 'Cert.KernelIdeal.AR.step_wait' depends on axioms: [propext, Classical.choice, Quot.sound] -/
#guard_msgs in #print axioms step_wait

/-- info: 'Cert.KernelIdeal.AR.step_signal' depends on axioms: [propext, Classical.choice, Quot.sound] -/
#guard_msgs in #print axioms step_signal

/-- info: 'Cert.KernelIdeal.AR.step_barwait' depends on axioms: [propext, Classical.choice, Quot.sound] -/
#guard_msgs in #print axioms step_barwait

/-- info: 'Cert.KernelIdeal.AR.step_close' depends on axioms: [propext, Classical.choice, Quot.sound] -/
#guard_msgs in #print axioms step_close

end Cert.KernelIdeal.AR
end
-- ==== Proof.ArKernelIdeal.Steps2.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Geom
import proofs.«900700_g7700000000000701_dist_ar_v7x_xyz2x2x2_y_m1024_n512_f32_1_alg».proof.Proof.ArKernelIdeal.Tables
import proofs.«900700_g7700000000000701_dist_ar_v7x_xyz2x2x2_y_m1024_n512_f32_1_alg».proof.Proof.ArKernelIdeal.Owes
import proofs.«900700_g7700000000000701_dist_ar_v7x_xyz2x2x2_y_m1024_n512_f32_1_alg».proof.Proof.ArKernelIdeal.Values
import proofs.«900700_g7700000000000701_dist_ar_v7x_xyz2x2x2_y_m1024_n512_f32_1_alg».proof.Proof.ArKernelIdeal.Steps
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The rules at each kind of transfer and wait of the body, payloads resolved to the blocks they are -/

/-- A block index of the first eight, and of the last four, of a twelve-semaphore array. -/
def k12 (k : Fin 8) : Fin 12 := ⟨k.val, by have := k.isLt; omega⟩
def h12 (i : Fin 4) : Fin 12 := ⟨8 + i.val, by have := i.isLt; omega⟩

/-! ## The payloads by block -/

theorem k12_lt (k : Fin 8) : (k12 k).val < 8 := k.isLt
theorem h12_ge (i : Fin 4) : ¬ (h12 i).val < 8 := by
  show ¬ (8 + i.val < 8)
  omega
theorem k8_k12 (k : Fin 8) (h : (k12 k).val < 8) : k8 (k12 k) h = k := Fin.ext rfl
theorem k4_h12 (i : Fin 4) (h : ¬ (h12 i).val < 8) : k4 (h12 i) h = i := Fin.ext (by
  show 8 + i.val - 8 = i.val
  omega)

theorem pay_ys (c : Dev nD) (k : Fin 8) : dmaPay m ρ c (ysS k) = blkPts (F := F) c (xb (tO c k)) fullShare (xs m ρ c) := by
  rw [dmaPay_ys]
  rfl
theorem pay_yr (c : Dev nD) (k : Fin 8) : dmaPay m ρ c (yrS k) = blkPts (F := F) c (yk k) fullShare (Yb m ρ c) := by
  rw [dmaPay_yr]
  rfl
theorem pay_xs_lo (c : Dev nD) (k : Fin 8) : dmaPay m ρ c (xsS (k12 k)) = blkPts (F := F) c (ob (tO c k)) fullShare.left (Out m ρ c) := by
  rw [dmaPay_xs]
  unfold xsPay
  rw [dif_pos (k12_lt k), k8_k12]
theorem pay_xs_hi (c : Dev nD) (i : Fin 4) : dmaPay m ρ c (xsS (h12 i)) = blkPts (F := F) c (ob (tO (zp c) (hi i))) fullShare (Out m ρ c) := by
  rw [dmaPay_xs]
  unfold xsPay
  rw [dif_neg (h12_ge i), k4_h12]
theorem pay_zs_lo (c : Dev nD) (k : Fin 8) : dmaPay m ρ c (zsS (k12 k)) = blkPts (F := F) c (ob (tO c k)) fullShare.right (Out m ρ c) := by
  rw [dmaPay_zs]
  unfold zsPay
  rw [dif_pos (k12_lt k), k8_k12]
theorem pay_zs_hi (c : Dev nD) (i : Fin 4) : dmaPay m ρ c (zsS (h12 i)) = blkPts (F := F) c (ob (tO (xp c) (lo i))) fullShare (Out m ρ c) := by
  rw [dmaPay_zs]
  unfold zsPay
  rw [dif_neg (h12_ge i), k4_h12]
theorem pay_xr_lo (c : Dev nD) (k : Fin 8) : dmaPay m ρ c (xrS (k12 k)) = blkPts (F := F) c (ob (tO (xp c) k)) fullShare (Out m ρ c) := by
  rw [dmaPay_xr]
  unfold xrPay
  rw [dif_pos (k12_lt k), k8_k12]
theorem pay_xr_hi (c : Dev nD) (i : Fin 4) : dmaPay m ρ c (xrS (h12 i)) = blkPts (F := F) c (ob (tO (xp (zp c)) (hi i))) fullShare (Out m ρ c) := by
  rw [dmaPay_xr]
  unfold xrPay
  rw [dif_neg (h12_ge i), k4_h12]
theorem pay_zr_lo (c : Dev nD) (k : Fin 8) : dmaPay m ρ c (zrS (k12 k)) = blkPts (F := F) c (ob (tO (zp c) k)) fullShare (Out m ρ c) := by
  rw [dmaPay_zr]
  unfold zrPay
  rw [dif_pos (k12_lt k), k8_k12]
theorem pay_zr_hi (c : Dev nD) (i : Fin 4) : dmaPay m ρ c (zrS (h12 i)) = blkPts (F := F) c (ob (tO (xp (zp c)) (lo i))) fullShare (Out m ρ c) := by
  rw [dmaPay_zr]
  unfold zrPay
  rw [dif_neg (h12_ge i), k4_h12]

/-! ## The levels of the cells waited on -/

theorem lv_dma (c : Dev nD) (q : DmaSem sig) : lv ((c : Thread nD τ), SemLoc.dma q) ()
    = if q.val < 10 then 0 else if q.val < 18 then 2 else if q.val < 30 then 0 else if q.val < 38 then 3
      else if q.val < 42 then 4 else if q.val < 54 then 0 else if q.val < 62 then 3 else 4 := rfl
theorem lv_ys (c : Dev nD) (k : Fin 8) : lv ((c : Thread nD τ), SemLoc.dma (ysS k)) () = 0 := by
  have hk := k.isLt
  have hv : (ysS k).val = 2 + k.val := rfl
  rw [lv_dma]
  split_ifs <;> omega
theorem lv_yr (c : Dev nD) (k : Fin 8) : lv ((c : Thread nD τ), SemLoc.dma (yrS k)) () = 2 := by
  have hk := k.isLt
  have hv : (yrS k).val = 10 + k.val := rfl
  rw [lv_dma]
  split_ifs <;> omega
theorem lv_xs (c : Dev nD) (k : Fin 12) : lv ((c : Thread nD τ), SemLoc.dma (xsS k)) () = 0 := by
  have hk := k.isLt
  have hv : (xsS k).val = 18 + k.val := rfl
  rw [lv_dma]
  split_ifs <;> omega
theorem lv_zs (c : Dev nD) (k : Fin 12) : lv ((c : Thread nD τ), SemLoc.dma (zsS k)) () = 0 := by
  have hk := k.isLt
  have hv : (zsS k).val = 42 + k.val := rfl
  rw [lv_dma]
  split_ifs <;> omega
theorem lv_xr_lo (c : Dev nD) (k : Fin 8) : lv ((c : Thread nD τ), SemLoc.dma (xrS (k12 k))) () = 3 := by
  have hk := k.isLt
  have hv : (xrS (k12 k)).val = 30 + k.val := rfl
  rw [lv_dma]
  split_ifs <;> omega
theorem lv_zr_lo (c : Dev nD) (k : Fin 8) : lv ((c : Thread nD τ), SemLoc.dma (zrS (k12 k))) () = 3 := by
  have hk := k.isLt
  have hv : (zrS (k12 k)).val = 54 + k.val := rfl
  rw [lv_dma]
  split_ifs <;> omega
theorem lvJob_ge11 (j : ℕ) (h : 11 ≤ j) : 2 < lvJob j := by
  unfold lvJob
  split_ifs <;> omega
theorem lvJob_ge27 (j : ℕ) (h : 27 ≤ j) : 3 < lvJob j := by
  unfold lvJob
  split_ifs <;> omega

/-- Block `k` of `c`'s own rows of `x` sent onto block `k` of the y-neighbour's landing buffer. -/
theorem send_y (K : Dev nD × Fin 65 → ℕ) (c p' : Dev nD) (k : Fin 8) (n : ℕ) (hn : n < 35)
    (src dst : Memref sig .tc .vmem S32x512 .f32) (sS sR : DmaSem sig)
    (hp : p' = yp c) (hsrcE : src = x1 c k) (hdstE : dst = yk k) (hSE : sS = ysS k) (hRE : sR = yrS k)
    (hjob : job c n = (dCell (yp c) (yrS k), Ny))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (xb (tO c k)) fullShare (xs m ρ c) ∗ free (F := F) (yp c) (yk k)
        ∗ owes (c : Thread nD τ) (owed c n) W
        ∗ dutyTok ER (dCell c (ysS k)) 0 (0 : Fin 3) ∗ dutyTok ER (dCell (yp c) (yrS k)) 0 (0 : Fin 3))
      ⊢ iprop(((cred (tallyAt (dCell c (ysS k)) () Ny) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [x1_eq] at hsrcE
  subst hp hsrcE hdstE hSE hRE
  unfold free
  exact step_send m ρ K c (yp c) (yp c) rfl (xb (tO c k)) (yk k) (ysS k) (yrS k)
    (by show 2 ≤ 2 + k.val; omega) (by show 2 ≤ 10 + k.val; omega) n Ny hn hjob rfl
    (amount_y m ρ c (ysS k) (by have := k.isLt; show 2 + k.val < 18; omega) 0) (amount_y m ρ (yp c) (yrS k) (by have := k.isLt; show 10 + k.val < 18; omega) 0)
    fullShare (xs m ρ c) (Entails.of_eq (pay_ys m ρ c k).symm)
    (fun fd => (land_y m ρ c k fd).trans (Entails.of_eq (dmaPay_yr m ρ (yp c) k).symm)) W

/-- The reduced block `k` sent onto the same block of the x-neighbour's result buffer (read at the left half share). -/
theorem send_xo (K : Dev nD × Fin 65 → ℕ) (c p' : Dev nD) (k : Fin 8) (n : ℕ) (hn : n < 35)
    (src dst : Memref sig .tc .vmem S32x512 .f32) (sS sR : DmaSem sig)
    (hp : p' = xp c) (hsrcE : src = o1 c k) (hdstE : dst = o1 c k) (hSE : sS = xsS (k12 k)) (hRE : sR = xrS (k12 k))
    (hjob : job c n = (dCell (xp c) (xrS (k12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO c k)) fullShare.left (Out m ρ c) ∗ free (F := F) (xp c) (ob (tO c k))
        ∗ owes (c : Thread nD τ) (owed c n) W
        ∗ dutyTok ER (dCell c (xsS (k12 k))) 0 (0 : Fin 3) ∗ dutyTok ER (dCell (xp c) (xrS (k12 k))) 0 (0 : Fin 3))
      ⊢ iprop(((cred (tallyAt (dCell c (xsS (k12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o1_eq] at hsrcE hdstE
  subst hp hsrcE hdstE hSE hRE
  unfold free
  exact step_send m ρ K c (xp c) (xp c) rfl (ob (tO c k)) (ob (tO c k)) (xsS (k12 k)) (xrS (k12 k))
    (by show 2 ≤ 18 + k.val; omega) (by show 2 ≤ 30 + k.val; omega) n No hn hjob rfl
    (amount_o m ρ c (xsS (k12 k)) (by show 18 ≤ 18 + k.val; omega) 0) (amount_o m ρ (xp c) (xrS (k12 k)) (by show 18 ≤ 30 + k.val; omega) 0)
    fullShare.left (Out m ρ c) (Entails.of_eq (pay_xs_lo m ρ c k).symm)
    (fun fd => (land_o m ρ c (xp c) (Out_xp m ρ c) (tO c k) fd).trans (Entails.of_eq (by rw [pay_xr_lo, xp_xp]))) W

/-- The reduced block `k` sent onto the same block of the z-neighbour's result buffer (read at the right half share). -/
theorem send_zo (K : Dev nD × Fin 65 → ℕ) (c p' : Dev nD) (k : Fin 8) (n : ℕ) (hn : n < 35)
    (src dst : Memref sig .tc .vmem S32x512 .f32) (sS sR : DmaSem sig)
    (hp : p' = zp c) (hsrcE : src = o1 c k) (hdstE : dst = o1 c k) (hSE : sS = zsS (k12 k)) (hRE : sR = zrS (k12 k))
    (hjob : job c n = (dCell (zp c) (zrS (k12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO c k)) fullShare.right (Out m ρ c) ∗ free (F := F) (zp c) (ob (tO c k))
        ∗ owes (c : Thread nD τ) (owed c n) W
        ∗ dutyTok ER (dCell c (zsS (k12 k))) 0 (0 : Fin 3) ∗ dutyTok ER (dCell (zp c) (zrS (k12 k))) 0 (0 : Fin 3))
      ⊢ iprop(((cred (tallyAt (dCell c (zsS (k12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o1_eq] at hsrcE hdstE
  subst hp hsrcE hdstE hSE hRE
  unfold free
  exact step_send m ρ K c (zp c) (zp c) rfl (ob (tO c k)) (ob (tO c k)) (zsS (k12 k)) (zrS (k12 k))
    (by show 2 ≤ 42 + k.val; omega) (by show 2 ≤ 54 + k.val; omega) n No hn hjob rfl
    (amount_o m ρ c (zsS (k12 k)) (by show 18 ≤ 42 + k.val; omega) 0) (amount_o m ρ (zp c) (zrS (k12 k)) (by show 18 ≤ 54 + k.val; omega) 0)
    fullShare.right (Out m ρ c) (Entails.of_eq (pay_zs_lo m ρ c k).symm)
    (fun fd => (land_o m ρ c (zp c) (Out_zp m ρ c) (tO c k) fd).trans (Entails.of_eq (by rw [pay_zr_lo, zp_zp]))) W

/-- Block `i` of the x-neighbour's quarter, received, forwarded onto the same block of the z-neighbour's result buffer. -/
theorem send_zf (K : Dev nD × Fin 65 → ℕ) (c p' : Dev nD) (k : Fin 4) (n : ℕ) (hn : n < 35)
    (src dst : Memref sig .tc .vmem S32x512 .f32) (sS sR : DmaSem sig)
    (hp : p' = zp c) (hsrcE : src = o3 c k) (hdstE : dst = o3 c k) (hSE : sS = zsS (h12 k)) (hRE : sR = zrS (h12 k))
    (hjob : job c n = (dCell (zp c) (zrS (h12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO (xp c) (lo k))) fullShare (Out m ρ c) ∗ free (F := F) (zp c) (ob (tO (xp c) (lo k)))
        ∗ owes (c : Thread nD τ) (owed c n) W
        ∗ dutyTok ER (dCell c (zsS (h12 k))) 0 (0 : Fin 3) ∗ dutyTok ER (dCell (zp c) (zrS (h12 k))) 0 (0 : Fin 3))
      ⊢ iprop(((cred (tallyAt (dCell c (zsS (h12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o3_eq] at hsrcE hdstE
  subst hp hsrcE hdstE hSE hRE
  unfold free
  exact step_send m ρ K c (zp c) (zp c) rfl (ob (tO (xp c) (lo k))) (ob (tO (xp c) (lo k))) (zsS (h12 k)) (zrS (h12 k))
    (by show 2 ≤ 42 + (8 + k.val); omega) (by show 2 ≤ 54 + (8 + k.val); omega) n No hn hjob rfl
    (amount_o m ρ c (zsS (h12 k)) (by show 18 ≤ 42 + (8 + k.val); omega) 0) (amount_o m ρ (zp c) (zrS (h12 k)) (by show 18 ≤ 54 + (8 + k.val); omega) 0)
    fullShare (Out m ρ c) (Entails.of_eq (pay_zs_hi m ρ c k).symm)
    (fun fd => (land_o m ρ c (zp c) (Out_zp m ρ c) (tO (xp c) (lo k)) fd).trans (Entails.of_eq (by rw [pay_zr_hi, zp_zp]))) W

/-- Block `4 + i` of the z-neighbour's quarter, received, forwarded onto the same block of the x-neighbour's result buffer. -/
theorem send_xf (K : Dev nD × Fin 65 → ℕ) (c p' : Dev nD) (k : Fin 4) (n : ℕ) (hn : n < 35)
    (src dst : Memref sig .tc .vmem S32x512 .f32) (sS sR : DmaSem sig)
    (hp : p' = xp c) (hsrcE : src = o4 c k) (hdstE : dst = o4 c k) (hSE : sS = xsS (h12 k)) (hRE : sR = xrS (h12 k))
    (hjob : job c n = (dCell (xp c) (xrS (h12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO (zp c) (hi k))) fullShare (Out m ρ c) ∗ free (F := F) (xp c) (ob (tO (zp c) (hi k)))
        ∗ owes (c : Thread nD τ) (owed c n) W
        ∗ dutyTok ER (dCell c (xsS (h12 k))) 0 (0 : Fin 3) ∗ dutyTok ER (dCell (xp c) (xrS (h12 k))) 0 (0 : Fin 3))
      ⊢ iprop(((cred (tallyAt (dCell c (xsS (h12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o4_eq] at hsrcE hdstE
  subst hp hsrcE hdstE hSE hRE
  unfold free
  exact step_send m ρ K c (xp c) (xp c) rfl (ob (tO (zp c) (hi k))) (ob (tO (zp c) (hi k))) (xsS (h12 k)) (xrS (h12 k))
    (by show 2 ≤ 18 + (8 + k.val); omega) (by show 2 ≤ 30 + (8 + k.val); omega) n No hn hjob rfl
    (amount_o m ρ c (xsS (h12 k)) (by show 18 ≤ 18 + (8 + k.val); omega) 0) (amount_o m ρ (xp c) (xrS (h12 k)) (by show 18 ≤ 30 + (8 + k.val); omega) 0)
    fullShare (Out m ρ c) (Entails.of_eq (pay_xs_hi m ρ c k).symm)
    (fun fd => (land_o m ρ c (xp c) (Out_xp m ρ c) (tO (zp c) (hi k)) fd).trans (Entails.of_eq (by rw [pay_xr_hi, xp_zp, xp_xp]))) W

/-- The wait on a send cell of the landing transfers (level 0: any time): the source block of `x` comes back. -/
theorem wait_ys (K : Dev nD × Fin 65 → ℕ) (c : Dev nD) (k : Fin 8) (n : ℕ) (hn : True)
    (sm : DmaSem sig) (hsm : sm = ysS k) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (ysS k)) () Ny) ∗ owes (c : Thread nD τ) (owed c n) W
        ∗ atPos ER (dCell c (ysS k)) 0 (∅ : Finset (Fin 3)) 0)
      ⊢ iprop(((owes (c : Thread nD τ) (owed c n) (insert (SemLoc.dma (ysS k), ()) W) ∗ atPos ER (dCell c (ysS k)) 1 (∅ : Finset (Fin 3)) 0 ∗ blkPts (F := F) c (xb (tO c k)) fullShare (xs m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (ysS k) (by show 2 ≤ 2 + k.val; omega) Ny (expect_y m ρ c (ysS k) (by show 2 ≤ 2 + k.val; omega) (by have := k.isLt; show 2 + k.val < 18; omega)) n
    (fun j hj1 hj2 => by rw [lv_ys]; exact lvJob_pos j) src dst rfl (hsrc := hsrc) (hdst := hdst) (Q := Q) (k := k') W
  rw [pay_ys] at h
  exact h
/-- The wait on a receive cell of the landing buffer (level 2: once the landing transfers are paid): its block, holding the y-neighbour's rows. -/
theorem wait_yr (K : Dev nD × Fin 65 → ℕ) (c : Dev nD) (k : Fin 8) (n : ℕ) (hn : 11 ≤ n)
    (sm : DmaSem sig) (hsm : sm = yrS k) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (yrS k)) () Ny) ∗ owes (c : Thread nD τ) (owed c n) W
        ∗ atPos ER (dCell c (yrS k)) 0 (∅ : Finset (Fin 3)) 0)
      ⊢ iprop(((owes (c : Thread nD τ) (owed c n) (insert (SemLoc.dma (yrS k), ()) W) ∗ atPos ER (dCell c (yrS k)) 1 (∅ : Finset (Fin 3)) 0 ∗ blkPts (F := F) c (yk k) fullShare (Yb m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (yrS k) (by show 2 ≤ 10 + k.val; omega) Ny (expect_y m ρ c (yrS k) (by show 2 ≤ 10 + k.val; omega) (by have := k.isLt; show 10 + k.val < 18; omega)) n
    (fun j hj1 hj2 => by rw [lv_yr]; exact lvJob_ge11 j (by omega)) src dst rfl (hsrc := hsrc) (hdst := hdst) (Q := Q) (k := k') W
  rw [pay_yr] at h
  exact h
/-- A send cell of the first exchange towards x: the left half of the reduced block comes back. -/
theorem wait_xs_lo (K : Dev nD × Fin 65 → ℕ) (c : Dev nD) (k : Fin 8) (n : ℕ) (hn : True)
    (sm : DmaSem sig) (hsm : sm = xsS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xsS (k12 k))) () No) ∗ owes (c : Thread nD τ) (owed c n) W
        ∗ atPos ER (dCell c (xsS (k12 k))) 0 (∅ : Finset (Fin 3)) 0)
      ⊢ iprop(((owes (c : Thread nD τ) (owed c n) (insert (SemLoc.dma (xsS (k12 k)), ()) W) ∗ atPos ER (dCell c (xsS (k12 k))) 1 (∅ : Finset (Fin 3)) 0 ∗ blkPts (F := F) c (ob (tO c k)) fullShare.left (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xsS (k12 k)) (by show 2 ≤ 18 + k.val; omega) No (expect_o m ρ c (xsS (k12 k)) (by show 18 ≤ 18 + k.val; omega)) n
    (fun j hj1 hj2 => by rw [lv_xs]; exact lvJob_pos j) src dst rfl (hsrc := hsrc) (hdst := hdst) (Q := Q) (k := k') W
  rw [pay_xs_lo] at h
  exact h
/-- A send cell of the first exchange towards z: the right half of the reduced block comes back. -/
theorem wait_zs_lo (K : Dev nD × Fin 65 → ℕ) (c : Dev nD) (k : Fin 8) (n : ℕ) (hn : True)
    (sm : DmaSem sig) (hsm : sm = zsS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zsS (k12 k))) () No) ∗ owes (c : Thread nD τ) (owed c n) W
        ∗ atPos ER (dCell c (zsS (k12 k))) 0 (∅ : Finset (Fin 3)) 0)
      ⊢ iprop(((owes (c : Thread nD τ) (owed c n) (insert (SemLoc.dma (zsS (k12 k)), ()) W) ∗ atPos ER (dCell c (zsS (k12 k))) 1 (∅ : Finset (Fin 3)) 0 ∗ blkPts (F := F) c (ob (tO c k)) fullShare.right (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zsS (k12 k)) (by show 2 ≤ 42 + k.val; omega) No (expect_o m ρ c (zsS (k12 k)) (by show 18 ≤ 42 + k.val; omega)) n
    (fun j hj1 hj2 => by rw [lv_zs]; exact lvJob_pos j) src dst rfl (hsrc := hsrc) (hdst := hdst) (Q := Q) (k := k') W
  rw [pay_zs_lo] at h
  exact h
/-- A send cell of a forward towards x: the forwarded block comes back. -/
theorem wait_xs_hi (K : Dev nD × Fin 65 → ℕ) (c : Dev nD) (k : Fin 4) (n : ℕ) (hn : True)
    (sm : DmaSem sig) (hsm : sm = xsS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xsS (h12 k))) () No) ∗ owes (c : Thread nD τ) (owed c n) W
        ∗ atPos ER (dCell c (xsS (h12 k))) 0 (∅ : Finset (Fin 3)) 0)
      ⊢ iprop(((owes (c : Thread nD τ) (owed c n) (insert (SemLoc.dma (xsS (h12 k)), ()) W) ∗ atPos ER (dCell c (xsS (h12 k))) 1 (∅ : Finset (Fin 3)) 0 ∗ blkPts (F := F) c (ob (tO (zp c) (hi k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xsS (h12 k)) (by show 2 ≤ 18 + (8 + k.val); omega) No (expect_o m ρ c (xsS (h12 k)) (by show 18 ≤ 18 + (8 + k.val); omega)) n
    (fun j hj1 hj2 => by rw [lv_xs]; exact lvJob_pos j) src dst rfl (hsrc := hsrc) (hdst := hdst) (Q := Q) (k := k') W
  rw [pay_xs_hi] at h
  exact h
/-- A send cell of a forward towards z: the forwarded block comes back. -/
theorem wait_zs_hi (K : Dev nD × Fin 65 → ℕ) (c : Dev nD) (k : Fin 4) (n : ℕ) (hn : True)
    (sm : DmaSem sig) (hsm : sm = zsS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zsS (h12 k))) () No) ∗ owes (c : Thread nD τ) (owed c n) W
        ∗ atPos ER (dCell c (zsS (h12 k))) 0 (∅ : Finset (Fin 3)) 0)
      ⊢ iprop(((owes (c : Thread nD τ) (owed c n) (insert (SemLoc.dma (zsS (h12 k)), ()) W) ∗ atPos ER (dCell c (zsS (h12 k))) 1 (∅ : Finset (Fin 3)) 0 ∗ blkPts (F := F) c (ob (tO (xp c) (lo k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zsS (h12 k)) (by show 2 ≤ 42 + (8 + k.val); omega) No (expect_o m ρ c (zsS (h12 k)) (by show 18 ≤ 42 + (8 + k.val); omega)) n
    (fun j hj1 hj2 => by rw [lv_zs]; exact lvJob_pos j) src dst rfl (hsrc := hsrc) (hdst := hdst) (Q := Q) (k := k') W
  rw [pay_zs_hi] at h
  exact h
/-- A receive cell of the first exchange from x (level 3: once the first exchange is paid): block `k` of the x-neighbour's quarter, as it must end. -/
theorem wait_xr_lo (K : Dev nD × Fin 65 → ℕ) (c : Dev nD) (k : Fin 8) (n : ℕ) (hn : 27 ≤ n)
    (sm : DmaSem sig) (hsm : sm = xrS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xrS (k12 k))) () No) ∗ owes (c : Thread nD τ) (owed c n) W
        ∗ atPos ER (dCell c (xrS (k12 k))) 0 (∅ : Finset (Fin 3)) 0)
      ⊢ iprop(((owes (c : Thread nD τ) (owed c n) (insert (SemLoc.dma (xrS (k12 k)), ()) W) ∗ atPos ER (dCell c (xrS (k12 k))) 1 (∅ : Finset (Fin 3)) 0 ∗ blkPts (F := F) c (ob (tO (xp c) k)) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xrS (k12 k)) (by show 2 ≤ 30 + k.val; omega) No (expect_o m ρ c (xrS (k12 k)) (by show 18 ≤ 30 + k.val; omega)) n
    (fun j hj1 hj2 => by rw [lv_xr_lo]; exact lvJob_ge27 j (by omega)) src dst rfl (hsrc := hsrc) (hdst := hdst) (Q := Q) (k := k') W
  rw [pay_xr_lo] at h
  exact h
/-- A receive cell of the first exchange from z: block `k` of the z-neighbour's quarter, as it must end. -/
theorem wait_zr_lo (K : Dev nD × Fin 65 → ℕ) (c : Dev nD) (k : Fin 8) (n : ℕ) (hn : 27 ≤ n)
    (sm : DmaSem sig) (hsm : sm = zrS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zrS (k12 k))) () No) ∗ owes (c : Thread nD τ) (owed c n) W
        ∗ atPos ER (dCell c (zrS (k12 k))) 0 (∅ : Finset (Fin 3)) 0)
      ⊢ iprop(((owes (c : Thread nD τ) (owed c n) (insert (SemLoc.dma (zrS (k12 k)), ()) W) ∗ atPos ER (dCell c (zrS (k12 k))) 1 (∅ : Finset (Fin 3)) 0 ∗ blkPts (F := F) c (ob (tO (zp c) k)) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zrS (k12 k)) (by show 2 ≤ 54 + k.val; omega) No (expect_o m ρ c (zrS (k12 k)) (by show 18 ≤ 54 + k.val; omega)) n
    (fun j hj1 hj2 => by rw [lv_zr_lo]; exact lvJob_ge27 j (by omega)) src dst rfl (hsrc := hsrc) (hdst := hdst) (Q := Q) (k := k') W
  rw [pay_zr_lo] at h
  exact h
/-- A receive cell of a forward from x (level 4: owing nothing): block `4 + i` of the diagonal device's quarter. -/
theorem wait_xr_hi (K : Dev nD × Fin 65 → ℕ) (c : Dev nD) (k : Fin 4) (n : ℕ) (hn : n = 35)
    (sm : DmaSem sig) (hsm : sm = xrS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xrS (h12 k))) () No) ∗ owes (c : Thread nD τ) (owed c n) W
        ∗ atPos ER (dCell c (xrS (h12 k))) 0 (∅ : Finset (Fin 3)) 0)
      ⊢ iprop(((owes (c : Thread nD τ) (owed c n) (insert (SemLoc.dma (xrS (h12 k)), ()) W) ∗ atPos ER (dCell c (xrS (h12 k))) 1 (∅ : Finset (Fin 3)) 0 ∗ blkPts (F := F) c (ob (tO (xp (zp c)) (hi k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hn
  subst hsm
  have h := step_wait m ρ K c (xrS (h12 k)) (by show 2 ≤ 30 + (8 + k.val); omega) No (expect_o m ρ c (xrS (h12 k)) (by show 18 ≤ 30 + (8 + k.val); omega)) 35
    (fun j hj1 hj2 => by omega) src dst rfl (hsrc := hsrc) (hdst := hdst) (Q := Q) (k := k') W
  rw [pay_xr_hi] at h
  exact h
/-- A receive cell of a forward from z: block `i` of the diagonal device's quarter. -/
theorem wait_zr_hi (K : Dev nD × Fin 65 → ℕ) (c : Dev nD) (k : Fin 4) (n : ℕ) (hn : n = 35)
    (sm : DmaSem sig) (hsm : sm = zrS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zrS (h12 k))) () No) ∗ owes (c : Thread nD τ) (owed c n) W
        ∗ atPos ER (dCell c (zrS (h12 k))) 0 (∅ : Finset (Fin 3)) 0)
      ⊢ iprop(((owes (c : Thread nD τ) (owed c n) (insert (SemLoc.dma (zrS (h12 k)), ()) W) ∗ atPos ER (dCell c (zrS (h12 k))) 1 (∅ : Finset (Fin 3)) 0 ∗ blkPts (F := F) c (ob (tO (xp (zp c)) (lo k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hn
  subst hsm
  have h := step_wait m ρ K c (zrS (h12 k)) (by show 2 ≤ 54 + (8 + k.val); omega) No (expect_o m ρ c (zrS (h12 k)) (by show 18 ≤ 54 + (8 + k.val); omega)) 35
    (fun j hj1 hj2 => by omega) src dst rfl (hsrc := hsrc) (hdst := hdst) (Q := Q) (k := k') W
  rw [pay_zr_hi] at h
  exact h

/-! ## The entry handshake, payloads as blocks -/

/-- What `c` hands its y-neighbour: its landing buffer, block by block. -/
def giveY (c : Dev nD) : sProp 𝕄 := bigSep Finset.univ fun k : Fin 8 => free (F := F) c (yk k)
/-- What it hands its x-neighbour: of its result buffer, the x-neighbour's quarter and the upper half of the diagonal device's. -/
def giveX (c : Dev nD) : sProp 𝕄 :=
  iprop((bigSep Finset.univ fun k : Fin 8 => free (F := F) c (ob (tO (xp c) k))) ∗ bigSep Finset.univ fun i : Fin 4 => free (F := F) c (ob (tO (xp (zp c)) (hi i))))
/-- What it hands its z-neighbour: the z-neighbour's quarter and the lower half of the diagonal device's. -/
def giveZ (c : Dev nD) : sProp 𝕄 :=
  iprop((bigSep Finset.univ fun k : Fin 8 => free (F := F) c (ob (tO (zp c) k))) ∗ bigSep Finset.univ fun i : Fin 4 => free (F := F) c (ob (tO (xp (zp c)) (lo i))))

theorem signal_y (K : Dev nD × Fin 65 → ℕ) (c p' : Dev nD) (hp : p' = yp c)
    {α : Type} {Q : α → sProp 𝕄} {k' : PUnit → Prog (TpuEff nD τ sig (Elt F) Λ₀ .tc) α} (W : Waits sig Unit) :
    iprop(records m ρ K ∗ owes (c : Thread nD τ) (owed c 0) W ∗ dutyTok ER (barCell (yp c)) 0 (0 : Fin 3) ∗ giveY (F := F) c)
      ⊢ iprop((owes (c : Thread nD τ) (owed c 1) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (yp c) (yp c) rfl (0 : Fin 3) 0 (by decide) rfl (Q := Q) (k := k') W
  rw [barPay_yp] at h
  exact h
theorem signal_x (K : Dev nD × Fin 65 → ℕ) (c p' : Dev nD) (hp : p' = xp c)
    {α : Type} {Q : α → sProp 𝕄} {k' : PUnit → Prog (TpuEff nD τ sig (Elt F) Λ₀ .tc) α} (W : Waits sig Unit) :
    iprop(records m ρ K ∗ owes (c : Thread nD τ) (owed c 1) W ∗ dutyTok ER (barCell (xp c)) 0 (1 : Fin 3) ∗ giveX (F := F) c)
      ⊢ iprop((owes (c : Thread nD τ) (owed c 2) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (xp c) (xp c) rfl (1 : Fin 3) 1 (by decide) rfl (Q := Q) (k := k') W
  rw [barPay_xp] at h
  exact h
theorem signal_z (K : Dev nD × Fin 65 → ℕ) (c p' : Dev nD) (hp : p' = zp c)
    {α : Type} {Q : α → sProp 𝕄} {k' : PUnit → Prog (TpuEff nD τ sig (Elt F) Λ₀ .tc) α} (W : Waits sig Unit) :
    iprop(records m ρ K ∗ owes (c : Thread nD τ) (owed c 2) W ∗ dutyTok ER (barCell (zp c)) 0 (2 : Fin 3) ∗ giveZ (F := F) c)
      ⊢ iprop((owes (c : Thread nD τ) (owed c 3) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (zp c) (zp c) rfl (2 : Fin 3) 2 (by decide) rfl (Q := Q) (k := k') W
  rw [barPay_zp] at h
  exact h

/-- The wait for the three signals: the neighbours' blocks `c` will write, each outright at some contents. -/
theorem barwait (K : Dev nD × Fin 65 → ℕ) (c : Dev nD)
    {α : Type} {Q : α → sProp 𝕄} {k' : PUnit → Prog (TpuEff nD τ sig (Elt F) Λ₀ .tc) α} (W : Waits sig Unit) :
    iprop(records m ρ K ∗ levAts L lv ∗ cred (tallyAt (barCell c) () 3) ∗ owes (c : Thread nD τ) (owed c 3) W
        ∗ atPos ER (barCell c) 0 (∅ : Finset (Fin 3)) 0)
      ⊢ iprop(((owes (c : Thread nD τ) (owed c 3) (insert (SemLoc.reg barS, ()) W) ∗ atPos ER (barCell c) 1 (∅ : Finset (Fin 3)) 0
              ∗ (bigSep Finset.univ fun k : Fin 8 => free (F := F) (yp c) (yk k))
              ∗ ((bigSep Finset.univ fun k : Fin 8 => free (F := F) (xp c) (ob (tO c k))) ∗ bigSep Finset.univ fun i : Fin 4 => free (F := F) (xp c) (ob (tO (zp c) (hi i))))
              ∗ ((bigSep Finset.univ fun k : Fin 8 => free (F := F) (zp c) (ob (tO c k))) ∗ bigSep Finset.univ fun i : Fin 4 => free (F := F) (zp c) (ob (tO (xp c) (lo i)))))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS 3) k') Q) := by
  exact step_barwait m ρ K c W

/-- info: 'Cert.KernelIdeal.AR.send_y' depends on axioms: [propext, Classical.choice, Quot.sound] -/
#guard_msgs in #print axioms send_y

/-- info: 'Cert.KernelIdeal.AR.send_xo' depends on axioms: [propext, Classical.choice, Quot.sound] -/
#guard_msgs in #print axioms send_xo

/-- info: 'Cert.KernelIdeal.AR.send_zo' depends on axioms: [propext, Classical.choice, Quot.sound] -/
#guard_msgs in #print axioms send_zo

/-- info: 'Cert.KernelIdeal.AR.send_zf' depends on axioms: [propext, Classical.choice, Quot.sound] -/
#guard_msgs in #print axioms send_zf

/-- info: 'Cert.KernelIdeal.AR.send_xf' depends on axioms: [propext, Classical.choice, Quot.sound] -/
#guard_msgs in #print axioms send_xf

/-- info: 'Cert.KernelIdeal.AR.wait_ys' depends on axioms: [propext, Classical.choice, Quot.sound] -/
#guard_msgs in #print axioms wait_ys

/-- info: 'Cert.KernelIdeal.AR.wait_yr' depends on axioms: [propext, Classical.choice, Quot.sound] -/
#guard_msgs in #print axioms wait_yr

/-- info: 'Cert.KernelIdeal.AR.wait_xs_lo' depends on axioms: [propext, Classical.choice, Quot.sound] -/
#guard_msgs in #print axioms wait_xs_lo

/-- info: 'Cert.KernelIdeal.AR.wait_zs_lo' depends on axioms: [propext, Classical.choice, Quot.sound] -/
#guard_msgs in #print axioms wait_zs_lo

/-- info: 'Cert.KernelIdeal.AR.wait_xs_hi' depends on axioms: [propext, Classical.choice, Quot.sound] -/
#guard_msgs in #print axioms wait_xs_hi

/-- info: 'Cert.KernelIdeal.AR.wait_zs_hi' depends on axioms: [propext, Classical.choice, Quot.sound] -/
#guard_msgs in #print axioms wait_zs_hi

/-- info: 'Cert.KernelIdeal.AR.wait_xr_lo' depends on axioms: [propext, Classical.choice, Quot.sound] -/
#guard_msgs in #print axioms wait_xr_lo

/-- info: 'Cert.KernelIdeal.AR.wait_zr_lo' depends on axioms: [propext, Classical.choice, Quot.sound] -/
#guard_msgs in #print axioms wait_zr_lo

/-- info: 'Cert.KernelIdeal.AR.wait_xr_hi' depends on axioms: [propext, Classical.choice, Quot.sound] -/
#guard_msgs in #print axioms wait_xr_hi

/-- info: 'Cert.KernelIdeal.AR.wait_zr_hi' depends on axioms: [propext, Classical.choice, Quot.sound] -/
#guard_msgs in #print axioms wait_zr_hi

/-- info: 'Cert.KernelIdeal.AR.signal_y' depends on axioms: [propext, Classical.choice, Quot.sound] -/
#guard_msgs in #print axioms signal_y

/-- info: 'Cert.KernelIdeal.AR.signal_x' depends on axioms: [propext, Classical.choice, Quot.sound] -/
#guard_msgs in #print axioms signal_x

/-- info: 'Cert.KernelIdeal.AR.signal_z' depends on axioms: [propext, Classical.choice, Quot.sound] -/
#guard_msgs in #print axioms signal_z

/-- info: 'Cert.KernelIdeal.AR.barwait' depends on axioms: [propext, Classical.choice, Quot.sound] -/
#guard_msgs in #print axioms barwait

end Cert.KernelIdeal.AR
end
-- ==== Proof.ArKernelIdeal.Blocks.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Geom
import proofs.«900700_g7700000000000701_dist_ar_v7x_xyz2x2x2_y_m1024_n512_f32_1_alg».proof.Proof.ArKernelIdeal.Values
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The buffers opened into the blocks the protocol moves, and closed again -/

/-- A separating conjunction over eight blocks, written out. -/
theorem bigSep_blk8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- Over four, in order. -/
theorem bigSep_blk4 (Φ : Fin 4 → sProp 𝕄) : bigSep Finset.univ Φ = iprop(Φ 0 ∗ Φ 1 ∗ Φ 2 ∗ Φ 3) :=
  bigSep_fin4 (F := F) Φ 0 1 2 3 (by decide) (by decide) (by decide) (by decide) (by decide) (by decide)

/-- The rows of the input's staging buffer outside the quarter `c` reduces: never touched. -/
def xRest (c : Dev nD) (f : Buf (Elt F) ((c : Thread nD τ).loc cc0_stg0_0)) : sProp 𝕄 :=
  iprop((bigSep Finset.univ fun k : Fin 8 => blkPts (F := F) c (xb (tO (xp c) k)) fullShare f) ∗ (bigSep Finset.univ fun k : Fin 8 => blkPts (F := F) c (xb (tO (zp c) k)) fullShare f)
    ∗ (bigSep Finset.univ fun i : Fin 4 => blkPts (F := F) c (xb (tO (xp (zp c)) (lo i))) fullShare f) ∗ (bigSep Finset.univ fun i : Fin 4 => blkPts (F := F) c (xb (tO (xp (zp c)) (hi i))) fullShare f))

/-- The input's staging buffer: the eight blocks of the quarter `c` reduces, and the rest. -/
theorem x_open (c : Dev nD) (f : Buf (Elt F) ((c : Thread nD τ).loc cc0_stg0_0)) :
    ((((c : Thread nD τ).loc cc0_stg0_0) ↦{fullShare} f : sProp 𝕄)) ⊣⊢
      iprop((blkPts (F := F) c (xb (tO c 0)) fullShare f ∗ blkPts (F := F) c (xb (tO c 1)) fullShare f ∗ blkPts (F := F) c (xb (tO c 2)) fullShare f ∗ blkPts (F := F) c (xb (tO c 3)) fullShare f
        ∗ blkPts (F := F) c (xb (tO c 4)) fullShare f ∗ blkPts (F := F) c (xb (tO c 5)) fullShare f ∗ blkPts (F := F) c (xb (tO c 6)) fullShare f ∗ blkPts (F := F) c (xb (tO c 7)) fullShare f)
        ∗ xRest c f) := by
  refine ((x_split c fullShare f).trans (blocks_regroup c fun t : Fin 32 => blkPts (F := F) c (xb t) fullShare f)).trans (BiEntails.of_eq ?_)
  rw [bigSep_blk8 (fun k : Fin 8 => blkPts (F := F) c (xb (tO c k)) fullShare f)]
  rfl

/-- The landing buffer: its eight blocks. -/
theorem y_open (c : Dev nD) (f : Buf (Elt F) ((c : Thread nD τ).loc cc0_scratch0)) :
    ((((c : Thread nD τ).loc cc0_scratch0) ↦{fullShare} f : sProp 𝕄)) ⊣⊢
      iprop(blkPts (F := F) c (yk 0) fullShare f ∗ blkPts (F := F) c (yk 1) fullShare f ∗ blkPts (F := F) c (yk 2) fullShare f ∗ blkPts (F := F) c (yk 3) fullShare f
        ∗ blkPts (F := F) c (yk 4) fullShare f ∗ blkPts (F := F) c (yk 5) fullShare f ∗ blkPts (F := F) c (yk 6) fullShare f ∗ blkPts (F := F) c (yk 7) fullShare f) := by
  refine (y_split c fullShare f).trans (BiEntails.of_eq ?_)
  rw [bigSep_blk8]

/-- The result's staging buffer: the quarter `c` reduces, the x-neighbour's, the z-neighbour's, and the two halves of the
    diagonal device's, block by block. -/
theorem out_open (c : Dev nD) (f : Buf (Elt F) ((c : Thread nD τ).loc cc0_stg1_0)) :
    ((((c : Thread nD τ).loc cc0_stg1_0) ↦{fullShare} f : sProp 𝕄)) ⊣⊢
      iprop((blkPts (F := F) c (ob (tO c 0)) fullShare f ∗ blkPts (F := F) c (ob (tO c 1)) fullShare f ∗ blkPts (F := F) c (ob (tO c 2)) fullShare f ∗ blkPts (F := F) c (ob (tO c 3)) fullShare f
          ∗ blkPts (F := F) c (ob (tO c 4)) fullShare f ∗ blkPts (F := F) c (ob (tO c 5)) fullShare f ∗ blkPts (F := F) c (ob (tO c 6)) fullShare f ∗ blkPts (F := F) c (ob (tO c 7)) fullShare f)
        ∗ (blkPts (F := F) c (ob (tO (xp c) 0)) fullShare f ∗ blkPts (F := F) c (ob (tO (xp c) 1)) fullShare f ∗ blkPts (F := F) c (ob (tO (xp c) 2)) fullShare f ∗ blkPts (F := F) c (ob (tO (xp c) 3)) fullShare f
          ∗ blkPts (F := F) c (ob (tO (xp c) 4)) fullShare f ∗ blkPts (F := F) c (ob (tO (xp c) 5)) fullShare f ∗ blkPts (F := F) c (ob (tO (xp c) 6)) fullShare f ∗ blkPts (F := F) c (ob (tO (xp c) 7)) fullShare f)
        ∗ (blkPts (F := F) c (ob (tO (zp c) 0)) fullShare f ∗ blkPts (F := F) c (ob (tO (zp c) 1)) fullShare f ∗ blkPts (F := F) c (ob (tO (zp c) 2)) fullShare f ∗ blkPts (F := F) c (ob (tO (zp c) 3)) fullShare f
          ∗ blkPts (F := F) c (ob (tO (zp c) 4)) fullShare f ∗ blkPts (F := F) c (ob (tO (zp c) 5)) fullShare f ∗ blkPts (F := F) c (ob (tO (zp c) 6)) fullShare f ∗ blkPts (F := F) c (ob (tO (zp c) 7)) fullShare f)
        ∗ (blkPts (F := F) c (ob (tO (xp (zp c)) (lo 0))) fullShare f ∗ blkPts (F := F) c (ob (tO (xp (zp c)) (lo 1))) fullShare f ∗ blkPts (F := F) c (ob (tO (xp (zp c)) (lo 2))) fullShare f ∗ blkPts (F := F) c (ob (tO (xp (zp c)) (lo 3))) fullShare f)
        ∗ (blkPts (F := F) c (ob (tO (xp (zp c)) (hi 0))) fullShare f ∗ blkPts (F := F) c (ob (tO (xp (zp c)) (hi 1))) fullShare f ∗ blkPts (F := F) c (ob (tO (xp (zp c)) (hi 2))) fullShare f ∗ blkPts (F := F) c (ob (tO (xp (zp c)) (hi 3))) fullShare f)) := by
  refine ((out_split c fullShare f).trans (blocks_regroup c fun t : Fin 32 => blkPts (F := F) c (ob t) fullShare f)).trans (BiEntails.of_eq ?_)
  rw [bigSep_blk8 (fun k : Fin 8 => blkPts (F := F) c (ob (tO c k)) fullShare f),
    bigSep_blk8 (fun k : Fin 8 => blkPts (F := F) c (ob (tO (xp c) k)) fullShare f),
    bigSep_blk8 (fun k : Fin 8 => blkPts (F := F) c (ob (tO (zp c) k)) fullShare f),
    bigSep_blk4 (fun i : Fin 4 => blkPts (F := F) c (ob (tO (xp (zp c)) (lo i))) fullShare f),
    bigSep_blk4 (fun i : Fin 4 => blkPts (F := F) c (ob (tO (xp (zp c)) (hi i))) fullShare f)]

/-- A block at the full share is its two halves. -/
theorem blk_halves (c : Dev nD) (t : Fin 32) (f : Buf (Elt F) ((ob t).view.loc (c : Thread nD τ))) :
    (blkPts (F := F) c (ob t) fullShare f) ⊣⊢ iprop(blkPts (F := F) c (ob t) fullShare.left f ∗ blkPts (F := F) c (ob t) fullShare.right f) :=
  pointsTo_share (PosShare.mem_left_op_right fullShare)

/-! ## The loads and the store of one block's reduction -/

/-- The load of block `k` of `c`'s own rows of `x`. -/
theorem step_loadx (c : Dev nD) (k : Fin 8) {hl : (xM : Memref sig .tc .vmem S1024x512 .f32).view.LoadsAt (Rect.unit (s := S1024x512) (k0_off2 c (BitVec.ofNat 32 (32 * k.val))) S32x512.size (k0_off2_inb c k)).toLoadRect}
    {α : Type} {Q : α → sProp 𝕄} {k' : ((Rect.unit (s := S1024x512) (k0_off2 c (BitVec.ofNat 32 (32 * k.val))) S32x512.size (k0_off2_inb c k)).toLoadRect.shape.Idx → Elt F .f32) → Prog (TpuEff nD τ sig (Elt F) Λ₀ .tc) α} :
    blkPts (F := F) c (xb (tO c k)) fullShare (xs m ρ c)
      ⊢ iprop((blkPts (F := F) c (xb (tO c k)) fullShare (xs m ρ c)
            -∗ wp frame (wpE (defs₀ (F := F)) 𝒱₀ (c : Thread nD τ) none) Set.univ (k' ((xM : Memref sig .tc .vmem S1024x512 .f32).view.readAt (Elt F) (Rect.unit (s := S1024x512) (k0_off2 c (BitVec.ofNat 32 (32 * k.val))) S32x512.size (k0_off2_inb c k)).toLoadRect (xs m ρ c))) Q)
          -∗ wp frame (wpE (defs₀ (F := F)) 𝒱₀ (c : Thread nD τ) none) Set.univ (.op (.load (xM : Memref sig .tc .vmem S1024x512 .f32) (Rect.unit (s := S1024x512) (k0_off2 c (BitVec.ofNat 32 (32 * k.val))) S32x512.size (k0_off2_inb c k)).toLoadRect hl) k') Q) :=
  wp_load 𝒱₀ (c : Thread nD τ) none Set.univ (m := xM) (xload_sub c k)

/-- The load of block `k` of the landing buffer. -/
theorem step_loady (c : Dev nD) (k : Fin 8) {hl : (yM : Memref sig .tc .vmem S256x512 .f32).view.LoadsAt (Rect.unit (s := S256x512) ![32 * k.val, 0] S32x512.size (yk_inb k)).toLoadRect}
    {α : Type} {Q : α → sProp 𝕄} {k' : ((Rect.unit (s := S256x512) ![32 * k.val, 0] S32x512.size (yk_inb k)).toLoadRect.shape.Idx → Elt F .f32) → Prog (TpuEff nD τ sig (Elt F) Λ₀ .tc) α} :
    blkPts (F := F) c (yk k) fullShare (Yb m ρ c)
      ⊢ iprop((blkPts (F := F) c (yk k) fullShare (Yb m ρ c)
            -∗ wp frame (wpE (defs₀ (F := F)) 𝒱₀ (c : Thread nD τ) none) Set.univ (k' ((yM : Memref sig .tc .vmem S256x512 .f32).view.readAt (Elt F) (Rect.unit (s := S256x512) ![32 * k.val, 0] S32x512.size (yk_inb k)).toLoadRect (Yb m ρ c))) Q)
          -∗ wp frame (wpE (defs₀ (F := F)) 𝒱₀ (c : Thread nD τ) none) Set.univ (.op (.load (yM : Memref sig .tc .vmem S256x512 .f32) (Rect.unit (s := S256x512) ![32 * k.val, 0] S32x512.size (yk_inb k)).toLoadRect hl) k') Q) :=
  wp_load 𝒱₀ (c : Thread nD τ) none Set.univ (m := yM) (yload_sub k)

/-- The (dead) load of block `k` of the quarter `c` reduces, off the result's staging buffer at whatever it holds. -/
theorem step_loado (c : Dev nD) (k : Fin 8) (f : Buf (Elt F) ((c : Thread nD τ).loc cc0_stg1_0)) {hl : (oM : Memref sig .tc .vmem S1024x512 .f32).view.LoadsAt (Rect.unit (s := S1024x512) (k0_off2 c (BitVec.ofNat 32 (32 * k.val))) S32x512.size (k0_off2_inb c k)).toLoadRect}
    {α : Type} {Q : α → sProp 𝕄} {k' : ((Rect.unit (s := S1024x512) (k0_off2 c (BitVec.ofNat 32 (32 * k.val))) S32x512.size (k0_off2_inb c k)).toLoadRect.shape.Idx → Elt F .f32) → Prog (TpuEff nD τ sig (Elt F) Λ₀ .tc) α} :
    blkPts (F := F) c (ob (tO c k)) fullShare f
      ⊢ iprop((blkPts (F := F) c (ob (tO c k)) fullShare f
            -∗ wp frame (wpE (defs₀ (F := F)) 𝒱₀ (c : Thread nD τ) none) Set.univ (k' ((oM : Memref sig .tc .vmem S1024x512 .f32).view.readAt (Elt F) (Rect.unit (s := S1024x512) (k0_off2 c (BitVec.ofNat 32 (32 * k.val))) S32x512.size (k0_off2_inb c k)).toLoadRect f)) Q)
          -∗ wp frame (wpE (defs₀ (F := F)) 𝒱₀ (c : Thread nD τ) none) Set.univ (.op (.load (oM : Memref sig .tc .vmem S1024x512 .f32) (Rect.unit (s := S1024x512) (k0_off2 c (BitVec.ofNat 32 (32 * k.val))) S32x512.size (k0_off2_inb c k)).toLoadRect hl) k') Q) :=
  wp_load 𝒱₀ (c : Thread nD τ) none Set.univ (m := oM) (oload_sub c k)

/-- The store of the two loaded blocks' sum over block `k` of the quarter `c` reduces: the block then holds what it must end holding. -/
theorem step_store (c : Dev nD) (k : Fin 8) (f : Buf (Elt F) ((c : Thread nD τ).loc cc0_stg1_0)) (w : (Rect.unit (s := S1024x512) (k0_off2 c (BitVec.ofNat 32 (32 * k.val))) S32x512.size (k0_off2_inb c k)).shape.Idx → Elt F .f32)
    (hw : w = addv ((xM : Memref sig .tc .vmem S1024x512 .f32).view.readAt (Elt F) (Rect.unit (s := S1024x512) (k0_off2 c (BitVec.ofNat 32 (32 * k.val))) S32x512.size (k0_off2_inb c k)).toLoadRect (xs m ρ c))
                   ((yM : Memref sig .tc .vmem S256x512 .f32).view.readAt (Elt F) (Rect.unit (s := S256x512) ![32 * k.val, 0] S32x512.size (yk_inb k)).toLoadRect (Yb m ρ c)))
    {hx : ((oM : Memref sig .tc .vmem S1024x512 .f32).access (Rect.unit (s := S1024x512) (k0_off2 c (BitVec.ofNat 32 (32 * k.val))) S32x512.size (k0_off2_inb c k))).Stores Finset.univ} {hm : (Finset.univ : Finset (Rect.unit (s := S1024x512) (k0_off2 c (BitVec.ofNat 32 (32 * k.val))) S32x512.size (k0_off2_inb c k)).shape.Idx) = Finset.univ ∨ ∀ a, (Rect.unit (s := S1024x512) (k0_off2 c (BitVec.ofNat 32 (32 * k.val))) S32x512.size (k0_off2_inb c k)).stride a = 1}
    {α : Type} {Q : α → sProp 𝕄} {k' : PUnit → Prog (TpuEff nD τ sig (Elt F) Λ₀ .tc) α} :
    blkPts (F := F) c (ob (tO c k)) fullShare f
      ⊢ iprop((blkPts (F := F) c (ob (tO c k)) fullShare (Out m ρ c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.store (oM : Memref sig .tc .vmem S1024x512 .f32) (Rect.unit (s := S1024x512) (k0_off2 c (BitVec.ofNat 32 (32 * k.val))) S32x512.size (k0_off2_inb c k)) w Finset.univ hx hm) k') Q) := by
  subst hw
  iintro H Hk
  iapply (wp_store 𝒱₀ (c : Thread nD τ) none Set.univ (m := oM)
    (r := Rect.unit (s := S1024x512) (k0_off2 c (BitVec.ofNat 32 (32 * k.val))) S32x512.size (k0_off2_inb c k)) (Mk := Finset.univ) (ostore_sub c k)) $$ H
  iintro H
  iapply Hk
  iapply (store_o m ρ c k f)
  iexact H

/-- info: 'Cert.KernelIdeal.AR.out_open' depends on axioms: [propext, Classical.choice, Quot.sound] -/
#guard_msgs in #print axioms out_open

/-- info: 'Cert.KernelIdeal.AR.step_store' depends on axioms: [propext, Classical.choice, Quot.sound] -/
#guard_msgs in #print axioms step_store

end Cert.KernelIdeal.AR
end
-- ==== Proof.ArKernelIdeal.BodyEnd.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Geom
import proofs.«900700_g7700000000000701_dist_ar_v7x_xyz2x2x2_y_m1024_n512_f32_1_alg».proof.Proof.ArKernelIdeal.Tables
import proofs.«900700_g7700000000000701_dist_ar_v7x_xyz2x2x2_y_m1024_n512_f32_1_alg».proof.Proof.ArKernelIdeal.Owes
import proofs.«900700_g7700000000000701_dist_ar_v7x_xyz2x2x2_y_m1024_n512_f32_1_alg».proof.Proof.ArKernelIdeal.Values
import proofs.«900700_g7700000000000701_dist_ar_v7x_xyz2x2x2_y_m1024_n512_f32_1_alg».proof.Proof.ArKernelIdeal.Steps
import proofs.«900700_g7700000000000701_dist_ar_v7x_xyz2x2x2_y_m1024_n512_f32_1_alg».proof.Proof.ArKernelIdeal.Blocks
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The end of the body: every cell's round consumed, every block back -/

/-- What the body has in hand when its last wait returns: every scratch cell one round on, nothing owed, the input's blocks
    as they were, the landing buffer's holding the y-neighbour's rows, and every block of the result's staging buffer as it
    must end (the quarter `c` reduces in two half shares, back from its two transfers). -/
def bodyEndState (K : Dev nD × Fin 65 → ℕ) (c : Dev nD) (W : Waits sig Unit) : sProp 𝕄 :=
  iprop(records m ρ K ∗ (each c fun g => atPos ER g 1 (∅ : Finset (Fin 3)) 0) ∗ owes (c : Thread nD τ) (owed c 35) W
    ∗ (blkPts (F := F) c (xb (tO c 0)) fullShare (xs m ρ c) ∗ blkPts (F := F) c (xb (tO c 1)) fullShare (xs m ρ c) ∗ blkPts (F := F) c (xb (tO c 2)) fullShare (xs m ρ c) ∗ blkPts (F := F) c (xb (tO c 3)) fullShare (xs m ρ c) ∗ blkPts (F := F) c (xb (tO c 4)) fullShare (xs m ρ c) ∗ blkPts (F := F) c (xb (tO c 5)) fullShare (xs m ρ c) ∗ blkPts (F := F) c (xb (tO c 6)) fullShare (xs m ρ c) ∗ blkPts (F := F) c (xb (tO c 7)) fullShare (xs m ρ c)) ∗ xRest c (xs m ρ c)
    ∗ (blkPts (F := F) c (yk 0) fullShare (Yb m ρ c) ∗ blkPts (F := F) c (yk 1) fullShare (Yb m ρ c) ∗ blkPts (F := F) c (yk 2) fullShare (Yb m ρ c) ∗ blkPts (F := F) c (yk 3) fullShare (Yb m ρ c) ∗ blkPts (F := F) c (yk 4) fullShare (Yb m ρ c) ∗ blkPts (F := F) c (yk 5) fullShare (Yb m ρ c) ∗ blkPts (F := F) c (yk 6) fullShare (Yb m ρ c) ∗ blkPts (F := F) c (yk 7) fullShare (Yb m ρ c))
    ∗ ((blkPts (F := F) c (ob (tO c 0)) fullShare.left (Out m ρ c) ∗ blkPts (F := F) c (ob (tO c 0)) fullShare.right (Out m ρ c)) ∗ (blkPts (F := F) c (ob (tO c 1)) fullShare.left (Out m ρ c) ∗ blkPts (F := F) c (ob (tO c 1)) fullShare.right (Out m ρ c)) ∗ (blkPts (F := F) c (ob (tO c 2)) fullShare.left (Out m ρ c) ∗ blkPts (F := F) c (ob (tO c 2)) fullShare.right (Out m ρ c)) ∗ (blkPts (F := F) c (ob (tO c 3)) fullShare.left (Out m ρ c) ∗ blkPts (F := F) c (ob (tO c 3)) fullShare.right (Out m ρ c)) ∗ (blkPts (F := F) c (ob (tO c 4)) fullShare.left (Out m ρ c) ∗ blkPts (F := F) c (ob (tO c 4)) fullShare.right (Out m ρ c)) ∗ (blkPts (F := F) c (ob (tO c 5)) fullShare.left (Out m ρ c) ∗ blkPts (F := F) c (ob (tO c 5)) fullShare.right (Out m ρ c)) ∗ (blkPts (F := F) c (ob (tO c 6)) fullShare.left (Out m ρ c) ∗ blkPts (F := F) c (ob (tO c 6)) fullShare.right (Out m ρ c)) ∗ (blkPts (F := F) c (ob (tO c 7)) fullShare.left (Out m ρ c) ∗ blkPts (F := F) c (ob (tO c 7)) fullShare.right (Out m ρ c)))
    ∗ (blkPts (F := F) c (ob (tO (xp c) 0)) fullShare (Out m ρ c) ∗ blkPts (F := F) c (ob (tO (xp c) 1)) fullShare (Out m ρ c) ∗ blkPts (F := F) c (ob (tO (xp c) 2)) fullShare (Out m ρ c) ∗ blkPts (F := F) c (ob (tO (xp c) 3)) fullShare (Out m ρ c) ∗ blkPts (F := F) c (ob (tO (xp c) 4)) fullShare (Out m ρ c) ∗ blkPts (F := F) c (ob (tO (xp c) 5)) fullShare (Out m ρ c) ∗ blkPts (F := F) c (ob (tO (xp c) 6)) fullShare (Out m ρ c) ∗ blkPts (F := F) c (ob (tO (xp c) 7)) fullShare (Out m ρ c))
    ∗ (blkPts (F := F) c (ob (tO (zp c) 0)) fullShare (Out m ρ c) ∗ blkPts (F := F) c (ob (tO (zp c) 1)) fullShare (Out m ρ c) ∗ blkPts (F := F) c (ob (tO (zp c) 2)) fullShare (Out m ρ c) ∗ blkPts (F := F) c (ob (tO (zp c) 3)) fullShare (Out m ρ c) ∗ blkPts (F := F) c (ob (tO (zp c) 4)) fullShare (Out m ρ c) ∗ blkPts (F := F) c (ob (tO (zp c) 5)) fullShare (Out m ρ c) ∗ blkPts (F := F) c (ob (tO (zp c) 6)) fullShare (Out m ρ c) ∗ blkPts (F := F) c (ob (tO (zp c) 7)) fullShare (Out m ρ c))
    ∗ (blkPts (F := F) c (ob (tO (xp (zp c)) (lo 0))) fullShare (Out m ρ c) ∗ blkPts (F := F) c (ob (tO (xp (zp c)) (lo 1))) fullShare (Out m ρ c) ∗ blkPts (F := F) c (ob (tO (xp (zp c)) (lo 2))) fullShare (Out m ρ c) ∗ blkPts (F := F) c (ob (tO (xp (zp c)) (lo 3))) fullShare (Out m ρ c))
    ∗ (blkPts (F := F) c (ob (tO (xp (zp c)) (hi 0))) fullShare (Out m ρ c) ∗ blkPts (F := F) c (ob (tO (xp (zp c)) (hi 1))) fullShare (Out m ρ c) ∗ blkPts (F := F) c (ob (tO (xp (zp c)) (hi 2))) fullShare (Out m ρ c) ∗ blkPts (F := F) c (ob (tO (xp (zp c)) (hi 3))) fullShare (Out m ρ c)))

/-- One scratch array's cells, each with its one round consumed, close together. -/
theorem close_arr {n : ℕ} (K : Dev nD × Fin 65 → ℕ) (c : Dev nD) (S : Fin n → DmaSem sig) (hS : ∀ k, 2 ≤ (S k).val) :
    iprop(records m ρ K ∗ bigSep Finset.univ fun k : Fin n => atPos ER (dCell c (S k)) 1 (∅ : Finset (Fin 3)) 0)
      ⊢ (|={Set.univ}=> bigSep Finset.univ fun k : Fin n => semVal (dCell c (S k)) 0 : sProp 𝕄) := by
  refine (sep_mono_left (bigSep_of_persistent (Finset.univ : Finset (Fin n)) (records m ρ K))).trans ?_
  rw [← bigSep_sep']
  exact (bigSep_mono fun k _ => step_close m ρ K c (S k) (hS k)).trans (bigSep_fupd _ _)

/-- All 64 scratch cells close: their counters, at zero, are the device's again. -/
theorem each_close (K : Dev nD × Fin 65 → ℕ) (c : Dev nD) :
    iprop(records m ρ K ∗ each c fun g => atPos ER g 1 (∅ : Finset (Fin 3)) 0)
      ⊢ (|={Set.univ}=> each c fun g => semVal g 0 : sProp 𝕄) := by
  unfold each
  iintro ⟨#HR, H1, H2, H3, H4, H5, H6⟩
  imod (close_arr m ρ K c ysS (fun k => by show 2 ≤ 2 + k.val; omega)) $$ [H1] with H1
  · isplitr; · iexact HR
    iexact H1
  imod (close_arr m ρ K c yrS (fun k => by show 2 ≤ 10 + k.val; omega)) $$ [H2] with H2
  · isplitr; · iexact HR
    iexact H2
  imod (close_arr m ρ K c xsS (fun k => by show 2 ≤ 18 + k.val; omega)) $$ [H3] with H3
  · isplitr; · iexact HR
    iexact H3
  imod (close_arr m ρ K c xrS (fun k => by show 2 ≤ 30 + k.val; omega)) $$ [H4] with H4
  · isplitr; · iexact HR
    iexact H4
  imod (close_arr m ρ K c zsS (fun k => by show 2 ≤ 42 + k.val; omega)) $$ [H5] with H5
  · isplitr; · iexact HR
    iexact H5
  imod (close_arr m ρ K c zrS (fun k => by show 2 ≤ 54 + k.val; omega)) $$ [H6] with H6
  · isplitr; · iexact HR
    iexact H6
  imodintro
  isplitl [H1]; · iexact H1
  isplitl [H2]; · iexact H2
  isplitl [H3]; · iexact H3
  isplitl [H4]; · iexact H4
  isplitl [H5]; · iexact H5
  iexact H6

/-- From there the body's postcondition: the scratch cells close (their counters at zero are the device's again), the
    blocks join into the three buffers. -/
theorem body_finish (K : Dev nD × Fin 65 → ℕ) (c : Dev nD) (W : Waits sig Unit) :
    bodyEndState m ρ K c W ⊢ (|={Set.univ}=> bodyPost m ρ c : sProp 𝕄) := by
  unfold bodyEndState
  rw [owed_done]
  iintro ⟨#HR, Hat, HO, Hx, Hxr, Hy, Ho, Hox, Hoz, Hol, Hoh⟩
  imod (each_close m ρ K c) $$ [Hat] with Hz
  · isplitr; · iexact HR
    iexact Hat
  imodintro
  unfold bodyPost Φ₁ Dat.owesAt Pipeline.owesWithin
  rw [show (dats m ρ 0 c).owed t₀.succ = 0 from rfl]
  isplitl [Hy Hz]
  · isplitl [Hy]
    · iapply (y_open c (Yb m ρ c)).2; iexact Hy
    · iexact Hz
  isplitl [HO]
  · iexists W
    isplitr; · ipureintro; exact fun _ _ => Or.inl trivial
    iexact HO
  isplitl [Hx Hxr]
  · iexists _; isplitr; · (ipureintro; rfl)
    iapply (x_open c (xs m ρ c)).2
    isplitl [Hx]; · iexact Hx
    iexact Hxr
  · iexists _; isplitr; · (ipureintro; rfl)
    iapply (out_open c (Out m ρ c)).2
    isplitl [Ho]
    · icases Ho with ⟨H0, H1, H2, H3, H4, H5, H6, H7⟩
      isplitl [H0]; · iapply (blk_halves c (tO c 0) (Out m ρ c)).2; iexact H0
      isplitl [H1]; · iapply (blk_halves c (tO c 1) (Out m ρ c)).2; iexact H1
      isplitl [H2]; · iapply (blk_halves c (tO c 2) (Out m ρ c)).2; iexact H2
      isplitl [H3]; · iapply (blk_halves c (tO c 3) (Out m ρ c)).2; iexact H3
      isplitl [H4]; · iapply (blk_halves c (tO c 4) (Out m ρ c)).2; iexact H4
      isplitl [H5]; · iapply (blk_halves c (tO c 5) (Out m ρ c)).2; iexact H5
      isplitl [H6]; · iapply (blk_halves c (tO c 6) (Out m ρ c)).2; iexact H6
      iapply (blk_halves c (tO c 7) (Out m ρ c)).2; iexact H7
    isplitl [Hox]; · iexact Hox
    isplitl [Hoz]; · iexact Hoz
    isplitl [Hol]; · iexact Hol
    iexact Hoh

/-- info: 'Cert.KernelIdeal.AR.body_finish' depends on axioms: [propext, Classical.choice, Quot.sound] -/
#guard_msgs in #print axioms body_finish

end Cert.KernelIdeal.AR
end
-- ==== Proof.ArKernelIdeal.Body.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Geom
import proofs.«900700_g7700000000000701_dist_ar_v7x_xyz2x2x2_y_m1024_n512_f32_1_alg».proof.Proof.ArKernelIdeal.Tables
import proofs.«900700_g7700000000000701_dist_ar_v7x_xyz2x2x2_y_m1024_n512_f32_1_alg».proof.Proof.ArKernelIdeal.Owes
import proofs.«900700_g7700000000000701_dist_ar_v7x_xyz2x2x2_y_m1024_n512_f32_1_alg».proof.Proof.ArKernelIdeal.Values
import proofs.«900700_g7700000000000701_dist_ar_v7x_xyz2x2x2_y_m1024_n512_f32_1_alg».proof.Proof.ArKernelIdeal.Steps
import proofs.«900700_g7700000000000701_dist_ar_v7x_xyz2x2x2_y_m1024_n512_f32_1_alg».proof.Proof.ArKernelIdeal.Steps2
import proofs.«900700_g7700000000000701_dist_ar_v7x_xyz2x2x2_y_m1024_n512_f32_1_alg».proof.Proof.ArKernelIdeal.Blocks
import proofs.«900700_g7700000000000701_dist_ar_v7x_xyz2x2x2_y_m1024_n512_f32_1_alg».proof.Proof.ArKernelIdeal.BodyEnd
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the body starts from, the names of the cells' invariants fixed. -/
def bodyPre (K : Dev nD × Fin 65 → ℕ) (c : Dev nD) : sProp 𝕄 :=
  iprop((records m ρ K ∗ positions (F := F) c ∗ payToks (F := F) c) ∗ creds (F := F) c ∗ levAts L lv
    ∗ (∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem fetch_0 (t : Fin cfg0.N) : (cfg0.win (0 : Fin 2)).fetch t = true := by rw [fin_N t]; rfl

set_option maxHeartbeats 16000000 in
set_option sl_exec.stepHeartbeats 400000 in
set_option maxRecDepth 65536 in
/-- The body on a device, statement by statement in program order: the three entry signals and their wait; the eight
    transfers to the y-neighbour; per block the two waits, the reduction and the two transfers of the first exchange; the
    four pairs of forwards, each after the wait for the block it forwards; the remaining waits. -/
theorem sound_body (K : Dev nD × Fin 65 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4 cc0_scratch5 cc0_scratch6) Kt := by
  unfold bodyPre positions payToks creds each
  simp only [bigSep_fin8, bigSep_fin12]
  iintro ⟨⟨⟨#Hrec, ⟨HaB, ⟨Hays0, Hays1, Hays2, Hays3, Hays4, Hays5, Hays6, Hays7⟩, ⟨Hayr0, Hayr1, Hayr2, Hayr3, Hayr4, Hayr5, Hayr6, Hayr7⟩, ⟨Haxs0, Haxs1, Haxs2, Haxs3, Haxs4, Haxs5, Haxs6, Haxs7, Haxs8, Haxs9, Haxs10, Haxs11⟩, ⟨Haxr0, Haxr1, Haxr2, Haxr3, Haxr4, Haxr5, Haxr6, Haxr7, Haxr8, Haxr9, Haxr10, Haxr11⟩, ⟨Hazs0, Hazs1, Hazs2, Hazs3, Hazs4, Hazs5, Hazs6, Hazs7, Hazs8, Hazs9, Hazs10, Hazs11⟩, ⟨Hazr0, Hazr1, Hazr2, Hazr3, Hazr4, Hazr5, Hazr6, Hazr7, Hazr8, Hazr9, Hazr10, Hazr11⟩⟩,
      ⟨HtB0, HtB1, HtB2, ⟨Htys0, Htys1, Htys2, Htys3, Htys4, Htys5, Htys6, Htys7⟩, ⟨Htyr0, Htyr1, Htyr2, Htyr3, Htyr4, Htyr5, Htyr6, Htyr7⟩, ⟨Htxs0, Htxs1, Htxs2, Htxs3, Htxs4, Htxs5, Htxs6, Htxs7, Htxs8, Htxs9, Htxs10, Htxs11⟩, ⟨Htxr0, Htxr1, Htxr2, Htxr3, Htxr4, Htxr5, Htxr6, Htxr7, Htxr8, Htxr9, Htxr10, Htxr11⟩, ⟨Htzs0, Htzs1, Htzs2, Htzs3, Htzs4, Htzs5, Htzs6, Htzs7, Htzs8, Htzs9, Htzs10, Htzs11⟩, ⟨Htzr0, Htzr1, Htzr2, Htzr3, Htzr4, Htzr5, Htzr6, Htzr7, Htzr8, Htzr9, Htzr10, Htzr11⟩⟩⟩,
    ⟨HcB, ⟨Hcyr0, Hcyr1, Hcyr2, Hcyr3, Hcyr4, Hcyr5, Hcyr6, Hcyr7⟩, ⟨Hcxr0, Hcxr1, Hcxr2, Hcxr3, Hcxr4, Hcxr5, Hcxr6, Hcxr7, Hcxr8, Hcxr9, Hcxr10, Hcxr11⟩, ⟨Hczr0, Hczr1, Hczr2, Hczr3, Hczr4, Hczr5, Hczr6, Hczr7, Hczr8, Hczr9, Hczr10, Hczr11⟩⟩,
    #Hlev, ⟨%fy, Hy⟩, Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c 0 from rfl]
  ihave Hx' := (x_open c (xs m ρ c)).1 $$ Hx
  icases Hx' with ⟨⟨Hxb0, Hxb1, Hxb2, Hxb3, Hxb4, Hxb5, Hxb6, Hxb7⟩, HxR⟩
  ihave Ho' := (out_open c g1).1 $$ Hout
  icases Ho' with ⟨⟨Hob0, Hob1, Hob2, Hob3, Hob4, Hob5, Hob6, Hob7⟩, ⟨Hox0, Hox1, Hox2, Hox3, Hox4, Hox5, Hox6, Hox7⟩, ⟨Hoz0, Hoz1, Hoz2, Hoz3, Hoz4, Hoz5, Hoz6, Hoz7⟩, ⟨Hodl0, Hodl1, Hodl2, Hodl3⟩, ⟨Hodh0, Hodh1, Hodh2, Hodh3⟩⟩
  ihave Hy' := (y_open c fy).1 $$ Hy
  icases Hy' with ⟨Hyb0, Hyb1, Hyb2, Hyb3, Hyb4, Hyb5, Hyb6, Hyb7⟩
  -- the entry signals: the landing buffer to the y-neighbour; of the result buffer the x-neighbour's quarter and the upper half of the
  -- diagonal device's to the x-neighbour, the z-neighbour's quarter and the lower half of the diagonal device's to the z-neighbour
  ihave HgY : giveY (F := F) c $$ [Hyb0 Hyb1 Hyb2 Hyb3 Hyb4 Hyb5 Hyb6 Hyb7]
  · unfold giveY free; rw [bigSep_fin8]
    isplitl [Hyb0]; · (iexists _; iexact Hyb0)
    isplitl [Hyb1]; · (iexists _; iexact Hyb1)
    isplitl [Hyb2]; · (iexists _; iexact Hyb2)
    isplitl [Hyb3]; · (iexists _; iexact Hyb3)
    isplitl [Hyb4]; · (iexists _; iexact Hyb4)
    isplitl [Hyb5]; · (iexists _; iexact Hyb5)
    isplitl [Hyb6]; · (iexists _; iexact Hyb6)
    iexists _; iexact Hyb7
  ihave HgX : giveX (F := F) c $$ [Hox0 Hox1 Hox2 Hox3 Hox4 Hox5 Hox6 Hox7 Hodh0 Hodh1 Hodh2 Hodh3]
  · unfold giveX free; rw [bigSep_fin8, bigSep_fin4']
    isplitl [Hox0 Hox1 Hox2 Hox3 Hox4 Hox5 Hox6 Hox7]
    · isplitl [Hox0]; · (iexists _; iexact Hox0)
      isplitl [Hox1]; · (iexists _; iexact Hox1)
      isplitl [Hox2]; · (iexists _; iexact Hox2)
      isplitl [Hox3]; · (iexists _; iexact Hox3)
      isplitl [Hox4]; · (iexists _; iexact Hox4)
      isplitl [Hox5]; · (iexists _; iexact Hox5)
      isplitl [Hox6]; · (iexists _; iexact Hox6)
      iexists _; iexact Hox7
    isplitl [Hodh0]; · (iexists _; iexact Hodh0)
    isplitl [Hodh1]; · (iexists _; iexact Hodh1)
    isplitl [Hodh2]; · (iexists _; iexact Hodh2)
    iexists _; iexact Hodh3
  ihave HgZ : giveZ (F := F) c $$ [Hoz0 Hoz1 Hoz2 Hoz3 Hoz4 Hoz5 Hoz6 Hoz7 Hodl0 Hodl1 Hodl2 Hodl3]
  · unfold giveZ free; rw [bigSep_fin8, bigSep_fin4']
    isplitl [Hoz0 Hoz1 Hoz2 Hoz3 Hoz4 Hoz5 Hoz6 Hoz7]
    · isplitl [Hoz0]; · (iexists _; iexact Hoz0)
      isplitl [Hoz1]; · (iexists _; iexact Hoz1)
      isplitl [Hoz2]; · (iexists _; iexact Hoz2)
      isplitl [Hoz3]; · (iexists _; iexact Hoz3)
      isplitl [Hoz4]; · (iexists _; iexact Hoz4)
      isplitl [Hoz5]; · (iexists _; iexact Hoz5)
      isplitl [Hoz6]; · (iexists _; iexact Hoz6)
      iexists _; iexact Hoz7
    isplitl [Hodl0]; · (iexists _; iexact Hodl0)
    isplitl [Hodl1]; · (iexists _; iexact Hodl1)
    isplitl [Hodl2]; · (iexists _; iexact Hodl2)
    iexists _; iexact Hodl3
  sl_exec
  iapply (signal_y m ρ K c _ (dev1_eq c) _) $$ [HO HtB0 HgY]
  · isplitr; · iexact Hrec
    isplitl [HO]; · iexact HO
    isplitl [HtB0]; · iexact HtB0
    iexact HgY
  iintro HO
  sl_exec
  iapply (signal_x m ρ K c _ (dev2_eq c) _) $$ [HO HtB1 HgX]
  · isplitr; · iexact Hrec
    isplitl [HO]; · iexact HO
    isplitl [HtB1]; · iexact HtB1
    iexact HgX
  iintro HO
  sl_exec
  iapply (signal_z m ρ K c _ (dev3_eq c) _) $$ [HO HtB2 HgZ]
  · isplitr; · iexact Hrec
    isplitl [HO]; · iexact HO
    isplitl [HtB2]; · iexact HtB2
    iexact HgZ
  iintro HO
  -- the wait for the three neighbours' signals: their blocks this device will write
  sl_exec
  iapply (barwait m ρ K c _) $$ [HcB HO HaB]
  · isplitr; · iexact Hrec
    isplitr; · iexact Hlev
    isplitl [HcB]; · iexact HcB
    isplitl [HO]; · iexact HO
    iexact HaB
  iintro ⟨HO, HaB, HfY, ⟨HfX, HfXd⟩, ⟨HfZ, HfZd⟩⟩
  ihave HfY' := (Entails.of_eq (bigSep_fin8 _)) $$ HfY
  icases HfY' with ⟨Hfy0, Hfy1, Hfy2, Hfy3, Hfy4, Hfy5, Hfy6, Hfy7⟩
  ihave HfX' := (Entails.of_eq (bigSep_fin8 _)) $$ HfX
  icases HfX' with ⟨Hfx0, Hfx1, Hfx2, Hfx3, Hfx4, Hfx5, Hfx6, Hfx7⟩
  ihave HfXd' := (Entails.of_eq (bigSep_fin4' _)) $$ HfXd
  icases HfXd' with ⟨Hfxd0, Hfxd1, Hfxd2, Hfxd3⟩
  ihave HfZ' := (Entails.of_eq (bigSep_fin8 _)) $$ HfZ
  icases HfZ' with ⟨Hfz0, Hfz1, Hfz2, Hfz3, Hfz4, Hfz5, Hfz6, Hfz7⟩
  ihave HfZd' := (Entails.of_eq (bigSep_fin4' _)) $$ HfZd
  icases HfZd' with ⟨Hfzd0, Hfzd1, Hfzd2, Hfzd3⟩
  -- the eight transfers of this device's rows of the quarter it reduces onto the y-neighbour's landing buffer
  sl_exec
  iapply (send_y m ρ K c _ 0 3 (by decide) _ _ _ _ (dev4_eq c) rfl rfl rfl rfl rfl _) $$ [Hxb0 Hfy0 HO Htys0 Htyr0]
  · isplitr; · iexact Hrec
    isplitl [Hxb0]; · iexact Hxb0
    isplitl [Hfy0]; · iexact Hfy0
    isplitl [HO]; · iexact HO
    isplitl [Htys0]; · iexact Htys0
    iexact Htyr0
  iintro ⟨Hcys0, HO⟩
  sl_exec
  iapply (send_y m ρ K c _ 4 4 (by decide) _ _ _ _ (dev5_eq c) rfl rfl rfl rfl rfl _) $$ [Hxb4 Hfy4 HO Htys4 Htyr4]
  · isplitr; · iexact Hrec
    isplitl [Hxb4]; · iexact Hxb4
    isplitl [Hfy4]; · iexact Hfy4
    isplitl [HO]; · iexact HO
    isplitl [Htys4]; · iexact Htys4
    iexact Htyr4
  iintro ⟨Hcys4, HO⟩
  sl_exec
  iapply (send_y m ρ K c _ 1 5 (by decide) _ _ _ _ (dev6_eq c) rfl rfl rfl rfl rfl _) $$ [Hxb1 Hfy1 HO Htys1 Htyr1]
  · isplitr; · iexact Hrec
    isplitl [Hxb1]; · iexact Hxb1
    isplitl [Hfy1]; · iexact Hfy1
    isplitl [HO]; · iexact HO
    isplitl [Htys1]; · iexact Htys1
    iexact Htyr1
  iintro ⟨Hcys1, HO⟩
  sl_exec
  iapply (send_y m ρ K c _ 5 6 (by decide) _ _ _ _ (dev7_eq c) rfl rfl rfl rfl rfl _) $$ [Hxb5 Hfy5 HO Htys5 Htyr5]
  · isplitr; · iexact Hrec
    isplitl [Hxb5]; · iexact Hxb5
    isplitl [Hfy5]; · iexact Hfy5
    isplitl [HO]; · iexact HO
    isplitl [Htys5]; · iexact Htys5
    iexact Htyr5
  iintro ⟨Hcys5, HO⟩
  sl_exec
  iapply (send_y m ρ K c _ 2 7 (by decide) _ _ _ _ (dev8_eq c) rfl rfl rfl rfl rfl _) $$ [Hxb2 Hfy2 HO Htys2 Htyr2]
  · isplitr; · iexact Hrec
    isplitl [Hxb2]; · iexact Hxb2
    isplitl [Hfy2]; · iexact Hfy2
    isplitl [HO]; · iexact HO
    isplitl [Htys2]; · iexact Htys2
    iexact Htyr2
  iintro ⟨Hcys2, HO⟩
  sl_exec
  iapply (send_y m ρ K c _ 6 8 (by decide) _ _ _ _ (dev9_eq c) rfl rfl rfl rfl rfl _) $$ [Hxb6 Hfy6 HO Htys6 Htyr6]
  · isplitr; · iexact Hrec
    isplitl [Hxb6]; · iexact Hxb6
    isplitl [Hfy6]; · iexact Hfy6
    isplitl [HO]; · iexact HO
    isplitl [Htys6]; · iexact Htys6
    iexact Htyr6
  iintro ⟨Hcys6, HO⟩
  sl_exec
  iapply (send_y m ρ K c _ 3 9 (by decide) _ _ _ _ (dev10_eq c) rfl rfl rfl rfl rfl _) $$ [Hxb3 Hfy3 HO Htys3 Htyr3]
  · isplitr; · iexact Hrec
    isplitl [Hxb3]; · iexact Hxb3
    isplitl [Hfy3]; · iexact Hfy3
    isplitl [HO]; · iexact HO
    isplitl [Htys3]; · iexact Htys3
    iexact Htyr3
  iintro ⟨Hcys3, HO⟩
  sl_exec
  iapply (send_y m ρ K c _ 7 10 (by decide) _ _ _ _ (dev11_eq c) rfl rfl rfl rfl rfl _) $$ [Hxb7 Hfy7 HO Htys7 Htyr7]
  · isplitr; · iexact Hrec
    isplitl [Hxb7]; · iexact Hxb7
    isplitl [Hfy7]; · iexact Hfy7
    isplitl [HO]; · iexact HO
    isplitl [Htys7]; · iexact Htys7
    iexact Htyr7
  iintro ⟨Hcys7, HO⟩
  -- block 0: its transfer out has left, the y-neighbour's has landed; reduce; send to the x- and the z-neighbour
  sl_exec
  iapply (wait_ys m ρ K c 0 11 trivial _ rfl _ _ _) $$ [Hcys0 HO Hays0]
  · isplitr; · iexact Hrec
    isplitr; · iexact Hlev
    isplitl [Hcys0]; · iexact Hcys0
    isplitl [HO]; · iexact HO
    iexact Hays0
  iintro ⟨HO, Hays0, Hxb0⟩
  sl_exec
  iapply (wait_yr m ρ K c 0 11 (by decide) _ rfl _ _ _) $$ [Hcyr0 HO Hayr0]
  · isplitr; · iexact Hrec
    isplitr; · iexact Hlev
    isplitl [Hcyr0]; · iexact Hcyr0
    isplitl [HO]; · iexact HO
    iexact Hayr0
  iintro ⟨HO, Hayr0, Hyb0⟩
  have hxl := xload_sub c 0
  have hyl := yload_sub 0
  have hol := oload_sub c 0
  sl_exec
  clear hxl hyl hol
  iapply (step_store m ρ c 0 g1 _ (pay1_eq _ _)) $$ Hob0
  iintro Hob0
  ihave Hh := (blk_halves c (tO c 0) (Out m ρ c)).1 $$ Hob0
  icases Hh with ⟨HobL0, HobR0⟩
  sl_exec
  iapply (send_xo m ρ K c _ 0 11 (by decide) _ _ _ _ (dev12_eq c) rfl rfl rfl rfl rfl _) $$ [HobL0 Hfx0 HO Htxs0 Htxr0]
  · isplitr; · iexact Hrec
    isplitl [HobL0]; · iexact HobL0
    isplitl [Hfx0]; · iexact Hfx0
    isplitl [HO]; · iexact HO
    isplitl [Htxs0]; · iexact Htxs0
    iexact Htxr0
  iintro ⟨Hcxs0, HO⟩
  sl_exec
  iapply (send_zo m ρ K c _ 0 12 (by decide) _ _ _ _ (dev13_eq c) rfl rfl rfl rfl rfl _) $$ [HobR0 Hfz0 HO Htzs0 Htzr0]
  · isplitr; · iexact Hrec
    isplitl [HobR0]; · iexact HobR0
    isplitl [Hfz0]; · iexact Hfz0
    isplitl [HO]; · iexact HO
    isplitl [Htzs0]; · iexact Htzs0
    iexact Htzr0
  iintro ⟨Hczs0, HO⟩
  -- block 4: its transfer out has left, the y-neighbour's has landed; reduce; send to the x- and the z-neighbour
  sl_exec
  iapply (wait_ys m ρ K c 4 13 trivial _ rfl _ _ _) $$ [Hcys4 HO Hays4]
  · isplitr; · iexact Hrec
    isplitr; · iexact Hlev
    isplitl [Hcys4]; · iexact Hcys4
    isplitl [HO]; · iexact HO
    iexact Hays4
  iintro ⟨HO, Hays4, Hxb4⟩
  sl_exec
  iapply (wait_yr m ρ K c 4 13 (by decide) _ rfl _ _ _) $$ [Hcyr4 HO Hayr4]
  · isplitr; · iexact Hrec
    isplitr; · iexact Hlev
    isplitl [Hcyr4]; · iexact Hcyr4
    isplitl [HO]; · iexact HO
    iexact Hayr4
  iintro ⟨HO, Hayr4, Hyb4⟩
  have hxl := xload_sub c 4
  have hyl := yload_sub 4
  have hol := oload_sub c 4
  sl_exec
  clear hxl hyl hol
  iapply (step_store m ρ c 4 g1 _ (pay2_eq _ _)) $$ Hob4
  iintro Hob4
  ihave Hh := (blk_halves c (tO c 4) (Out m ρ c)).1 $$ Hob4
  icases Hh with ⟨HobL4, HobR4⟩
  sl_exec
  iapply (send_xo m ρ K c _ 4 13 (by decide) _ _ _ _ (dev14_eq c) rfl rfl rfl rfl rfl _) $$ [HobL4 Hfx4 HO Htxs4 Htxr4]
  · isplitr; · iexact Hrec
    isplitl [HobL4]; · iexact HobL4
    isplitl [Hfx4]; · iexact Hfx4
    isplitl [HO]; · iexact HO
    isplitl [Htxs4]; · iexact Htxs4
    iexact Htxr4
  iintro ⟨Hcxs4, HO⟩
  sl_exec
  iapply (send_zo m ρ K c _ 4 14 (by decide) _ _ _ _ (dev15_eq c) rfl rfl rfl rfl rfl _) $$ [HobR4 Hfz4 HO Htzs4 Htzr4]
  · isplitr; · iexact Hrec
    isplitl [HobR4]; · iexact HobR4
    isplitl [Hfz4]; · iexact Hfz4
    isplitl [HO]; · iexact HO
    isplitl [Htzs4]; · iexact Htzs4
    iexact Htzr4
  iintro ⟨Hczs4, HO⟩
  -- block 1: its transfer out has left, the y-neighbour's has landed; reduce; send to the x- and the z-neighbour
  sl_exec
  iapply (wait_ys m ρ K c 1 15 trivial _ rfl _ _ _) $$ [Hcys1 HO Hays1]
  · isplitr; · iexact Hrec
    isplitr; · iexact Hlev
    isplitl [Hcys1]; · iexact Hcys1
    isplitl [HO]; · iexact HO
    iexact Hays1
  iintro ⟨HO, Hays1, Hxb1⟩
  sl_exec
  iapply (wait_yr m ρ K c 1 15 (by decide) _ rfl _ _ _) $$ [Hcyr1 HO Hayr1]
  · isplitr; · iexact Hrec
    isplitr; · iexact Hlev
    isplitl [Hcyr1]; · iexact Hcyr1
    isplitl [HO]; · iexact HO
    iexact Hayr1
  iintro ⟨HO, Hayr1, Hyb1⟩
  have hxl := xload_sub c 1
  have hyl := yload_sub 1
  have hol := oload_sub c 1
  sl_exec
  clear hxl hyl hol
  iapply (step_store m ρ c 1 g1 _ (pay3_eq _ _)) $$ Hob1
  iintro Hob1
  ihave Hh := (blk_halves c (tO c 1) (Out m ρ c)).1 $$ Hob1
  icases Hh with ⟨HobL1, HobR1⟩
  sl_exec
  iapply (send_xo m ρ K c _ 1 15 (by decide) _ _ _ _ (dev16_eq c) rfl rfl rfl rfl rfl _) $$ [HobL1 Hfx1 HO Htxs1 Htxr1]
  · isplitr; · iexact Hrec
    isplitl [HobL1]; · iexact HobL1
    isplitl [Hfx1]; · iexact Hfx1
    isplitl [HO]; · iexact HO
    isplitl [Htxs1]; · iexact Htxs1
    iexact Htxr1
  iintro ⟨Hcxs1, HO⟩
  sl_exec
  iapply (send_zo m ρ K c _ 1 16 (by decide) _ _ _ _ (dev17_eq c) rfl rfl rfl rfl rfl _) $$ [HobR1 Hfz1 HO Htzs1 Htzr1]
  · isplitr; · iexact Hrec
    isplitl [HobR1]; · iexact HobR1
    isplitl [Hfz1]; · iexact Hfz1
    isplitl [HO]; · iexact HO
    isplitl [Htzs1]; · iexact Htzs1
    iexact Htzr1
  iintro ⟨Hczs1, HO⟩
  -- block 5: its transfer out has left, the y-neighbour's has landed; reduce; send to the x- and the z-neighbour
  sl_exec
  iapply (wait_ys m ρ K c 5 17 trivial _ rfl _ _ _) $$ [Hcys5 HO Hays5]
  · isplitr; · iexact Hrec
    isplitr; · iexact Hlev
    isplitl [Hcys5]; · iexact Hcys5
    isplitl [HO]; · iexact HO
    iexact Hays5
  iintro ⟨HO, Hays5, Hxb5⟩
  sl_exec
  iapply (wait_yr m ρ K c 5 17 (by decide) _ rfl _ _ _) $$ [Hcyr5 HO Hayr5]
  · isplitr; · iexact Hrec
    isplitr; · iexact Hlev
    isplitl [Hcyr5]; · iexact Hcyr5
    isplitl [HO]; · iexact HO
    iexact Hayr5
  iintro ⟨HO, Hayr5, Hyb5⟩
  have hxl := xload_sub c 5
  have hyl := yload_sub 5
  have hol := oload_sub c 5
  sl_exec
  clear hxl hyl hol
  iapply (step_store m ρ c 5 g1 _ (pay4_eq _ _)) $$ Hob5
  iintro Hob5
  ihave Hh := (blk_halves c (tO c 5) (Out m ρ c)).1 $$ Hob5
  icases Hh with ⟨HobL5, HobR5⟩
  sl_exec
  iapply (send_xo m ρ K c _ 5 17 (by decide) _ _ _ _ (dev18_eq c) rfl rfl rfl rfl rfl _) $$ [HobL5 Hfx5 HO Htxs5 Htxr5]
  · isplitr; · iexact Hrec
    isplitl [HobL5]; · iexact HobL5
    isplitl [Hfx5]; · iexact Hfx5
    isplitl [HO]; · iexact HO
    isplitl [Htxs5]; · iexact Htxs5
    iexact Htxr5
  iintro ⟨Hcxs5, HO⟩
  sl_exec
  iapply (send_zo m ρ K c _ 5 18 (by decide) _ _ _ _ (dev19_eq c) rfl rfl rfl rfl rfl _) $$ [HobR5 Hfz5 HO Htzs5 Htzr5]
  · isplitr; · iexact Hrec
    isplitl [HobR5]; · iexact HobR5
    isplitl [Hfz5]; · iexact Hfz5
    isplitl [HO]; · iexact HO
    isplitl [Htzs5]; · iexact Htzs5
    iexact Htzr5
  iintro ⟨Hczs5, HO⟩
  -- block 2: its transfer out has left, the y-neighbour's has landed; reduce; send to the x- and the z-neighbour
  sl_exec
  iapply (wait_ys m ρ K c 2 19 trivial _ rfl _ _ _) $$ [Hcys2 HO Hays2]
  · isplitr; · iexact Hrec
    isplitr; · iexact Hlev
    isplitl [Hcys2]; · iexact Hcys2
    isplitl [HO]; · iexact HO
    iexact Hays2
  iintro ⟨HO, Hays2, Hxb2⟩
  sl_exec
  iapply (wait_yr m ρ K c 2 19 (by decide) _ rfl _ _ _) $$ [Hcyr2 HO Hayr2]
  · isplitr; · iexact Hrec
    isplitr; · iexact Hlev
    isplitl [Hcyr2]; · iexact Hcyr2
    isplitl [HO]; · iexact HO
    iexact Hayr2
  iintro ⟨HO, Hayr2, Hyb2⟩
  have hxl := xload_sub c 2
  have hyl := yload_sub 2
  have hol := oload_sub c 2
  sl_exec
  clear hxl hyl hol
  iapply (step_store m ρ c 2 g1 _ (pay56_eq _ _)) $$ Hob2
  iintro Hob2
  ihave Hh := (blk_halves c (tO c 2) (Out m ρ c)).1 $$ Hob2
  icases Hh with ⟨HobL2, HobR2⟩
  sl_exec
  iapply (send_xo m ρ K c _ 2 19 (by decide) _ _ _ _ (dev20_eq c) rfl rfl rfl rfl rfl _) $$ [HobL2 Hfx2 HO Htxs2 Htxr2]
  · isplitr; · iexact Hrec
    isplitl [HobL2]; · iexact HobL2
    isplitl [Hfx2]; · iexact Hfx2
    isplitl [HO]; · iexact HO
    isplitl [Htxs2]; · iexact Htxs2
    iexact Htxr2
  iintro ⟨Hcxs2, HO⟩
  sl_exec
  iapply (send_zo m ρ K c _ 2 20 (by decide) _ _ _ _ (dev21_eq c) rfl rfl rfl rfl rfl _) $$ [HobR2 Hfz2 HO Htzs2 Htzr2]
  · isplitr; · iexact Hrec
    isplitl [HobR2]; · iexact HobR2
    isplitl [Hfz2]; · iexact Hfz2
    isplitl [HO]; · iexact HO
    isplitl [Htzs2]; · iexact Htzs2
    iexact Htzr2
  iintro ⟨Hczs2, HO⟩
  -- block 6: its transfer out has left, the y-neighbour's has landed; reduce; send to the x- and the z-neighbour
  sl_exec
  iapply (wait_ys m ρ K c 6 21 trivial _ rfl _ _ _) $$ [Hcys6 HO Hays6]
  · isplitr; · iexact Hrec
    isplitr; · iexact Hlev
    isplitl [Hcys6]; · iexact Hcys6
    isplitl [HO]; · iexact HO
    iexact Hays6
  iintro ⟨HO, Hays6, Hxb6⟩
  sl_exec
  iapply (wait_yr m ρ K c 6 21 (by decide) _ rfl _ _ _) $$ [Hcyr6 HO Hayr6]
  · isplitr; · iexact Hrec
    isplitr; · iexact Hlev
    isplitl [Hcyr6]; · iexact Hcyr6
    isplitl [HO]; · iexact HO
    iexact Hayr6
  iintro ⟨HO, Hayr6, Hyb6⟩
  have hxl := xload_sub c 6
  have hyl := yload_sub 6
  have hol := oload_sub c 6
  sl_exec
  clear hxl hyl hol
  iapply (step_store m ρ c 6 g1 _ (pay7_eq _ _)) $$ Hob6
  iintro Hob6
  ihave Hh := (blk_halves c (tO c 6) (Out m ρ c)).1 $$ Hob6
  icases Hh with ⟨HobL6, HobR6⟩
  sl_exec
  iapply (send_xo m ρ K c _ 6 21 (by decide) _ _ _ _ (dev22_eq c) rfl rfl rfl rfl rfl _) $$ [HobL6 Hfx6 HO Htxs6 Htxr6]
  · isplitr; · iexact Hrec
    isplitl [HobL6]; · iexact HobL6
    isplitl [Hfx6]; · iexact Hfx6
    isplitl [HO]; · iexact HO
    isplitl [Htxs6]; · iexact Htxs6
    iexact Htxr6
  iintro ⟨Hcxs6, HO⟩
  sl_exec
  iapply (send_zo m ρ K c _ 6 22 (by decide) _ _ _ _ (dev23_eq c) rfl rfl rfl rfl rfl _) $$ [HobR6 Hfz6 HO Htzs6 Htzr6]
  · isplitr; · iexact Hrec
    isplitl [HobR6]; · iexact HobR6
    isplitl [Hfz6]; · iexact Hfz6
    isplitl [HO]; · iexact HO
    isplitl [Htzs6]; · iexact Htzs6
    iexact Htzr6
  iintro ⟨Hczs6, HO⟩
  -- block 3: its transfer out has left, the y-neighbour's has landed; reduce; send to the x- and the z-neighbour
  sl_exec
  iapply (wait_ys m ρ K c 3 23 trivial _ rfl _ _ _) $$ [Hcys3 HO Hays3]
  · isplitr; · iexact Hrec
    isplitr; · iexact Hlev
    isplitl [Hcys3]; · iexact Hcys3
    isplitl [HO]; · iexact HO
    iexact Hays3
  iintro ⟨HO, Hays3, Hxb3⟩
  sl_exec
  iapply (wait_yr m ρ K c 3 23 (by decide) _ rfl _ _ _) $$ [Hcyr3 HO Hayr3]
  · isplitr; · iexact Hrec
    isplitr; · iexact Hlev
    isplitl [Hcyr3]; · iexact Hcyr3
    isplitl [HO]; · iexact HO
    iexact Hayr3
  iintro ⟨HO, Hayr3, Hyb3⟩
  have hxl := xload_sub c 3
  have hyl := yload_sub 3
  have hol := oload_sub c 3
  sl_exec
  clear hxl hyl hol
  iapply (step_store m ρ c 3 g1 _ (pay8_eq _ _)) $$ Hob3
  iintro Hob3
  ihave Hh := (blk_halves c (tO c 3) (Out m ρ c)).1 $$ Hob3
  icases Hh with ⟨HobL3, HobR3⟩
  sl_exec
  iapply (send_xo m ρ K c _ 3 23 (by decide) _ _ _ _ (dev24_eq c) rfl rfl rfl rfl rfl _) $$ [HobL3 Hfx3 HO Htxs3 Htxr3]
  · isplitr; · iexact Hrec
    isplitl [HobL3]; · iexact HobL3
    isplitl [Hfx3]; · iexact Hfx3
    isplitl [HO]; · iexact HO
    isplitl [Htxs3]; · iexact Htxs3
    iexact Htxr3
  iintro ⟨Hcxs3, HO⟩
  sl_exec
  iapply (send_zo m ρ K c _ 3 24 (by decide) _ _ _ _ (dev25_eq c) rfl rfl rfl rfl rfl _) $$ [HobR3 Hfz3 HO Htzs3 Htzr3]
  · isplitr; · iexact Hrec
    isplitl [HobR3]; · iexact HobR3
    isplitl [Hfz3]; · iexact Hfz3
    isplitl [HO]; · iexact HO
    isplitl [Htzs3]; · iexact Htzs3
    iexact Htzr3
  iintro ⟨Hczs3, HO⟩
  -- block 7: its transfer out has left, the y-neighbour's has landed; reduce; send to the x- and the z-neighbour
  sl_exec
  iapply (wait_ys m ρ K c 7 25 trivial _ rfl _ _ _) $$ [Hcys7 HO Hays7]
  · isplitr; · iexact Hrec
    isplitr; · iexact Hlev
    isplitl [Hcys7]; · iexact Hcys7
    isplitl [HO]; · iexact HO
    iexact Hays7
  iintro ⟨HO, Hays7, Hxb7⟩
  sl_exec
  iapply (wait_yr m ρ K c 7 25 (by decide) _ rfl _ _ _) $$ [Hcyr7 HO Hayr7]
  · isplitr; · iexact Hrec
    isplitr; · iexact Hlev
    isplitl [Hcyr7]; · iexact Hcyr7
    isplitl [HO]; · iexact HO
    iexact Hayr7
  iintro ⟨HO, Hayr7, Hyb7⟩
  have hxl := xload_sub c 7
  have hyl := yload_sub 7
  have hol := oload_sub c 7
  sl_exec
  clear hxl hyl hol
  iapply (step_store m ρ c 7 g1 _ (pay9_eq _ _)) $$ Hob7
  iintro Hob7
  ihave Hh := (blk_halves c (tO c 7) (Out m ρ c)).1 $$ Hob7
  icases Hh with ⟨HobL7, HobR7⟩
  sl_exec
  iapply (send_xo m ρ K c _ 7 25 (by decide) _ _ _ _ (dev26_eq c) rfl rfl rfl rfl rfl _) $$ [HobL7 Hfx7 HO Htxs7 Htxr7]
  · isplitr; · iexact Hrec
    isplitl [HobL7]; · iexact HobL7
    isplitl [Hfx7]; · iexact Hfx7
    isplitl [HO]; · iexact HO
    isplitl [Htxs7]; · iexact Htxs7
    iexact Htxr7
  iintro ⟨Hcxs7, HO⟩
  sl_exec
  iapply (send_zo m ρ K c _ 7 26 (by decide) _ _ _ _ (dev27_eq c) rfl rfl rfl rfl rfl _) $$ [HobR7 Hfz7 HO Htzs7 Htzr7]
  · isplitr; · iexact Hrec
    isplitl [HobR7]; · iexact HobR7
    isplitl [Hfz7]; · iexact Hfz7
    isplitl [HO]; · iexact HO
    isplitl [Htzs7]; · iexact Htzs7
    iexact Htzr7
  iintro ⟨Hczs7, HO⟩
  -- forward 0: block 0 from the x-neighbour on to the z-neighbour, block 4 from the z-neighbour on to the x-neighbour
  sl_exec
  iapply (wait_xs_lo m ρ K c 0 27 trivial _ rfl _ _ _) $$ [Hcxs0 HO Haxs0]
  · isplitr; · iexact Hrec
    isplitr; · iexact Hlev
    isplitl [Hcxs0]; · iexact Hcxs0
    isplitl [HO]; · iexact HO
    iexact Haxs0
  iintro ⟨HO, Haxs0, HobL0⟩
  sl_exec
  iapply (wait_xr_lo m ρ K c 0 27 (by decide) _ rfl _ _ _) $$ [Hcxr0 HO Haxr0]
  · isplitr; · iexact Hrec
    isplitr; · iexact Hlev
    isplitl [Hcxr0]; · iexact Hcxr0
    isplitl [HO]; · iexact HO
    iexact Haxr0
  iintro ⟨HO, Haxr0, Hox0⟩
  sl_exec
  iapply (send_zf m ρ K c _ 0 27 (by decide) _ _ _ _ (dev28_eq c) rfl rfl rfl rfl rfl _) $$ [Hox0 Hfzd0 HO Htzs8 Htzr8]
  · isplitr; · iexact Hrec
    isplitl [Hox0]; · iexact Hox0
    isplitl [Hfzd0]; · iexact Hfzd0
    isplitl [HO]; · iexact HO
    isplitl [Htzs8]; · iexact Htzs8
    iexact Htzr8
  iintro ⟨Hczs8, HO⟩
  sl_exec
  iapply (wait_zs_lo m ρ K c 4 28 trivial _ rfl _ _ _) $$ [Hczs4 HO Hazs4]
  · isplitr; · iexact Hrec
    isplitr; · iexact Hlev
    isplitl [Hczs4]; · iexact Hczs4
    isplitl [HO]; · iexact HO
    iexact Hazs4
  iintro ⟨HO, Hazs4, HobR4⟩
  sl_exec
  iapply (wait_zr_lo m ρ K c 4 28 (by decide) _ rfl _ _ _) $$ [Hczr4 HO Hazr4]
  · isplitr; · iexact Hrec
    isplitr; · iexact Hlev
    isplitl [Hczr4]; · iexact Hczr4
    isplitl [HO]; · iexact HO
    iexact Hazr4
  iintro ⟨HO, Hazr4, Hoz4⟩
  sl_exec
  iapply (send_xf m ρ K c _ 0 28 (by decide) _ _ _ _ (dev29_eq c) rfl rfl rfl rfl rfl _) $$ [Hoz4 Hfxd0 HO Htxs8 Htxr8]
  · isplitr; · iexact Hrec
    isplitl [Hoz4]; · iexact Hoz4
    isplitl [Hfxd0]; · iexact Hfxd0
    isplitl [HO]; · iexact HO
    isplitl [Htxs8]; · iexact Htxs8
    iexact Htxr8
  iintro ⟨Hcxs8, HO⟩
  -- forward 1: block 1 from the x-neighbour on to the z-neighbour, block 5 from the z-neighbour on to the x-neighbour
  sl_exec
  iapply (wait_xs_lo m ρ K c 1 29 trivial _ rfl _ _ _) $$ [Hcxs1 HO Haxs1]
  · isplitr; · iexact Hrec
    isplitr; · iexact Hlev
    isplitl [Hcxs1]; · iexact Hcxs1
    isplitl [HO]; · iexact HO
    iexact Haxs1
  iintro ⟨HO, Haxs1, HobL1⟩
  sl_exec
  iapply (wait_xr_lo m ρ K c 1 29 (by decide) _ rfl _ _ _) $$ [Hcxr1 HO Haxr1]
  · isplitr; · iexact Hrec
    isplitr; · iexact Hlev
    isplitl [Hcxr1]; · iexact Hcxr1
    isplitl [HO]; · iexact HO
    iexact Haxr1
  iintro ⟨HO, Haxr1, Hox1⟩
  sl_exec
  iapply (send_zf m ρ K c _ 1 29 (by decide) _ _ _ _ (dev30_eq c) rfl rfl rfl rfl rfl _) $$ [Hox1 Hfzd1 HO Htzs9 Htzr9]
  · isplitr; · iexact Hrec
    isplitl [Hox1]; · iexact Hox1
    isplitl [Hfzd1]; · iexact Hfzd1
    isplitl [HO]; · iexact HO
    isplitl [Htzs9]; · iexact Htzs9
    iexact Htzr9
  iintro ⟨Hczs9, HO⟩
  sl_exec
  iapply (wait_zs_lo m ρ K c 5 30 trivial _ rfl _ _ _) $$ [Hczs5 HO Hazs5]
  · isplitr; · iexact Hrec
    isplitr; · iexact Hlev
    isplitl [Hczs5]; · iexact Hczs5
    isplitl [HO]; · iexact HO
    iexact Hazs5
  iintro ⟨HO, Hazs5, HobR5⟩
  sl_exec
  iapply (wait_zr_lo m ρ K c 5 30 (by decide) _ rfl _ _ _) $$ [Hczr5 HO Hazr5]
  · isplitr; · iexact Hrec
    isplitr; · iexact Hlev
    isplitl [Hczr5]; · iexact Hczr5
    isplitl [HO]; · iexact HO
    iexact Hazr5
  iintro ⟨HO, Hazr5, Hoz5⟩
  sl_exec
  iapply (send_xf m ρ K c _ 1 30 (by decide) _ _ _ _ (dev31_eq c) rfl rfl rfl rfl rfl _) $$ [Hoz5 Hfxd1 HO Htxs9 Htxr9]
  · isplitr; · iexact Hrec
    isplitl [Hoz5]; · iexact Hoz5
    isplitl [Hfxd1]; · iexact Hfxd1
    isplitl [HO]; · iexact HO
    isplitl [Htxs9]; · iexact Htxs9
    iexact Htxr9
  iintro ⟨Hcxs9, HO⟩
  -- forward 2: block 2 from the x-neighbour on to the z-neighbour, block 6 from the z-neighbour on to the x-neighbour
  sl_exec
  iapply (wait_xs_lo m ρ K c 2 31 trivial _ rfl _ _ _) $$ [Hcxs2 HO Haxs2]
  · isplitr; · iexact Hrec
    isplitr; · iexact Hlev
    isplitl [Hcxs2]; · iexact Hcxs2
    isplitl [HO]; · iexact HO
    iexact Haxs2
  iintro ⟨HO, Haxs2, HobL2⟩
  sl_exec
  iapply (wait_xr_lo m ρ K c 2 31 (by decide) _ rfl _ _ _) $$ [Hcxr2 HO Haxr2]
  · isplitr; · iexact Hrec
    isplitr; · iexact Hlev
    isplitl [Hcxr2]; · iexact Hcxr2
    isplitl [HO]; · iexact HO
    iexact Haxr2
  iintro ⟨HO, Haxr2, Hox2⟩
  sl_exec
  iapply (send_zf m ρ K c _ 2 31 (by decide) _ _ _ _ (dev32_eq c) rfl rfl rfl rfl rfl _) $$ [Hox2 Hfzd2 HO Htzs10 Htzr10]
  · isplitr; · iexact Hrec
    isplitl [Hox2]; · iexact Hox2
    isplitl [Hfzd2]; · iexact Hfzd2
    isplitl [HO]; · iexact HO
    isplitl [Htzs10]; · iexact Htzs10
    iexact Htzr10
  iintro ⟨Hczs10, HO⟩
  sl_exec
  iapply (wait_zs_lo m ρ K c 6 32 trivial _ rfl _ _ _) $$ [Hczs6 HO Hazs6]
  · isplitr; · iexact Hrec
    isplitr; · iexact Hlev
    isplitl [Hczs6]; · iexact Hczs6
    isplitl [HO]; · iexact HO
    iexact Hazs6
  iintro ⟨HO, Hazs6, HobR6⟩
  sl_exec
  iapply (wait_zr_lo m ρ K c 6 32 (by decide) _ rfl _ _ _) $$ [Hczr6 HO Hazr6]
  · isplitr; · iexact Hrec
    isplitr; · iexact Hlev
    isplitl [Hczr6]; · iexact Hczr6
    isplitl [HO]; · iexact HO
    iexact Hazr6
  iintro ⟨HO, Hazr6, Hoz6⟩
  sl_exec
  iapply (send_xf m ρ K c _ 2 32 (by decide) _ _ _ _ (dev33_eq c) rfl rfl rfl rfl rfl _) $$ [Hoz6 Hfxd2 HO Htxs10 Htxr10]
  · isplitr; · iexact Hrec
    isplitl [Hoz6]; · iexact Hoz6
    isplitl [Hfxd2]; · iexact Hfxd2
    isplitl [HO]; · iexact HO
    isplitl [Htxs10]; · iexact Htxs10
    iexact Htxr10
  iintro ⟨Hcxs10, HO⟩
  -- forward 3: block 3 from the x-neighbour on to the z-neighbour, block 7 from the z-neighbour on to the x-neighbour
  sl_exec
  iapply (wait_xs_lo m ρ K c 3 33 trivial _ rfl _ _ _) $$ [Hcxs3 HO Haxs3]
  · isplitr; · iexact Hrec
    isplitr; · iexact Hlev
    isplitl [Hcxs3]; · iexact Hcxs3
    isplitl [HO]; · iexact HO
    iexact Haxs3
  iintro ⟨HO, Haxs3, HobL3⟩
  sl_exec
  iapply (wait_xr_lo m ρ K c 3 33 (by decide) _ rfl _ _ _) $$ [Hcxr3 HO Haxr3]
  · isplitr; · iexact Hrec
    isplitr; · iexact Hlev
    isplitl [Hcxr3]; · iexact Hcxr3
    isplitl [HO]; · iexact HO
    iexact Haxr3
  iintro ⟨HO, Haxr3, Hox3⟩
  sl_exec
  iapply (send_zf m ρ K c _ 3 33 (by decide) _ _ _ _ (dev34_eq c) rfl rfl rfl rfl rfl _) $$ [Hox3 Hfzd3 HO Htzs11 Htzr11]
  · isplitr; · iexact Hrec
    isplitl [Hox3]; · iexact Hox3
    isplitl [Hfzd3]; · iexact Hfzd3
    isplitl [HO]; · iexact HO
    isplitl [Htzs11]; · iexact Htzs11
    iexact Htzr11
  iintro ⟨Hczs11, HO⟩
  sl_exec
  iapply (wait_zs_lo m ρ K c 7 34 trivial _ rfl _ _ _) $$ [Hczs7 HO Hazs7]
  · isplitr; · iexact Hrec
    isplitr; · iexact Hlev
    isplitl [Hczs7]; · iexact Hczs7
    isplitl [HO]; · iexact HO
    iexact Hazs7
  iintro ⟨HO, Hazs7, HobR7⟩
  sl_exec
  iapply (wait_zr_lo m ρ K c 7 34 (by decide) _ rfl _ _ _) $$ [Hczr7 HO Hazr7]
  · isplitr; · iexact Hrec
    isplitr; · iexact Hlev
    isplitl [Hczr7]; · iexact Hczr7
    isplitl [HO]; · iexact HO
    iexact Hazr7
  iintro ⟨HO, Hazr7, Hoz7⟩
  sl_exec
  iapply (send_xf m ρ K c _ 3 34 (by decide) _ _ _ _ (dev35_eq c) rfl rfl rfl rfl rfl _) $$ [Hoz7 Hfxd3 HO Htxs11 Htxr11]
  · isplitr; · iexact Hrec
    isplitl [Hoz7]; · iexact Hoz7
    isplitl [Hfxd3]; · iexact Hfxd3
    isplitl [HO]; · iexact HO
    isplitl [Htxs11]; · iexact Htxs11
    iexact Htxr11
  iintro ⟨Hcxs11, HO⟩
  -- the remaining waits of the first exchange
  sl_exec
  iapply (wait_xs_lo m ρ K c 4 35 trivial _ rfl _ _ _) $$ [Hcxs4 HO Haxs4]
  · isplitr; · iexact Hrec
    isplitr; · iexact Hlev
    isplitl [Hcxs4]; · iexact Hcxs4
    isplitl [HO]; · iexact HO
    iexact Haxs4
  iintro ⟨HO, Haxs4, HobL4⟩
  sl_exec
  iapply (wait_xr_lo m ρ K c 4 35 (by decide) _ rfl _ _ _) $$ [Hcxr4 HO Haxr4]
  · isplitr; · iexact Hrec
    isplitr; · iexact Hlev
    isplitl [Hcxr4]; · iexact Hcxr4
    isplitl [HO]; · iexact HO
    iexact Haxr4
  iintro ⟨HO, Haxr4, Hox4⟩
  sl_exec
  iapply (wait_zs_lo m ρ K c 0 35 trivial _ rfl _ _ _) $$ [Hczs0 HO Hazs0]
  · isplitr; · iexact Hrec
    isplitr; · iexact Hlev
    isplitl [Hczs0]; · iexact Hczs0
    isplitl [HO]; · iexact HO
    iexact Hazs0
  iintro ⟨HO, Hazs0, HobR0⟩
  sl_exec
  iapply (wait_zr_lo m ρ K c 0 35 (by decide) _ rfl _ _ _) $$ [Hczr0 HO Hazr0]
  · isplitr; · iexact Hrec
    isplitr; · iexact Hlev
    isplitl [Hczr0]; · iexact Hczr0
    isplitl [HO]; · iexact HO
    iexact Hazr0
  iintro ⟨HO, Hazr0, Hoz0⟩
  sl_exec
  iapply (wait_xs_lo m ρ K c 5 35 trivial _ rfl _ _ _) $$ [Hcxs5 HO Haxs5]
  · isplitr; · iexact Hrec
    isplitr; · iexact Hlev
    isplitl [Hcxs5]; · iexact Hcxs5
    isplitl [HO]; · iexact HO
    iexact Haxs5
  iintro ⟨HO, Haxs5, HobL5⟩
  sl_exec
  iapply (wait_xr_lo m ρ K c 5 35 (by decide) _ rfl _ _ _) $$ [Hcxr5 HO Haxr5]
  · isplitr; · iexact Hrec
    isplitr; · iexact Hlev
    isplitl [Hcxr5]; · iexact Hcxr5
    isplitl [HO]; · iexact HO
    iexact Haxr5
  iintro ⟨HO, Haxr5, Hox5⟩
  sl_exec
  iapply (wait_zs_lo m ρ K c 1 35 trivial _ rfl _ _ _) $$ [Hczs1 HO Hazs1]
  · isplitr; · iexact Hrec
    isplitr; · iexact Hlev
    isplitl [Hczs1]; · iexact Hczs1
    isplitl [HO]; · iexact HO
    iexact Hazs1
  iintro ⟨HO, Hazs1, HobR1⟩
  sl_exec
  iapply (wait_zr_lo m ρ K c 1 35 (by decide) _ rfl _ _ _) $$ [Hczr1 HO Hazr1]
  · isplitr; · iexact Hrec
    isplitr; · iexact Hlev
    isplitl [Hczr1]; · iexact Hczr1
    isplitl [HO]; · iexact HO
    iexact Hazr1
  iintro ⟨HO, Hazr1, Hoz1⟩
  sl_exec
  iapply (wait_xs_lo m ρ K c 6 35 trivial _ rfl _ _ _) $$ [Hcxs6 HO Haxs6]
  · isplitr; · iexact Hrec
    isplitr; · iexact Hlev
    isplitl [Hcxs6]; · iexact Hcxs6
    isplitl [HO]; · iexact HO
    iexact Haxs6
  iintro ⟨HO, Haxs6, HobL6⟩
  sl_exec
  iapply (wait_xr_lo m ρ K c 6 35 (by decide) _ rfl _ _ _) $$ [Hcxr6 HO Haxr6]
  · isplitr; · iexact Hrec
    isplitr; · iexact Hlev
    isplitl [Hcxr6]; · iexact Hcxr6
    isplitl [HO]; · iexact HO
    iexact Haxr6
  iintro ⟨HO, Haxr6, Hox6⟩
  sl_exec
  iapply (wait_zs_lo m ρ K c 2 35 trivial _ rfl _ _ _) $$ [Hczs2 HO Hazs2]
  · isplitr; · iexact Hrec
    isplitr; · iexact Hlev
    isplitl [Hczs2]; · iexact Hczs2
    isplitl [HO]; · iexact HO
    iexact Hazs2
  iintro ⟨HO, Hazs2, HobR2⟩
  sl_exec
  iapply (wait_zr_lo m ρ K c 2 35 (by decide) _ rfl _ _ _) $$ [Hczr2 HO Hazr2]
  · isplitr; · iexact Hrec
    isplitr; · iexact Hlev
    isplitl [Hczr2]; · iexact Hczr2
    isplitl [HO]; · iexact HO
    iexact Hazr2
  iintro ⟨HO, Hazr2, Hoz2⟩
  sl_exec
  iapply (wait_xs_lo m ρ K c 7 35 trivial _ rfl _ _ _) $$ [Hcxs7 HO Haxs7]
  · isplitr; · iexact Hrec
    isplitr; · iexact Hlev
    isplitl [Hcxs7]; · iexact Hcxs7
    isplitl [HO]; · iexact HO
    iexact Haxs7
  iintro ⟨HO, Haxs7, HobL7⟩
  sl_exec
  iapply (wait_xr_lo m ρ K c 7 35 (by decide) _ rfl _ _ _) $$ [Hcxr7 HO Haxr7]
  · isplitr; · iexact Hrec
    isplitr; · iexact Hlev
    isplitl [Hcxr7]; · iexact Hcxr7
    isplitl [HO]; · iexact HO
    iexact Haxr7
  iintro ⟨HO, Haxr7, Hox7⟩
  sl_exec
  iapply (wait_zs_lo m ρ K c 3 35 trivial _ rfl _ _ _) $$ [Hczs3 HO Hazs3]
  · isplitr; · iexact Hrec
    isplitr; · iexact Hlev
    isplitl [Hczs3]; · iexact Hczs3
    isplitl [HO]; · iexact HO
    iexact Hazs3
  iintro ⟨HO, Hazs3, HobR3⟩
  sl_exec
  iapply (wait_zr_lo m ρ K c 3 35 (by decide) _ rfl _ _ _) $$ [Hczr3 HO Hazr3]
  · isplitr; · iexact Hrec
    isplitr; · iexact Hlev
    isplitl [Hczr3]; · iexact Hczr3
    isplitl [HO]; · iexact HO
    iexact Hazr3
  iintro ⟨HO, Hazr3, Hoz3⟩
  -- the forwards' waits: the diagonal device's quarter arrives
  sl_exec
  iapply (wait_zs_hi m ρ K c 0 35 trivial _ rfl _ _ _) $$ [Hczs8 HO Hazs8]
  · isplitr; · iexact Hrec
    isplitr; · iexact Hlev
    isplitl [Hczs8]; · iexact Hczs8
    isplitl [HO]; · iexact HO
    iexact Hazs8
  iintro ⟨HO, Hazs8, Hox0⟩
  sl_exec
  iapply (wait_zr_hi m ρ K c 0 35 rfl _ rfl _ _ _) $$ [Hczr8 HO Hazr8]
  · isplitr; · iexact Hrec
    isplitr; · iexact Hlev
    isplitl [Hczr8]; · iexact Hczr8
    isplitl [HO]; · iexact HO
    iexact Hazr8
  iintro ⟨HO, Hazr8, Hodl0⟩
  sl_exec
  iapply (wait_xs_hi m ρ K c 0 35 trivial _ rfl _ _ _) $$ [Hcxs8 HO Haxs8]
  · isplitr; · iexact Hrec
    isplitr; · iexact Hlev
    isplitl [Hcxs8]; · iexact Hcxs8
    isplitl [HO]; · iexact HO
    iexact Haxs8
  iintro ⟨HO, Haxs8, Hoz4⟩
  sl_exec
  iapply (wait_xr_hi m ρ K c 0 35 rfl _ rfl _ _ _) $$ [Hcxr8 HO Haxr8]
  · isplitr; · iexact Hrec
    isplitr; · iexact Hlev
    isplitl [Hcxr8]; · iexact Hcxr8
    isplitl [HO]; · iexact HO
    iexact Haxr8
  iintro ⟨HO, Haxr8, Hodh0⟩
  sl_exec
  iapply (wait_zs_hi m ρ K c 1 35 trivial _ rfl _ _ _) $$ [Hczs9 HO Hazs9]
  · isplitr; · iexact Hrec
    isplitr; · iexact Hlev
    isplitl [Hczs9]; · iexact Hczs9
    isplitl [HO]; · iexact HO
    iexact Hazs9
  iintro ⟨HO, Hazs9, Hox1⟩
  sl_exec
  iapply (wait_zr_hi m ρ K c 1 35 rfl _ rfl _ _ _) $$ [Hczr9 HO Hazr9]
  · isplitr; · iexact Hrec
    isplitr; · iexact Hlev
    isplitl [Hczr9]; · iexact Hczr9
    isplitl [HO]; · iexact HO
    iexact Hazr9
  iintro ⟨HO, Hazr9, Hodl1⟩
  sl_exec
  iapply (wait_xs_hi m ρ K c 1 35 trivial _ rfl _ _ _) $$ [Hcxs9 HO Haxs9]
  · isplitr; · iexact Hrec
    isplitr; · iexact Hlev
    isplitl [Hcxs9]; · iexact Hcxs9
    isplitl [HO]; · iexact HO
    iexact Haxs9
  iintro ⟨HO, Haxs9, Hoz5⟩
  sl_exec
  iapply (wait_xr_hi m ρ K c 1 35 rfl _ rfl _ _ _) $$ [Hcxr9 HO Haxr9]
  · isplitr; · iexact Hrec
    isplitr; · iexact Hlev
    isplitl [Hcxr9]; · iexact Hcxr9
    isplitl [HO]; · iexact HO
    iexact Haxr9
  iintro ⟨HO, Haxr9, Hodh1⟩
  sl_exec
  iapply (wait_zs_hi m ρ K c 2 35 trivial _ rfl _ _ _) $$ [Hczs10 HO Hazs10]
  · isplitr; · iexact Hrec
    isplitr; · iexact Hlev
    isplitl [Hczs10]; · iexact Hczs10
    isplitl [HO]; · iexact HO
    iexact Hazs10
  iintro ⟨HO, Hazs10, Hox2⟩
  sl_exec
  iapply (wait_zr_hi m ρ K c 2 35 rfl _ rfl _ _ _) $$ [Hczr10 HO Hazr10]
  · isplitr; · iexact Hrec
    isplitr; · iexact Hlev
    isplitl [Hczr10]; · iexact Hczr10
    isplitl [HO]; · iexact HO
    iexact Hazr10
  iintro ⟨HO, Hazr10, Hodl2⟩
  sl_exec
  iapply (wait_xs_hi m ρ K c 2 35 trivial _ rfl _ _ _) $$ [Hcxs10 HO Haxs10]
  · isplitr; · iexact Hrec
    isplitr; · iexact Hlev
    isplitl [Hcxs10]; · iexact Hcxs10
    isplitl [HO]; · iexact HO
    iexact Haxs10
  iintro ⟨HO, Haxs10, Hoz6⟩
  sl_exec
  iapply (wait_xr_hi m ρ K c 2 35 rfl _ rfl _ _ _) $$ [Hcxr10 HO Haxr10]
  · isplitr; · iexact Hrec
    isplitr; · iexact Hlev
    isplitl [Hcxr10]; · iexact Hcxr10
    isplitl [HO]; · iexact HO
    iexact Haxr10
  iintro ⟨HO, Haxr10, Hodh2⟩
  sl_exec
  iapply (wait_zs_hi m ρ K c 3 35 trivial _ rfl _ _ _) $$ [Hczs11 HO Hazs11]
  · isplitr; · iexact Hrec
    isplitr; · iexact Hlev
    isplitl [Hczs11]; · iexact Hczs11
    isplitl [HO]; · iexact HO
    iexact Hazs11
  iintro ⟨HO, Hazs11, Hox3⟩
  sl_exec
  iapply (wait_zr_hi m ρ K c 3 35 rfl _ rfl _ _ _) $$ [Hczr11 HO Hazr11]
  · isplitr; · iexact Hrec
    isplitr; · iexact Hlev
    isplitl [Hczr11]; · iexact Hczr11
    isplitl [HO]; · iexact HO
    iexact Hazr11
  iintro ⟨HO, Hazr11, Hodl3⟩
  sl_exec
  iapply (wait_xs_hi m ρ K c 3 35 trivial _ rfl _ _ _) $$ [Hcxs11 HO Haxs11]
  · isplitr; · iexact Hrec
    isplitr; · iexact Hlev
    isplitl [Hcxs11]; · iexact Hcxs11
    isplitl [HO]; · iexact HO
    iexact Haxs11
  iintro ⟨HO, Haxs11, Hoz7⟩
  sl_exec
  iapply (wait_xr_hi m ρ K c 3 35 rfl _ rfl _ _ _) $$ [Hcxr11 HO Haxr11]
  · isplitr; · iexact Hrec
    isplitr; · iexact Hlev
    isplitl [Hcxr11]; · iexact Hcxr11
    isplitl [HO]; · iexact HO
    iexact Haxr11
  iintro ⟨HO, Haxr11, Hodh3⟩
  -- the return: the cells close, the blocks join into the buffers
  sl_exec
  rw [wp_ret]
  imod (body_finish m ρ K c _) $$ [Hays0 Hays1 Hays2 Hays3 Hays4 Hays5 Hays6 Hays7 Hayr0 Hayr1 Hayr2 Hayr3 Hayr4 Hayr5 Hayr6 Hayr7 Haxs0 Haxs1 Haxs2 Haxs3 Haxs4 Haxs5 Haxs6 Haxs7 Haxs8 Haxs9 Haxs10 Haxs11 Haxr0 Haxr1 Haxr2 Haxr3 Haxr4 Haxr5 Haxr6 Haxr7 Haxr8 Haxr9 Haxr10 Haxr11 Hazs0 Hazs1 Hazs2 Hazs3 Hazs4 Hazs5 Hazs6 Hazs7 Hazs8 Hazs9 Hazs10 Hazs11 Hazr0 Hazr1 Hazr2 Hazr3 Hazr4 Hazr5 Hazr6 Hazr7 Hazr8 Hazr9 Hazr10 Hazr11 HO Hxb0 Hxb1 Hxb2 Hxb3 Hxb4 Hxb5 Hxb6 Hxb7 HxR Hyb0 Hyb1 Hyb2 Hyb3 Hyb4 Hyb5 Hyb6 Hyb7 HobL0 HobR0 HobL1 HobR1 HobL2 HobR2 HobL3 HobR3 HobL4 HobR4 HobL5 HobR5 HobL6 HobR6 HobL7 HobR7 Hox0 Hox1 Hox2 Hox3 Hox4 Hox5 Hox6 Hox7 Hoz0 Hoz1 Hoz2 Hoz3 Hoz4 Hoz5 Hoz6 Hoz7 Hodl0 Hodl1 Hodl2 Hodl3 Hodh0 Hodh1 Hodh2 Hodh3] with Hpost
  · unfold bodyEndState each
    simp only [bigSep_fin8, bigSep_fin12]
    isplitr; · iexact Hrec
    isplitl [Hays0 Hays1 Hays2 Hays3 Hays4 Hays5 Hays6 Hays7 Hayr0 Hayr1 Hayr2 Hayr3 Hayr4 Hayr5 Hayr6 Hayr7 Haxs0 Haxs1 Haxs2 Haxs3 Haxs4 Haxs5 Haxs6 Haxs7 Haxs8 Haxs9 Haxs10 Haxs11 Haxr0 Haxr1 Haxr2 Haxr3 Haxr4 Haxr5 Haxr6 Haxr7 Haxr8 Haxr9 Haxr10 Haxr11 Hazs0 Hazs1 Hazs2 Hazs3 Hazs4 Hazs5 Hazs6 Hazs7 Hazs8 Hazs9 Hazs10 Hazs11 Hazr0 Hazr1 Hazr2 Hazr3 Hazr4 Hazr5 Hazr6 Hazr7 Hazr8 Hazr9 Hazr10 Hazr11]
    · isplitl [Hays0 Hays1 Hays2 Hays3 Hays4 Hays5 Hays6 Hays7]
      · isplitl [Hays0]; · iexact Hays0
        isplitl [Hays1]; · iexact Hays1
        isplitl [Hays2]; · iexact Hays2
        isplitl [Hays3]; · iexact Hays3
        isplitl [Hays4]; · iexact Hays4
        isplitl [Hays5]; · iexact Hays5
        isplitl [Hays6]; · iexact Hays6
        iexact Hays7
      isplitl [Hayr0 Hayr1 Hayr2 Hayr3 Hayr4 Hayr5 Hayr6 Hayr7]
      · isplitl [Hayr0]; · iexact Hayr0
        isplitl [Hayr1]; · iexact Hayr1
        isplitl [Hayr2]; · iexact Hayr2
        isplitl [Hayr3]; · iexact Hayr3
        isplitl [Hayr4]; · iexact Hayr4
        isplitl [Hayr5]; · iexact Hayr5
        isplitl [Hayr6]; · iexact Hayr6
        iexact Hayr7
      isplitl [Haxs0 Haxs1 Haxs2 Haxs3 Haxs4 Haxs5 Haxs6 Haxs7 Haxs8 Haxs9 Haxs10 Haxs11]
      · isplitl [Haxs0]; · iexact Haxs0
        isplitl [Haxs1]; · iexact Haxs1
        isplitl [Haxs2]; · iexact Haxs2
        isplitl [Haxs3]; · iexact Haxs3
        isplitl [Haxs4]; · iexact Haxs4
        isplitl [Haxs5]; · iexact Haxs5
        isplitl [Haxs6]; · iexact Haxs6
        isplitl [Haxs7]; · iexact Haxs7
        isplitl [Haxs8]; · iexact Haxs8
        isplitl [Haxs9]; · iexact Haxs9
        isplitl [Haxs10]; · iexact Haxs10
        iexact Haxs11
      isplitl [Haxr0 Haxr1 Haxr2 Haxr3 Haxr4 Haxr5 Haxr6 Haxr7 Haxr8 Haxr9 Haxr10 Haxr11]
      · isplitl [Haxr0]; · iexact Haxr0
        isplitl [Haxr1]; · iexact Haxr1
        isplitl [Haxr2]; · iexact Haxr2
        isplitl [Haxr3]; · iexact Haxr3
        isplitl [Haxr4]; · iexact Haxr4
        isplitl [Haxr5]; · iexact Haxr5
        isplitl [Haxr6]; · iexact Haxr6
        isplitl [Haxr7]; · iexact Haxr7
        isplitl [Haxr8]; · iexact Haxr8
        isplitl [Haxr9]; · iexact Haxr9
        isplitl [Haxr10]; · iexact Haxr10
        iexact Haxr11
      isplitl [Hazs0 Hazs1 Hazs2 Hazs3 Hazs4 Hazs5 Hazs6 Hazs7 Hazs8 Hazs9 Hazs10 Hazs11]
      · isplitl [Hazs0]; · iexact Hazs0
        isplitl [Hazs1]; · iexact Hazs1
        isplitl [Hazs2]; · iexact Hazs2
        isplitl [Hazs3]; · iexact Hazs3
        isplitl [Hazs4]; · iexact Hazs4
        isplitl [Hazs5]; · iexact Hazs5
        isplitl [Hazs6]; · iexact Hazs6
        isplitl [Hazs7]; · iexact Hazs7
        isplitl [Hazs8]; · iexact Hazs8
        isplitl [Hazs9]; · iexact Hazs9
        isplitl [Hazs10]; · iexact Hazs10
        iexact Hazs11
      isplitl [Hazr0]; · iexact Hazr0
      isplitl [Hazr1]; · iexact Hazr1
      isplitl [Hazr2]; · iexact Hazr2
      isplitl [Hazr3]; · iexact Hazr3
      isplitl [Hazr4]; · iexact Hazr4
      isplitl [Hazr5]; · iexact Hazr5
      isplitl [Hazr6]; · iexact Hazr6
      isplitl [Hazr7]; · iexact Hazr7
      isplitl [Hazr8]; · iexact Hazr8
      isplitl [Hazr9]; · iexact Hazr9
      isplitl [Hazr10]; · iexact Hazr10
      iexact Hazr11
    isplitl [HO]; · iexact HO
    isplitl [Hxb0 Hxb1 Hxb2 Hxb3 Hxb4 Hxb5 Hxb6 Hxb7]
    · isplitl [Hxb0]; · iexact Hxb0
      isplitl [Hxb1]; · iexact Hxb1
      isplitl [Hxb2]; · iexact Hxb2
      isplitl [Hxb3]; · iexact Hxb3
      isplitl [Hxb4]; · iexact Hxb4
      isplitl [Hxb5]; · iexact Hxb5
      isplitl [Hxb6]; · iexact Hxb6
      iexact Hxb7
    isplitl [HxR]; · iexact HxR
    isplitl [Hyb0 Hyb1 Hyb2 Hyb3 Hyb4 Hyb5 Hyb6 Hyb7]
    · isplitl [Hyb0]; · iexact Hyb0
      isplitl [Hyb1]; · iexact Hyb1
      isplitl [Hyb2]; · iexact Hyb2
      isplitl [Hyb3]; · iexact Hyb3
      isplitl [Hyb4]; · iexact Hyb4
      isplitl [Hyb5]; · iexact Hyb5
      isplitl [Hyb6]; · iexact Hyb6
      iexact Hyb7
    isplitl [HobL0 HobR0 HobL1 HobR1 HobL2 HobR2 HobL3 HobR3 HobL4 HobR4 HobL5 HobR5 HobL6 HobR6 HobL7 HobR7]
    · isplitl [HobL0 HobR0]
      · isplitl [HobL0]; · iexact HobL0
        iexact HobR0
      isplitl [HobL1 HobR1]
      · isplitl [HobL1]; · iexact HobL1
        iexact HobR1
      isplitl [HobL2 HobR2]
      · isplitl [HobL2]; · iexact HobL2
        iexact HobR2
      isplitl [HobL3 HobR3]
      · isplitl [HobL3]; · iexact HobL3
        iexact HobR3
      isplitl [HobL4 HobR4]
      · isplitl [HobL4]; · iexact HobL4
        iexact HobR4
      isplitl [HobL5 HobR5]
      · isplitl [HobL5]; · iexact HobL5
        iexact HobR5
      isplitl [HobL6 HobR6]
      · isplitl [HobL6]; · iexact HobL6
        iexact HobR6
      isplitl [HobL7]; · iexact HobL7
      iexact HobR7
    isplitl [Hox0 Hox1 Hox2 Hox3 Hox4 Hox5 Hox6 Hox7]
    · isplitl [Hox0]; · iexact Hox0
      isplitl [Hox1]; · iexact Hox1
      isplitl [Hox2]; · iexact Hox2
      isplitl [Hox3]; · iexact Hox3
      isplitl [Hox4]; · iexact Hox4
      isplitl [Hox5]; · iexact Hox5
      isplitl [Hox6]; · iexact Hox6
      iexact Hox7
    isplitl [Hoz0 Hoz1 Hoz2 Hoz3 Hoz4 Hoz5 Hoz6 Hoz7]
    · isplitl [Hoz0]; · iexact Hoz0
      isplitl [Hoz1]; · iexact Hoz1
      isplitl [Hoz2]; · iexact Hoz2
      isplitl [Hoz3]; · iexact Hoz3
      isplitl [Hoz4]; · iexact Hoz4
      isplitl [Hoz5]; · iexact Hoz5
      isplitl [Hoz6]; · iexact Hoz6
      iexact Hoz7
    isplitl [Hodl0 Hodl1 Hodl2 Hodl3]
    · isplitl [Hodl0]; · iexact Hodl0
      isplitl [Hodl1]; · iexact Hodl1
      isplitl [Hodl2]; · iexact Hodl2
      iexact Hodl3
    isplitl [Hodh0]; · iexact Hodh0
    isplitl [Hodh1]; · iexact Hodh1
    isplitl [Hodh2]; · iexact Hodh2
    iexact Hodh3
  imodintro
  iapply Hk
  iexact Hpost

end Cert.KernelIdeal.AR
end
-- ==== Proof.ArKernelIdeal.Launch.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Tables
import proofs.«900700_g7700000000000701_dist_ar_v7x_xyz2x2x2_y_m1024_n512_f32_1_alg».proof.Proof.ArKernelIdeal.Owes
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Sums over a device's cells, array by array -/

omit [FloatOps F] in
/-- A separating conjunction over a + b indices is the one over the first a and the one over the last b. -/
theorem bigSep_fin_add {a b : ℕ} (Ψ : Fin (a + b) → sProp 𝕄) :
    bigSep Finset.univ Ψ = iprop((bigSep Finset.univ fun i : Fin a => Ψ (Fin.castAdd b i)) ∗ bigSep Finset.univ fun i : Fin b => Ψ (Fin.natAdd a i)) := by
  rw [bigSep_univ_equiv (finSumFinEquiv (m := a) (n := b)) Ψ, bigSep_univ_sum]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem osem_val (i : Fin 64) (q : DmaSem sig) (h : q.val = i.val + 2) : osem i = SemLoc.dma q :=
  congrArg SemLoc.dma (Fin.ext h.symm)

omit [FloatOps F] in
/-- The 64 scratch DMA cells in pool order are the six arrays' cells in turn. -/
theorem each_osem (c : Dev nD) (Φ : GSem nD τ sig → sProp 𝕄) :
    (bigSep Finset.univ fun i : Fin 64 => Φ ((c : Thread nD τ), osem i)) = each c Φ := by
  have e1 := bigSep_fin_add (F := F) (a := 8) (b := 56) (fun i : Fin 64 => Φ ((c : Thread nD τ), osem i))
  have e2 := bigSep_fin_add (F := F) (a := 8) (b := 48) (fun i : Fin 56 => Φ ((c : Thread nD τ), osem (Fin.natAdd 8 i)))
  have e3 := bigSep_fin_add (F := F) (a := 12) (b := 36) (fun i : Fin 48 => Φ ((c : Thread nD τ), osem (Fin.natAdd 8 (Fin.natAdd 8 i))))
  have e4 := bigSep_fin_add (F := F) (a := 12) (b := 24) (fun i : Fin 36 => Φ ((c : Thread nD τ), osem (Fin.natAdd 8 (Fin.natAdd 8 (Fin.natAdd 12 i)))))
  have e5 := bigSep_fin_add (F := F) (a := 12) (b := 12) (fun i : Fin 24 => Φ ((c : Thread nD τ), osem (Fin.natAdd 8 (Fin.natAdd 8 (Fin.natAdd 12 (Fin.natAdd 12 i))))))
  refine e1.trans ?_
  unfold each
  refine congrArg₂ _ (bigSep_congr fun k _ => ?_) (e2.trans (congrArg₂ _ (bigSep_congr fun k _ => ?_) (e3.trans (congrArg₂ _ (bigSep_congr fun k _ => ?_)
    (e4.trans (congrArg₂ _ (bigSep_congr fun k _ => ?_) (e5.trans (congrArg₂ _ (bigSep_congr fun k _ => ?_) (bigSep_congr fun k _ => ?_)))))))))
  · exact congrArg (fun s => Φ ((c : Thread nD τ), s)) (osem_val _ (ysS k) (by show 2 + k.val = k.val + 2; omega))
  · exact congrArg (fun s => Φ ((c : Thread nD τ), s)) (osem_val _ (yrS k) (by show 10 + k.val = 8 + k.val + 2; omega))
  · exact congrArg (fun s => Φ ((c : Thread nD τ), s)) (osem_val _ (xsS k) (by show 18 + k.val = 8 + (8 + k.val) + 2; omega))
  · exact congrArg (fun s => Φ ((c : Thread nD τ), s)) (osem_val _ (xrS k) (by show 30 + k.val = 8 + (8 + (12 + k.val)) + 2; omega))
  · exact congrArg (fun s => Φ ((c : Thread nD τ), s)) (osem_val _ (zsS k) (by show 42 + k.val = 8 + (8 + (12 + (12 + k.val))) + 2; omega))
  · exact congrArg (fun s => Φ ((c : Thread nD τ), s)) (osem_val _ (zrS k) (by show 54 + k.val = 8 + (8 + (12 + (12 + (12 + k.val)))) + 2; omega))

theorem csem_succ (i : Fin 64) : csem (Fin.natAdd 1 i) = osem i := by
  unfold csem osem
  rw [dif_neg (by show ¬ (1 + i.val = 0); omega)]
  exact congrArg SemLoc.dma (Fin.ext (by show 1 + i.val + 1 = i.val + 2; omega))

omit [FloatOps F] in
/-- A device's 65 cells are its barrier cell and its 64 scratch DMA cells. -/
theorem cells_eq (c : Dev nD) (Φ : GSem nD τ sig → sProp 𝕄) :
    (bigSep Finset.univ fun i : Fin 65 => Φ (kcell (c, i))) = iprop(Φ (barCell c) ∗ each c Φ) := by
  rw [bigSep_fin_add (F := F) (a := 1) (b := 64) (fun i : Fin 65 => Φ (kcell (c, i))), bigSep_univ_of_subsingleton (0 : Fin 1), ← each_osem]
  refine congrArg₂ _ rfl (bigSep_congr fun i _ => ?_)
  show Φ ((c : Thread nD τ), csem (Fin.natAdd 1 i)) = _
  rw [csem_succ]

/-! ## The launch element -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h
    have h3 : k.val + 1 = k'.val + 1 := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

theorem osem_injective : Function.Injective osem := by
  intro i i' h
  have h3 : i.val + 2 = i'.val + 2 := congrArg Fin.val (SemLoc.dma.inj h)
  exact Fin.ext (by omega)

/-- A device's own cells' duty tokens as minted: the barrier cell's three, each scratch DMA cell's one. -/
abbrev tokOf (cj : Dev nD × (Fin 3 ⊕ Fin 64)) : GSem nD τ sig × ℕ × Fin 3 := match cj.2 with
  | .inl j => (barCell cj.1, 0, j)
  | .inr i => (((cj.1 : Thread nD τ), osem i), 0, 0)
theorem tokOf_injective : Function.Injective (tokOf : Dev nD × (Fin 3 ⊕ Fin 64) → GSem nD τ sig × ℕ × Fin 3) := by
  rintro ⟨c, j⟩ ⟨c', j'⟩ h
  have h1 : c = c' := by
    have := congrArg (fun x : GSem nD τ sig × ℕ × Fin 3 => x.1.1.1) h
    rcases j with j | j <;> rcases j' with j' | j' <;> exact this
  subst h1
  have : j = j' := by
    rcases j with j | j <;> rcases j' with j' | j'
    · exact congrArg Sum.inl (congrArg (fun x : GSem nD τ sig × ℕ × Fin 3 => x.2.2) h)
    · exact absurd (congrArg (fun x : GSem nD τ sig × ℕ × Fin 3 => x.1.2) h) (fun h' : SemLoc.reg barS = osem j' => by unfold osem at h'; cases h')
    · exact absurd (congrArg (fun x : GSem nD τ sig × ℕ × Fin 3 => x.1.2) h) (fun h' : osem j = SemLoc.reg barS => by unfold osem at h'; cases h')
    · exact congrArg Sum.inr (osem_injective (congrArg (fun x : GSem nD τ sig × ℕ × Fin 3 => x.1.2) h))
  subst this; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ each c fun g => dutyTok ER g 0 (0 : Fin 3))

/-- What the launch element deals device c. -/
def G (c : Dev nD) : sProp 𝕄 :=
  iprop((bigSep Finset.univ fun k : Fin 65 => roundState ER (Rd m ρ) (kcell (c, k)) 0)
    ∗ (bigSep Finset.univ fun k : Fin 65 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_fin3, ← each_osem]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  unfold Pipeline.ownSems0
  rw [unscopedSems0_eq, cells_eq (F := F) c (fun g => semVal g 0), ← each_osem]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device c: its positions, and the tokens of the duties it pays. -/
def linear (c : Dev nD) : sProp 𝕄 :=
  iprop((bigSep Finset.univ fun k : Fin 65 => atPos ER (kcell (c, k)) 0 (∅ : Finset (Fin 3)) 0) ∗ payToks c)

theorem ghost_intro (K : Dev nD × Fin 65 → ℕ) (c : Dev nD) : iprop(records m ρ K ∗ linear c) ⊢ G' m ρ c := by
  unfold linear G' ghost positions
  rw [cells_eq (F := F) c (fun g => atPos ER g 0 (∅ : Finset (Fin 3)) 0)]
  iintro ⟨HR, HP, HT⟩
  iexists K
  isplitl [HR]; · iexact HR
  isplitl [HP]; · iexact HP
  iexact HT

omit [FloatOps F] in
/-- The tokens dealt around the mesh: a barrier cell's three tokens to the three neighbours, a receive cell's token to
    the neighbour that sends to it; a send cell's token stays. -/
theorem toks_around : (bigSep Finset.univ fun c : Dev nD => (toks c : sProp 𝕄)) ⊢ bigSep Finset.univ fun c : Dev nD => payToks c := by
  unfold toks payToks each
  simp only [bigSep_sep']
  rw [bigSep_univ_equiv ySwap (fun c : Dev nD => (dutyTok ER (barCell c) 0 (0 : Fin 3) : sProp 𝕄)),
    bigSep_univ_equiv xSwap (fun c : Dev nD => (dutyTok ER (barCell c) 0 (1 : Fin 3) : sProp 𝕄)),
    bigSep_univ_equiv zSwap (fun c : Dev nD => (dutyTok ER (barCell c) 0 (2 : Fin 3) : sProp 𝕄)),
    bigSep_univ_equiv ySwap (fun c : Dev nD => (bigSep Finset.univ fun k : Fin 8 => dutyTok ER (dCell c (yrS k)) 0 (0 : Fin 3) : sProp 𝕄)),
    bigSep_univ_equiv xSwap (fun c : Dev nD => (bigSep Finset.univ fun k : Fin 12 => dutyTok ER (dCell c (xrS k)) 0 (0 : Fin 3) : sProp 𝕄)),
    bigSep_univ_equiv zSwap (fun c : Dev nD => (bigSep Finset.univ fun k : Fin 12 => dutyTok ER (dCell c (zrS k)) 0 (0 : Fin 3) : sProp 𝕄))]
  iintro ⟨⟨H0, H1, H2⟩, Hys, Hyr, Hxs, Hxr, Hzs, Hzr⟩
  isplitl [H0]; · iexact H0
  isplitl [H1]; · iexact H1
  isplitl [H2]; · iexact H2
  isplitl [Hys]; · iexact Hys
  isplitl [Hyr]; · iexact Hyr
  isplitl [Hxs]; · iexact Hxs
  isplitl [Hxr]; · iexact Hxr
  isplitl [Hzs]; · iexact Hzs
  iexact Hzr

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 65 => iprop(∃ κ : ℕ, cellInv ER (Rd m ρ) κ (kcell ck))),
    bigSep_congr (s := Finset.univ) (fun (c : Dev nD) _ => bigSep_sep' Finset.univ (fun k : Fin 65 => (atPos ER (kcell (c, k)) 0 (∅ : Finset (Fin 3)) 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 65 => (atPos ER (kcell (c, k)) 0 (∅ : Finset (Fin 3)) 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d : Dev nD => owed d 0) c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq,
    show (Pipeline.ownSems0 (Ix := Unit) (Name := ℕ) (U := UU) (Lvl := ℕ) (Val := Elt F) (τ := τ) osem c : sProp 𝕄) = each c (fun g => semVal g 0) from
      each_osem (F := F) c (fun g => semVal g 0)]
  unfold Φ₁
  iintro ⟨Hr, Hz⟩
  isplitr; · iempintro
  isplitl [Hz]; · iexact Hz
  iexists (Yb m ρ c); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From the body obligation of every device: every weakly fair execution of @main terminates, and every final state has
    each window's array at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d : Dev nD => owed d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block, the whole array, is what the body left in the staging buffer. -/
theorem finalA_o (c : Dev nD) : finalA m ρ c (1 : Fin 2) = Out m ρ c := by
  have h : (win0_1.blk (0 : Fin 1)).view.read (Elt F) (finalA m ρ c (1 : Fin 2)) = Out m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  rw [← h]
  exact (Memref.read_access_unit_zero (Elt F) main_v1 (by decide) _ (finalA m ρ c (1 : Fin 2))).symm

/-! ## The launch: from the body obligation of every device to the run of the program -/

/-- At the compiled mesh of eight devices, for any float values, from any memory with zero counters: every weakly fair
    execution of @main terminates, and every final state has each device's result array at `Out` and its block of `x`
    unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Out m ρ c
      ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩) (run_main m ρ hbody)

/-- info: 'Cert.KernelIdeal.AR.run_values' depends on axioms: [propext, Classical.choice, Quot.sound] -/
#guard_msgs in #print axioms run_values

end Cert.KernelIdeal.AR
end
-- ==== Proof.ArKernelIdeal.Oblig.lean ====
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.KernelIdeal.Skeleton
import proofs.«900700_g7700000000000701_dist_ar_v7x_xyz2x2x2_y_m1024_n512_f32_1_alg».proof.Proof.Gen.KernelIdeal.Launch
import proofs.«900700_g7700000000000701_dist_ar_v7x_xyz2x2x2_y_m1024_n512_f32_1_alg».proof.Proof.Gen.KernelIdeal.Points
import proofs.«900700_g7700000000000701_dist_ar_v7x_xyz2x2x2_y_m1024_n512_f32_1_alg».proof.Proof.ArKernelIdeal.Proto
import proofs.«900700_g7700000000000701_dist_ar_v7x_xyz2x2x2_y_m1024_n512_f32_1_alg».proof.Proof.ArKernelIdeal.Ghost
import proofs.«900700_g7700000000000701_dist_ar_v7x_xyz2x2x2_y_m1024_n512_f32_1_alg».proof.Proof.ArKernelIdeal.Body
import proofs.«900700_g7700000000000701_dist_ar_v7x_xyz2x2x2_y_m1024_n512_f32_1_alg».proof.Proof.ArKernelIdeal.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, and the run -/

omit [FloatOps F] in
/-- A whole buffer owned at the full share is its points-to at contents equal to the given ones. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6) (fun _ => bodyPost m ρ c)
  unfold bodyPre' Φ₀ start ghost
  iintro ⟨⟨⟨⟨%K, Hg⟩, Hcr, Hlev⟩, Hscr⟩, Ho, Hx, Hout⟩
  iapply (sound_body m ρ K c fun _ => bodyPost m ρ c)
  unfold bodyPre
  isplitr []
  · isplitl [Hg]; · iexact Hg
    isplitl [Hcr]; · iexact Hcr
    isplitl [Hlev]; · iexact Hlev
    isplitl [Hscr]; · iexact Hscr
    isplitl [Ho]; · iexact Ho
    isplitl [Hx] <;> iassumption
  · iintro H; iexact H

/-- At the compiled mesh of eight devices, for any float values, from any memory with zero counters: every weakly fair
    execution of @main terminates, and every final state has each device's result array at the row-wise sum over its
    y-pair and its block of the input unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Out m ρ c
      ∧ r.2.mem ((c.tc : Thread nD τ).loc main_arg0) = m ((c.tc : Thread nD τ).loc main_arg0)) :=
  run_values m ρ (body_obligation m ρ)

/-- info: 'Cert.KernelIdeal.AR.run' depends on axioms: [propext, Classical.choice, Quot.sound] -/
#guard_msgs in #print axioms run

end Cert.KernelIdeal.AR
end
-- ==== Proof.ArKernel.Proto.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-! ## The resource algebra: the pipeline library's copy and the protocol's (three duty names, for the entry
    handshake's three signals) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The three neighbours of a device on the 2 × 2 × 2 mesh

Device `c` sits at `(x, y, z) = (c / 4, c / 2 % 2, c % 2)`. Its neighbour along an axis flips that coordinate. -/

def yp (c : Dev nD) : Dev nD := ⟨(4 * (c.val / 4) + (c.val % 2) + 2) - 2 * ((c.val / 2) % 2), by have : c.val < 8 := c.isLt; show _ < 8; omega⟩
def xp (c : Dev nD) : Dev nD := ⟨(2 * ((c.val / 2) % 2) + (c.val % 2) + 4) - 4 * (c.val / 4), by have : c.val < 8 := c.isLt; show _ < 8; omega⟩
def zp (c : Dev nD) : Dev nD := ⟨(4 * (c.val / 4) + 2 * ((c.val / 2) % 2) + 1) - (c.val % 2), by have : c.val < 8 := c.isLt; show _ < 8; omega⟩

theorem yp_yp (c : Dev nD) : yp (yp c) = c := by revert c; decide
theorem xp_xp (c : Dev nD) : xp (xp c) = c := by revert c; decide
theorem zp_zp (c : Dev nD) : zp (zp c) = c := by revert c; decide
theorem xp_zp (c : Dev nD) : xp (zp c) = zp (xp c) := by revert c; decide
theorem yp_xp (c : Dev nD) : yp (xp c) = xp (yp c) := by revert c; decide
theorem yp_zp (c : Dev nD) : yp (zp c) = zp (yp c) := by revert c; decide

def ySwap : Dev nD ≃ Dev nD := ⟨yp, yp, yp_yp, yp_yp⟩
def xSwap : Dev nD ≃ Dev nD := ⟨xp, xp, xp_xp, xp_xp⟩
def zSwap : Dev nD ≃ Dev nD := ⟨zp, zp, zp_zp, zp_zp⟩

/-- The kernel's `device_id` chains name these neighbours. -/
theorem dev1_eq (c : Dev nD) : (⟨k0_dev1 c, k0_dev1_lt c⟩ : Dev nD) = yp c := Fin.ext (k0_dev1_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev2_eq (c : Dev nD) : (⟨k0_dev2 c, k0_dev2_lt c⟩ : Dev nD) = xp c := Fin.ext (k0_dev2_eq c)
theorem dev12_eq (c : Dev nD) : (⟨k0_dev12 c, k0_dev12_lt c⟩ : Dev nD) = xp c := Fin.ext (k0_dev12_eq c)
theorem dev14_eq (c : Dev nD) : (⟨k0_dev14 c, k0_dev14_lt c⟩ : Dev nD) = xp c := Fin.ext (k0_dev14_eq c)
theorem dev16_eq (c : Dev nD) : (⟨k0_dev16 c, k0_dev16_lt c⟩ : Dev nD) = xp c := Fin.ext (k0_dev16_eq c)
theorem dev18_eq (c : Dev nD) : (⟨k0_dev18 c, k0_dev18_lt c⟩ : Dev nD) = xp c := Fin.ext (k0_dev18_eq c)
theorem dev20_eq (c : Dev nD) : (⟨k0_dev20 c, k0_dev20_lt c⟩ : Dev nD) = xp c := Fin.ext (k0_dev20_eq c)
theorem dev22_eq (c : Dev nD) : (⟨k0_dev22 c, k0_dev22_lt c⟩ : Dev nD) = xp c := Fin.ext (k0_dev22_eq c)
theorem dev24_eq (c : Dev nD) : (⟨k0_dev24 c, k0_dev24_lt c⟩ : Dev nD) = xp c := Fin.ext (k0_dev24_eq c)
theorem dev26_eq (c : Dev nD) : (⟨k0_dev26 c, k0_dev26_lt c⟩ : Dev nD) = xp c := Fin.ext (k0_dev26_eq c)
theorem dev29_eq (c : Dev nD) : (⟨k0_dev29 c, k0_dev29_lt c⟩ : Dev nD) = xp c := Fin.ext (k0_dev29_eq c)
theorem dev31_eq (c : Dev nD) : (⟨k0_dev31 c, k0_dev31_lt c⟩ : Dev nD) = xp c := Fin.ext (k0_dev31_eq c)
theorem dev33_eq (c : Dev nD) : (⟨k0_dev33 c, k0_dev33_lt c⟩ : Dev nD) = xp c := Fin.ext (k0_dev33_eq c)
theorem dev35_eq (c : Dev nD) : (⟨k0_dev35 c, k0_dev35_lt c⟩ : Dev nD) = xp c := Fin.ext (k0_dev35_eq c)
theorem dev3_eq (c : Dev nD) : (⟨k0_dev3 c, k0_dev3_lt c⟩ : Dev nD) = zp c := Fin.ext (k0_dev3_eq c)
theorem dev13_eq (c : Dev nD) : (⟨k0_dev13 c, k0_dev13_lt c⟩ : Dev nD) = zp c := Fin.ext (k0_dev13_eq c)
theorem dev15_eq (c : Dev nD) : (⟨k0_dev15 c, k0_dev15_lt c⟩ : Dev nD) = zp c := Fin.ext (k0_dev15_eq c)
theorem dev17_eq (c : Dev nD) : (⟨k0_dev17 c, k0_dev17_lt c⟩ : Dev nD) = zp c := Fin.ext (k0_dev17_eq c)
theorem dev19_eq (c : Dev nD) : (⟨k0_dev19 c, k0_dev19_lt c⟩ : Dev nD) = zp c := Fin.ext (k0_dev19_eq c)
theorem dev21_eq (c : Dev nD) : (⟨k0_dev21 c, k0_dev21_lt c⟩ : Dev nD) = zp c := Fin.ext (k0_dev21_eq c)
theorem dev23_eq (c : Dev nD) : (⟨k0_dev23 c, k0_dev23_lt c⟩ : Dev nD) = zp c := Fin.ext (k0_dev23_eq c)
theorem dev25_eq (c : Dev nD) : (⟨k0_dev25 c, k0_dev25_lt c⟩ : Dev nD) = zp c := Fin.ext (k0_dev25_eq c)
theorem dev27_eq (c : Dev nD) : (⟨k0_dev27 c, k0_dev27_lt c⟩ : Dev nD) = zp c := Fin.ext (k0_dev27_eq c)
theorem dev28_eq (c : Dev nD) : (⟨k0_dev28 c, k0_dev28_lt c⟩ : Dev nD) = zp c := Fin.ext (k0_dev28_eq c)
theorem dev30_eq (c : Dev nD) : (⟨k0_dev30 c, k0_dev30_lt c⟩ : Dev nD) = zp c := Fin.ext (k0_dev30_eq c)
theorem dev32_eq (c : Dev nD) : (⟨k0_dev32 c, k0_dev32_lt c⟩ : Dev nD) = zp c := Fin.ext (k0_dev32_eq c)
theorem dev34_eq (c : Dev nD) : (⟨k0_dev34 c, k0_dev34_lt c⟩ : Dev nD) = zp c := Fin.ext (k0_dev34_eq c)

/-! ## The memrefs, the row blocks, the semaphores -/

abbrev xM : Memref sig .tc .vmem S1024x512 .f32 := Memref.whole cc0_stg0_0
abbrev oM : Memref sig .tc .vmem S1024x512 .f32 := Memref.whole cc0_stg1_0
abbrev yM : Memref sig .tc .vmem S256x512 .f32 := Memref.whole cc0_scratch0

/-- Rows `[off 0, off 0 + 32)` of the input's staging buffer, of the result's, of the landing buffer. -/
abbrev xSl (off : Fin 2 → Nat) (h : ∀ a, off a + S32x512.size a ≤ S1024x512.size a) : Memref sig .tc .vmem S32x512 .f32 :=
  xM.slice (Rect.unit (s := S1024x512) off S32x512.size h) (fun _ => rfl)
abbrev oSl (off : Fin 2 → Nat) (h : ∀ a, off a + S32x512.size a ≤ S1024x512.size a) : Memref sig .tc .vmem S32x512 .f32 :=
  oM.slice (Rect.unit (s := S1024x512) off S32x512.size h) (fun _ => rfl)
abbrev ySl (off : Fin 2 → Nat) (h : ∀ a, off a + S32x512.size a ≤ S256x512.size a) : Memref sig .tc .vmem S32x512 .f32 :=
  yM.slice (Rect.unit (s := S256x512) off S32x512.size h) (fun _ => rfl)

/-- The runtime's barrier semaphore of collective id 0 (unscoped). -/
abbrev barS : Sem sig := (SemArray.scalar (sig.barrier 0 rfl) : Sems sig S_).sem

/-- The six semaphore arrays, by position in the signature's DMA pool. -/
def ysS (k : Fin 8) : DmaSem sig := ⟨2 + k.val, by have := k.isLt; show _ < 66; omega⟩
def yrS (k : Fin 8) : DmaSem sig := ⟨10 + k.val, by have := k.isLt; show _ < 66; omega⟩
def xsS (k : Fin 12) : DmaSem sig := ⟨18 + k.val, by have := k.isLt; show _ < 66; omega⟩
def xrS (k : Fin 12) : DmaSem sig := ⟨30 + k.val, by have := k.isLt; show _ < 66; omega⟩
def zsS (k : Fin 12) : DmaSem sig := ⟨42 + k.val, by have := k.isLt; show _ < 66; omega⟩
def zrS (k : Fin 12) : DmaSem sig := ⟨54 + k.val, by have := k.isLt; show _ < 66; omega⟩

abbrev barCell (c : Dev nD) : GSem nD τ sig := ((c : Thread nD τ), .reg barS)
abbrev dCell (c : Dev nD) (q : DmaSem sig) : GSem nD τ sig := ((c : Thread nD τ), .dma q)

/-! ## The 32-row blocks the protocol moves

Seen from device `d`: `o1 d k` is block `k` of the quarter `d` reduces itself (rows `512 z + 256 x + 32 k`), `o3 d i`
block `i` of the quarter its x-neighbour reduces, `o4 d i` block `4 + i` of the quarter its z-neighbour reduces; the
same rectangles of the input's staging buffer are `x1 d k`; `yk k` is block `k` of the landing buffer. -/

abbrev o1 (d : Dev nD) (k : Fin 8) : Memref sig .tc .vmem S32x512 .f32 := oSl (k0_off1 d (BitVec.ofNat 32 (32 * k.val))) (k0_off1_inb d k)
abbrev o3 (d : Dev nD) (i : Fin 4) : Memref sig .tc .vmem S32x512 .f32 := oSl (k0_off3 d (BitVec.ofNat 32 (32 * i.val))) (k0_off3_inb d i)
abbrev o4 (d : Dev nD) (i : Fin 4) : Memref sig .tc .vmem S32x512 .f32 := oSl (k0_off4 d (BitVec.ofNat 32 (128 + 32 * i.val))) (k0_off4_inb d i)
abbrev x1 (d : Dev nD) (k : Fin 8) : Memref sig .tc .vmem S32x512 .f32 := xSl (k0_off1 d (BitVec.ofNat 32 (32 * k.val))) (k0_off1_inb d k)
theorem yk_inb (k : Fin 8) : ∀ a, (![32 * k.val, 0] : Fin 2 → Nat) a + S32x512.size a ≤ S256x512.size a := by revert k; decide
abbrev yk (k : Fin 8) : Memref sig .tc .vmem S32x512 .f32 := ySl ![32 * k.val, 0] (yk_inb k)

/-- The same blocks by position: block `t` of a 1024-row buffer is rows `[32 t, 32 t + 32)`. Device `d` reduces quarter
    `qo d = 2 z + x`, whose block `k` is block `tO d k = 8 (qo d) + k`. -/
theorem blk_inb (t : Fin 32) : ∀ a, (![32 * t.val, 0] : Fin 2 → Nat) a + S32x512.size a ≤ S1024x512.size a := by revert t; decide
abbrev ob (t : Fin 32) : Memref sig .tc .vmem S32x512 .f32 := oSl ![32 * t.val, 0] (blk_inb t)
abbrev xb (t : Fin 32) : Memref sig .tc .vmem S32x512 .f32 := xSl ![32 * t.val, 0] (blk_inb t)
/-- A 32-row block's credit on a DMA semaphore: into the landing buffer, into the result's staging buffer. -/
abbrev Ny : ℕ := (yk 0).view.dmaCredit
abbrev No : ℕ := (ob 0).view.dmaCredit
def qo (d : Dev nD) : Nat := 2 * (d.val % 2) + d.val / 4
theorem qo_lt (d : Dev nD) : qo d < 4 := by have : d.val < 8 := d.isLt; unfold qo; omega
def tO (d : Dev nD) (k : Fin 8) : Fin 32 := ⟨8 * qo d + k.val, by have := qo_lt d; have := k.isLt; omega⟩
/-- The lower and the upper half of a quarter's blocks. -/
def lo (i : Fin 4) : Fin 8 := ⟨i.val, by have := i.isLt; omega⟩
def hi (i : Fin 4) : Fin 8 := ⟨4 + i.val, by have := i.isLt; omega⟩

/-! ## Contents -/

/-- Device `c`'s block of `x`, as the pipeline stages it. -/
def xs (c : Dev nD) : (cc0_stg0_0 : Ref sig .tc).ty.Contents (Elt F) :=
  (win0_0.blk (0 : Fin 1)).view.read (Elt F) ((s₀ m ρ).mem ((c : Thread nD τ).loc main_arg0))

/-- The device with `c`'s `y` that reduces quarter `j` (`j = 2 z + x`). -/
def own (c : Dev nD) (j : Nat) : Dev nD := ⟨4 * (j % 2) + 2 * ((c.val / 2) % 2) + (j / 2) % 2, by show _ < 8; omega⟩

/-- What the landing buffer of `c` ends holding: the rows of its y-neighbour's block of `x` in the quarter `c` reduces. -/
def Yb (c : Dev nD) : (cc0_scratch0 : Ref sig .tc).ty.Contents (Elt F) := fun i =>
  xs m ρ (yp c) (ix2 (n0 := 1024) (n1 := 512) ⟨(k0_off1 c 0#32 0 + (i 0).val) % 1024, Nat.mod_lt _ (by decide)⟩ ⟨(i 1).val % 512, Nat.mod_lt _ (by decide)⟩)

/-- What the result's staging buffer of `c` ends holding: row by row, the sum of the two blocks of `x` held by the
    device that reduces the row's quarter and by its y-neighbour. -/
def Out (c : Dev nD) : (cc0_stg1_0 : Ref sig .tc).ty.Contents (Elt F) := fun i =>
  FloatOps.addf (F := F) (xs m ρ (own c ((i 0).val / 256)) i) (xs m ρ (yp (own c ((i 0).val / 256))) i)

/-! ## The schedule

One round. A device's barrier cell has three duties of one unit, one per neighbour (`0`: the y-neighbour's signal, `1`:
the x-neighbour's, `2`: the z-neighbour's); each hands over the blocks of the SIGNALLER's buffers the owner will write:
the y-neighbour's landing buffer, and of the x- / z-neighbour's result buffer the quarter the owner reduces and half of
the quarter diagonal to the neighbour. A DMA cell has one duty of a block's credit: a send cell's hands the source block
back, a receive cell's the destination block holding what it must end holding. -/

/-- A 32-row block of a buffer of device `d`, at share `q`, the buffer holding `f` there. -/
abbrev blkPts (d : Dev nD) (M : Memref sig .tc .vmem S32x512 .f32) (q : PosShare TreeShare) (f : Buf (Elt F) (M.view.loc (d : Thread nD τ))) : sProp 𝕄 :=
  (M.view.loc (d : Thread nD τ)) ↦[M.view.set]{q} f
/-- The block outright, at some contents. -/
def free (d : Dev nD) (M : Memref sig .tc .vmem S32x512 .f32) : sProp 𝕄 := iprop(∃ f, blkPts (F := F) d M fullShare f)

def ysPay (c : Dev nD) (k : Fin 8) : sProp 𝕄 := blkPts c (xb (tO c k)) fullShare (xs m ρ c)
def yrPay (c : Dev nD) (k : Fin 8) : sProp 𝕄 := blkPts c (yk k) fullShare (Yb m ρ c)
def k8 (k : Fin 12) (h : k.val < 8) : Fin 8 := ⟨k.val, h⟩
def k4 (k : Fin 12) (h : ¬ k.val < 8) : Fin 4 := ⟨k.val - 8, by have := k.isLt; omega⟩
def xsPay (c : Dev nD) (k : Fin 12) : sProp 𝕄 :=
  if h : k.val < 8 then blkPts c (ob (tO c (k8 k h))) fullShare.left (Out m ρ c) else blkPts c (ob (tO (zp c) (hi (k4 k h)))) fullShare (Out m ρ c)
def zsPay (c : Dev nD) (k : Fin 12) : sProp 𝕄 :=
  if h : k.val < 8 then blkPts c (ob (tO c (k8 k h))) fullShare.right (Out m ρ c) else blkPts c (ob (tO (xp c) (lo (k4 k h)))) fullShare (Out m ρ c)
def xrPay (c : Dev nD) (k : Fin 12) : sProp 𝕄 :=
  if h : k.val < 8 then blkPts c (ob (tO (xp c) (k8 k h))) fullShare (Out m ρ c) else blkPts c (ob (tO (xp (zp c)) (hi (k4 k h)))) fullShare (Out m ρ c)
def zrPay (c : Dev nD) (k : Fin 12) : sProp 𝕄 :=
  if h : k.val < 8 then blkPts c (ob (tO (zp c) (k8 k h))) fullShare (Out m ρ c) else blkPts c (ob (tO (xp (zp c)) (lo (k4 k h)))) fullShare (Out m ρ c)

def barPay (c : Dev nD) (j : Fin 3) : sProp 𝕄 :=
  match j with
  | 0 => bigSep Finset.univ fun k : Fin 8 => free (F := F) (yp c) (yk k)
  | 1 => iprop((bigSep Finset.univ fun k : Fin 8 => free (F := F) (xp c) (ob (tO c k))) ∗ bigSep Finset.univ fun i : Fin 4 => free (F := F) (xp c) (ob (tO (zp c) (hi i))))
  | 2 => iprop((bigSep Finset.univ fun k : Fin 8 => free (F := F) (zp c) (ob (tO c k))) ∗ bigSep Finset.univ fun i : Fin 4 => free (F := F) (zp c) (ob (tO (xp c) (lo i))))

theorem dmaSem_lt (q : DmaSem sig) : q.val < 66 := q.isLt

def dmaPay (c : Dev nD) (q : DmaSem sig) : sProp 𝕄 :=
  if h0 : q.val < 2 then iprop(emp)
  else if h1 : q.val < 10 then ysPay m ρ c ⟨q.val - 2, by omega⟩
  else if h2 : q.val < 18 then yrPay m ρ c ⟨q.val - 10, by omega⟩
  else if h3 : q.val < 30 then xsPay m ρ c ⟨q.val - 18, by omega⟩
  else if h4 : q.val < 42 then xrPay m ρ c ⟨q.val - 30, by omega⟩
  else if h5 : q.val < 54 then zsPay m ρ c ⟨q.val - 42, by omega⟩
  else zrPay m ρ c ⟨q.val - 54, by have := dmaSem_lt q; omega⟩

theorem Ny_pos : 0 < Ny := View.dmaCredit_pos _ (by decide)
theorem No_pos : 0 < No := View.dmaCredit_pos _ (by decide)

def Rd : Rounds.Schedule (GSem nD τ sig) (Fin 3) 𝕄 where
  duties g r := if r = 0 ∧ g.1.2 = .tc then
      (match g.2 with | .reg s => if s = barS then Finset.univ else ∅ | .dma q => if 2 ≤ q.val then {0} else ∅) else ∅
  unitless _ := False
  amount g _ _ := match g.2 with | .reg _ => 1 | .dma q => if q.val < 18 then Ny else No
  payload g _ d := match g.2 with | .reg _ => barPay g.1.1 d | .dma q => dmaPay m ρ g.1.1 q
  amount_pos g _ _ _ := by
    rcases g with ⟨t, sm⟩; cases sm with
    | reg s => exact Nat.one_pos
    | dma q => dsimp only; split; exact Ny_pos; exact No_pos

end Cert.Kernel.AR
end
-- ==== Proof.ArKernel.Ghost.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What a device pays, in program order

The three entry signals; the eight transfers to the y-neighbour's landing buffer (blocks in the order 0 4 1 5 2 6 3 7);
per block in that order the transfer of the reduced block to the x-neighbour and to the z-neighbour; then four times
a forward to the z-neighbour and a forward to the x-neighbour. Each pays one duty of the destination's cell, of one unit
for a signal and of the block's credit for a transfer. -/

def job (c : Dev nD) : ℕ → GSem nD τ sig × ℕ
  | 0 => (barCell (yp c), 1)
  | 1 => (barCell (xp c), 1)
  | 2 => (barCell (zp c), 1)
  | 3 => (dCell (yp c) (yrS 0), Ny)
  | 4 => (dCell (yp c) (yrS 4), Ny)
  | 5 => (dCell (yp c) (yrS 1), Ny)
  | 6 => (dCell (yp c) (yrS 5), Ny)
  | 7 => (dCell (yp c) (yrS 2), Ny)
  | 8 => (dCell (yp c) (yrS 6), Ny)
  | 9 => (dCell (yp c) (yrS 3), Ny)
  | 10 => (dCell (yp c) (yrS 7), Ny)
  | 11 => (dCell (xp c) (xrS 0), No)
  | 12 => (dCell (zp c) (zrS 0), No)
  | 13 => (dCell (xp c) (xrS 4), No)
  | 14 => (dCell (zp c) (zrS 4), No)
  | 15 => (dCell (xp c) (xrS 1), No)
  | 16 => (dCell (zp c) (zrS 1), No)
  | 17 => (dCell (xp c) (xrS 5), No)
  | 18 => (dCell (zp c) (zrS 5), No)
  | 19 => (dCell (xp c) (xrS 2), No)
  | 20 => (dCell (zp c) (zrS 2), No)
  | 21 => (dCell (xp c) (xrS 6), No)
  | 22 => (dCell (zp c) (zrS 6), No)
  | 23 => (dCell (xp c) (xrS 3), No)
  | 24 => (dCell (zp c) (zrS 3), No)
  | 25 => (dCell (xp c) (xrS 7), No)
  | 26 => (dCell (zp c) (zrS 7), No)
  | 27 => (dCell (zp c) (zrS 8), No)
  | 28 => (dCell (xp c) (xrS 8), No)
  | 29 => (dCell (zp c) (zrS 9), No)
  | 30 => (dCell (xp c) (xrS 9), No)
  | 31 => (dCell (zp c) (zrS 10), No)
  | 32 => (dCell (xp c) (xrS 10), No)
  | 33 => (dCell (zp c) (zrS 11), No)
  | 34 => (dCell (xp c) (xrS 11), No)
  | _ => (barCell c, 0)

/-- What device `c` still owes before its `n`-th payment. -/
def owed (c : Dev nD) (n : ℕ) : CellTallies nD τ sig Unit := ∑ j ∈ Finset.Ico n 35, tallyAt (job c j).1 () (job c j).2

/-- The levels: a wait is allowed on a cell below everything the waiter still owes. Staging and send cells 0, the barrier
    cell 1, the landing buffer's receive cells 2, the receive cells of the first exchange 3, of the forwards 4. -/
def L (g : GSem nD τ sig) : Finset Unit := if g.1.2 = .tc then {()} else ∅
def lv (g : GSem nD τ sig) (_ : Unit) : ℕ :=
  match g.2 with
  | .reg _ => 1
  | .dma q => if q.val < 10 then 0 else if q.val < 18 then 2 else if q.val < 30 then 0 else if q.val < 38 then 3
      else if q.val < 42 then 4 else if q.val < 54 then 0 else if q.val < 62 then 3 else 4

/-! ## The cells, the tokens -/

/-- A device's 65 cells: the barrier cell, then the 64 DMA cells of the six scratch arrays. -/
def csem (i : Fin 65) : SemLoc sig := if h : i.val = 0 then .reg barS else .dma ⟨i.val + 1, by have := i.isLt; show _ < 66; omega⟩
/-- The kernel's own (scoped) semaphores: the 64 DMA semaphores of the scratch arrays. -/
def osem (i : Fin 64) : SemLoc sig := .dma ⟨i.val + 2, by have := i.isLt; show _ < 66; omega⟩
abbrev kcell (ck : Dev nD × Fin 65) : GSem nD τ sig := ((ck.1 : Thread nD τ), csem ck.2)

/-- The cells' invariants under the names the launch allocated them at, and round 0 of every cell reached. -/
def records (K : Dev nD × Fin 65 → ℕ) : sProp 𝕄 :=
  iprop((bigSep Finset.univ fun ck : Dev nD × Fin 65 => cellInv ER (Rd m ρ) (K ck) (kcell ck))
    ∗ bigSep Finset.univ fun ck : Dev nD × Fin 65 => reached ER (kcell ck) 0)

/-- The tokens of the duties device `c` pays: its neighbours' barrier duties, its own send cells', its neighbours' receive cells'. -/
def payToks (c : Dev nD) : sProp 𝕄 :=
  iprop(dutyTok ER (barCell (yp c)) 0 (0 : Fin 3) ∗ dutyTok ER (barCell (xp c)) 0 (1 : Fin 3) ∗ dutyTok ER (barCell (zp c)) 0 (2 : Fin 3)
    ∗ (bigSep Finset.univ fun k : Fin 8 => dutyTok ER (dCell c (ysS k)) 0 (0 : Fin 3))
    ∗ (bigSep Finset.univ fun k : Fin 8 => dutyTok ER (dCell (yp c) (yrS k)) 0 (0 : Fin 3))
    ∗ (bigSep Finset.univ fun k : Fin 12 => dutyTok ER (dCell c (xsS k)) 0 (0 : Fin 3))
    ∗ (bigSep Finset.univ fun k : Fin 12 => dutyTok ER (dCell (xp c) (xrS k)) 0 (0 : Fin 3))
    ∗ (bigSep Finset.univ fun k : Fin 12 => dutyTok ER (dCell c (zsS k)) 0 (0 : Fin 3))
    ∗ (bigSep Finset.univ fun k : Fin 12 => dutyTok ER (dCell (zp c) (zrS k)) 0 (0 : Fin 3)))

/-- A property of each of a device's 64 scratch DMA cells, array by array. -/
def each (c : Dev nD) (Φ : GSem nD τ sig → sProp 𝕄) : sProp 𝕄 :=
  iprop((bigSep Finset.univ fun k : Fin 8 => Φ (dCell c (ysS k))) ∗ (bigSep Finset.univ fun k : Fin 8 => Φ (dCell c (yrS k)))
    ∗ (bigSep Finset.univ fun k : Fin 12 => Φ (dCell c (xsS k))) ∗ (bigSep Finset.univ fun k : Fin 12 => Φ (dCell c (xrS k)))
    ∗ (bigSep Finset.univ fun k : Fin 12 => Φ (dCell c (zsS k))) ∗ (bigSep Finset.univ fun k : Fin 12 => Φ (dCell c (zrS k))))

/-- The device's positions: at the start of round 0 of its barrier cell and of each of its scratch DMA cells. -/
def positions (c : Dev nD) : sProp 𝕄 :=
  iprop(atPos ER (barCell c) 0 (∅ : Finset (Fin 3)) 0 ∗ each c fun g => atPos ER g 0 (∅ : Finset (Fin 3)) 0)

/-- The ghost state device `c` starts from. -/
def ghost (K : Dev nD × Fin 65 → ℕ) (c : Dev nD) : sProp 𝕄 :=
  iprop(records m ρ K ∗ positions c ∗ payToks c)

/-- The credit dealt at launch: three units on the barrier cell, a block's credit on each receive cell. -/
def creds (c : Dev nD) : sProp 𝕄 :=
  iprop(cred (tallyAt (barCell c) () 3)
    ∗ (bigSep Finset.univ fun k : Fin 8 => cred (tallyAt (dCell c (yrS k)) () Ny))
    ∗ (bigSep Finset.univ fun k : Fin 12 => cred (tallyAt (dCell c (xrS k)) () No))
    ∗ (bigSep Finset.univ fun k : Fin 12 => cred (tallyAt (dCell c (zrS k)) () No)))

def start (c : Dev nD) : sProp 𝕄 := iprop((∃ K, ghost m ρ K c) ∗ creds c ∗ levAts L lv)

def Φ₀ (c : Dev nD) : sProp 𝕄 := iprop(start m ρ c ∗ ∃ f, (((c : Thread nD τ).loc cc0_scratch0) ↦{fullShare} f))
/-- After the point: the landing buffer holding the y-neighbour's rows, the kernel's own cells at zero, closed. -/
def Φ₁ (c : Dev nD) : sProp 𝕄 :=
  iprop((((c : Thread nD τ).loc cc0_scratch0) ↦{fullShare} Yb m ρ c) ∗ each c fun g => semVal g 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => Out m ρ c
  Φ t := match t with
    | ⟨0, _⟩ => Φ₀ m ρ c
    | ⟨_ + 1, _⟩ => Φ₁ m ρ c
  q _ := fullShare
  owed t := match t with
    | ⟨0, _⟩ => owed c 0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one point starts from and ends at. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xs m ρ c) ∗ stg c cc0_stg1_0 (Out m ρ c))

end Cert.Kernel.AR
end
-- ==== Proof.ArKernel.Geom.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Ring

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The blocks tile the buffers -/

omit [FloatOps F] in
/-- The result's staging buffer is its 32 blocks of 32 rows. -/
theorem out_split (c : Dev nD) (q : PosShare TreeShare) (f : Buf (Elt F) ((c : Thread nD τ).loc cc0_stg1_0)) :
    ((((c : Thread nD τ).loc cc0_stg1_0) ↦{q} f : sProp 𝕄)) ⊣⊢ bigSep Finset.univ fun t : Fin 32 => blkPts (F := F) c (ob t) q f := by
  have hd := Ring.lead_disjoint (s := S1024x512) (NB := 32) (0 : Fin 2) 32 (fun t : Fin 32 => (![32 * t.val, 0] : Fin 2 → Nat)) S32x512.size
    (fun t => blk_inb t) (fun _ => rfl) rfl
  have hc := Ring.lead_cover (s := S1024x512) (NB := 32) (0 : Fin 2) 32 (fun t : Fin 32 => (![32 * t.val, 0] : Fin 2 → Nat)) S32x512.size
    (fun t => blk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_stg1_0)
    (fun t : Fin 32 => (Rect.unit (s := S1024x512) (![32 * t.val, 0] : Fin 2 → Nat) S32x512.size (blk_inb t)).set) hd hc (q := q) f
  rw [h]
  refine BiEntails.of_eq (congrArg _ (funext fun t => ?_))
  show _ = (((c : Thread nD τ).loc cc0_stg1_0) ↦[((View.whole cc0_stg1_0).slice (Rect.unit (s := S1024x512) (![32 * t.val, 0] : Fin 2 → Nat) S32x512.size (blk_inb t))).set]{q} f)
  rw [View.set_slice_whole]

omit [FloatOps F] in
/-- The input's staging buffer likewise. -/
theorem x_split (c : Dev nD) (q : PosShare TreeShare) (f : Buf (Elt F) ((c : Thread nD τ).loc cc0_stg0_0)) :
    ((((c : Thread nD τ).loc cc0_stg0_0) ↦{q} f : sProp 𝕄)) ⊣⊢ bigSep Finset.univ fun t : Fin 32 => blkPts (F := F) c (xb t) q f := by
  have hd := Ring.lead_disjoint (s := S1024x512) (NB := 32) (0 : Fin 2) 32 (fun t : Fin 32 => (![32 * t.val, 0] : Fin 2 → Nat)) S32x512.size
    (fun t => blk_inb t) (fun _ => rfl) rfl
  have hc := Ring.lead_cover (s := S1024x512) (NB := 32) (0 : Fin 2) 32 (fun t : Fin 32 => (![32 * t.val, 0] : Fin 2 → Nat)) S32x512.size
    (fun t => blk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_stg0_0)
    (fun t : Fin 32 => (Rect.unit (s := S1024x512) (![32 * t.val, 0] : Fin 2 → Nat) S32x512.size (blk_inb t)).set) hd hc (q := q) f
  rw [h]
  refine BiEntails.of_eq (congrArg _ (funext fun t => ?_))
  show _ = (((c : Thread nD τ).loc cc0_stg0_0) ↦[((View.whole cc0_stg0_0).slice (Rect.unit (s := S1024x512) (![32 * t.val, 0] : Fin 2 → Nat) S32x512.size (blk_inb t))).set]{q} f)
  rw [View.set_slice_whole]

omit [FloatOps F] in
/-- The landing buffer is its 8 blocks. -/
theorem y_split (c : Dev nD) (q : PosShare TreeShare) (f : Buf (Elt F) ((c : Thread nD τ).loc cc0_scratch0)) :
    ((((c : Thread nD τ).loc cc0_scratch0) ↦{q} f : sProp 𝕄)) ⊣⊢ bigSep Finset.univ fun k : Fin 8 => blkPts (F := F) c (yk k) q f := by
  have hd := Ring.lead_disjoint (s := S256x512) (NB := 8) (0 : Fin 2) 32 (fun t : Fin 8 => (![32 * t.val, 0] : Fin 2 → Nat)) S32x512.size
    (fun t => yk_inb t) (fun _ => rfl) rfl
  have hc := Ring.lead_cover (s := S256x512) (NB := 8) (0 : Fin 2) 32 (fun t : Fin 8 => (![32 * t.val, 0] : Fin 2 → Nat)) S32x512.size
    (fun t => yk_inb t) (fun _ => rfl) (by decide) rfl (by decide) (by decide)
  have h := Ring.pointsTo_blocks (nD := nD) (τ := τ) (sig := sig) (Ix := Unit) (Val := Elt F) (Name := ℕ) (U := UU) (Lvl := ℕ)
    (ℓ := (c : Thread nD τ).loc cc0_scratch0)
    (fun t : Fin 8 => (Rect.unit (s := S256x512) (![32 * t.val, 0] : Fin 2 → Nat) S32x512.size (yk_inb t)).set) hd hc (q := q) f
  rw [h]
  refine BiEntails.of_eq (congrArg _ (funext fun t => ?_))
  show _ = (((c : Thread nD τ).loc cc0_scratch0) ↦[((View.whole cc0_scratch0).slice (Rect.unit (s := S256x512) (![32 * t.val, 0] : Fin 2 → Nat) S32x512.size (yk_inb t))).set]{q} f)
  rw [View.set_slice_whole]

omit [FloatOps F] in
/-- A separating conjunction over four indices, in any order of the four. -/
theorem bigSep_fin4 (G : Fin 4 → sProp 𝕄) (a b c d : Fin 4) (hab : a ≠ b) (hac : a ≠ c) (had : a ≠ d) (hbc : b ≠ c) (hbd : b ≠ d)
    (hcd : c ≠ d) : bigSep Finset.univ G = iprop(G a ∗ G b ∗ G c ∗ G d) := by
  have hu : (Finset.univ : Finset (Fin 4)) = insert a (insert b (insert c {d})) := by
    revert a b c d; decide
  rw [hu, bigSep_insert (by simp [hab, hac, had]), bigSep_insert (by simp [hbc, hbd]), bigSep_insert (by simp [hcd]), bigSep_singleton]
  rfl

omit [FloatOps F] in
/-- Eight indices are the lower four and the upper four. -/
theorem bigSep_lo_hi (Ψ : Fin 8 → sProp 𝕄) :
    bigSep Finset.univ Ψ = iprop((bigSep Finset.univ fun i : Fin 4 => Ψ (lo i)) ∗ bigSep Finset.univ fun i : Fin 4 => Ψ (hi i)) := by
  rw [bigSep_univ_equiv (finSumFinEquiv (m := 4) (n := 4)) Ψ, bigSep_univ_sum]
  rfl

omit [FloatOps F] in
/-- Seen from device `c`, the 32 blocks are: the quarter it reduces, its x-neighbour's, its z-neighbour's, and the lower and
    upper half of the diagonal device's. -/
theorem blocks_regroup (c : Dev nD) (Φ : Fin 32 → sProp 𝕄) :
    bigSep Finset.univ Φ ⊣⊢ iprop((bigSep Finset.univ fun k : Fin 8 => Φ (tO c k)) ∗ (bigSep Finset.univ fun k : Fin 8 => Φ (tO (xp c) k))
      ∗ (bigSep Finset.univ fun k : Fin 8 => Φ (tO (zp c) k)) ∗ (bigSep Finset.univ fun i : Fin 4 => Φ (tO (xp (zp c)) (lo i)))
      ∗ (bigSep Finset.univ fun i : Fin 4 => Φ (tO (xp (zp c)) (hi i)))) := by
  refine BiEntails.of_eq ?_
  have e1 : bigSep Finset.univ Φ
      = bigSep Finset.univ (fun j : Fin 4 => bigSep Finset.univ fun k : Fin 8 => Φ (finProdFinEquiv (m := 4) (n := 8) (j, k))) := by
    rw [bigSep_univ_equiv (finProdFinEquiv (m := 4) (n := 8)) Φ, bigSep_univ_prod]
  have hq : ∀ d : Dev nD, (bigSep Finset.univ fun k : Fin 8 => Φ (finProdFinEquiv (m := 4) (n := 8) ((⟨qo d, qo_lt d⟩ : Fin 4), k)))
      = bigSep Finset.univ fun k : Fin 8 => Φ (tO d k) := by
    intro d
    refine bigSep_congr fun k _ => congrArg Φ (Fin.ext ?_)
    show k.val + 8 * qo d = 8 * qo d + k.val
    omega
  have e2 := bigSep_fin4 (F := F) (fun j : Fin 4 => bigSep Finset.univ fun k : Fin 8 => Φ (finProdFinEquiv (m := 4) (n := 8) (j, k)))
    ⟨qo c, qo_lt c⟩ ⟨qo (xp c), qo_lt _⟩ ⟨qo (zp c), qo_lt _⟩ ⟨qo (xp (zp c)), qo_lt _⟩
    (by revert c; decide) (by revert c; decide) (by revert c; decide) (by revert c; decide) (by revert c; decide) (by revert c; decide)
  rw [e1, e2, hq c, hq (xp c), hq (zp c), hq (xp (zp c)), bigSep_lo_hi (F := F) fun k : Fin 8 => Φ (tO (xp (zp c)) k)]

/-! ## The printed slices are these blocks -/

theorem oSl_congr {off off' : Fin 2 → Nat} (e : off = off') (h : ∀ a, off a + S32x512.size a ≤ S1024x512.size a)
    (h' : ∀ a, off' a + S32x512.size a ≤ S1024x512.size a) : oSl off h = oSl off' h' := by subst e; rfl
theorem xSl_congr {off off' : Fin 2 → Nat} (e : off = off') (h : ∀ a, off a + S32x512.size a ≤ S1024x512.size a)
    (h' : ∀ a, off' a + S32x512.size a ≤ S1024x512.size a) : xSl off h = xSl off' h' := by subst e; rfl

/-- The printed row offsets are the positional ones. -/
theorem off1_blk (d : Dev nD) (k : Fin 8) : k0_off1 d (BitVec.ofNat 32 (32 * k.val)) = ![32 * (tO d k).val, 0] := by
  rw [k0_off1_eq]
  have e : 512 * (d.val % 2) + 256 * (d.val / 4) + 32 * k.val = 32 * (tO d k).val := by
    show _ = 32 * (8 * (2 * (d.val % 2) + d.val / 4) + k.val); omega
  rw [e]
theorem off2_blk (d : Dev nD) (k : Fin 8) : k0_off2 d (BitVec.ofNat 32 (32 * k.val)) = ![32 * (tO d k).val, 0] := by
  rw [k0_off2_eq]
  have e : 512 * (d.val % 2) + 256 * (d.val / 4) + 32 * k.val = 32 * (tO d k).val := by
    show _ = 32 * (8 * (2 * (d.val % 2) + d.val / 4) + k.val); omega
  rw [e]
theorem off3_blk (d : Dev nD) (i : Fin 4) : k0_off3 d (BitVec.ofNat 32 (32 * i.val)) = ![32 * (tO (xp d) (lo i)).val, 0] := by
  rw [k0_off3_eq]
  have e : (512 * (d.val % 2) + 32 * i.val + 256) - 256 * (d.val / 4) = 32 * (tO (xp d) (lo i)).val := by
    have hd : d.val < 8 := d.isLt
    show _ = 32 * (8 * (2 * (((2 * ((d.val / 2) % 2) + (d.val % 2) + 4) - 4 * (d.val / 4)) % 2)
      + ((2 * ((d.val / 2) % 2) + (d.val % 2) + 4) - 4 * (d.val / 4)) / 4) + i.val)
    omega
  rw [e]
theorem off4_blk (d : Dev nD) (i : Fin 4) : k0_off4 d (BitVec.ofNat 32 (128 + 32 * i.val)) = ![32 * (tO (zp d) (hi i)).val, 0] := by
  rw [k0_off4_eq]
  have e : (256 * (d.val / 4) + 32 * i.val + 640) - 512 * (d.val % 2) = 32 * (tO (zp d) (hi i)).val := by
    have hd : d.val < 8 := d.isLt
    show _ = 32 * (8 * (2 * (((4 * (d.val / 4) + 2 * ((d.val / 2) % 2) + 1) - (d.val % 2)) % 2)
      + ((4 * (d.val / 4) + 2 * ((d.val / 2) % 2) + 1) - (d.val % 2)) / 4) + (4 + i.val))
    omega
  rw [e]

theorem o1_eq (d : Dev nD) (k : Fin 8) : o1 d k = ob (tO d k) := oSl_congr (off1_blk d k) _ _
theorem o3_eq (d : Dev nD) (i : Fin 4) : o3 d i = ob (tO (xp d) (lo i)) := oSl_congr (off3_blk d i) _ _
theorem o4_eq (d : Dev nD) (i : Fin 4) : o4 d i = ob (tO (zp d) (hi i)) := oSl_congr (off4_blk d i) _ _
theorem x1_eq (d : Dev nD) (k : Fin 8) : x1 d k = xb (tO d k) := xSl_congr (off1_blk d k) _ _

/-! ## The printed loads and stores stay inside their block -/

theorem xload_sub (c : Dev nD) (k : Fin 8) :
    (xM : Memref sig .tc .vmem S1024x512 .f32).view.setOn (Rect.unit (s := S1024x512) (k0_off2 c (BitVec.ofNat 32 (32 * k.val))) S32x512.size (k0_off2_inb c k)).toLoadRect.set
      ⊆ (xb (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      (xM : Memref sig .tc .vmem S1024x512 .f32).view.setOn (Rect.unit (s := S1024x512) off S32x512.size h).toLoadRect.set
        ⊆ ((xM : Memref sig .tc .vmem S1024x512 .f32).view.slice (Rect.unit (s := S1024x512) ![32 * (tO c k).val, 0] S32x512.size h')).set := by
    intro off h h' e; subst e; rw [View.set_slice]; exact Finset.Subset.refl _
  exact key _ _ _ e
theorem oload_sub (c : Dev nD) (k : Fin 8) :
    (oM : Memref sig .tc .vmem S1024x512 .f32).view.setOn (Rect.unit (s := S1024x512) (k0_off2 c (BitVec.ofNat 32 (32 * k.val))) S32x512.size (k0_off2_inb c k)).toLoadRect.set
      ⊆ (ob (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      (oM : Memref sig .tc .vmem S1024x512 .f32).view.setOn (Rect.unit (s := S1024x512) off S32x512.size h).toLoadRect.set
        ⊆ ((oM : Memref sig .tc .vmem S1024x512 .f32).view.slice (Rect.unit (s := S1024x512) ![32 * (tO c k).val, 0] S32x512.size h')).set := by
    intro off h h' e; subst e; rw [View.set_slice]; exact Finset.Subset.refl _
  exact key _ _ _ e
theorem ostore_sub (c : Dev nD) (k : Fin 8) :
    ((oM : Memref sig .tc .vmem S1024x512 .f32).access (Rect.unit (s := S1024x512) (k0_off2 c (BitVec.ofNat 32 (32 * k.val))) S32x512.size (k0_off2_inb c k))).setOn Finset.univ
      ⊆ (ob (tO c k)).view.set := by
  have e := off2_blk c k
  have key : ∀ (off : Fin 2 → Nat) (h : ∀ a, off a + S32x512.size a ≤ S1024x512.size a) (h' : ∀ a, (![32 * (tO c k).val, 0] : Fin 2 → Nat) a + S32x512.size a ≤ S1024x512.size a),
      off = ![32 * (tO c k).val, 0] →
      ((oM : Memref sig .tc .vmem S1024x512 .f32).access (Rect.unit (s := S1024x512) off S32x512.size h)).setOn Finset.univ
        ⊆ ((oM : Memref sig .tc .vmem S1024x512 .f32).view.slice (Rect.unit (s := S1024x512) ![32 * (tO c k).val, 0] S32x512.size h')).set := by
    intro off h h' e; subst e; exact Finset.Subset.refl _
  exact key _ _ _ e
theorem yload_sub (k : Fin 8) :
    (yM : Memref sig .tc .vmem S256x512 .f32).view.setOn (Rect.unit (s := S256x512) ![32 * k.val, 0] S32x512.size (yk_inb k)).toLoadRect.set
      ⊆ (yk k).view.set := by
  show _ ⊆ ((yM : Memref sig .tc .vmem S256x512 .f32).view.slice (Rect.unit (s := S256x512) ![32 * k.val, 0] S32x512.size (yk_inb k))).set
  rw [View.set_slice]; exact Finset.Subset.refl _

/-- info: 'Cert.Kernel.AR.out_split' depends on axioms: [propext, Classical.choice, Quot.sound] -/
#guard_msgs in #print axioms out_split
/-- info: 'Cert.Kernel.AR.blocks_regroup' depends on axioms: [propext, Classical.choice, Quot.sound] -/
#guard_msgs in #print axioms blocks_regroup

end Cert.Kernel.AR
end
-- ==== Proof.ArKernel.Tables.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Tables
variable (c : Dev nD)

theorem duties_bar : (Rd (F := F) m ρ).duties (barCell c) 0 = Finset.univ := by
  dsimp only [Rd]
  rw [if_pos ⟨rfl, rfl⟩]
  exact if_pos rfl
theorem duties_dma (q : DmaSem sig) (h : 2 ≤ q.val) : (Rd (F := F) m ρ).duties (dCell c q) 0 = {0} := by
  dsimp only [Rd]
  rw [if_pos ⟨rfl, rfl⟩]
  exact if_pos h
theorem duties_later (g : GSem nD τ sig) : ∀ r, 1 ≤ r → (Rd (F := F) m ρ).duties g r = ∅ := by
  intro r hr
  dsimp only [Rd]
  rw [if_neg fun h => by omega]
theorem amount_bar (j : Fin 3) : (Rd (F := F) m ρ).amount (barCell c) 0 j = 1 := by
  rfl
theorem amount_y (q : DmaSem sig) (h : q.val < 18) (d : Fin 3) : (Rd (F := F) m ρ).amount (dCell c q) 0 d = Ny := by
  dsimp only [Rd]
  exact if_pos h
theorem amount_o (q : DmaSem sig) (h : 18 ≤ q.val) (d : Fin 3) : (Rd (F := F) m ρ).amount (dCell c q) 0 d = No := by
  dsimp only [Rd]
  exact if_neg (by omega)
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_y (q : DmaSem sig) (h2 : 2 ≤ q.val) (h : q.val < 18) : (Rd (F := F) m ρ).expect (dCell c q) 0 = Ny := by
  unfold Schedule.expect Schedule.amountOf
  rw [duties_dma m ρ c q h2, Finset.sum_singleton, amount_y m ρ c q h]
theorem expect_o (q : DmaSem sig) (h : 18 ≤ q.val) : (Rd (F := F) m ρ).expect (dCell c q) 0 = No := by
  unfold Schedule.expect Schedule.amountOf
  rw [duties_dma m ρ c q (by omega), Finset.sum_singleton, amount_o m ρ c q h]
theorem payload_bar (j : Fin 3) : (Rd (F := F) m ρ).payload (barCell c) 0 j = barPay c j := by
  rfl
theorem payload_dma (q : DmaSem sig) (d : Fin 3) : (Rd (F := F) m ρ).payload (dCell c q) 0 d = dmaPay m ρ c q := by
  rfl
theorem dmaPay_ys (c : Dev nD) (k : Fin 8) : dmaPay m ρ c (ysS k) = ysPay m ρ c k := by
  have hk := k.isLt
  have hv : (ysS k).val = 2 + k.val := rfl
  unfold dmaPay
  rw [dif_neg (by omega), dif_pos (by omega)]
  exact congrArg (ysPay m ρ c) (Fin.ext (by show (ysS k).val - 2 = k.val; omega))
theorem dmaPay_yr (c : Dev nD) (k : Fin 8) : dmaPay m ρ c (yrS k) = yrPay m ρ c k := by
  have hk := k.isLt
  have hv : (yrS k).val = 10 + k.val := rfl
  unfold dmaPay
  rw [dif_neg (by omega), dif_neg (by omega), dif_pos (by omega)]
  exact congrArg (yrPay m ρ c) (Fin.ext (by show (yrS k).val - 10 = k.val; omega))
theorem dmaPay_xs (c : Dev nD) (k : Fin 12) : dmaPay m ρ c (xsS k) = xsPay m ρ c k := by
  have hk := k.isLt
  have hv : (xsS k).val = 18 + k.val := rfl
  unfold dmaPay
  rw [dif_neg (by omega), dif_neg (by omega), dif_neg (by omega), dif_pos (by omega)]
  exact congrArg (xsPay m ρ c) (Fin.ext (by show (xsS k).val - 18 = k.val; omega))
theorem dmaPay_xr (c : Dev nD) (k : Fin 12) : dmaPay m ρ c (xrS k) = xrPay m ρ c k := by
  have hk := k.isLt
  have hv : (xrS k).val = 30 + k.val := rfl
  unfold dmaPay
  rw [dif_neg (by omega), dif_neg (by omega), dif_neg (by omega), dif_neg (by omega), dif_pos (by omega)]
  exact congrArg (xrPay m ρ c) (Fin.ext (by show (xrS k).val - 30 = k.val; omega))
theorem dmaPay_zs (c : Dev nD) (k : Fin 12) : dmaPay m ρ c (zsS k) = zsPay m ρ c k := by
  have hk := k.isLt
  have hv : (zsS k).val = 42 + k.val := rfl
  unfold dmaPay
  rw [dif_neg (by omega), dif_neg (by omega), dif_neg (by omega), dif_neg (by omega), dif_neg (by omega), dif_pos (by omega)]
  exact congrArg (zsPay m ρ c) (Fin.ext (by show (zsS k).val - 42 = k.val; omega))
theorem dmaPay_zr (c : Dev nD) (k : Fin 12) : dmaPay m ρ c (zrS k) = zrPay m ρ c k := by
  have hk := k.isLt
  have hv : (zrS k).val = 54 + k.val := rfl
  unfold dmaPay
  rw [dif_neg (by omega), dif_neg (by omega), dif_neg (by omega), dif_neg (by omega), dif_neg (by omega), dif_neg (by omega)]
  exact congrArg (zrPay m ρ c) (Fin.ext (by show (zrS k).val - 54 = k.val; omega))

/-- The rest of the barrier cell's round, no duty taken: the three neighbours' payloads. -/
theorem rest_bar : bigSep ((Rd (F := F) m ρ).duties (barCell c) 0 \ ∅) (fun d => (Rd (F := F) m ρ).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma (q : DmaSem sig) (h : 2 ≤ q.val) :
    bigSep ((Rd (F := F) m ρ).duties (dCell c q) 0 \ ∅) (fun d => (Rd (F := F) m ρ).payload (dCell c q) 0 d) = dmaPay m ρ c q := by
  rw [Finset.sdiff_empty, duties_dma m ρ c q h, bigSep_singleton, payload_dma]

/-- What device `c` hands over with its three entry signals: the duty it pays on each neighbour's barrier cell, resolved
    (the neighbour of the neighbour is `c`). -/
theorem barPay_yp : barPay (F := F) (yp c) 0 = bigSep Finset.univ fun k : Fin 8 => free (F := F) c (yk k) := by
  show (bigSep Finset.univ fun k : Fin 8 => free (F := F) (yp (yp c)) (yk k)) = _
  rw [yp_yp]
theorem barPay_xp : barPay (F := F) (xp c) 1
    = iprop((bigSep Finset.univ fun k : Fin 8 => free (F := F) c (ob (tO (xp c) k))) ∗ bigSep Finset.univ fun i : Fin 4 => free (F := F) c (ob (tO (xp (zp c)) (hi i)))) := by
  show iprop((bigSep Finset.univ fun k : Fin 8 => free (F := F) (xp (xp c)) (ob (tO (xp c) k))) ∗ bigSep Finset.univ fun i : Fin 4 => free (F := F) (xp (xp c)) (ob (tO (zp (xp c)) (hi i)))) = _
  rw [xp_xp, xp_zp]
theorem barPay_zp : barPay (F := F) (zp c) 2
    = iprop((bigSep Finset.univ fun k : Fin 8 => free (F := F) c (ob (tO (zp c) k))) ∗ bigSep Finset.univ fun i : Fin 4 => free (F := F) c (ob (tO (xp (zp c)) (lo i)))) := by
  show iprop((bigSep Finset.univ fun k : Fin 8 => free (F := F) (zp (zp c)) (ob (tO (zp c) k))) ∗ bigSep Finset.univ fun i : Fin 4 => free (F := F) (zp (zp c)) (ob (tO (xp (zp c)) (lo i)))) = _
  rw [zp_zp]

end Tables

instance payload_storable (g : GSem nD τ sig) (r : ℕ) (d : Fin 3) :
    BI.Storable (upEmb : UEmb _ 𝕄) ((Rd (F := F) m ρ).payload g r d) := by
  rcases g with ⟨⟨c, u⟩, sm⟩
  cases sm with
  | reg s =>
    show BI.Storable upEmb (barPay (F := F) c d)
    unfold barPay free
    split <;> infer_instance
  | dma q =>
    show BI.Storable upEmb (dmaPay m ρ c q)
    unfold dmaPay ysPay yrPay xsPay xrPay zsPay zrPay
    (repeat' split) <;> infer_instance

/-! ## The cells by index, and one cell's invariant out of the records -/

/-- The index of a scratch DMA semaphore among a device's 65 cells. -/
def ix (q : DmaSem sig) (h : 2 ≤ q.val) : Fin 65 := ⟨q.val - 1, by have := dmaSem_lt q; omega⟩
theorem kcell_bar (c : Dev nD) : kcell (c, (0 : Fin 65)) = barCell c := by
  rfl
theorem kcell_dma (c : Dev nD) (q : DmaSem sig) (h : 2 ≤ q.val) : kcell (c, ix q h) = dCell c q := by
  have hq := dmaSem_lt q
  show ((c : Thread nD τ), csem (ix q h)) = ((c : Thread nD τ), SemLoc.dma q)
  unfold csem
  rw [dif_neg (by show ¬ (q.val - 1 = 0); omega)]
  exact congrArg (fun x : DmaSem sig => ((c : Thread nD τ), SemLoc.dma x)) (Fin.ext (by show q.val - 1 + 1 = q.val; omega))

instance records_persistent (K : Dev nD × Fin 65 → ℕ) : BI.Persistent (records m ρ K) := by
  unfold records
  infer_instance

theorem inv_bar (K : Dev nD × Fin 65 → ℕ) (c : Dev nD) : records m ρ K ⊢ cellInv ER (Rd m ρ) (K (c, 0)) (barCell c) := by
  unfold records
  refine (Idealize.SL.BI.sep_and.trans Idealize.SL.BI.and_elimL).trans ?_
  refine (bigSep_elim (Finset.mem_univ ((c, (0 : Fin 65)) : Dev nD × Fin 65))).trans ?_
  rw [kcell_bar]
  exact Idealize.SL.BI.Entails.refl _
theorem inv_dma (K : Dev nD × Fin 65 → ℕ) (c : Dev nD) (q : DmaSem sig) (h : 2 ≤ q.val) :
    records m ρ K ⊢ cellInv ER (Rd m ρ) (K (c, ix q h)) (dCell c q) := by
  unfold records
  refine (Idealize.SL.BI.sep_and.trans Idealize.SL.BI.and_elimL).trans ?_
  refine (bigSep_elim (Finset.mem_univ ((c, ix q h) : Dev nD × Fin 65))).trans ?_
  rw [kcell_dma]
  exact Idealize.SL.BI.Entails.refl _
theorem reached_bar (K : Dev nD × Fin 65 → ℕ) (c : Dev nD) : records m ρ K ⊢ (reached ER (barCell c) 0 : sProp 𝕄) := by
  unfold records
  refine (Idealize.SL.BI.sep_and.trans Idealize.SL.BI.and_elimR).trans ?_
  refine (bigSep_elim (Finset.mem_univ ((c, (0 : Fin 65)) : Dev nD × Fin 65))).trans ?_
  rw [kcell_bar]
  exact Idealize.SL.BI.Entails.refl _
theorem reached_dma (K : Dev nD × Fin 65 → ℕ) (c : Dev nD) (q : DmaSem sig) (h : 2 ≤ q.val) :
    records m ρ K ⊢ (reached ER (dCell c q) 0 : sProp 𝕄) := by
  unfold records
  refine (Idealize.SL.BI.sep_and.trans Idealize.SL.BI.and_elimR).trans ?_
  refine (bigSep_elim (Finset.mem_univ ((c, ix q h) : Dev nD × Fin 65))).trans ?_
  rw [kcell_dma]
  exact Idealize.SL.BI.Entails.refl _

/-! ## The axioms the main statements rest on -/

/-- info: 'Cert.Kernel.AR.payload_storable' depends on axioms: [propext, Classical.choice, Quot.sound] -/
#guard_msgs in #print axioms payload_storable

/-- info: 'Cert.Kernel.AR.inv_dma' depends on axioms: [propext, Classical.choice, Quot.sound] -/
#guard_msgs in #print axioms inv_dma

end Cert.Kernel.AR
end
-- ==== Proof.ArKernel.Owes.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What is owed: one payment peeled at a time -/

theorem owed_peel (c : Dev nD) (n : ℕ) (h : n < 35) : owed c n = owed c (n + 1) + tallyAt (job c n).1 () (job c n).2 := by
  unfold owed
  rw [Finset.sum_eq_sum_Ico_succ_bot h, add_comm]
theorem owed_done (c : Dev nD) : owed c 35 = 0 := by
  unfold owed
  rw [Finset.Ico_self, Finset.sum_empty]

/-- The level of the `j`-th payment's cell: 1 for the entry signals, 2 for the landing buffer's receive cells, 3 for the first
    exchange's, 4 for the forwards'. -/
def lvJob (j : ℕ) : ℕ := if j < 3 then 1 else if j < 11 then 2 else if j < 27 then 3 else 4
theorem lv_job (c : Dev nD) (j : ℕ) (h : j < 35) : lv (job c j).1 () = lvJob j := by
  interval_cases j <;> rfl
theorem job_tc (c : Dev nD) (j : ℕ) : (job c j).1.1.2 = .tc := by
  unfold job
  split <;> rfl

/-- A cell a device still owes before its `n`-th payment is the cell of a payment from the `n`-th on. -/
theorem owed_pos {c : Dev nD} {n : ℕ} {g : GSem nD τ sig} {u : Unit} (h : 0 < owed c n g u) :
    ∃ j, n ≤ j ∧ j < 35 ∧ g = (job c j).1 := by
  unfold owed at h
  obtain ⟨j, hj, hpos⟩ := Pipeline.sum_pos_exists h
  rw [Finset.mem_Ico] at hj
  exact ⟨j, hj.1, hj.2, (Pipeline.tallyAt_pos hpos).1⟩

theorem lvJob_pos (j : ℕ) : 0 < lvJob j := by
  unfold lvJob
  split_ifs <;> decide

theorem L_of_ne (g : GSem nD τ sig) (h : g.1.2 ≠ .tc) : L g = ∅ := if_neg h
theorem L_tc (c : Dev nD) (sm : SemLoc sig) : L ((c : Thread nD τ), sm) = {()} := if_pos rfl

/-- A wait on a cell of `c` below every payment still outstanding is allowed. -/
theorem mayWait_gen (c : Dev nD) (sm : SemLoc sig) (n : ℕ) (h : ∀ j, n ≤ j → j < 35 → lv ((c : Thread nD τ), sm) () < lvJob j) :
    (levAts L lv : sProp 𝕄) ⊢ MayWait (c : Thread nD τ) sm () (owed c n) := by
  refine Pipeline.mayWait_of_levAts (L := L) (lev := lv) (by rw [L_tc]; exact Finset.mem_singleton_self _) fun g i hg => ?_
  obtain ⟨j, hnj, hj, rfl⟩ := owed_pos hg
  refine ⟨?_, ?_⟩
  · unfold L
    rw [if_pos (job_tc c j)]
    exact Finset.mem_singleton_self _
  · rw [lv_job c j hj]
    exact h j hnj hj

/-- The pipeline's own waits on its staging cells (level 0), before the body (owing everything) and after it (owing nothing). -/
theorem mayWait_stage (c : Dev nD) (q : DmaSem sig) (hq : q.val < 2) (O : CellTallies nD τ sig Unit) (hO : O = owed c 0 ∨ O = 0) :
    (levAts L lv : sProp 𝕄) ⊢ MayWait (c : Thread nD τ) (.dma q) () O := by
  rcases hO with rfl | rfl
  · refine mayWait_gen c (.dma q) 0 fun j _ _ => ?_
    have h0 : lv ((c : Thread nD τ), SemLoc.dma q) () = 0 := by
      show (if q.val < 10 then 0 else _) = 0
      rw [if_pos (by omega)]
    rw [h0]
    exact lvJob_pos j
  · rw [MayWait_zero]
    iintro -
    iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The launch credit: what every device owes a cell, summed over the devices -/

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- One payment's launch credit: when every device `d` makes its `j`-th payment to the same cell of its neighbour `f d`, `f` an
    involution, the launch deals device `c` that payment's amount on its own such cell. -/
theorem launch_one (f : Dev nD → Dev nD) (hf : ∀ c, f (f c) = c) (c : Dev nD) (j : ℕ)
    (h : ∀ d : Dev nD, job d j = ((((f d : Dev nD) : Thread nD τ), (job c j).1.2), (job c j).2)) :
    (Pipeline.launchCred (fun d : Dev nD => tallyAt (job d j).1 () (job d j).2) c : sProp 𝕄)
      ⊢ cred (tallyAt ((c : Thread nD τ), (job c j).1.2) () (job c j).2) := by
  rw [show (fun d : Dev nD => (tallyAt (job d j).1 () (job d j).2 : CellTallies nD τ sig Unit))
      = fun d => tallyAt (((f d : Dev nD) : Thread nD τ), (job c j).1.2) () (job c j).2 from funext fun d => by rw [h d]]
  exact Pipeline.launchCred_tallyAt _ f f hf hf () _ c

/-- Each of the 35 payments goes to a neighbour along one axis. -/
theorem launch_each (c : Dev nD) (j : ℕ) (hj : j < 35) :
    (Pipeline.launchCred (fun d : Dev nD => tallyAt (job d j).1 () (job d j).2) c : sProp 𝕄)
      ⊢ cred (tallyAt ((c : Thread nD τ), (job c j).1.2) () (job c j).2) := by
  interval_cases j <;>
    first
    | exact launch_one yp yp_yp c _ (fun d => rfl)
    | exact launch_one xp xp_xp c _ (fun d => rfl)
    | exact launch_one zp zp_zp c _ (fun d => rfl)

/-- A separating conjunction over the 35 payments, over eight blocks, over twelve, written out. -/
theorem bigSep_Ico35 (Φ : ℕ → sProp 𝕄) : bigSep (Finset.Ico 0 35) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34) :=
  bigSep_eq_bigSepL_of_eq [0, 1, 2, 3, 4, 5, 6, 7, 8, 9, 10, 11, 12, 13, 14, 15, 16, 17, 18, 19, 20, 21, 22, 23, 24, 25, 26, 27, 28, 29, 30, 31, 32, 33, 34] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- Dealt from what the eight devices owe at launch, a device holds three units on its barrier cell and a block's credit on
    each of its receive cells. -/
theorem launch_creds (c : Dev nD) : (Pipeline.launchCred (fun d : Dev nD => owed d 0) c : sProp 𝕄) ⊢ creds (F := F) c := by
  have h1 : (Pipeline.launchCred (fun d : Dev nD => owed d 0) c : sProp 𝕄)
      ⊢ bigSep (Finset.Ico 0 35) fun j => cred (tallyAt ((c : Thread nD τ), (job c j).1.2) () (job c j).2) := by
    unfold owed
    rw [Pipeline.launchCred_sum (Finset.Ico 0 35) (fun j (d : Dev nD) => tallyAt (job d j).1 () (job d j).2) c]
    exact bigSep_mono fun j hj => launch_each c j (Finset.mem_Ico.mp hj).2
  refine h1.trans ?_
  rw [bigSep_Ico35]
  unfold creds
  rw [bigSep_fin8, bigSep_fin12, bigSep_fin12]
  simp only [job]
  iintro ⟨H0, H1, H2, H3, H4, H5, H6, H7, H8, H9, H10, H11, H12, H13, H14, H15, H16, H17, H18, H19, H20, H21, H22, H23, H24, H25, H26, H27, H28, H29, H30, H31, H32, H33, H34⟩
  isplitl [H0 H1 H2]
  · iapply (cred_three (barCell c))
    isplitl [H0]; · iexact H0
    isplitl [H1]; · iexact H1
    iexact H2
  iframe

/-- info: 'Cert.Kernel.AR.mayWait_gen' depends on axioms: [propext, Classical.choice, Quot.sound] -/
#guard_msgs in #print axioms mayWait_gen

/-- info: 'Cert.Kernel.AR.waits' depends on axioms: [propext, Classical.choice, Quot.sound] -/
#guard_msgs in #print axioms waits

/-- info: 'Cert.Kernel.AR.launch_creds' depends on axioms: [propext, Classical.choice, Quot.sound] -/
#guard_msgs in #print axioms launch_creds

end Cert.Kernel.AR
end
-- ==== Proof.ArKernel.Values.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The stores' payloads are one function: the entrywise sum of the two loaded blocks -/

def addv (a b : Vec F S32x512 .f32) : FVec F S32x512 .f32 := fun i => FloatOps.addf (F := F) (a i) (b i)

theorem pay1_eq (a b : Vec F S32x512 .f32) : k0_pay1 (F := F) a b = addv a b := by
  unfold k0_pay1 addv; simp only [shapeCast_self]; rfl
theorem pay2_eq (a b : Vec F S32x512 .f32) : k0_pay2 (F := F) a b = addv a b := by
  unfold k0_pay2 addv; simp only [shapeCast_self]; rfl
theorem pay3_eq (a b : Vec F S32x512 .f32) : k0_pay3 (F := F) a b = addv a b := by
  unfold k0_pay3 addv; simp only [shapeCast_self]; rfl
theorem pay4_eq (a b : Vec F S32x512 .f32) : k0_pay4 (F := F) a b = addv a b := by
  unfold k0_pay4 addv; simp only [shapeCast_self]; rfl
theorem pay56_eq (a b : Vec F S32x512 .f32) : k0_pay6 (F := F) (k0_pay5 (F := F) a) b = addv a b := by
  unfold k0_pay6 k0_pay5 addv; simp only [shapeCast_self]; rfl
theorem pay7_eq (a b : Vec F S32x512 .f32) : k0_pay7 (F := F) a b = addv a b := by
  unfold k0_pay7 addv; simp only [shapeCast_self]; rfl
theorem pay8_eq (a b : Vec F S32x512 .f32) : k0_pay8 (F := F) a b = addv a b := by
  unfold k0_pay8 addv; simp only [shapeCast_self]; rfl
theorem pay9_eq (a b : Vec F S32x512 .f32) : k0_pay9 (F := F) a b = addv a b := by
  unfold k0_pay9 addv; simp only [shapeCast_self]; rfl

/-! ## What the result buffers end holding depends on the device's `y` only -/

theorem own_xp (c : Dev nD) (j : Nat) : own (xp c) j = own c j := by
  have hc : c.val < 8 := c.isLt
  apply Fin.ext; simp only [own, xp]; omega
theorem own_zp (c : Dev nD) (j : Nat) : own (zp c) j = own c j := by
  have hc : c.val < 8 := c.isLt
  apply Fin.ext; simp only [own, zp]; omega

theorem Out_xp (c : Dev nD) : Out m ρ (xp c) = Out m ρ c := by
  funext i; simp only [Out, own_xp]
theorem Out_zp (c : Dev nD) : Out m ρ (zp c) = Out m ρ c := by
  funext i; simp only [Out, own_zp]

/-! ## Block arithmetic: where the quarter a device reduces starts -/

theorem qo_yp (c : Dev nD) : qo (yp c) = qo c := by
  have hc : c.val < 8 := c.isLt
  simp only [qo, yp]; omega

/-- The rows of the quarter `d` reduces start at row `256 (qo d)`. -/
theorem off1_zero (d : Dev nD) : k0_off1 d 0#32 = ![256 * qo d, 0] := by
  have h := k0_off1_eq d ⟨0, by decide⟩
  have e : 512 * (d.val % 2) + 256 * (d.val / 4) + 32 * ((⟨0, by decide⟩ : Fin 8) : Fin 8).val = 256 * qo d := by
    simp only [qo]; omega
  rw [e] at h; exact h

/-- Block `k` of the quarter `c` reduces is block `tO c k` of the buffer. -/
theorem off2_blk (c : Dev nD) (k : Fin 8) : k0_off2 c (BitVec.ofNat 32 (32 * k.val)) = ![32 * (tO c k).val, 0] := by
  have h := k0_off2_eq c k
  have e : 512 * (c.val % 2) + 256 * (c.val / 4) + 32 * k.val = 32 * (tO c k).val := by
    simp only [tO, qo]; omega
  rw [e] at h; exact h

theorem own_qo (c : Dev nD) : own c (qo c) = c := by revert c; decide

/-- On the rows of the quarter `c` reduces, its result buffer ends holding the sum of its own block of `x` and its
    y-neighbour's. -/
theorem Out_at (c : Dev nD) (i : (cc0_stg1_0 : Ref sig .tc).ty.shape.Idx) (h : (i 0).val / 256 = qo c) :
    Out m ρ c i = FloatOps.addf (F := F) (xs m ρ c i) (xs m ρ (yp c) i) := by
  show FloatOps.addf (F := F) (xs m ρ (own c ((i 0).val / 256)) i) (xs m ρ (yp (own c ((i 0).val / 256))) i) = _
  rw [h, own_qo]

/-! ## Landings -/

/-- A block of a result buffer holding `Out` there, copied onto the same block of a device whose result buffer must end
    holding the same, leaves that block as it must end. -/
theorem land_o (c p : Dev nD) (hp : Out m ρ p = Out m ρ c) (t : Fin 32) (fd : Buf (Elt F) ((ob t).view.loc ((p : Dev nD) : Thread nD τ))) :
    blkPts (F := F) p (ob t) fullShare ((ob t).view.write (Elt F) fd ((ob t).view.read (Elt F) (Out m ρ c)) Finset.univ)
      ⊢ blkPts (F := F) p (ob t) fullShare (Out m ρ p) := by
  refine Entails.of_eq (pointsTo_congr fun i hi => ?_)
  rw [View.write_read_eq_piecewise, View.setOn_univ, Finset.piecewise_eq_of_mem _ _ _ hi, hp]

/-- Block `k` of the quarter `c` reduces, read off `c`'s block of `x` and copied onto block `k` of the y-neighbour's landing
    buffer, is what that buffer must end holding there. -/
theorem land_y (c : Dev nD) (k : Fin 8) (fd : Buf (Elt F) ((yk k).view.loc ((yp c : Dev nD) : Thread nD τ))) :
    blkPts (F := F) (yp c) (yk k) fullShare ((yk k).view.write (Elt F) fd ((xb (tO c k)).view.read (Elt F) (xs m ρ c)) Finset.univ)
      ⊢ yrPay m ρ (yp c) k := by
  unfold yrPay
  refine Entails.of_eq (pointsTo_congr fun i hi => ?_)
  obtain ⟨x, -, rfl⟩ := Finset.mem_map.mp hi
  rw [View.write_emb_of_mem _ _ (Finset.mem_univ x), View.read_apply]
  unfold Yb
  rw [yp_yp]
  show xs m ρ c _ = xs m ρ c _
  refine congrArg (xs m ρ c) ?_
  have hx0 : (x 0).val < 32 := idx2_lt0 x
  have hx1 : (x 1).val < 512 := idx2_lt1 x
  have hq := qo_lt c
  have hk := k.isLt
  funext a
  apply Fin.ext
  match a with
  | ⟨0, _⟩ =>
    show 32 * (tO c k).val + 1 * (x 0).val = (k0_off1 (yp c) 0#32 0 + (32 * k.val + 1 * (x 0).val)) % 1024
    rw [off1_zero, qo_yp]; simp only [tO, Matrix.cons_val_zero]; omega
  | ⟨1, _⟩ =>
    show 0 + 1 * (x 1).val = (0 + 1 * (x 1).val) % 512
    omega

/-- The sum of block `k` of `c`'s own rows of `x` and block `k` of its landing buffer, stored over block `k` of the quarter `c`
    reduces, is what the result buffer must end holding there. -/
theorem store_o (c : Dev nD) (k : Fin 8) (fo : Buf (Elt F) ((c : Thread nD τ).loc cc0_stg1_0)) :
    ((View.loc (c : Thread nD τ) ((oM : Memref sig .tc .vmem S1024x512 .f32).access (Rect.unit (s := S1024x512) (k0_off2 c (BitVec.ofNat 32 (32 * k.val))) S32x512.size (k0_off2_inb c k))))
        ↦[(ob (tO c k)).view.set]{fullShare}
          View.write (Elt F) ((oM : Memref sig .tc .vmem S1024x512 .f32).access (Rect.unit (s := S1024x512) (k0_off2 c (BitVec.ofNat 32 (32 * k.val))) S32x512.size (k0_off2_inb c k))) fo
            (addv ((xM : Memref sig .tc .vmem S1024x512 .f32).view.readAt (Elt F) (Rect.unit (s := S1024x512) (k0_off2 c (BitVec.ofNat 32 (32 * k.val))) S32x512.size (k0_off2_inb c k)).toLoadRect (xs m ρ c))
                  ((yM : Memref sig .tc .vmem S256x512 .f32).view.readAt (Elt F) (Rect.unit (s := S256x512) ![32 * k.val, 0] S32x512.size (yk_inb k)).toLoadRect (Yb m ρ c)))
            Finset.univ : sProp 𝕄)
      ⊢ blkPts (F := F) c (ob (tO c k)) fullShare (Out m ρ c) := by
  refine Entails.of_eq (pointsTo_congr fun i hi => ?_)
  obtain ⟨x, -, rfl⟩ := Finset.mem_map.mp hi
  have hx0 : (x 0).val < 32 := idx2_lt0 x
  have hx1 : (x 1).val < 512 := idx2_lt1 x
  have hq := qo_lt c
  have hk := k.isLt
  have he : ((oM : Memref sig .tc .vmem S1024x512 .f32).access (Rect.unit (s := S1024x512) (k0_off2 c (BitVec.ofNat 32 (32 * k.val))) S32x512.size (k0_off2_inb c k))).emb x
      = (ob (tO c k)).view.emb x := by
    funext a; apply Fin.ext
    show (k0_off2 c (BitVec.ofNat 32 (32 * k.val))) a + 1 * (x a).val = (![32 * (tO c k).val, 0] : Fin 2 → Nat) a + 1 * (x a).val
    rw [off2_blk]
  conv_lhs => rw [← he, View.write_emb_of_mem _ _ (Finset.mem_univ x)]
  rw [Out_at m ρ c _ (by show (32 * (tO c k).val + 1 * (x 0).val) / 256 = qo c; simp only [tO]; omega)]
  show FloatOps.addf (F := F) (xs m ρ c _) (Yb m ρ c _) = FloatOps.addf (F := F) (xs m ρ c _) (xs m ρ (yp c) _)
  refine congrArg₂ (FloatOps.addf (F := F)) (congrArg (xs m ρ c) ?_) ?_
  · funext a; apply Fin.ext
    show (k0_off2 c (BitVec.ofNat 32 (32 * k.val))) a + 1 * (x a).val = (![32 * (tO c k).val, 0] : Fin 2 → Nat) a + 1 * (x a).val
    rw [off2_blk]
  · show xs m ρ (yp c) _ = xs m ρ (yp c) _
    refine congrArg (xs m ρ (yp c)) ?_
    funext a; apply Fin.ext
    match a with
    | ⟨0, _⟩ =>
      show (k0_off1 c 0#32 0 + (32 * k.val + 1 * (x 0).val)) % 1024 = 32 * (tO c k).val + 1 * (x 0).val
      rw [off1_zero]; simp only [tO, Matrix.cons_val_zero]; omega
    | ⟨1, _⟩ =>
      show (0 + 1 * (x 1).val) % 512 = 0 + 1 * (x 1).val
      omega

/-- info: 'Cert.Kernel.AR.land_o' depends on axioms: [propext, Classical.choice, Quot.sound] -/
#guard_msgs in #print axioms land_o
/-- info: 'Cert.Kernel.AR.land_y' depends on axioms: [propext, Classical.choice, Quot.sound] -/
#guard_msgs in #print axioms land_y
/-- info: 'Cert.Kernel.AR.store_o' depends on axioms: [propext, Classical.choice, Quot.sound] -/
#guard_msgs in #print axioms store_o
end Cert.Kernel.AR
end
-- ==== Proof.ArKernel.Steps.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Tables
import proofs.«900700_g7700000000000701_dist_ar_v7x_xyz2x2x2_y_m1024_n512_f32_1_alg».proof.Proof.ArKernel.Owes
import proofs.«900700_g7700000000000701_dist_ar_v7x_xyz2x2x2_y_m1024_n512_f32_1_alg».proof.Proof.ArKernel.Values
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## One rule per kind of statement of the body

Each is the rounds library's rule at our schedule, the cell's invariant and reached fact taken out of the records, the debt
peeled in program order. -/

/-- An addressed transfer: payment number `n` of `c`, to device `p`, of the block `src` onto the block `dst`. -/
theorem step_send (K : Dev nD × Fin 65 → ℕ) (c p p' : Dev nD) (hp : p' = p)
    (src dst : Memref sig .tc .vmem S32x512 .f32) (sS sR : DmaSem sig) (hsS : 2 ≤ sS.val) (hsR : 2 ≤ sR.val)
    (n N : ℕ) (hn : n < 35) (hjob : job c n = (dCell p sR, N)) (hN : dst.view.dmaCredit = N)
    (haS : (Rd (F := F) m ρ).amount (dCell c sS) 0 0 = N) (haR : (Rd (F := F) m ρ).amount (dCell p sR) 0 0 = N)
    (q : PosShare TreeShare) (fs : Buf (Elt F) (src.view.loc (c : Thread nD τ)))
    (hpS : ((src.view.loc (c : Thread nD τ)) ↦[src.view.set]{q} fs : sProp 𝕄) ⊢ dmaPay m ρ c sS)
    (hpR : ∀ fd : Buf (Elt F) (dst.view.loc ((p : Dev nD) : Thread nD τ)),
      ((dst.view.loc ((p : Dev nD) : Thread nD τ)) ↦[dst.view.set]{fullShare} (dst.view.write (Elt F) fd (src.view.read (Elt F) fs) Finset.univ) : sProp 𝕄) ⊢ dmaPay m ρ p sR)
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k : PUnit → Prog (TpuEff nD τ sig (Elt F) Λ₀ .tc) α} (W : Waits sig Unit) :
    iprop(records m ρ K ∗ ((src.view.loc (c : Thread nD τ)) ↦[src.view.set]{q} fs)
        ∗ (∃ fd : Buf (Elt F) (dst.view.loc ((p : Dev nD) : Thread nD τ)), (dst.view.loc ((p : Dev nD) : Thread nD τ)) ↦[dst.view.set]{fullShare} fd)
        ∗ owes (c : Thread nD τ) (owed c n) W
        ∗ dutyTok ER (dCell c sS) 0 (0 : Fin 3) ∗ dutyTok ER (dCell p sR) 0 (0 : Fin 3))
      ⊢ iprop(((cred (tallyAt (dCell c sS) () N) ∗ owes (c : Thread nD τ) (owed c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p' : Thread nD τ) dst (.dma sS) hsc) (.dma sR) hsrc hdst hsem) k) Q) := by
  subst hp
  iintro ⟨#HR, Hsrc, ⟨%fd, Hdst⟩, HO, HtS, HtR⟩
  iapply (Rounds.wp_send_pointsTo 𝒱₀ ER (Rd m ρ) (c : Thread nD τ) none (c' := (p' : Thread nD τ)) (src := src) (dst := dst)
      (sS := SemLoc.dma sS) (sem := SemLoc.dma sR) (q := q) (fs := fs) (fd := fd)
      (κ₁ := K (c, ix sS hsS)) (κ₂ := K (p', ix sR hsR)) (r₁ := 0) (r₂ := 0) (d₁ := (0 : Fin 3)) (d₂ := (0 : Fin 3))
      (by rw [duties_dma m ρ c sS hsS]; exact Finset.mem_singleton_self _)
      (by rw [duties_dma m ρ p' sR hsR]; exact Finset.mem_singleton_self _)
      () () N hN haS haR (O₀ := owed c n) (owed c (n + 1)) (by rw [owed_peel c n hn, hjob]) (W := W)
      (by rw [payload_dma]; exact hpS) (by rw [payload_dma]; exact hpR fd)) $$ [Hsrc Hdst HO HtS HtR]
  isplitr; · iapply (inv_dma m ρ K c sS hsS); iexact HR
  isplitr; · iapply (inv_dma m ρ K p' sR hsR); iexact HR
  isplitl [Hsrc]; · iexact Hsrc
  isplitl [Hdst]; · iexact Hdst
  isplitl [HO]; · iexact HO
  isplitl [HtS]; · iexact HtS
  isplitr; · iapply (reached_dma m ρ K c sS hsS); iexact HR
  isplitl [HtR]; · iexact HtR
  iapply (reached_dma m ρ K p' sR hsR); iexact HR

/-- A wait on one of `c`'s DMA cells for the whole of its one round, before payment `n`: the cell's payload comes back. -/
theorem step_wait (K : Dev nD × Fin 65 → ℕ) (c : Dev nD) (sm : DmaSem sig) (hs : 2 ≤ sm.val) (N : ℕ)
    (hE : (Rd (F := F) m ρ).expect (dCell c sm) 0 = N) (n : ℕ)
    (hlev : ∀ j, n ≤ j → j < 35 → lv ((c : Thread nD τ), SemLoc.dma sm) () < lvJob j)
    (src dst : Memref sig .tc .vmem S32x512 .f32) (hdN : dst.view.dmaCredit = N)
    {hsrc : src.view.WordExact} {hdst : dst.view.WordExact}
    {α : Type} {Q : α → sProp 𝕄} {k : PUnit → Prog (TpuEff nD τ sig (Elt F) Λ₀ .tc) α} (W : Waits sig Unit) :
    iprop(records m ρ K ∗ levAts L lv ∗ cred (tallyAt (dCell c sm) () N) ∗ owes (c : Thread nD τ) (owed c n) W
        ∗ atPos ER (dCell c sm) 0 (∅ : Finset (Fin 3)) 0)
      ⊢ iprop(((owes (c : Thread nD τ) (owed c n) (insert (SemLoc.dma sm, ()) W) ∗ atPos ER (dCell c sm) 1 (∅ : Finset (Fin 3)) 0 ∗ dmaPay m ρ c sm)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hdN
  iintro ⟨#HR, #Hlev, Hc, HO, Hat⟩ Hk
  iapply (Rounds.wp_wait_rest_token 𝒱₀ ER (Rd m ρ) (c : Thread nD τ) none (κ := K (c, ix sm hs))
      (wpE_waitDma2_eq 𝒱₀ (c : Thread nD τ) none Set.univ) (Set.mem_univ _) () (O := owed c n) (W := W) (R := 0) (m := 0) (T := ∅)
      (by rw [Nat.zero_add, hE])) $$ [Hc HO Hat]
  · isplitr; · iapply (inv_dma m ρ K c sm hs); iexact HR
    isplitl [Hc]; · iexact Hc
    isplitl [HO]; · iexact HO
    isplitr; · iapply (mayWait_gen c (SemLoc.dma sm) n hlev); iexact Hlev
    iexact Hat
  iintro ⟨HO, Hat, -, Hpay⟩
  ihave Hp := (Entails.of_eq (rest_dma m ρ c sm hs)) $$ Hpay
  iapply Hk
  isplitl [HO]; · iexact HO
  isplitl [Hat]; · iexact Hat
  iexact Hp

/-- An entry signal: payment number `n` of `c`, duty `j` of the barrier cell of the neighbour `p`. -/
theorem step_signal (K : Dev nD × Fin 65 → ℕ) (c p p' : Dev nD) (hp : p' = p) (j : Fin 3) (n : ℕ) (hn : n < 35) (hjob : job c n = (barCell p, 1))
    {α : Type} {Q : α → sProp 𝕄} {k : PUnit → Prog (TpuEff nD τ sig (Elt F) Λ₀ .tc) α} (W : Waits sig Unit) :
    iprop(records m ρ K ∗ owes (c : Thread nD τ) (owed c n) W ∗ dutyTok ER (barCell p) 0 j ∗ barPay (F := F) p j)
      ⊢ iprop((owes (c : Thread nD τ) (owed c (n + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((p' : Dev nD) : Thread nD τ) barS 1) k) Q) := by
  subst hp
  iintro ⟨#HR, HO, Htok, Hpay⟩
  iapply (Rounds.wp_signal 𝒱₀ ER (Rd m ρ) (c : Thread nD τ) none (dst := (p' : Thread nD τ)) (sem := barS) (κ := K (p', 0)) (r := 0)
      (d := j) (by rw [duties_bar]; exact Finset.mem_univ _) (amount_bar m ρ p' j) () (O₀ := owed c n) (owed c (n + 1))
      (by rw [owed_peel c n hn, hjob])) $$ [HO Htok Hpay]
  isplitr; · iapply (inv_bar m ρ K p'); iexact HR
  isplitl [HO]; · iexact HO
  isplitl [Htok]; · iexact Htok
  isplitl [Hpay]; · rw [payload_bar]; iexact Hpay
  iapply (reached_bar m ρ K p'); iexact HR

/-- The wait for the three entry signals, still owing every transfer: the three neighbours' payloads come with it. -/
theorem step_barwait (K : Dev nD × Fin 65 → ℕ) (c : Dev nD)
    {α : Type} {Q : α → sProp 𝕄} {k : PUnit → Prog (TpuEff nD τ sig (Elt F) Λ₀ .tc) α} (W : Waits sig Unit) :
    iprop(records m ρ K ∗ levAts L lv ∗ cred (tallyAt (barCell c) () 3) ∗ owes (c : Thread nD τ) (owed c 3) W
        ∗ atPos ER (barCell c) 0 (∅ : Finset (Fin 3)) 0)
      ⊢ iprop(((owes (c : Thread nD τ) (owed c 3) (insert (SemLoc.reg barS, ()) W) ∗ atPos ER (barCell c) 1 (∅ : Finset (Fin 3)) 0
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, #Hlev, Hc, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owed c 3) (W := W) (R := 0) (m := 0) (T := ∅)
      (by rw [expect_bar])) $$ [Hc HO Hat]
  · isplitr; · iapply (inv_bar m ρ K c); iexact HR
    isplitl [Hc]; · iexact Hc
    isplitl [HO]; · iexact HO
    isplitr
    · iapply (mayWait_gen c (SemLoc.reg barS) 3 fun j h3 _ => by
        show 1 < lvJob j
        unfold lvJob
        split_ifs <;> omega)
      iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- A DMA cell of the kernel's own, its one round consumed, closes: its counter, at zero, is the device's again. -/
theorem step_close (K : Dev nD × Fin 65 → ℕ) (c : Dev nD) (q : DmaSem sig) (h : 2 ≤ q.val) :
    iprop(records m ρ K ∗ atPos ER (dCell c q) 1 (∅ : Finset (Fin 3)) 0) ⊢ (|={Set.univ}=> semVal (dCell c q) 0 : sProp 𝕄) := by
  iintro ⟨#HR, Hat⟩
  iapply (Rounds.cell_close ER (Rd m ρ) (Set.mem_univ (K (c, ix q h))) (fun hu => hu) (R := 1) (duties_later m ρ (dCell c q)))
  isplitr; · iapply (inv_dma m ρ K c q h); iexact HR
  iexact Hat

/-- info: 'Cert.Kernel.AR.step_send' depends on axioms: [propext, Classical.choice, Quot.sound] -/
#guard_msgs in #print axioms step_send

/-- info: 'Cert.Kernel.AR.step_wait' depends on axioms: [propext, Classical.choice, Quot.sound] -/
#guard_msgs in #print axioms step_wait

/-- info: 'Cert.Kernel.AR.step_signal' depends on axioms: [propext, Classical.choice, Quot.sound] -/
#guard_msgs in #print axioms step_signal

/-- info: 'Cert.Kernel.AR.step_barwait' depends on axioms: [propext, Classical.choice, Quot.sound] -/
#guard_msgs in #print axioms step_barwait

/-- info: 'Cert.Kernel.AR.step_close' depends on axioms: [propext, Classical.choice, Quot.sound] -/
#guard_msgs in #print axioms step_close

end Cert.Kernel.AR
end
-- ==== Proof.ArKernel.Steps2.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Geom
import proofs.«900700_g7700000000000701_dist_ar_v7x_xyz2x2x2_y_m1024_n512_f32_1_alg».proof.Proof.ArKernel.Tables
import proofs.«900700_g7700000000000701_dist_ar_v7x_xyz2x2x2_y_m1024_n512_f32_1_alg».proof.Proof.ArKernel.Owes
import proofs.«900700_g7700000000000701_dist_ar_v7x_xyz2x2x2_y_m1024_n512_f32_1_alg».proof.Proof.ArKernel.Values
import proofs.«900700_g7700000000000701_dist_ar_v7x_xyz2x2x2_y_m1024_n512_f32_1_alg».proof.Proof.ArKernel.Steps
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The rules at each kind of transfer and wait of the body, payloads resolved to the blocks they are -/

/-- A block index of the first eight, and of the last four, of a twelve-semaphore array. -/
def k12 (k : Fin 8) : Fin 12 := ⟨k.val, by have := k.isLt; omega⟩
def h12 (i : Fin 4) : Fin 12 := ⟨8 + i.val, by have := i.isLt; omega⟩

/-! ## The payloads by block -/

theorem k12_lt (k : Fin 8) : (k12 k).val < 8 := k.isLt
theorem h12_ge (i : Fin 4) : ¬ (h12 i).val < 8 := by
  show ¬ (8 + i.val < 8)
  omega
theorem k8_k12 (k : Fin 8) (h : (k12 k).val < 8) : k8 (k12 k) h = k := Fin.ext rfl
theorem k4_h12 (i : Fin 4) (h : ¬ (h12 i).val < 8) : k4 (h12 i) h = i := Fin.ext (by
  show 8 + i.val - 8 = i.val
  omega)

theorem pay_ys (c : Dev nD) (k : Fin 8) : dmaPay m ρ c (ysS k) = blkPts (F := F) c (xb (tO c k)) fullShare (xs m ρ c) := by
  rw [dmaPay_ys]
  rfl
theorem pay_yr (c : Dev nD) (k : Fin 8) : dmaPay m ρ c (yrS k) = blkPts (F := F) c (yk k) fullShare (Yb m ρ c) := by
  rw [dmaPay_yr]
  rfl
theorem pay_xs_lo (c : Dev nD) (k : Fin 8) : dmaPay m ρ c (xsS (k12 k)) = blkPts (F := F) c (ob (tO c k)) fullShare.left (Out m ρ c) := by
  rw [dmaPay_xs]
  unfold xsPay
  rw [dif_pos (k12_lt k), k8_k12]
theorem pay_xs_hi (c : Dev nD) (i : Fin 4) : dmaPay m ρ c (xsS (h12 i)) = blkPts (F := F) c (ob (tO (zp c) (hi i))) fullShare (Out m ρ c) := by
  rw [dmaPay_xs]
  unfold xsPay
  rw [dif_neg (h12_ge i), k4_h12]
theorem pay_zs_lo (c : Dev nD) (k : Fin 8) : dmaPay m ρ c (zsS (k12 k)) = blkPts (F := F) c (ob (tO c k)) fullShare.right (Out m ρ c) := by
  rw [dmaPay_zs]
  unfold zsPay
  rw [dif_pos (k12_lt k), k8_k12]
theorem pay_zs_hi (c : Dev nD) (i : Fin 4) : dmaPay m ρ c (zsS (h12 i)) = blkPts (F := F) c (ob (tO (xp c) (lo i))) fullShare (Out m ρ c) := by
  rw [dmaPay_zs]
  unfold zsPay
  rw [dif_neg (h12_ge i), k4_h12]
theorem pay_xr_lo (c : Dev nD) (k : Fin 8) : dmaPay m ρ c (xrS (k12 k)) = blkPts (F := F) c (ob (tO (xp c) k)) fullShare (Out m ρ c) := by
  rw [dmaPay_xr]
  unfold xrPay
  rw [dif_pos (k12_lt k), k8_k12]
theorem pay_xr_hi (c : Dev nD) (i : Fin 4) : dmaPay m ρ c (xrS (h12 i)) = blkPts (F := F) c (ob (tO (xp (zp c)) (hi i))) fullShare (Out m ρ c) := by
  rw [dmaPay_xr]
  unfold xrPay
  rw [dif_neg (h12_ge i), k4_h12]
theorem pay_zr_lo (c : Dev nD) (k : Fin 8) : dmaPay m ρ c (zrS (k12 k)) = blkPts (F := F) c (ob (tO (zp c) k)) fullShare (Out m ρ c) := by
  rw [dmaPay_zr]
  unfold zrPay
  rw [dif_pos (k12_lt k), k8_k12]
theorem pay_zr_hi (c : Dev nD) (i : Fin 4) : dmaPay m ρ c (zrS (h12 i)) = blkPts (F := F) c (ob (tO (xp (zp c)) (lo i))) fullShare (Out m ρ c) := by
  rw [dmaPay_zr]
  unfold zrPay
  rw [dif_neg (h12_ge i), k4_h12]

/-! ## The levels of the cells waited on -/

theorem lv_dma (c : Dev nD) (q : DmaSem sig) : lv ((c : Thread nD τ), SemLoc.dma q) ()
    = if q.val < 10 then 0 else if q.val < 18 then 2 else if q.val < 30 then 0 else if q.val < 38 then 3
      else if q.val < 42 then 4 else if q.val < 54 then 0 else if q.val < 62 then 3 else 4 := rfl
theorem lv_ys (c : Dev nD) (k : Fin 8) : lv ((c : Thread nD τ), SemLoc.dma (ysS k)) () = 0 := by
  have hk := k.isLt
  have hv : (ysS k).val = 2 + k.val := rfl
  rw [lv_dma]
  split_ifs <;> omega
theorem lv_yr (c : Dev nD) (k : Fin 8) : lv ((c : Thread nD τ), SemLoc.dma (yrS k)) () = 2 := by
  have hk := k.isLt
  have hv : (yrS k).val = 10 + k.val := rfl
  rw [lv_dma]
  split_ifs <;> omega
theorem lv_xs (c : Dev nD) (k : Fin 12) : lv ((c : Thread nD τ), SemLoc.dma (xsS k)) () = 0 := by
  have hk := k.isLt
  have hv : (xsS k).val = 18 + k.val := rfl
  rw [lv_dma]
  split_ifs <;> omega
theorem lv_zs (c : Dev nD) (k : Fin 12) : lv ((c : Thread nD τ), SemLoc.dma (zsS k)) () = 0 := by
  have hk := k.isLt
  have hv : (zsS k).val = 42 + k.val := rfl
  rw [lv_dma]
  split_ifs <;> omega
theorem lv_xr_lo (c : Dev nD) (k : Fin 8) : lv ((c : Thread nD τ), SemLoc.dma (xrS (k12 k))) () = 3 := by
  have hk := k.isLt
  have hv : (xrS (k12 k)).val = 30 + k.val := rfl
  rw [lv_dma]
  split_ifs <;> omega
theorem lv_zr_lo (c : Dev nD) (k : Fin 8) : lv ((c : Thread nD τ), SemLoc.dma (zrS (k12 k))) () = 3 := by
  have hk := k.isLt
  have hv : (zrS (k12 k)).val = 54 + k.val := rfl
  rw [lv_dma]
  split_ifs <;> omega
theorem lvJob_ge11 (j : ℕ) (h : 11 ≤ j) : 2 < lvJob j := by
  unfold lvJob
  split_ifs <;> omega
theorem lvJob_ge27 (j : ℕ) (h : 27 ≤ j) : 3 < lvJob j := by
  unfold lvJob
  split_ifs <;> omega

/-- Block `k` of `c`'s own rows of `x` sent onto block `k` of the y-neighbour's landing buffer. -/
theorem send_y (K : Dev nD × Fin 65 → ℕ) (c p' : Dev nD) (k : Fin 8) (n : ℕ) (hn : n < 35)
    (src dst : Memref sig .tc .vmem S32x512 .f32) (sS sR : DmaSem sig)
    (hp : p' = yp c) (hsrcE : src = x1 c k) (hdstE : dst = yk k) (hSE : sS = ysS k) (hRE : sR = yrS k)
    (hjob : job c n = (dCell (yp c) (yrS k), Ny))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (xb (tO c k)) fullShare (xs m ρ c) ∗ free (F := F) (yp c) (yk k)
        ∗ owes (c : Thread nD τ) (owed c n) W
        ∗ dutyTok ER (dCell c (ysS k)) 0 (0 : Fin 3) ∗ dutyTok ER (dCell (yp c) (yrS k)) 0 (0 : Fin 3))
      ⊢ iprop(((cred (tallyAt (dCell c (ysS k)) () Ny) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [x1_eq] at hsrcE
  subst hp hsrcE hdstE hSE hRE
  unfold free
  exact step_send m ρ K c (yp c) (yp c) rfl (xb (tO c k)) (yk k) (ysS k) (yrS k)
    (by show 2 ≤ 2 + k.val; omega) (by show 2 ≤ 10 + k.val; omega) n Ny hn hjob rfl
    (amount_y m ρ c (ysS k) (by have := k.isLt; show 2 + k.val < 18; omega) 0) (amount_y m ρ (yp c) (yrS k) (by have := k.isLt; show 10 + k.val < 18; omega) 0)
    fullShare (xs m ρ c) (Entails.of_eq (pay_ys m ρ c k).symm)
    (fun fd => (land_y m ρ c k fd).trans (Entails.of_eq (dmaPay_yr m ρ (yp c) k).symm)) W

/-- The reduced block `k` sent onto the same block of the x-neighbour's result buffer (read at the left half share). -/
theorem send_xo (K : Dev nD × Fin 65 → ℕ) (c p' : Dev nD) (k : Fin 8) (n : ℕ) (hn : n < 35)
    (src dst : Memref sig .tc .vmem S32x512 .f32) (sS sR : DmaSem sig)
    (hp : p' = xp c) (hsrcE : src = o1 c k) (hdstE : dst = o1 c k) (hSE : sS = xsS (k12 k)) (hRE : sR = xrS (k12 k))
    (hjob : job c n = (dCell (xp c) (xrS (k12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO c k)) fullShare.left (Out m ρ c) ∗ free (F := F) (xp c) (ob (tO c k))
        ∗ owes (c : Thread nD τ) (owed c n) W
        ∗ dutyTok ER (dCell c (xsS (k12 k))) 0 (0 : Fin 3) ∗ dutyTok ER (dCell (xp c) (xrS (k12 k))) 0 (0 : Fin 3))
      ⊢ iprop(((cred (tallyAt (dCell c (xsS (k12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o1_eq] at hsrcE hdstE
  subst hp hsrcE hdstE hSE hRE
  unfold free
  exact step_send m ρ K c (xp c) (xp c) rfl (ob (tO c k)) (ob (tO c k)) (xsS (k12 k)) (xrS (k12 k))
    (by show 2 ≤ 18 + k.val; omega) (by show 2 ≤ 30 + k.val; omega) n No hn hjob rfl
    (amount_o m ρ c (xsS (k12 k)) (by show 18 ≤ 18 + k.val; omega) 0) (amount_o m ρ (xp c) (xrS (k12 k)) (by show 18 ≤ 30 + k.val; omega) 0)
    fullShare.left (Out m ρ c) (Entails.of_eq (pay_xs_lo m ρ c k).symm)
    (fun fd => (land_o m ρ c (xp c) (Out_xp m ρ c) (tO c k) fd).trans (Entails.of_eq (by rw [pay_xr_lo, xp_xp]))) W

/-- The reduced block `k` sent onto the same block of the z-neighbour's result buffer (read at the right half share). -/
theorem send_zo (K : Dev nD × Fin 65 → ℕ) (c p' : Dev nD) (k : Fin 8) (n : ℕ) (hn : n < 35)
    (src dst : Memref sig .tc .vmem S32x512 .f32) (sS sR : DmaSem sig)
    (hp : p' = zp c) (hsrcE : src = o1 c k) (hdstE : dst = o1 c k) (hSE : sS = zsS (k12 k)) (hRE : sR = zrS (k12 k))
    (hjob : job c n = (dCell (zp c) (zrS (k12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO c k)) fullShare.right (Out m ρ c) ∗ free (F := F) (zp c) (ob (tO c k))
        ∗ owes (c : Thread nD τ) (owed c n) W
        ∗ dutyTok ER (dCell c (zsS (k12 k))) 0 (0 : Fin 3) ∗ dutyTok ER (dCell (zp c) (zrS (k12 k))) 0 (0 : Fin 3))
      ⊢ iprop(((cred (tallyAt (dCell c (zsS (k12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o1_eq] at hsrcE hdstE
  subst hp hsrcE hdstE hSE hRE
  unfold free
  exact step_send m ρ K c (zp c) (zp c) rfl (ob (tO c k)) (ob (tO c k)) (zsS (k12 k)) (zrS (k12 k))
    (by show 2 ≤ 42 + k.val; omega) (by show 2 ≤ 54 + k.val; omega) n No hn hjob rfl
    (amount_o m ρ c (zsS (k12 k)) (by show 18 ≤ 42 + k.val; omega) 0) (amount_o m ρ (zp c) (zrS (k12 k)) (by show 18 ≤ 54 + k.val; omega) 0)
    fullShare.right (Out m ρ c) (Entails.of_eq (pay_zs_lo m ρ c k).symm)
    (fun fd => (land_o m ρ c (zp c) (Out_zp m ρ c) (tO c k) fd).trans (Entails.of_eq (by rw [pay_zr_lo, zp_zp]))) W

/-- Block `i` of the x-neighbour's quarter, received, forwarded onto the same block of the z-neighbour's result buffer. -/
theorem send_zf (K : Dev nD × Fin 65 → ℕ) (c p' : Dev nD) (k : Fin 4) (n : ℕ) (hn : n < 35)
    (src dst : Memref sig .tc .vmem S32x512 .f32) (sS sR : DmaSem sig)
    (hp : p' = zp c) (hsrcE : src = o3 c k) (hdstE : dst = o3 c k) (hSE : sS = zsS (h12 k)) (hRE : sR = zrS (h12 k))
    (hjob : job c n = (dCell (zp c) (zrS (h12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO (xp c) (lo k))) fullShare (Out m ρ c) ∗ free (F := F) (zp c) (ob (tO (xp c) (lo k)))
        ∗ owes (c : Thread nD τ) (owed c n) W
        ∗ dutyTok ER (dCell c (zsS (h12 k))) 0 (0 : Fin 3) ∗ dutyTok ER (dCell (zp c) (zrS (h12 k))) 0 (0 : Fin 3))
      ⊢ iprop(((cred (tallyAt (dCell c (zsS (h12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o3_eq] at hsrcE hdstE
  subst hp hsrcE hdstE hSE hRE
  unfold free
  exact step_send m ρ K c (zp c) (zp c) rfl (ob (tO (xp c) (lo k))) (ob (tO (xp c) (lo k))) (zsS (h12 k)) (zrS (h12 k))
    (by show 2 ≤ 42 + (8 + k.val); omega) (by show 2 ≤ 54 + (8 + k.val); omega) n No hn hjob rfl
    (amount_o m ρ c (zsS (h12 k)) (by show 18 ≤ 42 + (8 + k.val); omega) 0) (amount_o m ρ (zp c) (zrS (h12 k)) (by show 18 ≤ 54 + (8 + k.val); omega) 0)
    fullShare (Out m ρ c) (Entails.of_eq (pay_zs_hi m ρ c k).symm)
    (fun fd => (land_o m ρ c (zp c) (Out_zp m ρ c) (tO (xp c) (lo k)) fd).trans (Entails.of_eq (by rw [pay_zr_hi, zp_zp]))) W

/-- Block `4 + i` of the z-neighbour's quarter, received, forwarded onto the same block of the x-neighbour's result buffer. -/
theorem send_xf (K : Dev nD × Fin 65 → ℕ) (c p' : Dev nD) (k : Fin 4) (n : ℕ) (hn : n < 35)
    (src dst : Memref sig .tc .vmem S32x512 .f32) (sS sR : DmaSem sig)
    (hp : p' = xp c) (hsrcE : src = o4 c k) (hdstE : dst = o4 c k) (hSE : sS = xsS (h12 k)) (hRE : sR = xrS (h12 k))
    (hjob : job c n = (dCell (xp c) (xrS (h12 k)), No))
    {hsc : (dst : Memref sig (Dev.tc p' : Thread nD τ).2.kind .vmem S32x512 .f32).view.ref.isScScratch = false}
    {hsrc : src.view.WordExact} {hdst : dst.view.WordExact}
    {hsem : DmaTarget.Typed .vmem (.dma sR) (.remote (Dev.tc p' : Thread nD τ) dst (.dma sS) hsc)}
    {α : Type} {Q : α → sProp 𝕄} {k' : PUnit → Prog (TpuEff nD τ sig (Elt F) Λ₀ .tc) α} (W : Waits sig Unit) :
    iprop(records m ρ K ∗ blkPts (F := F) c (ob (tO (zp c) (hi k))) fullShare (Out m ρ c) ∗ free (F := F) (xp c) (ob (tO (zp c) (hi k)))
        ∗ owes (c : Thread nD τ) (owed c n) W
        ∗ dutyTok ER (dCell c (xsS (h12 k))) 0 (0 : Fin 3) ∗ dutyTok ER (dCell (xp c) (xrS (h12 k))) 0 (0 : Fin 3))
      ⊢ iprop(((cred (tallyAt (dCell c (xsS (h12 k))) () No) ∗ owes (c : Thread nD τ) (owed c (n + 1)) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.remote (Dev.tc p' : Thread nD τ) dst (.dma sS) hsc) (.dma sR) hsrc hdst hsem) k') Q) := by
  rw [o4_eq] at hsrcE hdstE
  subst hp hsrcE hdstE hSE hRE
  unfold free
  exact step_send m ρ K c (xp c) (xp c) rfl (ob (tO (zp c) (hi k))) (ob (tO (zp c) (hi k))) (xsS (h12 k)) (xrS (h12 k))
    (by show 2 ≤ 18 + (8 + k.val); omega) (by show 2 ≤ 30 + (8 + k.val); omega) n No hn hjob rfl
    (amount_o m ρ c (xsS (h12 k)) (by show 18 ≤ 18 + (8 + k.val); omega) 0) (amount_o m ρ (xp c) (xrS (h12 k)) (by show 18 ≤ 30 + (8 + k.val); omega) 0)
    fullShare (Out m ρ c) (Entails.of_eq (pay_xs_hi m ρ c k).symm)
    (fun fd => (land_o m ρ c (xp c) (Out_xp m ρ c) (tO (zp c) (hi k)) fd).trans (Entails.of_eq (by rw [pay_xr_hi, xp_zp, xp_xp]))) W

/-- The wait on a send cell of the landing transfers (level 0: any time): the source block of `x` comes back. -/
theorem wait_ys (K : Dev nD × Fin 65 → ℕ) (c : Dev nD) (k : Fin 8) (n : ℕ) (hn : True)
    (sm : DmaSem sig) (hsm : sm = ysS k) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (ysS k)) () Ny) ∗ owes (c : Thread nD τ) (owed c n) W
        ∗ atPos ER (dCell c (ysS k)) 0 (∅ : Finset (Fin 3)) 0)
      ⊢ iprop(((owes (c : Thread nD τ) (owed c n) (insert (SemLoc.dma (ysS k), ()) W) ∗ atPos ER (dCell c (ysS k)) 1 (∅ : Finset (Fin 3)) 0 ∗ blkPts (F := F) c (xb (tO c k)) fullShare (xs m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (ysS k) (by show 2 ≤ 2 + k.val; omega) Ny (expect_y m ρ c (ysS k) (by show 2 ≤ 2 + k.val; omega) (by have := k.isLt; show 2 + k.val < 18; omega)) n
    (fun j hj1 hj2 => by rw [lv_ys]; exact lvJob_pos j) src dst rfl (hsrc := hsrc) (hdst := hdst) (Q := Q) (k := k') W
  rw [pay_ys] at h
  exact h
/-- The wait on a receive cell of the landing buffer (level 2: once the landing transfers are paid): its block, holding the y-neighbour's rows. -/
theorem wait_yr (K : Dev nD × Fin 65 → ℕ) (c : Dev nD) (k : Fin 8) (n : ℕ) (hn : 11 ≤ n)
    (sm : DmaSem sig) (hsm : sm = yrS k) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (yrS k)) () Ny) ∗ owes (c : Thread nD τ) (owed c n) W
        ∗ atPos ER (dCell c (yrS k)) 0 (∅ : Finset (Fin 3)) 0)
      ⊢ iprop(((owes (c : Thread nD τ) (owed c n) (insert (SemLoc.dma (yrS k), ()) W) ∗ atPos ER (dCell c (yrS k)) 1 (∅ : Finset (Fin 3)) 0 ∗ blkPts (F := F) c (yk k) fullShare (Yb m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (yrS k) (by show 2 ≤ 10 + k.val; omega) Ny (expect_y m ρ c (yrS k) (by show 2 ≤ 10 + k.val; omega) (by have := k.isLt; show 10 + k.val < 18; omega)) n
    (fun j hj1 hj2 => by rw [lv_yr]; exact lvJob_ge11 j (by omega)) src dst rfl (hsrc := hsrc) (hdst := hdst) (Q := Q) (k := k') W
  rw [pay_yr] at h
  exact h
/-- A send cell of the first exchange towards x: the left half of the reduced block comes back. -/
theorem wait_xs_lo (K : Dev nD × Fin 65 → ℕ) (c : Dev nD) (k : Fin 8) (n : ℕ) (hn : True)
    (sm : DmaSem sig) (hsm : sm = xsS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xsS (k12 k))) () No) ∗ owes (c : Thread nD τ) (owed c n) W
        ∗ atPos ER (dCell c (xsS (k12 k))) 0 (∅ : Finset (Fin 3)) 0)
      ⊢ iprop(((owes (c : Thread nD τ) (owed c n) (insert (SemLoc.dma (xsS (k12 k)), ()) W) ∗ atPos ER (dCell c (xsS (k12 k))) 1 (∅ : Finset (Fin 3)) 0 ∗ blkPts (F := F) c (ob (tO c k)) fullShare.left (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xsS (k12 k)) (by show 2 ≤ 18 + k.val; omega) No (expect_o m ρ c (xsS (k12 k)) (by show 18 ≤ 18 + k.val; omega)) n
    (fun j hj1 hj2 => by rw [lv_xs]; exact lvJob_pos j) src dst rfl (hsrc := hsrc) (hdst := hdst) (Q := Q) (k := k') W
  rw [pay_xs_lo] at h
  exact h
/-- A send cell of the first exchange towards z: the right half of the reduced block comes back. -/
theorem wait_zs_lo (K : Dev nD × Fin 65 → ℕ) (c : Dev nD) (k : Fin 8) (n : ℕ) (hn : True)
    (sm : DmaSem sig) (hsm : sm = zsS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zsS (k12 k))) () No) ∗ owes (c : Thread nD τ) (owed c n) W
        ∗ atPos ER (dCell c (zsS (k12 k))) 0 (∅ : Finset (Fin 3)) 0)
      ⊢ iprop(((owes (c : Thread nD τ) (owed c n) (insert (SemLoc.dma (zsS (k12 k)), ()) W) ∗ atPos ER (dCell c (zsS (k12 k))) 1 (∅ : Finset (Fin 3)) 0 ∗ blkPts (F := F) c (ob (tO c k)) fullShare.right (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zsS (k12 k)) (by show 2 ≤ 42 + k.val; omega) No (expect_o m ρ c (zsS (k12 k)) (by show 18 ≤ 42 + k.val; omega)) n
    (fun j hj1 hj2 => by rw [lv_zs]; exact lvJob_pos j) src dst rfl (hsrc := hsrc) (hdst := hdst) (Q := Q) (k := k') W
  rw [pay_zs_lo] at h
  exact h
/-- A send cell of a forward towards x: the forwarded block comes back. -/
theorem wait_xs_hi (K : Dev nD × Fin 65 → ℕ) (c : Dev nD) (k : Fin 4) (n : ℕ) (hn : True)
    (sm : DmaSem sig) (hsm : sm = xsS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xsS (h12 k))) () No) ∗ owes (c : Thread nD τ) (owed c n) W
        ∗ atPos ER (dCell c (xsS (h12 k))) 0 (∅ : Finset (Fin 3)) 0)
      ⊢ iprop(((owes (c : Thread nD τ) (owed c n) (insert (SemLoc.dma (xsS (h12 k)), ()) W) ∗ atPos ER (dCell c (xsS (h12 k))) 1 (∅ : Finset (Fin 3)) 0 ∗ blkPts (F := F) c (ob (tO (zp c) (hi k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xsS (h12 k)) (by show 2 ≤ 18 + (8 + k.val); omega) No (expect_o m ρ c (xsS (h12 k)) (by show 18 ≤ 18 + (8 + k.val); omega)) n
    (fun j hj1 hj2 => by rw [lv_xs]; exact lvJob_pos j) src dst rfl (hsrc := hsrc) (hdst := hdst) (Q := Q) (k := k') W
  rw [pay_xs_hi] at h
  exact h
/-- A send cell of a forward towards z: the forwarded block comes back. -/
theorem wait_zs_hi (K : Dev nD × Fin 65 → ℕ) (c : Dev nD) (k : Fin 4) (n : ℕ) (hn : True)
    (sm : DmaSem sig) (hsm : sm = zsS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zsS (h12 k))) () No) ∗ owes (c : Thread nD τ) (owed c n) W
        ∗ atPos ER (dCell c (zsS (h12 k))) 0 (∅ : Finset (Fin 3)) 0)
      ⊢ iprop(((owes (c : Thread nD τ) (owed c n) (insert (SemLoc.dma (zsS (h12 k)), ()) W) ∗ atPos ER (dCell c (zsS (h12 k))) 1 (∅ : Finset (Fin 3)) 0 ∗ blkPts (F := F) c (ob (tO (xp c) (lo k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zsS (h12 k)) (by show 2 ≤ 42 + (8 + k.val); omega) No (expect_o m ρ c (zsS (h12 k)) (by show 18 ≤ 42 + (8 + k.val); omega)) n
    (fun j hj1 hj2 => by rw [lv_zs]; exact lvJob_pos j) src dst rfl (hsrc := hsrc) (hdst := hdst) (Q := Q) (k := k') W
  rw [pay_zs_hi] at h
  exact h
/-- A receive cell of the first exchange from x (level 3: once the first exchange is paid): block `k` of the x-neighbour's quarter, as it must end. -/
theorem wait_xr_lo (K : Dev nD × Fin 65 → ℕ) (c : Dev nD) (k : Fin 8) (n : ℕ) (hn : 27 ≤ n)
    (sm : DmaSem sig) (hsm : sm = xrS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xrS (k12 k))) () No) ∗ owes (c : Thread nD τ) (owed c n) W
        ∗ atPos ER (dCell c (xrS (k12 k))) 0 (∅ : Finset (Fin 3)) 0)
      ⊢ iprop(((owes (c : Thread nD τ) (owed c n) (insert (SemLoc.dma (xrS (k12 k)), ()) W) ∗ atPos ER (dCell c (xrS (k12 k))) 1 (∅ : Finset (Fin 3)) 0 ∗ blkPts (F := F) c (ob (tO (xp c) k)) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (xrS (k12 k)) (by show 2 ≤ 30 + k.val; omega) No (expect_o m ρ c (xrS (k12 k)) (by show 18 ≤ 30 + k.val; omega)) n
    (fun j hj1 hj2 => by rw [lv_xr_lo]; exact lvJob_ge27 j (by omega)) src dst rfl (hsrc := hsrc) (hdst := hdst) (Q := Q) (k := k') W
  rw [pay_xr_lo] at h
  exact h
/-- A receive cell of the first exchange from z: block `k` of the z-neighbour's quarter, as it must end. -/
theorem wait_zr_lo (K : Dev nD × Fin 65 → ℕ) (c : Dev nD) (k : Fin 8) (n : ℕ) (hn : 27 ≤ n)
    (sm : DmaSem sig) (hsm : sm = zrS (k12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zrS (k12 k))) () No) ∗ owes (c : Thread nD τ) (owed c n) W
        ∗ atPos ER (dCell c (zrS (k12 k))) 0 (∅ : Finset (Fin 3)) 0)
      ⊢ iprop(((owes (c : Thread nD τ) (owed c n) (insert (SemLoc.dma (zrS (k12 k)), ()) W) ∗ atPos ER (dCell c (zrS (k12 k))) 1 (∅ : Finset (Fin 3)) 0 ∗ blkPts (F := F) c (ob (tO (zp c) k)) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  have h := step_wait m ρ K c (zrS (k12 k)) (by show 2 ≤ 54 + k.val; omega) No (expect_o m ρ c (zrS (k12 k)) (by show 18 ≤ 54 + k.val; omega)) n
    (fun j hj1 hj2 => by rw [lv_zr_lo]; exact lvJob_ge27 j (by omega)) src dst rfl (hsrc := hsrc) (hdst := hdst) (Q := Q) (k := k') W
  rw [pay_zr_lo] at h
  exact h
/-- A receive cell of a forward from x (level 4: owing nothing): block `4 + i` of the diagonal device's quarter. -/
theorem wait_xr_hi (K : Dev nD × Fin 65 → ℕ) (c : Dev nD) (k : Fin 4) (n : ℕ) (hn : n = 35)
    (sm : DmaSem sig) (hsm : sm = xrS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (xrS (h12 k))) () No) ∗ owes (c : Thread nD τ) (owed c n) W
        ∗ atPos ER (dCell c (xrS (h12 k))) 0 (∅ : Finset (Fin 3)) 0)
      ⊢ iprop(((owes (c : Thread nD τ) (owed c n) (insert (SemLoc.dma (xrS (h12 k)), ()) W) ∗ atPos ER (dCell c (xrS (h12 k))) 1 (∅ : Finset (Fin 3)) 0 ∗ blkPts (F := F) c (ob (tO (xp (zp c)) (hi k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hn
  subst hsm
  have h := step_wait m ρ K c (xrS (h12 k)) (by show 2 ≤ 30 + (8 + k.val); omega) No (expect_o m ρ c (xrS (h12 k)) (by show 18 ≤ 30 + (8 + k.val); omega)) 35
    (fun j hj1 hj2 => by omega) src dst rfl (hsrc := hsrc) (hdst := hdst) (Q := Q) (k := k') W
  rw [pay_xr_hi] at h
  exact h
/-- A receive cell of a forward from z: block `i` of the diagonal device's quarter. -/
theorem wait_zr_hi (K : Dev nD × Fin 65 → ℕ) (c : Dev nD) (k : Fin 4) (n : ℕ) (hn : n = 35)
    (sm : DmaSem sig) (hsm : sm = zrS (h12 k)) (src dst : Memref sig .tc .vmem S32x512 .f32)
    {hsrc : src.view.WordExact} {hdst : dst.view.WordExact}
    {α : Type} {Q : α → sProp 𝕄} {k' : PUnit → Prog (TpuEff nD τ sig (Elt F) Λ₀ .tc) α} (W : Waits sig Unit) :
    iprop(records m ρ K ∗ levAts L lv ∗ cred (tallyAt (dCell c (zrS (h12 k))) () No) ∗ owes (c : Thread nD τ) (owed c n) W
        ∗ atPos ER (dCell c (zrS (h12 k))) 0 (∅ : Finset (Fin 3)) 0)
      ⊢ iprop(((owes (c : Thread nD τ) (owed c n) (insert (SemLoc.dma (zrS (h12 k)), ()) W) ∗ atPos ER (dCell c (zrS (h12 k))) 1 (∅ : Finset (Fin 3)) 0 ∗ blkPts (F := F) c (ob (tO (xp (zp c)) (lo k))) fullShare (Out m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hn
  subst hsm
  have h := step_wait m ρ K c (zrS (h12 k)) (by show 2 ≤ 54 + (8 + k.val); omega) No (expect_o m ρ c (zrS (h12 k)) (by show 18 ≤ 54 + (8 + k.val); omega)) 35
    (fun j hj1 hj2 => by omega) src dst rfl (hsrc := hsrc) (hdst := hdst) (Q := Q) (k := k') W
  rw [pay_zr_hi] at h
  exact h

/-! ## The entry handshake, payloads as blocks -/

/-- What `c` hands its y-neighbour: its landing buffer, block by block. -/
def giveY (c : Dev nD) : sProp 𝕄 := bigSep Finset.univ fun k : Fin 8 => free (F := F) c (yk k)
/-- What it hands its x-neighbour: of its result buffer, the x-neighbour's quarter and the upper half of the diagonal device's. -/
def giveX (c : Dev nD) : sProp 𝕄 :=
  iprop((bigSep Finset.univ fun k : Fin 8 => free (F := F) c (ob (tO (xp c) k))) ∗ bigSep Finset.univ fun i : Fin 4 => free (F := F) c (ob (tO (xp (zp c)) (hi i))))
/-- What it hands its z-neighbour: the z-neighbour's quarter and the lower half of the diagonal device's. -/
def giveZ (c : Dev nD) : sProp 𝕄 :=
  iprop((bigSep Finset.univ fun k : Fin 8 => free (F := F) c (ob (tO (zp c) k))) ∗ bigSep Finset.univ fun i : Fin 4 => free (F := F) c (ob (tO (xp (zp c)) (lo i))))

theorem signal_y (K : Dev nD × Fin 65 → ℕ) (c p' : Dev nD) (hp : p' = yp c)
    {α : Type} {Q : α → sProp 𝕄} {k' : PUnit → Prog (TpuEff nD τ sig (Elt F) Λ₀ .tc) α} (W : Waits sig Unit) :
    iprop(records m ρ K ∗ owes (c : Thread nD τ) (owed c 0) W ∗ dutyTok ER (barCell (yp c)) 0 (0 : Fin 3) ∗ giveY (F := F) c)
      ⊢ iprop((owes (c : Thread nD τ) (owed c 1) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (yp c) (yp c) rfl (0 : Fin 3) 0 (by decide) rfl (Q := Q) (k := k') W
  rw [barPay_yp] at h
  exact h
theorem signal_x (K : Dev nD × Fin 65 → ℕ) (c p' : Dev nD) (hp : p' = xp c)
    {α : Type} {Q : α → sProp 𝕄} {k' : PUnit → Prog (TpuEff nD τ sig (Elt F) Λ₀ .tc) α} (W : Waits sig Unit) :
    iprop(records m ρ K ∗ owes (c : Thread nD τ) (owed c 1) W ∗ dutyTok ER (barCell (xp c)) 0 (1 : Fin 3) ∗ giveX (F := F) c)
      ⊢ iprop((owes (c : Thread nD τ) (owed c 2) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (xp c) (xp c) rfl (1 : Fin 3) 1 (by decide) rfl (Q := Q) (k := k') W
  rw [barPay_xp] at h
  exact h
theorem signal_z (K : Dev nD × Fin 65 → ℕ) (c p' : Dev nD) (hp : p' = zp c)
    {α : Type} {Q : α → sProp 𝕄} {k' : PUnit → Prog (TpuEff nD τ sig (Elt F) Λ₀ .tc) α} (W : Waits sig Unit) :
    iprop(records m ρ K ∗ owes (c : Thread nD τ) (owed c 2) W ∗ dutyTok ER (barCell (zp c)) 0 (2 : Fin 3) ∗ giveZ (F := F) c)
      ⊢ iprop((owes (c : Thread nD τ) (owed c 3) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((p' : Dev nD) : Thread nD τ) barS 1) k') Q) := by
  subst hp
  have h := step_signal m ρ K c (zp c) (zp c) rfl (2 : Fin 3) 2 (by decide) rfl (Q := Q) (k := k') W
  rw [barPay_zp] at h
  exact h

/-- The wait for the three signals: the neighbours' blocks `c` will write, each outright at some contents. -/
theorem barwait (K : Dev nD × Fin 65 → ℕ) (c : Dev nD)
    {α : Type} {Q : α → sProp 𝕄} {k' : PUnit → Prog (TpuEff nD τ sig (Elt F) Λ₀ .tc) α} (W : Waits sig Unit) :
    iprop(records m ρ K ∗ levAts L lv ∗ cred (tallyAt (barCell c) () 3) ∗ owes (c : Thread nD τ) (owed c 3) W
        ∗ atPos ER (barCell c) 0 (∅ : Finset (Fin 3)) 0)
      ⊢ iprop(((owes (c : Thread nD τ) (owed c 3) (insert (SemLoc.reg barS, ()) W) ∗ atPos ER (barCell c) 1 (∅ : Finset (Fin 3)) 0
              ∗ (bigSep Finset.univ fun k : Fin 8 => free (F := F) (yp c) (yk k))
              ∗ ((bigSep Finset.univ fun k : Fin 8 => free (F := F) (xp c) (ob (tO c k))) ∗ bigSep Finset.univ fun i : Fin 4 => free (F := F) (xp c) (ob (tO (zp c) (hi i))))
              ∗ ((bigSep Finset.univ fun k : Fin 8 => free (F := F) (zp c) (ob (tO c k))) ∗ bigSep Finset.univ fun i : Fin 4 => free (F := F) (zp c) (ob (tO (xp c) (lo i)))))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS 3) k') Q) := by
  exact step_barwait m ρ K c W

/-- info: 'Cert.Kernel.AR.send_y' depends on axioms: [propext, Classical.choice, Quot.sound] -/
#guard_msgs in #print axioms send_y

/-- info: 'Cert.Kernel.AR.send_xo' depends on axioms: [propext, Classical.choice, Quot.sound] -/
#guard_msgs in #print axioms send_xo

/-- info: 'Cert.Kernel.AR.send_zo' depends on axioms: [propext, Classical.choice, Quot.sound] -/
#guard_msgs in #print axioms send_zo

/-- info: 'Cert.Kernel.AR.send_zf' depends on axioms: [propext, Classical.choice, Quot.sound] -/
#guard_msgs in #print axioms send_zf

/-- info: 'Cert.Kernel.AR.send_xf' depends on axioms: [propext, Classical.choice, Quot.sound] -/
#guard_msgs in #print axioms send_xf

/-- info: 'Cert.Kernel.AR.wait_ys' depends on axioms: [propext, Classical.choice, Quot.sound] -/
#guard_msgs in #print axioms wait_ys

/-- info: 'Cert.Kernel.AR.wait_yr' depends on axioms: [propext, Classical.choice, Quot.sound] -/
#guard_msgs in #print axioms wait_yr

/-- info: 'Cert.Kernel.AR.wait_xs_lo' depends on axioms: [propext, Classical.choice, Quot.sound] -/
#guard_msgs in #print axioms wait_xs_lo

/-- info: 'Cert.Kernel.AR.wait_zs_lo' depends on axioms: [propext, Classical.choice, Quot.sound] -/
#guard_msgs in #print axioms wait_zs_lo

/-- info: 'Cert.Kernel.AR.wait_xs_hi' depends on axioms: [propext, Classical.choice, Quot.sound] -/
#guard_msgs in #print axioms wait_xs_hi

/-- info: 'Cert.Kernel.AR.wait_zs_hi' depends on axioms: [propext, Classical.choice, Quot.sound] -/
#guard_msgs in #print axioms wait_zs_hi

/-- info: 'Cert.Kernel.AR.wait_xr_lo' depends on axioms: [propext, Classical.choice, Quot.sound] -/
#guard_msgs in #print axioms wait_xr_lo

/-- info: 'Cert.Kernel.AR.wait_zr_lo' depends on axioms: [propext, Classical.choice, Quot.sound] -/
#guard_msgs in #print axioms wait_zr_lo

/-- info: 'Cert.Kernel.AR.wait_xr_hi' depends on axioms: [propext, Classical.choice, Quot.sound] -/
#guard_msgs in #print axioms wait_xr_hi

/-- info: 'Cert.Kernel.AR.wait_zr_hi' depends on axioms: [propext, Classical.choice, Quot.sound] -/
#guard_msgs in #print axioms wait_zr_hi

/-- info: 'Cert.Kernel.AR.signal_y' depends on axioms: [propext, Classical.choice, Quot.sound] -/
#guard_msgs in #print axioms signal_y

/-- info: 'Cert.Kernel.AR.signal_x' depends on axioms: [propext, Classical.choice, Quot.sound] -/
#guard_msgs in #print axioms signal_x

/-- info: 'Cert.Kernel.AR.signal_z' depends on axioms: [propext, Classical.choice, Quot.sound] -/
#guard_msgs in #print axioms signal_z

/-- info: 'Cert.Kernel.AR.barwait' depends on axioms: [propext, Classical.choice, Quot.sound] -/
#guard_msgs in #print axioms barwait

end Cert.Kernel.AR
end
-- ==== Proof.ArKernel.Blocks.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Geom
import proofs.«900700_g7700000000000701_dist_ar_v7x_xyz2x2x2_y_m1024_n512_f32_1_alg».proof.Proof.ArKernel.Values
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The buffers opened into the blocks the protocol moves, and closed again -/

/-- A separating conjunction over eight blocks, written out. -/
theorem bigSep_blk8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- Over four, in order. -/
theorem bigSep_blk4 (Φ : Fin 4 → sProp 𝕄) : bigSep Finset.univ Φ = iprop(Φ 0 ∗ Φ 1 ∗ Φ 2 ∗ Φ 3) :=
  bigSep_fin4 (F := F) Φ 0 1 2 3 (by decide) (by decide) (by decide) (by decide) (by decide) (by decide)

/-- The rows of the input's staging buffer outside the quarter `c` reduces: never touched. -/
def xRest (c : Dev nD) (f : Buf (Elt F) ((c : Thread nD τ).loc cc0_stg0_0)) : sProp 𝕄 :=
  iprop((bigSep Finset.univ fun k : Fin 8 => blkPts (F := F) c (xb (tO (xp c) k)) fullShare f) ∗ (bigSep Finset.univ fun k : Fin 8 => blkPts (F := F) c (xb (tO (zp c) k)) fullShare f)
    ∗ (bigSep Finset.univ fun i : Fin 4 => blkPts (F := F) c (xb (tO (xp (zp c)) (lo i))) fullShare f) ∗ (bigSep Finset.univ fun i : Fin 4 => blkPts (F := F) c (xb (tO (xp (zp c)) (hi i))) fullShare f))

/-- The input's staging buffer: the eight blocks of the quarter `c` reduces, and the rest. -/
theorem x_open (c : Dev nD) (f : Buf (Elt F) ((c : Thread nD τ).loc cc0_stg0_0)) :
    ((((c : Thread nD τ).loc cc0_stg0_0) ↦{fullShare} f : sProp 𝕄)) ⊣⊢
      iprop((blkPts (F := F) c (xb (tO c 0)) fullShare f ∗ blkPts (F := F) c (xb (tO c 1)) fullShare f ∗ blkPts (F := F) c (xb (tO c 2)) fullShare f ∗ blkPts (F := F) c (xb (tO c 3)) fullShare f
        ∗ blkPts (F := F) c (xb (tO c 4)) fullShare f ∗ blkPts (F := F) c (xb (tO c 5)) fullShare f ∗ blkPts (F := F) c (xb (tO c 6)) fullShare f ∗ blkPts (F := F) c (xb (tO c 7)) fullShare f)
        ∗ xRest c f) := by
  refine ((x_split c fullShare f).trans (blocks_regroup c fun t : Fin 32 => blkPts (F := F) c (xb t) fullShare f)).trans (BiEntails.of_eq ?_)
  rw [bigSep_blk8 (fun k : Fin 8 => blkPts (F := F) c (xb (tO c k)) fullShare f)]
  rfl

/-- The landing buffer: its eight blocks. -/
theorem y_open (c : Dev nD) (f : Buf (Elt F) ((c : Thread nD τ).loc cc0_scratch0)) :
    ((((c : Thread nD τ).loc cc0_scratch0) ↦{fullShare} f : sProp 𝕄)) ⊣⊢
      iprop(blkPts (F := F) c (yk 0) fullShare f ∗ blkPts (F := F) c (yk 1) fullShare f ∗ blkPts (F := F) c (yk 2) fullShare f ∗ blkPts (F := F) c (yk 3) fullShare f
        ∗ blkPts (F := F) c (yk 4) fullShare f ∗ blkPts (F := F) c (yk 5) fullShare f ∗ blkPts (F := F) c (yk 6) fullShare f ∗ blkPts (F := F) c (yk 7) fullShare f) := by
  refine (y_split c fullShare f).trans (BiEntails.of_eq ?_)
  rw [bigSep_blk8]

/-- The result's staging buffer: the quarter `c` reduces, the x-neighbour's, the z-neighbour's, and the two halves of the
    diagonal device's, block by block. -/
theorem out_open (c : Dev nD) (f : Buf (Elt F) ((c : Thread nD τ).loc cc0_stg1_0)) :
    ((((c : Thread nD τ).loc cc0_stg1_0) ↦{fullShare} f : sProp 𝕄)) ⊣⊢
      iprop((blkPts (F := F) c (ob (tO c 0)) fullShare f ∗ blkPts (F := F) c (ob (tO c 1)) fullShare f ∗ blkPts (F := F) c (ob (tO c 2)) fullShare f ∗ blkPts (F := F) c (ob (tO c 3)) fullShare f
          ∗ blkPts (F := F) c (ob (tO c 4)) fullShare f ∗ blkPts (F := F) c (ob (tO c 5)) fullShare f ∗ blkPts (F := F) c (ob (tO c 6)) fullShare f ∗ blkPts (F := F) c (ob (tO c 7)) fullShare f)
        ∗ (blkPts (F := F) c (ob (tO (xp c) 0)) fullShare f ∗ blkPts (F := F) c (ob (tO (xp c) 1)) fullShare f ∗ blkPts (F := F) c (ob (tO (xp c) 2)) fullShare f ∗ blkPts (F := F) c (ob (tO (xp c) 3)) fullShare f
          ∗ blkPts (F := F) c (ob (tO (xp c) 4)) fullShare f ∗ blkPts (F := F) c (ob (tO (xp c) 5)) fullShare f ∗ blkPts (F := F) c (ob (tO (xp c) 6)) fullShare f ∗ blkPts (F := F) c (ob (tO (xp c) 7)) fullShare f)
        ∗ (blkPts (F := F) c (ob (tO (zp c) 0)) fullShare f ∗ blkPts (F := F) c (ob (tO (zp c) 1)) fullShare f ∗ blkPts (F := F) c (ob (tO (zp c) 2)) fullShare f ∗ blkPts (F := F) c (ob (tO (zp c) 3)) fullShare f
          ∗ blkPts (F := F) c (ob (tO (zp c) 4)) fullShare f ∗ blkPts (F := F) c (ob (tO (zp c) 5)) fullShare f ∗ blkPts (F := F) c (ob (tO (zp c) 6)) fullShare f ∗ blkPts (F := F) c (ob (tO (zp c) 7)) fullShare f)
        ∗ (blkPts (F := F) c (ob (tO (xp (zp c)) (lo 0))) fullShare f ∗ blkPts (F := F) c (ob (tO (xp (zp c)) (lo 1))) fullShare f ∗ blkPts (F := F) c (ob (tO (xp (zp c)) (lo 2))) fullShare f ∗ blkPts (F := F) c (ob (tO (xp (zp c)) (lo 3))) fullShare f)
        ∗ (blkPts (F := F) c (ob (tO (xp (zp c)) (hi 0))) fullShare f ∗ blkPts (F := F) c (ob (tO (xp (zp c)) (hi 1))) fullShare f ∗ blkPts (F := F) c (ob (tO (xp (zp c)) (hi 2))) fullShare f ∗ blkPts (F := F) c (ob (tO (xp (zp c)) (hi 3))) fullShare f)) := by
  refine ((out_split c fullShare f).trans (blocks_regroup c fun t : Fin 32 => blkPts (F := F) c (ob t) fullShare f)).trans (BiEntails.of_eq ?_)
  rw [bigSep_blk8 (fun k : Fin 8 => blkPts (F := F) c (ob (tO c k)) fullShare f),
    bigSep_blk8 (fun k : Fin 8 => blkPts (F := F) c (ob (tO (xp c) k)) fullShare f),
    bigSep_blk8 (fun k : Fin 8 => blkPts (F := F) c (ob (tO (zp c) k)) fullShare f),
    bigSep_blk4 (fun i : Fin 4 => blkPts (F := F) c (ob (tO (xp (zp c)) (lo i))) fullShare f),
    bigSep_blk4 (fun i : Fin 4 => blkPts (F := F) c (ob (tO (xp (zp c)) (hi i))) fullShare f)]

/-- A block at the full share is its two halves. -/
theorem blk_halves (c : Dev nD) (t : Fin 32) (f : Buf (Elt F) ((ob t).view.loc (c : Thread nD τ))) :
    (blkPts (F := F) c (ob t) fullShare f) ⊣⊢ iprop(blkPts (F := F) c (ob t) fullShare.left f ∗ blkPts (F := F) c (ob t) fullShare.right f) :=
  pointsTo_share (PosShare.mem_left_op_right fullShare)

/-! ## The loads and the store of one block's reduction -/

/-- The load of block `k` of `c`'s own rows of `x`. -/
theorem step_loadx (c : Dev nD) (k : Fin 8) {hl : (xM : Memref sig .tc .vmem S1024x512 .f32).view.LoadsAt (Rect.unit (s := S1024x512) (k0_off2 c (BitVec.ofNat 32 (32 * k.val))) S32x512.size (k0_off2_inb c k)).toLoadRect}
    {α : Type} {Q : α → sProp 𝕄} {k' : ((Rect.unit (s := S1024x512) (k0_off2 c (BitVec.ofNat 32 (32 * k.val))) S32x512.size (k0_off2_inb c k)).toLoadRect.shape.Idx → Elt F .f32) → Prog (TpuEff nD τ sig (Elt F) Λ₀ .tc) α} :
    blkPts (F := F) c (xb (tO c k)) fullShare (xs m ρ c)
      ⊢ iprop((blkPts (F := F) c (xb (tO c k)) fullShare (xs m ρ c)
            -∗ wp frame (wpE (defs₀ (F := F)) 𝒱₀ (c : Thread nD τ) none) Set.univ (k' ((xM : Memref sig .tc .vmem S1024x512 .f32).view.readAt (Elt F) (Rect.unit (s := S1024x512) (k0_off2 c (BitVec.ofNat 32 (32 * k.val))) S32x512.size (k0_off2_inb c k)).toLoadRect (xs m ρ c))) Q)
          -∗ wp frame (wpE (defs₀ (F := F)) 𝒱₀ (c : Thread nD τ) none) Set.univ (.op (.load (xM : Memref sig .tc .vmem S1024x512 .f32) (Rect.unit (s := S1024x512) (k0_off2 c (BitVec.ofNat 32 (32 * k.val))) S32x512.size (k0_off2_inb c k)).toLoadRect hl) k') Q) :=
  wp_load 𝒱₀ (c : Thread nD τ) none Set.univ (m := xM) (xload_sub c k)

/-- The load of block `k` of the landing buffer. -/
theorem step_loady (c : Dev nD) (k : Fin 8) {hl : (yM : Memref sig .tc .vmem S256x512 .f32).view.LoadsAt (Rect.unit (s := S256x512) ![32 * k.val, 0] S32x512.size (yk_inb k)).toLoadRect}
    {α : Type} {Q : α → sProp 𝕄} {k' : ((Rect.unit (s := S256x512) ![32 * k.val, 0] S32x512.size (yk_inb k)).toLoadRect.shape.Idx → Elt F .f32) → Prog (TpuEff nD τ sig (Elt F) Λ₀ .tc) α} :
    blkPts (F := F) c (yk k) fullShare (Yb m ρ c)
      ⊢ iprop((blkPts (F := F) c (yk k) fullShare (Yb m ρ c)
            -∗ wp frame (wpE (defs₀ (F := F)) 𝒱₀ (c : Thread nD τ) none) Set.univ (k' ((yM : Memref sig .tc .vmem S256x512 .f32).view.readAt (Elt F) (Rect.unit (s := S256x512) ![32 * k.val, 0] S32x512.size (yk_inb k)).toLoadRect (Yb m ρ c))) Q)
          -∗ wp frame (wpE (defs₀ (F := F)) 𝒱₀ (c : Thread nD τ) none) Set.univ (.op (.load (yM : Memref sig .tc .vmem S256x512 .f32) (Rect.unit (s := S256x512) ![32 * k.val, 0] S32x512.size (yk_inb k)).toLoadRect hl) k') Q) :=
  wp_load 𝒱₀ (c : Thread nD τ) none Set.univ (m := yM) (yload_sub k)

/-- The (dead) load of block `k` of the quarter `c` reduces, off the result's staging buffer at whatever it holds. -/
theorem step_loado (c : Dev nD) (k : Fin 8) (f : Buf (Elt F) ((c : Thread nD τ).loc cc0_stg1_0)) {hl : (oM : Memref sig .tc .vmem S1024x512 .f32).view.LoadsAt (Rect.unit (s := S1024x512) (k0_off2 c (BitVec.ofNat 32 (32 * k.val))) S32x512.size (k0_off2_inb c k)).toLoadRect}
    {α : Type} {Q : α → sProp 𝕄} {k' : ((Rect.unit (s := S1024x512) (k0_off2 c (BitVec.ofNat 32 (32 * k.val))) S32x512.size (k0_off2_inb c k)).toLoadRect.shape.Idx → Elt F .f32) → Prog (TpuEff nD τ sig (Elt F) Λ₀ .tc) α} :
    blkPts (F := F) c (ob (tO c k)) fullShare f
      ⊢ iprop((blkPts (F := F) c (ob (tO c k)) fullShare f
            -∗ wp frame (wpE (defs₀ (F := F)) 𝒱₀ (c : Thread nD τ) none) Set.univ (k' ((oM : Memref sig .tc .vmem S1024x512 .f32).view.readAt (Elt F) (Rect.unit (s := S1024x512) (k0_off2 c (BitVec.ofNat 32 (32 * k.val))) S32x512.size (k0_off2_inb c k)).toLoadRect f)) Q)
          -∗ wp frame (wpE (defs₀ (F := F)) 𝒱₀ (c : Thread nD τ) none) Set.univ (.op (.load (oM : Memref sig .tc .vmem S1024x512 .f32) (Rect.unit (s := S1024x512) (k0_off2 c (BitVec.ofNat 32 (32 * k.val))) S32x512.size (k0_off2_inb c k)).toLoadRect hl) k') Q) :=
  wp_load 𝒱₀ (c : Thread nD τ) none Set.univ (m := oM) (oload_sub c k)

/-- The store of the two loaded blocks' sum over block `k` of the quarter `c` reduces: the block then holds what it must end holding. -/
theorem step_store (c : Dev nD) (k : Fin 8) (f : Buf (Elt F) ((c : Thread nD τ).loc cc0_stg1_0)) (w : (Rect.unit (s := S1024x512) (k0_off2 c (BitVec.ofNat 32 (32 * k.val))) S32x512.size (k0_off2_inb c k)).shape.Idx → Elt F .f32)
    (hw : w = addv ((xM : Memref sig .tc .vmem S1024x512 .f32).view.readAt (Elt F) (Rect.unit (s := S1024x512) (k0_off2 c (BitVec.ofNat 32 (32 * k.val))) S32x512.size (k0_off2_inb c k)).toLoadRect (xs m ρ c))
                   ((yM : Memref sig .tc .vmem S256x512 .f32).view.readAt (Elt F) (Rect.unit (s := S256x512) ![32 * k.val, 0] S32x512.size (yk_inb k)).toLoadRect (Yb m ρ c)))
    {hx : ((oM : Memref sig .tc .vmem S1024x512 .f32).access (Rect.unit (s := S1024x512) (k0_off2 c (BitVec.ofNat 32 (32 * k.val))) S32x512.size (k0_off2_inb c k))).Stores Finset.univ} {hm : (Finset.univ : Finset (Rect.unit (s := S1024x512) (k0_off2 c (BitVec.ofNat 32 (32 * k.val))) S32x512.size (k0_off2_inb c k)).shape.Idx) = Finset.univ ∨ ∀ a, (Rect.unit (s := S1024x512) (k0_off2 c (BitVec.ofNat 32 (32 * k.val))) S32x512.size (k0_off2_inb c k)).stride a = 1}
    {α : Type} {Q : α → sProp 𝕄} {k' : PUnit → Prog (TpuEff nD τ sig (Elt F) Λ₀ .tc) α} :
    blkPts (F := F) c (ob (tO c k)) fullShare f
      ⊢ iprop((blkPts (F := F) c (ob (tO c k)) fullShare (Out m ρ c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.store (oM : Memref sig .tc .vmem S1024x512 .f32) (Rect.unit (s := S1024x512) (k0_off2 c (BitVec.ofNat 32 (32 * k.val))) S32x512.size (k0_off2_inb c k)) w Finset.univ hx hm) k') Q) := by
  subst hw
  iintro H Hk
  iapply (wp_store 𝒱₀ (c : Thread nD τ) none Set.univ (m := oM)
    (r := Rect.unit (s := S1024x512) (k0_off2 c (BitVec.ofNat 32 (32 * k.val))) S32x512.size (k0_off2_inb c k)) (Mk := Finset.univ) (ostore_sub c k)) $$ H
  iintro H
  iapply Hk
  iapply (store_o m ρ c k f)
  iexact H

/-- info: 'Cert.Kernel.AR.out_open' depends on axioms: [propext, Classical.choice, Quot.sound] -/
#guard_msgs in #print axioms out_open

/-- info: 'Cert.Kernel.AR.step_store' depends on axioms: [propext, Classical.choice, Quot.sound] -/
#guard_msgs in #print axioms step_store

end Cert.Kernel.AR
end
-- ==== Proof.ArKernel.BodyEnd.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Geom
import proofs.«900700_g7700000000000701_dist_ar_v7x_xyz2x2x2_y_m1024_n512_f32_1_alg».proof.Proof.ArKernel.Tables
import proofs.«900700_g7700000000000701_dist_ar_v7x_xyz2x2x2_y_m1024_n512_f32_1_alg».proof.Proof.ArKernel.Owes
import proofs.«900700_g7700000000000701_dist_ar_v7x_xyz2x2x2_y_m1024_n512_f32_1_alg».proof.Proof.ArKernel.Values
import proofs.«900700_g7700000000000701_dist_ar_v7x_xyz2x2x2_y_m1024_n512_f32_1_alg».proof.Proof.ArKernel.Steps
import proofs.«900700_g7700000000000701_dist_ar_v7x_xyz2x2x2_y_m1024_n512_f32_1_alg».proof.Proof.ArKernel.Blocks
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The end of the body: every cell's round consumed, every block back -/

/-- What the body has in hand when its last wait returns: every scratch cell one round on, nothing owed, the input's blocks
    as they were, the landing buffer's holding the y-neighbour's rows, and every block of the result's staging buffer as it
    must end (the quarter `c` reduces in two half shares, back from its two transfers). -/
def bodyEndState (K : Dev nD × Fin 65 → ℕ) (c : Dev nD) (W : Waits sig Unit) : sProp 𝕄 :=
  iprop(records m ρ K ∗ (each c fun g => atPos ER g 1 (∅ : Finset (Fin 3)) 0) ∗ owes (c : Thread nD τ) (owed c 35) W
    ∗ (blkPts (F := F) c (xb (tO c 0)) fullShare (xs m ρ c) ∗ blkPts (F := F) c (xb (tO c 1)) fullShare (xs m ρ c) ∗ blkPts (F := F) c (xb (tO c 2)) fullShare (xs m ρ c) ∗ blkPts (F := F) c (xb (tO c 3)) fullShare (xs m ρ c) ∗ blkPts (F := F) c (xb (tO c 4)) fullShare (xs m ρ c) ∗ blkPts (F := F) c (xb (tO c 5)) fullShare (xs m ρ c) ∗ blkPts (F := F) c (xb (tO c 6)) fullShare (xs m ρ c) ∗ blkPts (F := F) c (xb (tO c 7)) fullShare (xs m ρ c)) ∗ xRest c (xs m ρ c)
    ∗ (blkPts (F := F) c (yk 0) fullShare (Yb m ρ c) ∗ blkPts (F := F) c (yk 1) fullShare (Yb m ρ c) ∗ blkPts (F := F) c (yk 2) fullShare (Yb m ρ c) ∗ blkPts (F := F) c (yk 3) fullShare (Yb m ρ c) ∗ blkPts (F := F) c (yk 4) fullShare (Yb m ρ c) ∗ blkPts (F := F) c (yk 5) fullShare (Yb m ρ c) ∗ blkPts (F := F) c (yk 6) fullShare (Yb m ρ c) ∗ blkPts (F := F) c (yk 7) fullShare (Yb m ρ c))
    ∗ ((blkPts (F := F) c (ob (tO c 0)) fullShare.left (Out m ρ c) ∗ blkPts (F := F) c (ob (tO c 0)) fullShare.right (Out m ρ c)) ∗ (blkPts (F := F) c (ob (tO c 1)) fullShare.left (Out m ρ c) ∗ blkPts (F := F) c (ob (tO c 1)) fullShare.right (Out m ρ c)) ∗ (blkPts (F := F) c (ob (tO c 2)) fullShare.left (Out m ρ c) ∗ blkPts (F := F) c (ob (tO c 2)) fullShare.right (Out m ρ c)) ∗ (blkPts (F := F) c (ob (tO c 3)) fullShare.left (Out m ρ c) ∗ blkPts (F := F) c (ob (tO c 3)) fullShare.right (Out m ρ c)) ∗ (blkPts (F := F) c (ob (tO c 4)) fullShare.left (Out m ρ c) ∗ blkPts (F := F) c (ob (tO c 4)) fullShare.right (Out m ρ c)) ∗ (blkPts (F := F) c (ob (tO c 5)) fullShare.left (Out m ρ c) ∗ blkPts (F := F) c (ob (tO c 5)) fullShare.right (Out m ρ c)) ∗ (blkPts (F := F) c (ob (tO c 6)) fullShare.left (Out m ρ c) ∗ blkPts (F := F) c (ob (tO c 6)) fullShare.right (Out m ρ c)) ∗ (blkPts (F := F) c (ob (tO c 7)) fullShare.left (Out m ρ c) ∗ blkPts (F := F) c (ob (tO c 7)) fullShare.right (Out m ρ c)))
    ∗ (blkPts (F := F) c (ob (tO (xp c) 0)) fullShare (Out m ρ c) ∗ blkPts (F := F) c (ob (tO (xp c) 1)) fullShare (Out m ρ c) ∗ blkPts (F := F) c (ob (tO (xp c) 2)) fullShare (Out m ρ c) ∗ blkPts (F := F) c (ob (tO (xp c) 3)) fullShare (Out m ρ c) ∗ blkPts (F := F) c (ob (tO (xp c) 4)) fullShare (Out m ρ c) ∗ blkPts (F := F) c (ob (tO (xp c) 5)) fullShare (Out m ρ c) ∗ blkPts (F := F) c (ob (tO (xp c) 6)) fullShare (Out m ρ c) ∗ blkPts (F := F) c (ob (tO (xp c) 7)) fullShare (Out m ρ c))
    ∗ (blkPts (F := F) c (ob (tO (zp c) 0)) fullShare (Out m ρ c) ∗ blkPts (F := F) c (ob (tO (zp c) 1)) fullShare (Out m ρ c) ∗ blkPts (F := F) c (ob (tO (zp c) 2)) fullShare (Out m ρ c) ∗ blkPts (F := F) c (ob (tO (zp c) 3)) fullShare (Out m ρ c) ∗ blkPts (F := F) c (ob (tO (zp c) 4)) fullShare (Out m ρ c) ∗ blkPts (F := F) c (ob (tO (zp c) 5)) fullShare (Out m ρ c) ∗ blkPts (F := F) c (ob (tO (zp c) 6)) fullShare (Out m ρ c) ∗ blkPts (F := F) c (ob (tO (zp c) 7)) fullShare (Out m ρ c))
    ∗ (blkPts (F := F) c (ob (tO (xp (zp c)) (lo 0))) fullShare (Out m ρ c) ∗ blkPts (F := F) c (ob (tO (xp (zp c)) (lo 1))) fullShare (Out m ρ c) ∗ blkPts (F := F) c (ob (tO (xp (zp c)) (lo 2))) fullShare (Out m ρ c) ∗ blkPts (F := F) c (ob (tO (xp (zp c)) (lo 3))) fullShare (Out m ρ c))
    ∗ (blkPts (F := F) c (ob (tO (xp (zp c)) (hi 0))) fullShare (Out m ρ c) ∗ blkPts (F := F) c (ob (tO (xp (zp c)) (hi 1))) fullShare (Out m ρ c) ∗ blkPts (F := F) c (ob (tO (xp (zp c)) (hi 2))) fullShare (Out m ρ c) ∗ blkPts (F := F) c (ob (tO (xp (zp c)) (hi 3))) fullShare (Out m ρ c)))

/-- One scratch array's cells, each with its one round consumed, close together. -/
theorem close_arr {n : ℕ} (K : Dev nD × Fin 65 → ℕ) (c : Dev nD) (S : Fin n → DmaSem sig) (hS : ∀ k, 2 ≤ (S k).val) :
    iprop(records m ρ K ∗ bigSep Finset.univ fun k : Fin n => atPos ER (dCell c (S k)) 1 (∅ : Finset (Fin 3)) 0)
      ⊢ (|={Set.univ}=> bigSep Finset.univ fun k : Fin n => semVal (dCell c (S k)) 0 : sProp 𝕄) := by
  refine (sep_mono_left (bigSep_of_persistent (Finset.univ : Finset (Fin n)) (records m ρ K))).trans ?_
  rw [← bigSep_sep']
  exact (bigSep_mono fun k _ => step_close m ρ K c (S k) (hS k)).trans (bigSep_fupd _ _)

/-- All 64 scratch cells close: their counters, at zero, are the device's again. -/
theorem each_close (K : Dev nD × Fin 65 → ℕ) (c : Dev nD) :
    iprop(records m ρ K ∗ each c fun g => atPos ER g 1 (∅ : Finset (Fin 3)) 0)
      ⊢ (|={Set.univ}=> each c fun g => semVal g 0 : sProp 𝕄) := by
  unfold each
  iintro ⟨#HR, H1, H2, H3, H4, H5, H6⟩
  imod (close_arr m ρ K c ysS (fun k => by show 2 ≤ 2 + k.val; omega)) $$ [H1] with H1
  · isplitr; · iexact HR
    iexact H1
  imod (close_arr m ρ K c yrS (fun k => by show 2 ≤ 10 + k.val; omega)) $$ [H2] with H2
  · isplitr; · iexact HR
    iexact H2
  imod (close_arr m ρ K c xsS (fun k => by show 2 ≤ 18 + k.val; omega)) $$ [H3] with H3
  · isplitr; · iexact HR
    iexact H3
  imod (close_arr m ρ K c xrS (fun k => by show 2 ≤ 30 + k.val; omega)) $$ [H4] with H4
  · isplitr; · iexact HR
    iexact H4
  imod (close_arr m ρ K c zsS (fun k => by show 2 ≤ 42 + k.val; omega)) $$ [H5] with H5
  · isplitr; · iexact HR
    iexact H5
  imod (close_arr m ρ K c zrS (fun k => by show 2 ≤ 54 + k.val; omega)) $$ [H6] with H6
  · isplitr; · iexact HR
    iexact H6
  imodintro
  isplitl [H1]; · iexact H1
  isplitl [H2]; · iexact H2
  isplitl [H3]; · iexact H3
  isplitl [H4]; · iexact H4
  isplitl [H5]; · iexact H5
  iexact H6

/-- From there the body's postcondition: the scratch cells close (their counters at zero are the device's again), the
    blocks join into the three buffers. -/
theorem body_finish (K : Dev nD × Fin 65 → ℕ) (c : Dev nD) (W : Waits sig Unit) :
    bodyEndState m ρ K c W ⊢ (|={Set.univ}=> bodyPost m ρ c : sProp 𝕄) := by
  unfold bodyEndState
  rw [owed_done]
  iintro ⟨#HR, Hat, HO, Hx, Hxr, Hy, Ho, Hox, Hoz, Hol, Hoh⟩
  imod (each_close m ρ K c) $$ [Hat] with Hz
  · isplitr; · iexact HR
    iexact Hat
  imodintro
  unfold bodyPost Φ₁ Dat.owesAt Pipeline.owesWithin
  rw [show (dats m ρ 0 c).owed t₀.succ = 0 from rfl]
  isplitl [Hy Hz]
  · isplitl [Hy]
    · iapply (y_open c (Yb m ρ c)).2; iexact Hy
    · iexact Hz
  isplitl [HO]
  · iexists W
    isplitr; · ipureintro; exact fun _ _ => Or.inl trivial
    iexact HO
  isplitl [Hx Hxr]
  · iexists _; isplitr; · (ipureintro; rfl)
    iapply (x_open c (xs m ρ c)).2
    isplitl [Hx]; · iexact Hx
    iexact Hxr
  · iexists _; isplitr; · (ipureintro; rfl)
    iapply (out_open c (Out m ρ c)).2
    isplitl [Ho]
    · icases Ho with ⟨H0, H1, H2, H3, H4, H5, H6, H7⟩
      isplitl [H0]; · iapply (blk_halves c (tO c 0) (Out m ρ c)).2; iexact H0
      isplitl [H1]; · iapply (blk_halves c (tO c 1) (Out m ρ c)).2; iexact H1
      isplitl [H2]; · iapply (blk_halves c (tO c 2) (Out m ρ c)).2; iexact H2
      isplitl [H3]; · iapply (blk_halves c (tO c 3) (Out m ρ c)).2; iexact H3
      isplitl [H4]; · iapply (blk_halves c (tO c 4) (Out m ρ c)).2; iexact H4
      isplitl [H5]; · iapply (blk_halves c (tO c 5) (Out m ρ c)).2; iexact H5
      isplitl [H6]; · iapply (blk_halves c (tO c 6) (Out m ρ c)).2; iexact H6
      iapply (blk_halves c (tO c 7) (Out m ρ c)).2; iexact H7
    isplitl [Hox]; · iexact Hox
    isplitl [Hoz]; · iexact Hoz
    isplitl [Hol]; · iexact Hol
    iexact Hoh

/-- info: 'Cert.Kernel.AR.body_finish' depends on axioms: [propext, Classical.choice, Quot.sound] -/
#guard_msgs in #print axioms body_finish

end Cert.Kernel.AR
end
-- ==== Proof.ArKernel.Body.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Geom
import proofs.«900700_g7700000000000701_dist_ar_v7x_xyz2x2x2_y_m1024_n512_f32_1_alg».proof.Proof.ArKernel.Tables
import proofs.«900700_g7700000000000701_dist_ar_v7x_xyz2x2x2_y_m1024_n512_f32_1_alg».proof.Proof.ArKernel.Owes
import proofs.«900700_g7700000000000701_dist_ar_v7x_xyz2x2x2_y_m1024_n512_f32_1_alg».proof.Proof.ArKernel.Values
import proofs.«900700_g7700000000000701_dist_ar_v7x_xyz2x2x2_y_m1024_n512_f32_1_alg».proof.Proof.ArKernel.Steps
import proofs.«900700_g7700000000000701_dist_ar_v7x_xyz2x2x2_y_m1024_n512_f32_1_alg».proof.Proof.ArKernel.Steps2
import proofs.«900700_g7700000000000701_dist_ar_v7x_xyz2x2x2_y_m1024_n512_f32_1_alg».proof.Proof.ArKernel.Blocks
import proofs.«900700_g7700000000000701_dist_ar_v7x_xyz2x2x2_y_m1024_n512_f32_1_alg».proof.Proof.ArKernel.BodyEnd
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the body starts from, the names of the cells' invariants fixed. -/
def bodyPre (K : Dev nD × Fin 65 → ℕ) (c : Dev nD) : sProp 𝕄 :=
  iprop((records m ρ K ∗ positions (F := F) c ∗ payToks (F := F) c) ∗ creds (F := F) c ∗ levAts L lv
    ∗ (∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem fetch_0 (t : Fin cfg0.N) : (cfg0.win (0 : Fin 2)).fetch t = true := by rw [fin_N t]; rfl

set_option maxHeartbeats 16000000 in
set_option sl_exec.stepHeartbeats 400000 in
set_option maxRecDepth 65536 in
/-- The body on a device, statement by statement in program order: the three entry signals and their wait; the eight
    transfers to the y-neighbour; per block the two waits, the reduction and the two transfers of the first exchange; the
    four pairs of forwards, each after the wait for the block it forwards; the remaining waits. -/
theorem sound_body (K : Dev nD × Fin 65 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4 cc0_scratch5 cc0_scratch6) Kt := by
  unfold bodyPre positions payToks creds each
  simp only [bigSep_fin8, bigSep_fin12]
  iintro ⟨⟨⟨#Hrec, ⟨HaB, ⟨Hays0, Hays1, Hays2, Hays3, Hays4, Hays5, Hays6, Hays7⟩, ⟨Hayr0, Hayr1, Hayr2, Hayr3, Hayr4, Hayr5, Hayr6, Hayr7⟩, ⟨Haxs0, Haxs1, Haxs2, Haxs3, Haxs4, Haxs5, Haxs6, Haxs7, Haxs8, Haxs9, Haxs10, Haxs11⟩, ⟨Haxr0, Haxr1, Haxr2, Haxr3, Haxr4, Haxr5, Haxr6, Haxr7, Haxr8, Haxr9, Haxr10, Haxr11⟩, ⟨Hazs0, Hazs1, Hazs2, Hazs3, Hazs4, Hazs5, Hazs6, Hazs7, Hazs8, Hazs9, Hazs10, Hazs11⟩, ⟨Hazr0, Hazr1, Hazr2, Hazr3, Hazr4, Hazr5, Hazr6, Hazr7, Hazr8, Hazr9, Hazr10, Hazr11⟩⟩,
      ⟨HtB0, HtB1, HtB2, ⟨Htys0, Htys1, Htys2, Htys3, Htys4, Htys5, Htys6, Htys7⟩, ⟨Htyr0, Htyr1, Htyr2, Htyr3, Htyr4, Htyr5, Htyr6, Htyr7⟩, ⟨Htxs0, Htxs1, Htxs2, Htxs3, Htxs4, Htxs5, Htxs6, Htxs7, Htxs8, Htxs9, Htxs10, Htxs11⟩, ⟨Htxr0, Htxr1, Htxr2, Htxr3, Htxr4, Htxr5, Htxr6, Htxr7, Htxr8, Htxr9, Htxr10, Htxr11⟩, ⟨Htzs0, Htzs1, Htzs2, Htzs3, Htzs4, Htzs5, Htzs6, Htzs7, Htzs8, Htzs9, Htzs10, Htzs11⟩, ⟨Htzr0, Htzr1, Htzr2, Htzr3, Htzr4, Htzr5, Htzr6, Htzr7, Htzr8, Htzr9, Htzr10, Htzr11⟩⟩⟩,
    ⟨HcB, ⟨Hcyr0, Hcyr1, Hcyr2, Hcyr3, Hcyr4, Hcyr5, Hcyr6, Hcyr7⟩, ⟨Hcxr0, Hcxr1, Hcxr2, Hcxr3, Hcxr4, Hcxr5, Hcxr6, Hcxr7, Hcxr8, Hcxr9, Hcxr10, Hcxr11⟩, ⟨Hczr0, Hczr1, Hczr2, Hczr3, Hczr4, Hczr5, Hczr6, Hczr7, Hczr8, Hczr9, Hczr10, Hczr11⟩⟩,
    #Hlev, ⟨%fy, Hy⟩, Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c 0 from rfl]
  ihave Hx' := (x_open c (xs m ρ c)).1 $$ Hx
  icases Hx' with ⟨⟨Hxb0, Hxb1, Hxb2, Hxb3, Hxb4, Hxb5, Hxb6, Hxb7⟩, HxR⟩
  ihave Ho' := (out_open c g1).1 $$ Hout
  icases Ho' with ⟨⟨Hob0, Hob1, Hob2, Hob3, Hob4, Hob5, Hob6, Hob7⟩, ⟨Hox0, Hox1, Hox2, Hox3, Hox4, Hox5, Hox6, Hox7⟩, ⟨Hoz0, Hoz1, Hoz2, Hoz3, Hoz4, Hoz5, Hoz6, Hoz7⟩, ⟨Hodl0, Hodl1, Hodl2, Hodl3⟩, ⟨Hodh0, Hodh1, Hodh2, Hodh3⟩⟩
  ihave Hy' := (y_open c fy).1 $$ Hy
  icases Hy' with ⟨Hyb0, Hyb1, Hyb2, Hyb3, Hyb4, Hyb5, Hyb6, Hyb7⟩
  -- the entry signals: the landing buffer to the y-neighbour; of the result buffer the x-neighbour's quarter and the upper half of the
  -- diagonal device's to the x-neighbour, the z-neighbour's quarter and the lower half of the diagonal device's to the z-neighbour
  ihave HgY : giveY (F := F) c $$ [Hyb0 Hyb1 Hyb2 Hyb3 Hyb4 Hyb5 Hyb6 Hyb7]
  · unfold giveY free; rw [bigSep_fin8]
    isplitl [Hyb0]; · (iexists _; iexact Hyb0)
    isplitl [Hyb1]; · (iexists _; iexact Hyb1)
    isplitl [Hyb2]; · (iexists _; iexact Hyb2)
    isplitl [Hyb3]; · (iexists _; iexact Hyb3)
    isplitl [Hyb4]; · (iexists _; iexact Hyb4)
    isplitl [Hyb5]; · (iexists _; iexact Hyb5)
    isplitl [Hyb6]; · (iexists _; iexact Hyb6)
    iexists _; iexact Hyb7
  ihave HgX : giveX (F := F) c $$ [Hox0 Hox1 Hox2 Hox3 Hox4 Hox5 Hox6 Hox7 Hodh0 Hodh1 Hodh2 Hodh3]
  · unfold giveX free; rw [bigSep_fin8, bigSep_fin4']
    isplitl [Hox0 Hox1 Hox2 Hox3 Hox4 Hox5 Hox6 Hox7]
    · isplitl [Hox0]; · (iexists _; iexact Hox0)
      isplitl [Hox1]; · (iexists _; iexact Hox1)
      isplitl [Hox2]; · (iexists _; iexact Hox2)
      isplitl [Hox3]; · (iexists _; iexact Hox3)
      isplitl [Hox4]; · (iexists _; iexact Hox4)
      isplitl [Hox5]; · (iexists _; iexact Hox5)
      isplitl [Hox6]; · (iexists _; iexact Hox6)
      iexists _; iexact Hox7
    isplitl [Hodh0]; · (iexists _; iexact Hodh0)
    isplitl [Hodh1]; · (iexists _; iexact Hodh1)
    isplitl [Hodh2]; · (iexists _; iexact Hodh2)
    iexists _; iexact Hodh3
  ihave HgZ : giveZ (F := F) c $$ [Hoz0 Hoz1 Hoz2 Hoz3 Hoz4 Hoz5 Hoz6 Hoz7 Hodl0 Hodl1 Hodl2 Hodl3]
  · unfold giveZ free; rw [bigSep_fin8, bigSep_fin4']
    isplitl [Hoz0 Hoz1 Hoz2 Hoz3 Hoz4 Hoz5 Hoz6 Hoz7]
    · isplitl [Hoz0]; · (iexists _; iexact Hoz0)
      isplitl [Hoz1]; · (iexists _; iexact Hoz1)
      isplitl [Hoz2]; · (iexists _; iexact Hoz2)
      isplitl [Hoz3]; · (iexists _; iexact Hoz3)
      isplitl [Hoz4]; · (iexists _; iexact Hoz4)
      isplitl [Hoz5]; · (iexists _; iexact Hoz5)
      isplitl [Hoz6]; · (iexists _; iexact Hoz6)
      iexists _; iexact Hoz7
    isplitl [Hodl0]; · (iexists _; iexact Hodl0)
    isplitl [Hodl1]; · (iexists _; iexact Hodl1)
    isplitl [Hodl2]; · (iexists _; iexact Hodl2)
    iexists _; iexact Hodl3
  sl_exec
  iapply (signal_y m ρ K c _ (dev1_eq c) _) $$ [HO HtB0 HgY]
  · isplitr; · iexact Hrec
    isplitl [HO]; · iexact HO
    isplitl [HtB0]; · iexact HtB0
    iexact HgY
  iintro HO
  sl_exec
  iapply (signal_x m ρ K c _ (dev2_eq c) _) $$ [HO HtB1 HgX]
  · isplitr; · iexact Hrec
    isplitl [HO]; · iexact HO
    isplitl [HtB1]; · iexact HtB1
    iexact HgX
  iintro HO
  sl_exec
  iapply (signal_z m ρ K c _ (dev3_eq c) _) $$ [HO HtB2 HgZ]
  · isplitr; · iexact Hrec
    isplitl [HO]; · iexact HO
    isplitl [HtB2]; · iexact HtB2
    iexact HgZ
  iintro HO
  -- the wait for the three neighbours' signals: their blocks this device will write
  sl_exec
  iapply (barwait m ρ K c _) $$ [HcB HO HaB]
  · isplitr; · iexact Hrec
    isplitr; · iexact Hlev
    isplitl [HcB]; · iexact HcB
    isplitl [HO]; · iexact HO
    iexact HaB
  iintro ⟨HO, HaB, HfY, ⟨HfX, HfXd⟩, ⟨HfZ, HfZd⟩⟩
  ihave HfY' := (Entails.of_eq (bigSep_fin8 _)) $$ HfY
  icases HfY' with ⟨Hfy0, Hfy1, Hfy2, Hfy3, Hfy4, Hfy5, Hfy6, Hfy7⟩
  ihave HfX' := (Entails.of_eq (bigSep_fin8 _)) $$ HfX
  icases HfX' with ⟨Hfx0, Hfx1, Hfx2, Hfx3, Hfx4, Hfx5, Hfx6, Hfx7⟩
  ihave HfXd' := (Entails.of_eq (bigSep_fin4' _)) $$ HfXd
  icases HfXd' with ⟨Hfxd0, Hfxd1, Hfxd2, Hfxd3⟩
  ihave HfZ' := (Entails.of_eq (bigSep_fin8 _)) $$ HfZ
  icases HfZ' with ⟨Hfz0, Hfz1, Hfz2, Hfz3, Hfz4, Hfz5, Hfz6, Hfz7⟩
  ihave HfZd' := (Entails.of_eq (bigSep_fin4' _)) $$ HfZd
  icases HfZd' with ⟨Hfzd0, Hfzd1, Hfzd2, Hfzd3⟩
  -- the eight transfers of this device's rows of the quarter it reduces onto the y-neighbour's landing buffer
  sl_exec
  iapply (send_y m ρ K c _ 0 3 (by decide) _ _ _ _ (dev4_eq c) rfl rfl rfl rfl rfl _) $$ [Hxb0 Hfy0 HO Htys0 Htyr0]
  · isplitr; · iexact Hrec
    isplitl [Hxb0]; · iexact Hxb0
    isplitl [Hfy0]; · iexact Hfy0
    isplitl [HO]; · iexact HO
    isplitl [Htys0]; · iexact Htys0
    iexact Htyr0
  iintro ⟨Hcys0, HO⟩
  sl_exec
  iapply (send_y m ρ K c _ 4 4 (by decide) _ _ _ _ (dev5_eq c) rfl rfl rfl rfl rfl _) $$ [Hxb4 Hfy4 HO Htys4 Htyr4]
  · isplitr; · iexact Hrec
    isplitl [Hxb4]; · iexact Hxb4
    isplitl [Hfy4]; · iexact Hfy4
    isplitl [HO]; · iexact HO
    isplitl [Htys4]; · iexact Htys4
    iexact Htyr4
  iintro ⟨Hcys4, HO⟩
  sl_exec
  iapply (send_y m ρ K c _ 1 5 (by decide) _ _ _ _ (dev6_eq c) rfl rfl rfl rfl rfl _) $$ [Hxb1 Hfy1 HO Htys1 Htyr1]
  · isplitr; · iexact Hrec
    isplitl [Hxb1]; · iexact Hxb1
    isplitl [Hfy1]; · iexact Hfy1
    isplitl [HO]; · iexact HO
    isplitl [Htys1]; · iexact Htys1
    iexact Htyr1
  iintro ⟨Hcys1, HO⟩
  sl_exec
  iapply (send_y m ρ K c _ 5 6 (by decide) _ _ _ _ (dev7_eq c) rfl rfl rfl rfl rfl _) $$ [Hxb5 Hfy5 HO Htys5 Htyr5]
  · isplitr; · iexact Hrec
    isplitl [Hxb5]; · iexact Hxb5
    isplitl [Hfy5]; · iexact Hfy5
    isplitl [HO]; · iexact HO
    isplitl [Htys5]; · iexact Htys5
    iexact Htyr5
  iintro ⟨Hcys5, HO⟩
  sl_exec
  iapply (send_y m ρ K c _ 2 7 (by decide) _ _ _ _ (dev8_eq c) rfl rfl rfl rfl rfl _) $$ [Hxb2 Hfy2 HO Htys2 Htyr2]
  · isplitr; · iexact Hrec
    isplitl [Hxb2]; · iexact Hxb2
    isplitl [Hfy2]; · iexact Hfy2
    isplitl [HO]; · iexact HO
    isplitl [Htys2]; · iexact Htys2
    iexact Htyr2
  iintro ⟨Hcys2, HO⟩
  sl_exec
  iapply (send_y m ρ K c _ 6 8 (by decide) _ _ _ _ (dev9_eq c) rfl rfl rfl rfl rfl _) $$ [Hxb6 Hfy6 HO Htys6 Htyr6]
  · isplitr; · iexact Hrec
    isplitl [Hxb6]; · iexact Hxb6
    isplitl [Hfy6]; · iexact Hfy6
    isplitl [HO]; · iexact HO
    isplitl [Htys6]; · iexact Htys6
    iexact Htyr6
  iintro ⟨Hcys6, HO⟩
  sl_exec
  iapply (send_y m ρ K c _ 3 9 (by decide) _ _ _ _ (dev10_eq c) rfl rfl rfl rfl rfl _) $$ [Hxb3 Hfy3 HO Htys3 Htyr3]
  · isplitr; · iexact Hrec
    isplitl [Hxb3]; · iexact Hxb3
    isplitl [Hfy3]; · iexact Hfy3
    isplitl [HO]; · iexact HO
    isplitl [Htys3]; · iexact Htys3
    iexact Htyr3
  iintro ⟨Hcys3, HO⟩
  sl_exec
  iapply (send_y m ρ K c _ 7 10 (by decide) _ _ _ _ (dev11_eq c) rfl rfl rfl rfl rfl _) $$ [Hxb7 Hfy7 HO Htys7 Htyr7]
  · isplitr; · iexact Hrec
    isplitl [Hxb7]; · iexact Hxb7
    isplitl [Hfy7]; · iexact Hfy7
    isplitl [HO]; · iexact HO
    isplitl [Htys7]; · iexact Htys7
    iexact Htyr7
  iintro ⟨Hcys7, HO⟩
  -- block 0: its transfer out has left, the y-neighbour's has landed; reduce; send to the x- and the z-neighbour
  sl_exec
  iapply (wait_ys m ρ K c 0 11 trivial _ rfl _ _ _) $$ [Hcys0 HO Hays0]
  · isplitr; · iexact Hrec
    isplitr; · iexact Hlev
    isplitl [Hcys0]; · iexact Hcys0
    isplitl [HO]; · iexact HO
    iexact Hays0
  iintro ⟨HO, Hays0, Hxb0⟩
  sl_exec
  iapply (wait_yr m ρ K c 0 11 (by decide) _ rfl _ _ _) $$ [Hcyr0 HO Hayr0]
  · isplitr; · iexact Hrec
    isplitr; · iexact Hlev
    isplitl [Hcyr0]; · iexact Hcyr0
    isplitl [HO]; · iexact HO
    iexact Hayr0
  iintro ⟨HO, Hayr0, Hyb0⟩
  have hxl := xload_sub c 0
  have hyl := yload_sub 0
  have hol := oload_sub c 0
  sl_exec
  clear hxl hyl hol
  iapply (step_store m ρ c 0 g1 _ (pay1_eq _ _)) $$ Hob0
  iintro Hob0
  ihave Hh := (blk_halves c (tO c 0) (Out m ρ c)).1 $$ Hob0
  icases Hh with ⟨HobL0, HobR0⟩
  sl_exec
  iapply (send_xo m ρ K c _ 0 11 (by decide) _ _ _ _ (dev12_eq c) rfl rfl rfl rfl rfl _) $$ [HobL0 Hfx0 HO Htxs0 Htxr0]
  · isplitr; · iexact Hrec
    isplitl [HobL0]; · iexact HobL0
    isplitl [Hfx0]; · iexact Hfx0
    isplitl [HO]; · iexact HO
    isplitl [Htxs0]; · iexact Htxs0
    iexact Htxr0
  iintro ⟨Hcxs0, HO⟩
  sl_exec
  iapply (send_zo m ρ K c _ 0 12 (by decide) _ _ _ _ (dev13_eq c) rfl rfl rfl rfl rfl _) $$ [HobR0 Hfz0 HO Htzs0 Htzr0]
  · isplitr; · iexact Hrec
    isplitl [HobR0]; · iexact HobR0
    isplitl [Hfz0]; · iexact Hfz0
    isplitl [HO]; · iexact HO
    isplitl [Htzs0]; · iexact Htzs0
    iexact Htzr0
  iintro ⟨Hczs0, HO⟩
  -- block 4: its transfer out has left, the y-neighbour's has landed; reduce; send to the x- and the z-neighbour
  sl_exec
  iapply (wait_ys m ρ K c 4 13 trivial _ rfl _ _ _) $$ [Hcys4 HO Hays4]
  · isplitr; · iexact Hrec
    isplitr; · iexact Hlev
    isplitl [Hcys4]; · iexact Hcys4
    isplitl [HO]; · iexact HO
    iexact Hays4
  iintro ⟨HO, Hays4, Hxb4⟩
  sl_exec
  iapply (wait_yr m ρ K c 4 13 (by decide) _ rfl _ _ _) $$ [Hcyr4 HO Hayr4]
  · isplitr; · iexact Hrec
    isplitr; · iexact Hlev
    isplitl [Hcyr4]; · iexact Hcyr4
    isplitl [HO]; · iexact HO
    iexact Hayr4
  iintro ⟨HO, Hayr4, Hyb4⟩
  have hxl := xload_sub c 4
  have hyl := yload_sub 4
  have hol := oload_sub c 4
  sl_exec
  clear hxl hyl hol
  iapply (step_store m ρ c 4 g1 _ (pay2_eq _ _)) $$ Hob4
  iintro Hob4
  ihave Hh := (blk_halves c (tO c 4) (Out m ρ c)).1 $$ Hob4
  icases Hh with ⟨HobL4, HobR4⟩
  sl_exec
  iapply (send_xo m ρ K c _ 4 13 (by decide) _ _ _ _ (dev14_eq c) rfl rfl rfl rfl rfl _) $$ [HobL4 Hfx4 HO Htxs4 Htxr4]
  · isplitr; · iexact Hrec
    isplitl [HobL4]; · iexact HobL4
    isplitl [Hfx4]; · iexact Hfx4
    isplitl [HO]; · iexact HO
    isplitl [Htxs4]; · iexact Htxs4
    iexact Htxr4
  iintro ⟨Hcxs4, HO⟩
  sl_exec
  iapply (send_zo m ρ K c _ 4 14 (by decide) _ _ _ _ (dev15_eq c) rfl rfl rfl rfl rfl _) $$ [HobR4 Hfz4 HO Htzs4 Htzr4]
  · isplitr; · iexact Hrec
    isplitl [HobR4]; · iexact HobR4
    isplitl [Hfz4]; · iexact Hfz4
    isplitl [HO]; · iexact HO
    isplitl [Htzs4]; · iexact Htzs4
    iexact Htzr4
  iintro ⟨Hczs4, HO⟩
  -- block 1: its transfer out has left, the y-neighbour's has landed; reduce; send to the x- and the z-neighbour
  sl_exec
  iapply (wait_ys m ρ K c 1 15 trivial _ rfl _ _ _) $$ [Hcys1 HO Hays1]
  · isplitr; · iexact Hrec
    isplitr; · iexact Hlev
    isplitl [Hcys1]; · iexact Hcys1
    isplitl [HO]; · iexact HO
    iexact Hays1
  iintro ⟨HO, Hays1, Hxb1⟩
  sl_exec
  iapply (wait_yr m ρ K c 1 15 (by decide) _ rfl _ _ _) $$ [Hcyr1 HO Hayr1]
  · isplitr; · iexact Hrec
    isplitr; · iexact Hlev
    isplitl [Hcyr1]; · iexact Hcyr1
    isplitl [HO]; · iexact HO
    iexact Hayr1
  iintro ⟨HO, Hayr1, Hyb1⟩
  have hxl := xload_sub c 1
  have hyl := yload_sub 1
  have hol := oload_sub c 1
  sl_exec
  clear hxl hyl hol
  iapply (step_store m ρ c 1 g1 _ (pay3_eq _ _)) $$ Hob1
  iintro Hob1
  ihave Hh := (blk_halves c (tO c 1) (Out m ρ c)).1 $$ Hob1
  icases Hh with ⟨HobL1, HobR1⟩
  sl_exec
  iapply (send_xo m ρ K c _ 1 15 (by decide) _ _ _ _ (dev16_eq c) rfl rfl rfl rfl rfl _) $$ [HobL1 Hfx1 HO Htxs1 Htxr1]
  · isplitr; · iexact Hrec
    isplitl [HobL1]; · iexact HobL1
    isplitl [Hfx1]; · iexact Hfx1
    isplitl [HO]; · iexact HO
    isplitl [Htxs1]; · iexact Htxs1
    iexact Htxr1
  iintro ⟨Hcxs1, HO⟩
  sl_exec
  iapply (send_zo m ρ K c _ 1 16 (by decide) _ _ _ _ (dev17_eq c) rfl rfl rfl rfl rfl _) $$ [HobR1 Hfz1 HO Htzs1 Htzr1]
  · isplitr; · iexact Hrec
    isplitl [HobR1]; · iexact HobR1
    isplitl [Hfz1]; · iexact Hfz1
    isplitl [HO]; · iexact HO
    isplitl [Htzs1]; · iexact Htzs1
    iexact Htzr1
  iintro ⟨Hczs1, HO⟩
  -- block 5: its transfer out has left, the y-neighbour's has landed; reduce; send to the x- and the z-neighbour
  sl_exec
  iapply (wait_ys m ρ K c 5 17 trivial _ rfl _ _ _) $$ [Hcys5 HO Hays5]
  · isplitr; · iexact Hrec
    isplitr; · iexact Hlev
    isplitl [Hcys5]; · iexact Hcys5
    isplitl [HO]; · iexact HO
    iexact Hays5
  iintro ⟨HO, Hays5, Hxb5⟩
  sl_exec
  iapply (wait_yr m ρ K c 5 17 (by decide) _ rfl _ _ _) $$ [Hcyr5 HO Hayr5]
  · isplitr; · iexact Hrec
    isplitr; · iexact Hlev
    isplitl [Hcyr5]; · iexact Hcyr5
    isplitl [HO]; · iexact HO
    iexact Hayr5
  iintro ⟨HO, Hayr5, Hyb5⟩
  have hxl := xload_sub c 5
  have hyl := yload_sub 5
  have hol := oload_sub c 5
  sl_exec
  clear hxl hyl hol
  iapply (step_store m ρ c 5 g1 _ (pay4_eq _ _)) $$ Hob5
  iintro Hob5
  ihave Hh := (blk_halves c (tO c 5) (Out m ρ c)).1 $$ Hob5
  icases Hh with ⟨HobL5, HobR5⟩
  sl_exec
  iapply (send_xo m ρ K c _ 5 17 (by decide) _ _ _ _ (dev18_eq c) rfl rfl rfl rfl rfl _) $$ [HobL5 Hfx5 HO Htxs5 Htxr5]
  · isplitr; · iexact Hrec
    isplitl [HobL5]; · iexact HobL5
    isplitl [Hfx5]; · iexact Hfx5
    isplitl [HO]; · iexact HO
    isplitl [Htxs5]; · iexact Htxs5
    iexact Htxr5
  iintro ⟨Hcxs5, HO⟩
  sl_exec
  iapply (send_zo m ρ K c _ 5 18 (by decide) _ _ _ _ (dev19_eq c) rfl rfl rfl rfl rfl _) $$ [HobR5 Hfz5 HO Htzs5 Htzr5]
  · isplitr; · iexact Hrec
    isplitl [HobR5]; · iexact HobR5
    isplitl [Hfz5]; · iexact Hfz5
    isplitl [HO]; · iexact HO
    isplitl [Htzs5]; · iexact Htzs5
    iexact Htzr5
  iintro ⟨Hczs5, HO⟩
  -- block 2: its transfer out has left, the y-neighbour's has landed; reduce; send to the x- and the z-neighbour
  sl_exec
  iapply (wait_ys m ρ K c 2 19 trivial _ rfl _ _ _) $$ [Hcys2 HO Hays2]
  · isplitr; · iexact Hrec
    isplitr; · iexact Hlev
    isplitl [Hcys2]; · iexact Hcys2
    isplitl [HO]; · iexact HO
    iexact Hays2
  iintro ⟨HO, Hays2, Hxb2⟩
  sl_exec
  iapply (wait_yr m ρ K c 2 19 (by decide) _ rfl _ _ _) $$ [Hcyr2 HO Hayr2]
  · isplitr; · iexact Hrec
    isplitr; · iexact Hlev
    isplitl [Hcyr2]; · iexact Hcyr2
    isplitl [HO]; · iexact HO
    iexact Hayr2
  iintro ⟨HO, Hayr2, Hyb2⟩
  have hxl := xload_sub c 2
  have hyl := yload_sub 2
  have hol := oload_sub c 2
  sl_exec
  clear hxl hyl hol
  iapply (step_store m ρ c 2 g1 _ (pay56_eq _ _)) $$ Hob2
  iintro Hob2
  ihave Hh := (blk_halves c (tO c 2) (Out m ρ c)).1 $$ Hob2
  icases Hh with ⟨HobL2, HobR2⟩
  sl_exec
  iapply (send_xo m ρ K c _ 2 19 (by decide) _ _ _ _ (dev20_eq c) rfl rfl rfl rfl rfl _) $$ [HobL2 Hfx2 HO Htxs2 Htxr2]
  · isplitr; · iexact Hrec
    isplitl [HobL2]; · iexact HobL2
    isplitl [Hfx2]; · iexact Hfx2
    isplitl [HO]; · iexact HO
    isplitl [Htxs2]; · iexact Htxs2
    iexact Htxr2
  iintro ⟨Hcxs2, HO⟩
  sl_exec
  iapply (send_zo m ρ K c _ 2 20 (by decide) _ _ _ _ (dev21_eq c) rfl rfl rfl rfl rfl _) $$ [HobR2 Hfz2 HO Htzs2 Htzr2]
  · isplitr; · iexact Hrec
    isplitl [HobR2]; · iexact HobR2
    isplitl [Hfz2]; · iexact Hfz2
    isplitl [HO]; · iexact HO
    isplitl [Htzs2]; · iexact Htzs2
    iexact Htzr2
  iintro ⟨Hczs2, HO⟩
  -- block 6: its transfer out has left, the y-neighbour's has landed; reduce; send to the x- and the z-neighbour
  sl_exec
  iapply (wait_ys m ρ K c 6 21 trivial _ rfl _ _ _) $$ [Hcys6 HO Hays6]
  · isplitr; · iexact Hrec
    isplitr; · iexact Hlev
    isplitl [Hcys6]; · iexact Hcys6
    isplitl [HO]; · iexact HO
    iexact Hays6
  iintro ⟨HO, Hays6, Hxb6⟩
  sl_exec
  iapply (wait_yr m ρ K c 6 21 (by decide) _ rfl _ _ _) $$ [Hcyr6 HO Hayr6]
  · isplitr; · iexact Hrec
    isplitr; · iexact Hlev
    isplitl [Hcyr6]; · iexact Hcyr6
    isplitl [HO]; · iexact HO
    iexact Hayr6
  iintro ⟨HO, Hayr6, Hyb6⟩
  have hxl := xload_sub c 6
  have hyl := yload_sub 6
  have hol := oload_sub c 6
  sl_exec
  clear hxl hyl hol
  iapply (step_store m ρ c 6 g1 _ (pay7_eq _ _)) $$ Hob6
  iintro Hob6
  ihave Hh := (blk_halves c (tO c 6) (Out m ρ c)).1 $$ Hob6
  icases Hh with ⟨HobL6, HobR6⟩
  sl_exec
  iapply (send_xo m ρ K c _ 6 21 (by decide) _ _ _ _ (dev22_eq c) rfl rfl rfl rfl rfl _) $$ [HobL6 Hfx6 HO Htxs6 Htxr6]
  · isplitr; · iexact Hrec
    isplitl [HobL6]; · iexact HobL6
    isplitl [Hfx6]; · iexact Hfx6
    isplitl [HO]; · iexact HO
    isplitl [Htxs6]; · iexact Htxs6
    iexact Htxr6
  iintro ⟨Hcxs6, HO⟩
  sl_exec
  iapply (send_zo m ρ K c _ 6 22 (by decide) _ _ _ _ (dev23_eq c) rfl rfl rfl rfl rfl _) $$ [HobR6 Hfz6 HO Htzs6 Htzr6]
  · isplitr; · iexact Hrec
    isplitl [HobR6]; · iexact HobR6
    isplitl [Hfz6]; · iexact Hfz6
    isplitl [HO]; · iexact HO
    isplitl [Htzs6]; · iexact Htzs6
    iexact Htzr6
  iintro ⟨Hczs6, HO⟩
  -- block 3: its transfer out has left, the y-neighbour's has landed; reduce; send to the x- and the z-neighbour
  sl_exec
  iapply (wait_ys m ρ K c 3 23 trivial _ rfl _ _ _) $$ [Hcys3 HO Hays3]
  · isplitr; · iexact Hrec
    isplitr; · iexact Hlev
    isplitl [Hcys3]; · iexact Hcys3
    isplitl [HO]; · iexact HO
    iexact Hays3
  iintro ⟨HO, Hays3, Hxb3⟩
  sl_exec
  iapply (wait_yr m ρ K c 3 23 (by decide) _ rfl _ _ _) $$ [Hcyr3 HO Hayr3]
  · isplitr; · iexact Hrec
    isplitr; · iexact Hlev
    isplitl [Hcyr3]; · iexact Hcyr3
    isplitl [HO]; · iexact HO
    iexact Hayr3
  iintro ⟨HO, Hayr3, Hyb3⟩
  have hxl := xload_sub c 3
  have hyl := yload_sub 3
  have hol := oload_sub c 3
  sl_exec
  clear hxl hyl hol
  iapply (step_store m ρ c 3 g1 _ (pay8_eq _ _)) $$ Hob3
  iintro Hob3
  ihave Hh := (blk_halves c (tO c 3) (Out m ρ c)).1 $$ Hob3
  icases Hh with ⟨HobL3, HobR3⟩
  sl_exec
  iapply (send_xo m ρ K c _ 3 23 (by decide) _ _ _ _ (dev24_eq c) rfl rfl rfl rfl rfl _) $$ [HobL3 Hfx3 HO Htxs3 Htxr3]
  · isplitr; · iexact Hrec
    isplitl [HobL3]; · iexact HobL3
    isplitl [Hfx3]; · iexact Hfx3
    isplitl [HO]; · iexact HO
    isplitl [Htxs3]; · iexact Htxs3
    iexact Htxr3
  iintro ⟨Hcxs3, HO⟩
  sl_exec
  iapply (send_zo m ρ K c _ 3 24 (by decide) _ _ _ _ (dev25_eq c) rfl rfl rfl rfl rfl _) $$ [HobR3 Hfz3 HO Htzs3 Htzr3]
  · isplitr; · iexact Hrec
    isplitl [HobR3]; · iexact HobR3
    isplitl [Hfz3]; · iexact Hfz3
    isplitl [HO]; · iexact HO
    isplitl [Htzs3]; · iexact Htzs3
    iexact Htzr3
  iintro ⟨Hczs3, HO⟩
  -- block 7: its transfer out has left, the y-neighbour's has landed; reduce; send to the x- and the z-neighbour
  sl_exec
  iapply (wait_ys m ρ K c 7 25 trivial _ rfl _ _ _) $$ [Hcys7 HO Hays7]
  · isplitr; · iexact Hrec
    isplitr; · iexact Hlev
    isplitl [Hcys7]; · iexact Hcys7
    isplitl [HO]; · iexact HO
    iexact Hays7
  iintro ⟨HO, Hays7, Hxb7⟩
  sl_exec
  iapply (wait_yr m ρ K c 7 25 (by decide) _ rfl _ _ _) $$ [Hcyr7 HO Hayr7]
  · isplitr; · iexact Hrec
    isplitr; · iexact Hlev
    isplitl [Hcyr7]; · iexact Hcyr7
    isplitl [HO]; · iexact HO
    iexact Hayr7
  iintro ⟨HO, Hayr7, Hyb7⟩
  have hxl := xload_sub c 7
  have hyl := yload_sub 7
  have hol := oload_sub c 7
  sl_exec
  clear hxl hyl hol
  iapply (step_store m ρ c 7 g1 _ (pay9_eq _ _)) $$ Hob7
  iintro Hob7
  ihave Hh := (blk_halves c (tO c 7) (Out m ρ c)).1 $$ Hob7
  icases Hh with ⟨HobL7, HobR7⟩
  sl_exec
  iapply (send_xo m ρ K c _ 7 25 (by decide) _ _ _ _ (dev26_eq c) rfl rfl rfl rfl rfl _) $$ [HobL7 Hfx7 HO Htxs7 Htxr7]
  · isplitr; · iexact Hrec
    isplitl [HobL7]; · iexact HobL7
    isplitl [Hfx7]; · iexact Hfx7
    isplitl [HO]; · iexact HO
    isplitl [Htxs7]; · iexact Htxs7
    iexact Htxr7
  iintro ⟨Hcxs7, HO⟩
  sl_exec
  iapply (send_zo m ρ K c _ 7 26 (by decide) _ _ _ _ (dev27_eq c) rfl rfl rfl rfl rfl _) $$ [HobR7 Hfz7 HO Htzs7 Htzr7]
  · isplitr; · iexact Hrec
    isplitl [HobR7]; · iexact HobR7
    isplitl [Hfz7]; · iexact Hfz7
    isplitl [HO]; · iexact HO
    isplitl [Htzs7]; · iexact Htzs7
    iexact Htzr7
  iintro ⟨Hczs7, HO⟩
  -- forward 0: block 0 from the x-neighbour on to the z-neighbour, block 4 from the z-neighbour on to the x-neighbour
  sl_exec
  iapply (wait_xs_lo m ρ K c 0 27 trivial _ rfl _ _ _) $$ [Hcxs0 HO Haxs0]
  · isplitr; · iexact Hrec
    isplitr; · iexact Hlev
    isplitl [Hcxs0]; · iexact Hcxs0
    isplitl [HO]; · iexact HO
    iexact Haxs0
  iintro ⟨HO, Haxs0, HobL0⟩
  sl_exec
  iapply (wait_xr_lo m ρ K c 0 27 (by decide) _ rfl _ _ _) $$ [Hcxr0 HO Haxr0]
  · isplitr; · iexact Hrec
    isplitr; · iexact Hlev
    isplitl [Hcxr0]; · iexact Hcxr0
    isplitl [HO]; · iexact HO
    iexact Haxr0
  iintro ⟨HO, Haxr0, Hox0⟩
  sl_exec
  iapply (send_zf m ρ K c _ 0 27 (by decide) _ _ _ _ (dev28_eq c) rfl rfl rfl rfl rfl _) $$ [Hox0 Hfzd0 HO Htzs8 Htzr8]
  · isplitr; · iexact Hrec
    isplitl [Hox0]; · iexact Hox0
    isplitl [Hfzd0]; · iexact Hfzd0
    isplitl [HO]; · iexact HO
    isplitl [Htzs8]; · iexact Htzs8
    iexact Htzr8
  iintro ⟨Hczs8, HO⟩
  sl_exec
  iapply (wait_zs_lo m ρ K c 4 28 trivial _ rfl _ _ _) $$ [Hczs4 HO Hazs4]
  · isplitr; · iexact Hrec
    isplitr; · iexact Hlev
    isplitl [Hczs4]; · iexact Hczs4
    isplitl [HO]; · iexact HO
    iexact Hazs4
  iintro ⟨HO, Hazs4, HobR4⟩
  sl_exec
  iapply (wait_zr_lo m ρ K c 4 28 (by decide) _ rfl _ _ _) $$ [Hczr4 HO Hazr4]
  · isplitr; · iexact Hrec
    isplitr; · iexact Hlev
    isplitl [Hczr4]; · iexact Hczr4
    isplitl [HO]; · iexact HO
    iexact Hazr4
  iintro ⟨HO, Hazr4, Hoz4⟩
  sl_exec
  iapply (send_xf m ρ K c _ 0 28 (by decide) _ _ _ _ (dev29_eq c) rfl rfl rfl rfl rfl _) $$ [Hoz4 Hfxd0 HO Htxs8 Htxr8]
  · isplitr; · iexact Hrec
    isplitl [Hoz4]; · iexact Hoz4
    isplitl [Hfxd0]; · iexact Hfxd0
    isplitl [HO]; · iexact HO
    isplitl [Htxs8]; · iexact Htxs8
    iexact Htxr8
  iintro ⟨Hcxs8, HO⟩
  -- forward 1: block 1 from the x-neighbour on to the z-neighbour, block 5 from the z-neighbour on to the x-neighbour
  sl_exec
  iapply (wait_xs_lo m ρ K c 1 29 trivial _ rfl _ _ _) $$ [Hcxs1 HO Haxs1]
  · isplitr; · iexact Hrec
    isplitr; · iexact Hlev
    isplitl [Hcxs1]; · iexact Hcxs1
    isplitl [HO]; · iexact HO
    iexact Haxs1
  iintro ⟨HO, Haxs1, HobL1⟩
  sl_exec
  iapply (wait_xr_lo m ρ K c 1 29 (by decide) _ rfl _ _ _) $$ [Hcxr1 HO Haxr1]
  · isplitr; · iexact Hrec
    isplitr; · iexact Hlev
    isplitl [Hcxr1]; · iexact Hcxr1
    isplitl [HO]; · iexact HO
    iexact Haxr1
  iintro ⟨HO, Haxr1, Hox1⟩
  sl_exec
  iapply (send_zf m ρ K c _ 1 29 (by decide) _ _ _ _ (dev30_eq c) rfl rfl rfl rfl rfl _) $$ [Hox1 Hfzd1 HO Htzs9 Htzr9]
  · isplitr; · iexact Hrec
    isplitl [Hox1]; · iexact Hox1
    isplitl [Hfzd1]; · iexact Hfzd1
    isplitl [HO]; · iexact HO
    isplitl [Htzs9]; · iexact Htzs9
    iexact Htzr9
  iintro ⟨Hczs9, HO⟩
  sl_exec
  iapply (wait_zs_lo m ρ K c 5 30 trivial _ rfl _ _ _) $$ [Hczs5 HO Hazs5]
  · isplitr; · iexact Hrec
    isplitr; · iexact Hlev
    isplitl [Hczs5]; · iexact Hczs5
    isplitl [HO]; · iexact HO
    iexact Hazs5
  iintro ⟨HO, Hazs5, HobR5⟩
  sl_exec
  iapply (wait_zr_lo m ρ K c 5 30 (by decide) _ rfl _ _ _) $$ [Hczr5 HO Hazr5]
  · isplitr; · iexact Hrec
    isplitr; · iexact Hlev
    isplitl [Hczr5]; · iexact Hczr5
    isplitl [HO]; · iexact HO
    iexact Hazr5
  iintro ⟨HO, Hazr5, Hoz5⟩
  sl_exec
  iapply (send_xf m ρ K c _ 1 30 (by decide) _ _ _ _ (dev31_eq c) rfl rfl rfl rfl rfl _) $$ [Hoz5 Hfxd1 HO Htxs9 Htxr9]
  · isplitr; · iexact Hrec
    isplitl [Hoz5]; · iexact Hoz5
    isplitl [Hfxd1]; · iexact Hfxd1
    isplitl [HO]; · iexact HO
    isplitl [Htxs9]; · iexact Htxs9
    iexact Htxr9
  iintro ⟨Hcxs9, HO⟩
  -- forward 2: block 2 from the x-neighbour on to the z-neighbour, block 6 from the z-neighbour on to the x-neighbour
  sl_exec
  iapply (wait_xs_lo m ρ K c 2 31 trivial _ rfl _ _ _) $$ [Hcxs2 HO Haxs2]
  · isplitr; · iexact Hrec
    isplitr; · iexact Hlev
    isplitl [Hcxs2]; · iexact Hcxs2
    isplitl [HO]; · iexact HO
    iexact Haxs2
  iintro ⟨HO, Haxs2, HobL2⟩
  sl_exec
  iapply (wait_xr_lo m ρ K c 2 31 (by decide) _ rfl _ _ _) $$ [Hcxr2 HO Haxr2]
  · isplitr; · iexact Hrec
    isplitr; · iexact Hlev
    isplitl [Hcxr2]; · iexact Hcxr2
    isplitl [HO]; · iexact HO
    iexact Haxr2
  iintro ⟨HO, Haxr2, Hox2⟩
  sl_exec
  iapply (send_zf m ρ K c _ 2 31 (by decide) _ _ _ _ (dev32_eq c) rfl rfl rfl rfl rfl _) $$ [Hox2 Hfzd2 HO Htzs10 Htzr10]
  · isplitr; · iexact Hrec
    isplitl [Hox2]; · iexact Hox2
    isplitl [Hfzd2]; · iexact Hfzd2
    isplitl [HO]; · iexact HO
    isplitl [Htzs10]; · iexact Htzs10
    iexact Htzr10
  iintro ⟨Hczs10, HO⟩
  sl_exec
  iapply (wait_zs_lo m ρ K c 6 32 trivial _ rfl _ _ _) $$ [Hczs6 HO Hazs6]
  · isplitr; · iexact Hrec
    isplitr; · iexact Hlev
    isplitl [Hczs6]; · iexact Hczs6
    isplitl [HO]; · iexact HO
    iexact Hazs6
  iintro ⟨HO, Hazs6, HobR6⟩
  sl_exec
  iapply (wait_zr_lo m ρ K c 6 32 (by decide) _ rfl _ _ _) $$ [Hczr6 HO Hazr6]
  · isplitr; · iexact Hrec
    isplitr; · iexact Hlev
    isplitl [Hczr6]; · iexact Hczr6
    isplitl [HO]; · iexact HO
    iexact Hazr6
  iintro ⟨HO, Hazr6, Hoz6⟩
  sl_exec
  iapply (send_xf m ρ K c _ 2 32 (by decide) _ _ _ _ (dev33_eq c) rfl rfl rfl rfl rfl _) $$ [Hoz6 Hfxd2 HO Htxs10 Htxr10]
  · isplitr; · iexact Hrec
    isplitl [Hoz6]; · iexact Hoz6
    isplitl [Hfxd2]; · iexact Hfxd2
    isplitl [HO]; · iexact HO
    isplitl [Htxs10]; · iexact Htxs10
    iexact Htxr10
  iintro ⟨Hcxs10, HO⟩
  -- forward 3: block 3 from the x-neighbour on to the z-neighbour, block 7 from the z-neighbour on to the x-neighbour
  sl_exec
  iapply (wait_xs_lo m ρ K c 3 33 trivial _ rfl _ _ _) $$ [Hcxs3 HO Haxs3]
  · isplitr; · iexact Hrec
    isplitr; · iexact Hlev
    isplitl [Hcxs3]; · iexact Hcxs3
    isplitl [HO]; · iexact HO
    iexact Haxs3
  iintro ⟨HO, Haxs3, HobL3⟩
  sl_exec
  iapply (wait_xr_lo m ρ K c 3 33 (by decide) _ rfl _ _ _) $$ [Hcxr3 HO Haxr3]
  · isplitr; · iexact Hrec
    isplitr; · iexact Hlev
    isplitl [Hcxr3]; · iexact Hcxr3
    isplitl [HO]; · iexact HO
    iexact Haxr3
  iintro ⟨HO, Haxr3, Hox3⟩
  sl_exec
  iapply (send_zf m ρ K c _ 3 33 (by decide) _ _ _ _ (dev34_eq c) rfl rfl rfl rfl rfl _) $$ [Hox3 Hfzd3 HO Htzs11 Htzr11]
  · isplitr; · iexact Hrec
    isplitl [Hox3]; · iexact Hox3
    isplitl [Hfzd3]; · iexact Hfzd3
    isplitl [HO]; · iexact HO
    isplitl [Htzs11]; · iexact Htzs11
    iexact Htzr11
  iintro ⟨Hczs11, HO⟩
  sl_exec
  iapply (wait_zs_lo m ρ K c 7 34 trivial _ rfl _ _ _) $$ [Hczs7 HO Hazs7]
  · isplitr; · iexact Hrec
    isplitr; · iexact Hlev
    isplitl [Hczs7]; · iexact Hczs7
    isplitl [HO]; · iexact HO
    iexact Hazs7
  iintro ⟨HO, Hazs7, HobR7⟩
  sl_exec
  iapply (wait_zr_lo m ρ K c 7 34 (by decide) _ rfl _ _ _) $$ [Hczr7 HO Hazr7]
  · isplitr; · iexact Hrec
    isplitr; · iexact Hlev
    isplitl [Hczr7]; · iexact Hczr7
    isplitl [HO]; · iexact HO
    iexact Hazr7
  iintro ⟨HO, Hazr7, Hoz7⟩
  sl_exec
  iapply (send_xf m ρ K c _ 3 34 (by decide) _ _ _ _ (dev35_eq c) rfl rfl rfl rfl rfl _) $$ [Hoz7 Hfxd3 HO Htxs11 Htxr11]
  · isplitr; · iexact Hrec
    isplitl [Hoz7]; · iexact Hoz7
    isplitl [Hfxd3]; · iexact Hfxd3
    isplitl [HO]; · iexact HO
    isplitl [Htxs11]; · iexact Htxs11
    iexact Htxr11
  iintro ⟨Hcxs11, HO⟩
  -- the remaining waits of the first exchange
  sl_exec
  iapply (wait_xs_lo m ρ K c 4 35 trivial _ rfl _ _ _) $$ [Hcxs4 HO Haxs4]
  · isplitr; · iexact Hrec
    isplitr; · iexact Hlev
    isplitl [Hcxs4]; · iexact Hcxs4
    isplitl [HO]; · iexact HO
    iexact Haxs4
  iintro ⟨HO, Haxs4, HobL4⟩
  sl_exec
  iapply (wait_xr_lo m ρ K c 4 35 (by decide) _ rfl _ _ _) $$ [Hcxr4 HO Haxr4]
  · isplitr; · iexact Hrec
    isplitr; · iexact Hlev
    isplitl [Hcxr4]; · iexact Hcxr4
    isplitl [HO]; · iexact HO
    iexact Haxr4
  iintro ⟨HO, Haxr4, Hox4⟩
  sl_exec
  iapply (wait_zs_lo m ρ K c 0 35 trivial _ rfl _ _ _) $$ [Hczs0 HO Hazs0]
  · isplitr; · iexact Hrec
    isplitr; · iexact Hlev
    isplitl [Hczs0]; · iexact Hczs0
    isplitl [HO]; · iexact HO
    iexact Hazs0
  iintro ⟨HO, Hazs0, HobR0⟩
  sl_exec
  iapply (wait_zr_lo m ρ K c 0 35 (by decide) _ rfl _ _ _) $$ [Hczr0 HO Hazr0]
  · isplitr; · iexact Hrec
    isplitr; · iexact Hlev
    isplitl [Hczr0]; · iexact Hczr0
    isplitl [HO]; · iexact HO
    iexact Hazr0
  iintro ⟨HO, Hazr0, Hoz0⟩
  sl_exec
  iapply (wait_xs_lo m ρ K c 5 35 trivial _ rfl _ _ _) $$ [Hcxs5 HO Haxs5]
  · isplitr; · iexact Hrec
    isplitr; · iexact Hlev
    isplitl [Hcxs5]; · iexact Hcxs5
    isplitl [HO]; · iexact HO
    iexact Haxs5
  iintro ⟨HO, Haxs5, HobL5⟩
  sl_exec
  iapply (wait_xr_lo m ρ K c 5 35 (by decide) _ rfl _ _ _) $$ [Hcxr5 HO Haxr5]
  · isplitr; · iexact Hrec
    isplitr; · iexact Hlev
    isplitl [Hcxr5]; · iexact Hcxr5
    isplitl [HO]; · iexact HO
    iexact Haxr5
  iintro ⟨HO, Haxr5, Hox5⟩
  sl_exec
  iapply (wait_zs_lo m ρ K c 1 35 trivial _ rfl _ _ _) $$ [Hczs1 HO Hazs1]
  · isplitr; · iexact Hrec
    isplitr; · iexact Hlev
    isplitl [Hczs1]; · iexact Hczs1
    isplitl [HO]; · iexact HO
    iexact Hazs1
  iintro ⟨HO, Hazs1, HobR1⟩
  sl_exec
  iapply (wait_zr_lo m ρ K c 1 35 (by decide) _ rfl _ _ _) $$ [Hczr1 HO Hazr1]
  · isplitr; · iexact Hrec
    isplitr; · iexact Hlev
    isplitl [Hczr1]; · iexact Hczr1
    isplitl [HO]; · iexact HO
    iexact Hazr1
  iintro ⟨HO, Hazr1, Hoz1⟩
  sl_exec
  iapply (wait_xs_lo m ρ K c 6 35 trivial _ rfl _ _ _) $$ [Hcxs6 HO Haxs6]
  · isplitr; · iexact Hrec
    isplitr; · iexact Hlev
    isplitl [Hcxs6]; · iexact Hcxs6
    isplitl [HO]; · iexact HO
    iexact Haxs6
  iintro ⟨HO, Haxs6, HobL6⟩
  sl_exec
  iapply (wait_xr_lo m ρ K c 6 35 (by decide) _ rfl _ _ _) $$ [Hcxr6 HO Haxr6]
  · isplitr; · iexact Hrec
    isplitr; · iexact Hlev
    isplitl [Hcxr6]; · iexact Hcxr6
    isplitl [HO]; · iexact HO
    iexact Haxr6
  iintro ⟨HO, Haxr6, Hox6⟩
  sl_exec
  iapply (wait_zs_lo m ρ K c 2 35 trivial _ rfl _ _ _) $$ [Hczs2 HO Hazs2]
  · isplitr; · iexact Hrec
    isplitr; · iexact Hlev
    isplitl [Hczs2]; · iexact Hczs2
    isplitl [HO]; · iexact HO
    iexact Hazs2
  iintro ⟨HO, Hazs2, HobR2⟩
  sl_exec
  iapply (wait_zr_lo m ρ K c 2 35 (by decide) _ rfl _ _ _) $$ [Hczr2 HO Hazr2]
  · isplitr; · iexact Hrec
    isplitr; · iexact Hlev
    isplitl [Hczr2]; · iexact Hczr2
    isplitl [HO]; · iexact HO
    iexact Hazr2
  iintro ⟨HO, Hazr2, Hoz2⟩
  sl_exec
  iapply (wait_xs_lo m ρ K c 7 35 trivial _ rfl _ _ _) $$ [Hcxs7 HO Haxs7]
  · isplitr; · iexact Hrec
    isplitr; · iexact Hlev
    isplitl [Hcxs7]; · iexact Hcxs7
    isplitl [HO]; · iexact HO
    iexact Haxs7
  iintro ⟨HO, Haxs7, HobL7⟩
  sl_exec
  iapply (wait_xr_lo m ρ K c 7 35 (by decide) _ rfl _ _ _) $$ [Hcxr7 HO Haxr7]
  · isplitr; · iexact Hrec
    isplitr; · iexact Hlev
    isplitl [Hcxr7]; · iexact Hcxr7
    isplitl [HO]; · iexact HO
    iexact Haxr7
  iintro ⟨HO, Haxr7, Hox7⟩
  sl_exec
  iapply (wait_zs_lo m ρ K c 3 35 trivial _ rfl _ _ _) $$ [Hczs3 HO Hazs3]
  · isplitr; · iexact Hrec
    isplitr; · iexact Hlev
    isplitl [Hczs3]; · iexact Hczs3
    isplitl [HO]; · iexact HO
    iexact Hazs3
  iintro ⟨HO, Hazs3, HobR3⟩
  sl_exec
  iapply (wait_zr_lo m ρ K c 3 35 (by decide) _ rfl _ _ _) $$ [Hczr3 HO Hazr3]
  · isplitr; · iexact Hrec
    isplitr; · iexact Hlev
    isplitl [Hczr3]; · iexact Hczr3
    isplitl [HO]; · iexact HO
    iexact Hazr3
  iintro ⟨HO, Hazr3, Hoz3⟩
  -- the forwards' waits: the diagonal device's quarter arrives
  sl_exec
  iapply (wait_zs_hi m ρ K c 0 35 trivial _ rfl _ _ _) $$ [Hczs8 HO Hazs8]
  · isplitr; · iexact Hrec
    isplitr; · iexact Hlev
    isplitl [Hczs8]; · iexact Hczs8
    isplitl [HO]; · iexact HO
    iexact Hazs8
  iintro ⟨HO, Hazs8, Hox0⟩
  sl_exec
  iapply (wait_zr_hi m ρ K c 0 35 rfl _ rfl _ _ _) $$ [Hczr8 HO Hazr8]
  · isplitr; · iexact Hrec
    isplitr; · iexact Hlev
    isplitl [Hczr8]; · iexact Hczr8
    isplitl [HO]; · iexact HO
    iexact Hazr8
  iintro ⟨HO, Hazr8, Hodl0⟩
  sl_exec
  iapply (wait_xs_hi m ρ K c 0 35 trivial _ rfl _ _ _) $$ [Hcxs8 HO Haxs8]
  · isplitr; · iexact Hrec
    isplitr; · iexact Hlev
    isplitl [Hcxs8]; · iexact Hcxs8
    isplitl [HO]; · iexact HO
    iexact Haxs8
  iintro ⟨HO, Haxs8, Hoz4⟩
  sl_exec
  iapply (wait_xr_hi m ρ K c 0 35 rfl _ rfl _ _ _) $$ [Hcxr8 HO Haxr8]
  · isplitr; · iexact Hrec
    isplitr; · iexact Hlev
    isplitl [Hcxr8]; · iexact Hcxr8
    isplitl [HO]; · iexact HO
    iexact Haxr8
  iintro ⟨HO, Haxr8, Hodh0⟩
  sl_exec
  iapply (wait_zs_hi m ρ K c 1 35 trivial _ rfl _ _ _) $$ [Hczs9 HO Hazs9]
  · isplitr; · iexact Hrec
    isplitr; · iexact Hlev
    isplitl [Hczs9]; · iexact Hczs9
    isplitl [HO]; · iexact HO
    iexact Hazs9
  iintro ⟨HO, Hazs9, Hox1⟩
  sl_exec
  iapply (wait_zr_hi m ρ K c 1 35 rfl _ rfl _ _ _) $$ [Hczr9 HO Hazr9]
  · isplitr; · iexact Hrec
    isplitr; · iexact Hlev
    isplitl [Hczr9]; · iexact Hczr9
    isplitl [HO]; · iexact HO
    iexact Hazr9
  iintro ⟨HO, Hazr9, Hodl1⟩
  sl_exec
  iapply (wait_xs_hi m ρ K c 1 35 trivial _ rfl _ _ _) $$ [Hcxs9 HO Haxs9]
  · isplitr; · iexact Hrec
    isplitr; · iexact Hlev
    isplitl [Hcxs9]; · iexact Hcxs9
    isplitl [HO]; · iexact HO
    iexact Haxs9
  iintro ⟨HO, Haxs9, Hoz5⟩
  sl_exec
  iapply (wait_xr_hi m ρ K c 1 35 rfl _ rfl _ _ _) $$ [Hcxr9 HO Haxr9]
  · isplitr; · iexact Hrec
    isplitr; · iexact Hlev
    isplitl [Hcxr9]; · iexact Hcxr9
    isplitl [HO]; · iexact HO
    iexact Haxr9
  iintro ⟨HO, Haxr9, Hodh1⟩
  sl_exec
  iapply (wait_zs_hi m ρ K c 2 35 trivial _ rfl _ _ _) $$ [Hczs10 HO Hazs10]
  · isplitr; · iexact Hrec
    isplitr; · iexact Hlev
    isplitl [Hczs10]; · iexact Hczs10
    isplitl [HO]; · iexact HO
    iexact Hazs10
  iintro ⟨HO, Hazs10, Hox2⟩
  sl_exec
  iapply (wait_zr_hi m ρ K c 2 35 rfl _ rfl _ _ _) $$ [Hczr10 HO Hazr10]
  · isplitr; · iexact Hrec
    isplitr; · iexact Hlev
    isplitl [Hczr10]; · iexact Hczr10
    isplitl [HO]; · iexact HO
    iexact Hazr10
  iintro ⟨HO, Hazr10, Hodl2⟩
  sl_exec
  iapply (wait_xs_hi m ρ K c 2 35 trivial _ rfl _ _ _) $$ [Hcxs10 HO Haxs10]
  · isplitr; · iexact Hrec
    isplitr; · iexact Hlev
    isplitl [Hcxs10]; · iexact Hcxs10
    isplitl [HO]; · iexact HO
    iexact Haxs10
  iintro ⟨HO, Haxs10, Hoz6⟩
  sl_exec
  iapply (wait_xr_hi m ρ K c 2 35 rfl _ rfl _ _ _) $$ [Hcxr10 HO Haxr10]
  · isplitr; · iexact Hrec
    isplitr; · iexact Hlev
    isplitl [Hcxr10]; · iexact Hcxr10
    isplitl [HO]; · iexact HO
    iexact Haxr10
  iintro ⟨HO, Haxr10, Hodh2⟩
  sl_exec
  iapply (wait_zs_hi m ρ K c 3 35 trivial _ rfl _ _ _) $$ [Hczs11 HO Hazs11]
  · isplitr; · iexact Hrec
    isplitr; · iexact Hlev
    isplitl [Hczs11]; · iexact Hczs11
    isplitl [HO]; · iexact HO
    iexact Hazs11
  iintro ⟨HO, Hazs11, Hox3⟩
  sl_exec
  iapply (wait_zr_hi m ρ K c 3 35 rfl _ rfl _ _ _) $$ [Hczr11 HO Hazr11]
  · isplitr; · iexact Hrec
    isplitr; · iexact Hlev
    isplitl [Hczr11]; · iexact Hczr11
    isplitl [HO]; · iexact HO
    iexact Hazr11
  iintro ⟨HO, Hazr11, Hodl3⟩
  sl_exec
  iapply (wait_xs_hi m ρ K c 3 35 trivial _ rfl _ _ _) $$ [Hcxs11 HO Haxs11]
  · isplitr; · iexact Hrec
    isplitr; · iexact Hlev
    isplitl [Hcxs11]; · iexact Hcxs11
    isplitl [HO]; · iexact HO
    iexact Haxs11
  iintro ⟨HO, Haxs11, Hoz7⟩
  sl_exec
  iapply (wait_xr_hi m ρ K c 3 35 rfl _ rfl _ _ _) $$ [Hcxr11 HO Haxr11]
  · isplitr; · iexact Hrec
    isplitr; · iexact Hlev
    isplitl [Hcxr11]; · iexact Hcxr11
    isplitl [HO]; · iexact HO
    iexact Haxr11
  iintro ⟨HO, Haxr11, Hodh3⟩
  -- the return: the cells close, the blocks join into the buffers
  sl_exec
  rw [wp_ret]
  imod (body_finish m ρ K c _) $$ [Hays0 Hays1 Hays2 Hays3 Hays4 Hays5 Hays6 Hays7 Hayr0 Hayr1 Hayr2 Hayr3 Hayr4 Hayr5 Hayr6 Hayr7 Haxs0 Haxs1 Haxs2 Haxs3 Haxs4 Haxs5 Haxs6 Haxs7 Haxs8 Haxs9 Haxs10 Haxs11 Haxr0 Haxr1 Haxr2 Haxr3 Haxr4 Haxr5 Haxr6 Haxr7 Haxr8 Haxr9 Haxr10 Haxr11 Hazs0 Hazs1 Hazs2 Hazs3 Hazs4 Hazs5 Hazs6 Hazs7 Hazs8 Hazs9 Hazs10 Hazs11 Hazr0 Hazr1 Hazr2 Hazr3 Hazr4 Hazr5 Hazr6 Hazr7 Hazr8 Hazr9 Hazr10 Hazr11 HO Hxb0 Hxb1 Hxb2 Hxb3 Hxb4 Hxb5 Hxb6 Hxb7 HxR Hyb0 Hyb1 Hyb2 Hyb3 Hyb4 Hyb5 Hyb6 Hyb7 HobL0 HobR0 HobL1 HobR1 HobL2 HobR2 HobL3 HobR3 HobL4 HobR4 HobL5 HobR5 HobL6 HobR6 HobL7 HobR7 Hox0 Hox1 Hox2 Hox3 Hox4 Hox5 Hox6 Hox7 Hoz0 Hoz1 Hoz2 Hoz3 Hoz4 Hoz5 Hoz6 Hoz7 Hodl0 Hodl1 Hodl2 Hodl3 Hodh0 Hodh1 Hodh2 Hodh3] with Hpost
  · unfold bodyEndState each
    simp only [bigSep_fin8, bigSep_fin12]
    isplitr; · iexact Hrec
    isplitl [Hays0 Hays1 Hays2 Hays3 Hays4 Hays5 Hays6 Hays7 Hayr0 Hayr1 Hayr2 Hayr3 Hayr4 Hayr5 Hayr6 Hayr7 Haxs0 Haxs1 Haxs2 Haxs3 Haxs4 Haxs5 Haxs6 Haxs7 Haxs8 Haxs9 Haxs10 Haxs11 Haxr0 Haxr1 Haxr2 Haxr3 Haxr4 Haxr5 Haxr6 Haxr7 Haxr8 Haxr9 Haxr10 Haxr11 Hazs0 Hazs1 Hazs2 Hazs3 Hazs4 Hazs5 Hazs6 Hazs7 Hazs8 Hazs9 Hazs10 Hazs11 Hazr0 Hazr1 Hazr2 Hazr3 Hazr4 Hazr5 Hazr6 Hazr7 Hazr8 Hazr9 Hazr10 Hazr11]
    · isplitl [Hays0 Hays1 Hays2 Hays3 Hays4 Hays5 Hays6 Hays7]
      · isplitl [Hays0]; · iexact Hays0
        isplitl [Hays1]; · iexact Hays1
        isplitl [Hays2]; · iexact Hays2
        isplitl [Hays3]; · iexact Hays3
        isplitl [Hays4]; · iexact Hays4
        isplitl [Hays5]; · iexact Hays5
        isplitl [Hays6]; · iexact Hays6
        iexact Hays7
      isplitl [Hayr0 Hayr1 Hayr2 Hayr3 Hayr4 Hayr5 Hayr6 Hayr7]
      · isplitl [Hayr0]; · iexact Hayr0
        isplitl [Hayr1]; · iexact Hayr1
        isplitl [Hayr2]; · iexact Hayr2
        isplitl [Hayr3]; · iexact Hayr3
        isplitl [Hayr4]; · iexact Hayr4
        isplitl [Hayr5]; · iexact Hayr5
        isplitl [Hayr6]; · iexact Hayr6
        iexact Hayr7
      isplitl [Haxs0 Haxs1 Haxs2 Haxs3 Haxs4 Haxs5 Haxs6 Haxs7 Haxs8 Haxs9 Haxs10 Haxs11]
      · isplitl [Haxs0]; · iexact Haxs0
        isplitl [Haxs1]; · iexact Haxs1
        isplitl [Haxs2]; · iexact Haxs2
        isplitl [Haxs3]; · iexact Haxs3
        isplitl [Haxs4]; · iexact Haxs4
        isplitl [Haxs5]; · iexact Haxs5
        isplitl [Haxs6]; · iexact Haxs6
        isplitl [Haxs7]; · iexact Haxs7
        isplitl [Haxs8]; · iexact Haxs8
        isplitl [Haxs9]; · iexact Haxs9
        isplitl [Haxs10]; · iexact Haxs10
        iexact Haxs11
      isplitl [Haxr0 Haxr1 Haxr2 Haxr3 Haxr4 Haxr5 Haxr6 Haxr7 Haxr8 Haxr9 Haxr10 Haxr11]
      · isplitl [Haxr0]; · iexact Haxr0
        isplitl [Haxr1]; · iexact Haxr1
        isplitl [Haxr2]; · iexact Haxr2
        isplitl [Haxr3]; · iexact Haxr3
        isplitl [Haxr4]; · iexact Haxr4
        isplitl [Haxr5]; · iexact Haxr5
        isplitl [Haxr6]; · iexact Haxr6
        isplitl [Haxr7]; · iexact Haxr7
        isplitl [Haxr8]; · iexact Haxr8
        isplitl [Haxr9]; · iexact Haxr9
        isplitl [Haxr10]; · iexact Haxr10
        iexact Haxr11
      isplitl [Hazs0 Hazs1 Hazs2 Hazs3 Hazs4 Hazs5 Hazs6 Hazs7 Hazs8 Hazs9 Hazs10 Hazs11]
      · isplitl [Hazs0]; · iexact Hazs0
        isplitl [Hazs1]; · iexact Hazs1
        isplitl [Hazs2]; · iexact Hazs2
        isplitl [Hazs3]; · iexact Hazs3
        isplitl [Hazs4]; · iexact Hazs4
        isplitl [Hazs5]; · iexact Hazs5
        isplitl [Hazs6]; · iexact Hazs6
        isplitl [Hazs7]; · iexact Hazs7
        isplitl [Hazs8]; · iexact Hazs8
        isplitl [Hazs9]; · iexact Hazs9
        isplitl [Hazs10]; · iexact Hazs10
        iexact Hazs11
      isplitl [Hazr0]; · iexact Hazr0
      isplitl [Hazr1]; · iexact Hazr1
      isplitl [Hazr2]; · iexact Hazr2
      isplitl [Hazr3]; · iexact Hazr3
      isplitl [Hazr4]; · iexact Hazr4
      isplitl [Hazr5]; · iexact Hazr5
      isplitl [Hazr6]; · iexact Hazr6
      isplitl [Hazr7]; · iexact Hazr7
      isplitl [Hazr8]; · iexact Hazr8
      isplitl [Hazr9]; · iexact Hazr9
      isplitl [Hazr10]; · iexact Hazr10
      iexact Hazr11
    isplitl [HO]; · iexact HO
    isplitl [Hxb0 Hxb1 Hxb2 Hxb3 Hxb4 Hxb5 Hxb6 Hxb7]
    · isplitl [Hxb0]; · iexact Hxb0
      isplitl [Hxb1]; · iexact Hxb1
      isplitl [Hxb2]; · iexact Hxb2
      isplitl [Hxb3]; · iexact Hxb3
      isplitl [Hxb4]; · iexact Hxb4
      isplitl [Hxb5]; · iexact Hxb5
      isplitl [Hxb6]; · iexact Hxb6
      iexact Hxb7
    isplitl [HxR]; · iexact HxR
    isplitl [Hyb0 Hyb1 Hyb2 Hyb3 Hyb4 Hyb5 Hyb6 Hyb7]
    · isplitl [Hyb0]; · iexact Hyb0
      isplitl [Hyb1]; · iexact Hyb1
      isplitl [Hyb2]; · iexact Hyb2
      isplitl [Hyb3]; · iexact Hyb3
      isplitl [Hyb4]; · iexact Hyb4
      isplitl [Hyb5]; · iexact Hyb5
      isplitl [Hyb6]; · iexact Hyb6
      iexact Hyb7
    isplitl [HobL0 HobR0 HobL1 HobR1 HobL2 HobR2 HobL3 HobR3 HobL4 HobR4 HobL5 HobR5 HobL6 HobR6 HobL7 HobR7]
    · isplitl [HobL0 HobR0]
      · isplitl [HobL0]; · iexact HobL0
        iexact HobR0
      isplitl [HobL1 HobR1]
      · isplitl [HobL1]; · iexact HobL1
        iexact HobR1
      isplitl [HobL2 HobR2]
      · isplitl [HobL2]; · iexact HobL2
        iexact HobR2
      isplitl [HobL3 HobR3]
      · isplitl [HobL3]; · iexact HobL3
        iexact HobR3
      isplitl [HobL4 HobR4]
      · isplitl [HobL4]; · iexact HobL4
        iexact HobR4
      isplitl [HobL5 HobR5]
      · isplitl [HobL5]; · iexact HobL5
        iexact HobR5
      isplitl [HobL6 HobR6]
      · isplitl [HobL6]; · iexact HobL6
        iexact HobR6
      isplitl [HobL7]; · iexact HobL7
      iexact HobR7
    isplitl [Hox0 Hox1 Hox2 Hox3 Hox4 Hox5 Hox6 Hox7]
    · isplitl [Hox0]; · iexact Hox0
      isplitl [Hox1]; · iexact Hox1
      isplitl [Hox2]; · iexact Hox2
      isplitl [Hox3]; · iexact Hox3
      isplitl [Hox4]; · iexact Hox4
      isplitl [Hox5]; · iexact Hox5
      isplitl [Hox6]; · iexact Hox6
      iexact Hox7
    isplitl [Hoz0 Hoz1 Hoz2 Hoz3 Hoz4 Hoz5 Hoz6 Hoz7]
    · isplitl [Hoz0]; · iexact Hoz0
      isplitl [Hoz1]; · iexact Hoz1
      isplitl [Hoz2]; · iexact Hoz2
      isplitl [Hoz3]; · iexact Hoz3
      isplitl [Hoz4]; · iexact Hoz4
      isplitl [Hoz5]; · iexact Hoz5
      isplitl [Hoz6]; · iexact Hoz6
      iexact Hoz7
    isplitl [Hodl0 Hodl1 Hodl2 Hodl3]
    · isplitl [Hodl0]; · iexact Hodl0
      isplitl [Hodl1]; · iexact Hodl1
      isplitl [Hodl2]; · iexact Hodl2
      iexact Hodl3
    isplitl [Hodh0]; · iexact Hodh0
    isplitl [Hodh1]; · iexact Hodh1
    isplitl [Hodh2]; · iexact Hodh2
    iexact Hodh3
  imodintro
  iapply Hk
  iexact Hpost

end Cert.Kernel.AR
end
-- ==== Proof.ArKernel.Launch.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Tables
import proofs.«900700_g7700000000000701_dist_ar_v7x_xyz2x2x2_y_m1024_n512_f32_1_alg».proof.Proof.ArKernel.Owes
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Sums over a device's cells, array by array -/

omit [FloatOps F] in
/-- A separating conjunction over a + b indices is the one over the first a and the one over the last b. -/
theorem bigSep_fin_add {a b : ℕ} (Ψ : Fin (a + b) → sProp 𝕄) :
    bigSep Finset.univ Ψ = iprop((bigSep Finset.univ fun i : Fin a => Ψ (Fin.castAdd b i)) ∗ bigSep Finset.univ fun i : Fin b => Ψ (Fin.natAdd a i)) := by
  rw [bigSep_univ_equiv (finSumFinEquiv (m := a) (n := b)) Ψ, bigSep_univ_sum]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem osem_val (i : Fin 64) (q : DmaSem sig) (h : q.val = i.val + 2) : osem i = SemLoc.dma q :=
  congrArg SemLoc.dma (Fin.ext h.symm)

omit [FloatOps F] in
/-- The 64 scratch DMA cells in pool order are the six arrays' cells in turn. -/
theorem each_osem (c : Dev nD) (Φ : GSem nD τ sig → sProp 𝕄) :
    (bigSep Finset.univ fun i : Fin 64 => Φ ((c : Thread nD τ), osem i)) = each c Φ := by
  have e1 := bigSep_fin_add (F := F) (a := 8) (b := 56) (fun i : Fin 64 => Φ ((c : Thread nD τ), osem i))
  have e2 := bigSep_fin_add (F := F) (a := 8) (b := 48) (fun i : Fin 56 => Φ ((c : Thread nD τ), osem (Fin.natAdd 8 i)))
  have e3 := bigSep_fin_add (F := F) (a := 12) (b := 36) (fun i : Fin 48 => Φ ((c : Thread nD τ), osem (Fin.natAdd 8 (Fin.natAdd 8 i))))
  have e4 := bigSep_fin_add (F := F) (a := 12) (b := 24) (fun i : Fin 36 => Φ ((c : Thread nD τ), osem (Fin.natAdd 8 (Fin.natAdd 8 (Fin.natAdd 12 i)))))
  have e5 := bigSep_fin_add (F := F) (a := 12) (b := 12) (fun i : Fin 24 => Φ ((c : Thread nD τ), osem (Fin.natAdd 8 (Fin.natAdd 8 (Fin.natAdd 12 (Fin.natAdd 12 i))))))
  refine e1.trans ?_
  unfold each
  refine congrArg₂ _ (bigSep_congr fun k _ => ?_) (e2.trans (congrArg₂ _ (bigSep_congr fun k _ => ?_) (e3.trans (congrArg₂ _ (bigSep_congr fun k _ => ?_)
    (e4.trans (congrArg₂ _ (bigSep_congr fun k _ => ?_) (e5.trans (congrArg₂ _ (bigSep_congr fun k _ => ?_) (bigSep_congr fun k _ => ?_)))))))))
  · exact congrArg (fun s => Φ ((c : Thread nD τ), s)) (osem_val _ (ysS k) (by show 2 + k.val = k.val + 2; omega))
  · exact congrArg (fun s => Φ ((c : Thread nD τ), s)) (osem_val _ (yrS k) (by show 10 + k.val = 8 + k.val + 2; omega))
  · exact congrArg (fun s => Φ ((c : Thread nD τ), s)) (osem_val _ (xsS k) (by show 18 + k.val = 8 + (8 + k.val) + 2; omega))
  · exact congrArg (fun s => Φ ((c : Thread nD τ), s)) (osem_val _ (xrS k) (by show 30 + k.val = 8 + (8 + (12 + k.val)) + 2; omega))
  · exact congrArg (fun s => Φ ((c : Thread nD τ), s)) (osem_val _ (zsS k) (by show 42 + k.val = 8 + (8 + (12 + (12 + k.val))) + 2; omega))
  · exact congrArg (fun s => Φ ((c : Thread nD τ), s)) (osem_val _ (zrS k) (by show 54 + k.val = 8 + (8 + (12 + (12 + (12 + k.val)))) + 2; omega))

theorem csem_succ (i : Fin 64) : csem (Fin.natAdd 1 i) = osem i := by
  unfold csem osem
  rw [dif_neg (by show ¬ (1 + i.val = 0); omega)]
  exact congrArg SemLoc.dma (Fin.ext (by show 1 + i.val + 1 = i.val + 2; omega))

omit [FloatOps F] in
/-- A device's 65 cells are its barrier cell and its 64 scratch DMA cells. -/
theorem cells_eq (c : Dev nD) (Φ : GSem nD τ sig → sProp 𝕄) :
    (bigSep Finset.univ fun i : Fin 65 => Φ (kcell (c, i))) = iprop(Φ (barCell c) ∗ each c Φ) := by
  rw [bigSep_fin_add (F := F) (a := 1) (b := 64) (fun i : Fin 65 => Φ (kcell (c, i))), bigSep_univ_of_subsingleton (0 : Fin 1), ← each_osem]
  refine congrArg₂ _ rfl (bigSep_congr fun i _ => ?_)
  show Φ ((c : Thread nD τ), csem (Fin.natAdd 1 i)) = _
  rw [csem_succ]

/-! ## The launch element -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h
    have h3 : k.val + 1 = k'.val + 1 := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

theorem osem_injective : Function.Injective osem := by
  intro i i' h
  have h3 : i.val + 2 = i'.val + 2 := congrArg Fin.val (SemLoc.dma.inj h)
  exact Fin.ext (by omega)

/-- A device's own cells' duty tokens as minted: the barrier cell's three, each scratch DMA cell's one. -/
abbrev tokOf (cj : Dev nD × (Fin 3 ⊕ Fin 64)) : GSem nD τ sig × ℕ × Fin 3 := match cj.2 with
  | .inl j => (barCell cj.1, 0, j)
  | .inr i => (((cj.1 : Thread nD τ), osem i), 0, 0)
theorem tokOf_injective : Function.Injective (tokOf : Dev nD × (Fin 3 ⊕ Fin 64) → GSem nD τ sig × ℕ × Fin 3) := by
  rintro ⟨c, j⟩ ⟨c', j'⟩ h
  have h1 : c = c' := by
    have := congrArg (fun x : GSem nD τ sig × ℕ × Fin 3 => x.1.1.1) h
    rcases j with j | j <;> rcases j' with j' | j' <;> exact this
  subst h1
  have : j = j' := by
    rcases j with j | j <;> rcases j' with j' | j'
    · exact congrArg Sum.inl (congrArg (fun x : GSem nD τ sig × ℕ × Fin 3 => x.2.2) h)
    · exact absurd (congrArg (fun x : GSem nD τ sig × ℕ × Fin 3 => x.1.2) h) (fun h' : SemLoc.reg barS = osem j' => by unfold osem at h'; cases h')
    · exact absurd (congrArg (fun x : GSem nD τ sig × ℕ × Fin 3 => x.1.2) h) (fun h' : osem j = SemLoc.reg barS => by unfold osem at h'; cases h')
    · exact congrArg Sum.inr (osem_injective (congrArg (fun x : GSem nD τ sig × ℕ × Fin 3 => x.1.2) h))
  subst this; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ each c fun g => dutyTok ER g 0 (0 : Fin 3))

/-- What the launch element deals device c. -/
def G (c : Dev nD) : sProp 𝕄 :=
  iprop((bigSep Finset.univ fun k : Fin 65 => roundState ER (Rd m ρ) (kcell (c, k)) 0)
    ∗ (bigSep Finset.univ fun k : Fin 65 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_fin3, ← each_osem]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  unfold Pipeline.ownSems0
  rw [unscopedSems0_eq, cells_eq (F := F) c (fun g => semVal g 0), ← each_osem]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device c: its positions, and the tokens of the duties it pays. -/
def linear (c : Dev nD) : sProp 𝕄 :=
  iprop((bigSep Finset.univ fun k : Fin 65 => atPos ER (kcell (c, k)) 0 (∅ : Finset (Fin 3)) 0) ∗ payToks c)

theorem ghost_intro (K : Dev nD × Fin 65 → ℕ) (c : Dev nD) : iprop(records m ρ K ∗ linear c) ⊢ G' m ρ c := by
  unfold linear G' ghost positions
  rw [cells_eq (F := F) c (fun g => atPos ER g 0 (∅ : Finset (Fin 3)) 0)]
  iintro ⟨HR, HP, HT⟩
  iexists K
  isplitl [HR]; · iexact HR
  isplitl [HP]; · iexact HP
  iexact HT

omit [FloatOps F] in
/-- The tokens dealt around the mesh: a barrier cell's three tokens to the three neighbours, a receive cell's token to
    the neighbour that sends to it; a send cell's token stays. -/
theorem toks_around : (bigSep Finset.univ fun c : Dev nD => (toks c : sProp 𝕄)) ⊢ bigSep Finset.univ fun c : Dev nD => payToks c := by
  unfold toks payToks each
  simp only [bigSep_sep']
  rw [bigSep_univ_equiv ySwap (fun c : Dev nD => (dutyTok ER (barCell c) 0 (0 : Fin 3) : sProp 𝕄)),
    bigSep_univ_equiv xSwap (fun c : Dev nD => (dutyTok ER (barCell c) 0 (1 : Fin 3) : sProp 𝕄)),
    bigSep_univ_equiv zSwap (fun c : Dev nD => (dutyTok ER (barCell c) 0 (2 : Fin 3) : sProp 𝕄)),
    bigSep_univ_equiv ySwap (fun c : Dev nD => (bigSep Finset.univ fun k : Fin 8 => dutyTok ER (dCell c (yrS k)) 0 (0 : Fin 3) : sProp 𝕄)),
    bigSep_univ_equiv xSwap (fun c : Dev nD => (bigSep Finset.univ fun k : Fin 12 => dutyTok ER (dCell c (xrS k)) 0 (0 : Fin 3) : sProp 𝕄)),
    bigSep_univ_equiv zSwap (fun c : Dev nD => (bigSep Finset.univ fun k : Fin 12 => dutyTok ER (dCell c (zrS k)) 0 (0 : Fin 3) : sProp 𝕄))]
  iintro ⟨⟨H0, H1, H2⟩, Hys, Hyr, Hxs, Hxr, Hzs, Hzr⟩
  isplitl [H0]; · iexact H0
  isplitl [H1]; · iexact H1
  isplitl [H2]; · iexact H2
  isplitl [Hys]; · iexact Hys
  isplitl [Hyr]; · iexact Hyr
  isplitl [Hxs]; · iexact Hxs
  isplitl [Hxr]; · iexact Hxr
  isplitl [Hzs]; · iexact Hzs
  iexact Hzr

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 65 => iprop(∃ κ : ℕ, cellInv ER (Rd m ρ) κ (kcell ck))),
    bigSep_congr (s := Finset.univ) (fun (c : Dev nD) _ => bigSep_sep' Finset.univ (fun k : Fin 65 => (atPos ER (kcell (c, k)) 0 (∅ : Finset (Fin 3)) 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 65 => (atPos ER (kcell (c, k)) 0 (∅ : Finset (Fin 3)) 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d : Dev nD => owed d 0) c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq,
    show (Pipeline.ownSems0 (Ix := Unit) (Name := ℕ) (U := UU) (Lvl := ℕ) (Val := Elt F) (τ := τ) osem c : sProp 𝕄) = each c (fun g => semVal g 0) from
      each_osem (F := F) c (fun g => semVal g 0)]
  unfold Φ₁
  iintro ⟨Hr, Hz⟩
  isplitr; · iempintro
  isplitl [Hz]; · iexact Hz
  iexists (Yb m ρ c); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From the body obligation of every device: every weakly fair execution of @main terminates, and every final state has
    each window's array at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d : Dev nD => owed d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block, the whole array, is what the body left in the staging buffer. -/
theorem finalA_o (c : Dev nD) : finalA m ρ c (1 : Fin 2) = Out m ρ c := by
  have h : (win0_1.blk (0 : Fin 1)).view.read (Elt F) (finalA m ρ c (1 : Fin 2)) = Out m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  rw [← h]
  exact (Memref.read_access_unit_zero (Elt F) main_v1 (by decide) _ (finalA m ρ c (1 : Fin 2))).symm

/-! ## The launch: from the body obligation of every device to the run of the program -/

/-- At the compiled mesh of eight devices, for any float values, from any memory with zero counters: every weakly fair
    execution of @main terminates, and every final state has each device's result array at `Out` and its block of `x`
    unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Out m ρ c
      ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩) (run_main m ρ hbody)

/-- info: 'Cert.Kernel.AR.run_values' depends on axioms: [propext, Classical.choice, Quot.sound] -/
#guard_msgs in #print axioms run_values

end Cert.Kernel.AR
end
-- ==== Proof.ArKernel.Oblig.lean ====
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.Kernel.Skeleton
import proofs.«900700_g7700000000000701_dist_ar_v7x_xyz2x2x2_y_m1024_n512_f32_1_alg».proof.Proof.Gen.Kernel.Launch
import proofs.«900700_g7700000000000701_dist_ar_v7x_xyz2x2x2_y_m1024_n512_f32_1_alg».proof.Proof.Gen.Kernel.Points
import proofs.«900700_g7700000000000701_dist_ar_v7x_xyz2x2x2_y_m1024_n512_f32_1_alg».proof.Proof.ArKernel.Proto
import proofs.«900700_g7700000000000701_dist_ar_v7x_xyz2x2x2_y_m1024_n512_f32_1_alg».proof.Proof.ArKernel.Ghost
import proofs.«900700_g7700000000000701_dist_ar_v7x_xyz2x2x2_y_m1024_n512_f32_1_alg».proof.Proof.ArKernel.Body
import proofs.«900700_g7700000000000701_dist_ar_v7x_xyz2x2x2_y_m1024_n512_f32_1_alg».proof.Proof.ArKernel.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, and the run -/

omit [FloatOps F] in
/-- A whole buffer owned at the full share is its points-to at contents equal to the given ones. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6) (fun _ => bodyPost m ρ c)
  unfold bodyPre' Φ₀ start ghost
  iintro ⟨⟨⟨⟨%K, Hg⟩, Hcr, Hlev⟩, Hscr⟩, Ho, Hx, Hout⟩
  iapply (sound_body m ρ K c fun _ => bodyPost m ρ c)
  unfold bodyPre
  isplitr []
  · isplitl [Hg]; · iexact Hg
    isplitl [Hcr]; · iexact Hcr
    isplitl [Hlev]; · iexact Hlev
    isplitl [Hscr]; · iexact Hscr
    isplitl [Ho]; · iexact Ho
    isplitl [Hx] <;> iassumption
  · iintro H; iexact H

/-- At the compiled mesh of eight devices, for any float values, from any memory with zero counters: every weakly fair
    execution of @main terminates, and every final state has each device's result array at the row-wise sum over its
    y-pair and its block of the input unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Out m ρ c
      ∧ r.2.mem ((c.tc : Thread nD τ).loc main_arg0) = m ((c.tc : Thread nD τ).loc main_arg0)) :=
  run_values m ρ (body_obligation m ρ)

/-- info: 'Cert.Kernel.AR.run' depends on axioms: [propext, Classical.choice, Quot.sound] -/
#guard_msgs in #print axioms run

end Cert.Kernel.AR
end
-- ==== Proof.lean ====
/- The certificate's claim: the eight-device all-reduce over y written with remote copies, against the one-device sum of the two
   halves of x. Each device's kernel runs its protocol to the end whatever the interleaving (the launch theorem over the body obligation
   of every device: ArKernel*/Oblig.lean), leaves its block of x as it was, and leaves in its result array, row by row, the sum of the two
   blocks of x held by the device that reduces the row's quarter and by that device's y-neighbour; over the extended reals that sum is the
   reference's (Final.lean). Nothing was rewritten by the ideal pass, so there is nothing to preserve. -/
import proofs.«900700_g7700000000000701_dist_ar_v7x_xyz2x2x2_y_m1024_n512_f32_1_alg».proof.Defs
import proofs.«900700_g7700000000000701_dist_ar_v7x_xyz2x2x2_y_m1024_n512_f32_1_alg».proof.Proof.Gen.Kernel
import proofs.«900700_g7700000000000701_dist_ar_v7x_xyz2x2x2_y_m1024_n512_f32_1_alg».proof.Proof.Gen.KernelIdeal
import proofs.«900700_g7700000000000701_dist_ar_v7x_xyz2x2x2_y_m1024_n512_f32_1_alg».proof.Proof.Gen.ReferenceIdeal
import proofs.«900700_g7700000000000701_dist_ar_v7x_xyz2x2x2_y_m1024_n512_f32_1_alg».proof.Proof.Gen.Pre_finite_inputs_Kernel
import proofs.«900700_g7700000000000701_dist_ar_v7x_xyz2x2x2_y_m1024_n512_f32_1_alg».proof.Proof.Gen.Pre_finite_inputs_ReferenceIdeal
import proofs.«900700_g7700000000000701_dist_ar_v7x_xyz2x2x2_y_m1024_n512_f32_1_alg».proof.Proof.Final
import proofs.«900700_g7700000000000701_dist_ar_v7x_xyz2x2x2_y_m1024_n512_f32_1_alg».proof.Proof.ArKernelIdeal.Oblig
import proofs.«900700_g7700000000000701_dist_ar_v7x_xyz2x2x2_y_m1024_n512_f32_1_alg».proof.Proof.ArKernel.Oblig
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Final.frame_K_of _ (fun m ρ => Cert.Kernel.AR.run (F := Bits) m ρ),
  Cert.Final.frame_KI_of (fun m ρ => Cert.KernelIdeal.AR.run (F := Ideal) m ρ),
  Cert.Final.frame_ref,
  trivial,
  Cert.Final.algebraic_of (fun m ρ => Cert.KernelIdeal.AR.run (F := Ideal) m ρ)⟩

end Cert.Proof

end
